-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v23)) (v5 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v23) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v122) = v4 c
          ∧ r.2.mem ((c.tc : Thread Cert.ReferenceIdeal.nD Cert.ReferenceIdeal.τ).loc Cert.ReferenceIdeal.main_v62) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S2x320000 : Shape := ⟨2, ![2, 320000]⟩
abbrev S320000x32 : Shape := ⟨2, ![320000, 32]⟩
abbrev S10000x3 : Shape := ⟨2, ![10000, 3]⟩
abbrev S161x128 : Shape := ⟨2, ![161, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S2x1 : Shape := ⟨2, ![2, 1]⟩
abbrev S99x128 : Shape := ⟨2, ![99, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S32x8 : Shape := ⟨2, ![32, 8]⟩
abbrev S8x64 : Shape := ⟨2, ![8, 64]⟩
abbrev S8x32 : Shape := ⟨2, ![8, 32]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S320000x32 : S_.BroadcastsInDim S320000x32 (![] : Fin 0 → Fin S320000x32.rank)
  reducesTo_S320000x32_S_d0_1 : S320000x32.ReducesTo [0, 1] S_
  bcast_S_S10000x3 : S_.BroadcastsInDim S10000x3 (![] : Fin 0 → Fin S10000x3.rank)
  reducesTo_S10000x3_S_d0_1 : S10000x3.ReducesTo [0, 1] S_
  bcast_S_S161x128 : S_.BroadcastsInDim S161x128 (![] : Fin 0 → Fin S161x128.rank)
  reducesTo_S161x128_S_d0_1 : S161x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S2x1 : S_.BroadcastsInDim S2x1 (![] : Fin 0 → Fin S2x1.rank)
  reducesTo_S2x1_S_d0_1 : S2x1.ReducesTo [0, 1] S_
  bcast_S_S99x128 : S_.BroadcastsInDim S99x128 (![] : Fin 0 → Fin S99x128.rank)
  reducesTo_S99x128_S_d0_1 : S99x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S32x8 : S_.BroadcastsInDim S32x8 (![] : Fin 0 → Fin S32x8.rank)
  reducesTo_S32x8_S_d0_1 : S32x8.ReducesTo [0, 1] S_
  bcast_S_S8x64 : S_.BroadcastsInDim S8x64 (![] : Fin 0 → Fin S8x64.rank)
  reducesTo_S8x64_S_d0_1 : S8x64.ReducesTo [0, 1] S_
  bcast_S_S8x32 : S_.BroadcastsInDim S8x32 (![] : Fin 0 → Fin S8x32.rank)
  reducesTo_S8x32_S_d0_1 : S8x32.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part6 {F : FTy → Type} [FloatOps F] (main_arg1 : IVec S2x320000 32) (main_arg22 : FVec F S32 .f32) (main_v98 : IVec S_ 1) (main_v101 : IVec S8x32 1) (main_c_39 : IVec S_ 1) : IVec S_ 1 :=
  let main_v102 : IVec S_ 1 := (fun x v => Host.reduce IntOp.andi x v reducesTo_S8x32_S_d0_1 h_S_) main_v101 main_c_39
  let main_v103 : IVec S_ 1 := andi main_v98 main_v102
  let main_v104 : FVec F S32 .f32 := Host.absf main_arg22
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_c_42 : IVec S_ 32 := constantI S_ 32 4294957296#32
  let main_v109 : IVec S2x320000 32 := broadcastInDim S2x320000 ![] bcast_S_S2x320000 main_c_42
  let main_v110 : IVec S2x320000 1 := cmpi .sge main_arg1 main_v109
  let main_c_43 : IVec S_ 32 := constantI S_ 32 10000#32
  let main_v111 : IVec S2x320000 32 := broadcastInDim S2x320000 ![] bcast_S_S2x320000 main_c_43
  let main_v112 : IVec S2x320000 1 := cmpi .slt main_arg1 main_v111
  let main_v113 : IVec S2x320000 1 := andi main_v110 main_v112
  let main_c_44 : IVec S_ 1 := constantI S_ 1 1#1
  let main_v114 : IVec S_ 1 := (fun x v => Host.reduce IntOp.andi x v reducesTo_S2x320000_S_d0_1 h_S_) main_v113 main_c_44
  let main_v115 : IVec S_ 1 := andi main_v108 main_v114
  main_v115

def fn_part5 {F : FTy → Type} [FloatOps F] (main_arg1 : IVec S2x320000 32) (main_arg19 : FVec F S8x64 .f32) (main_arg20 : FVec F S64 .f32) (main_arg21 : FVec F S8x32 .f32) (main_arg22 : FVec F S32 .f32) (main_v83 : IVec S_ 1) (main_v84 : FVec F S8 .f32) (main_cst_32 : FVec F S_ .f32) : IVec S_ 1 :=
  let main_v85 : FVec F S8 .f32 := broadcastInDim S8 ![] bcast_S_S8 main_cst_32
  let main_v86 : IVec S8 1 := cmpf .olt main_v84 main_v85
  let main_c_33 : IVec S_ 1 := constantI S_ 1 1#1
  let main_v87 : IVec S_ 1 := (fun x v => Host.reduce IntOp.andi x v reducesTo_S8_S_d0 h_S_) main_v86 main_c_33
  let main_v88 : IVec S_ 1 := andi main_v83 main_v87
  let main_v89 : FVec F S8x64 .f32 := Host.absf main_arg19
  let main_cst_34 : FVec F S_ .f32 := constant S_ .f32 0x7F800000#32
  let main_v90 : FVec F S8x64 .f32 := broadcastInDim S8x64 ![] bcast_S_S8x64 main_cst_34
  let main_v91 : IVec S8x64 1 := cmpf .olt main_v89 main_v90
  let main_c_35 : IVec S_ 1 := constantI S_ 1 1#1
  let main_v92 : IVec S_ 1 := (fun x v => Host.reduce IntOp.andi x v reducesTo_S8x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S8x32 .f32 := Host.absf main_arg21
  let main_cst_38 : FVec F S_ .f32 := constant S_ .f32 0x7F800000#32
  let main_v100 : FVec F S8x32 .f32 := broadcastInDim S8x32 ![] bcast_S_S8x32 main_cst_38
  let main_v101 : IVec S8x32 1 := cmpf .olt main_v99 main_v100
  let main_c_39 : IVec S_ 1 := constantI S_ 1 1#1
  fn_part6 (F := F) main_arg1 main_arg22 main_v98 main_v101 main_c_39

def fn_part4 {F : FTy → Type} [FloatOps F] (main_arg1 : IVec S2x320000 32) (main_arg15 : FVec F S64x8 .f32) (main_arg16 : FVec F S8 .f32) (main_arg17 : FVec F S32x8 .f32) (main_arg18 : FVec F S8 .f32) (main_arg19 : FVec F S8x64 .f32) (main_arg20 : FVec F S64 .f32) (main_arg21 : FVec F S8x32 .f32) (main_arg22 : FVec F S32 .f32) (main_v63 : IVec S_ 1) (main_v67 : IVec S_ 1) : IVec S_ 1 :=
  let main_v68 : IVec S_ 1 := andi main_v63 main_v67
  let main_v69 : FVec F S64x8 .f32 := Host.absf main_arg15
  let main_cst_26 : FVec F S_ .f32 := constant S_ .f32 0x7F800000#32
  let main_v70 : FVec F S64x8 .f32 := broadcastInDim S64x8 ![] bcast_S_S64x8 main_cst_26
  let main_v71 : IVec S64x8 1 := cmpf .olt main_v69 main_v70
  let main_c_27 : IVec S_ 1 := constantI S_ 1 1#1
  let main_v72 : IVec S_ 1 := (fun x v => Host.reduce IntOp.andi x v reducesTo_S64x8_S_d0_1 h_S_) main_v71 main_c_27
  let main_v73 : IVec S_ 1 := andi main_v68 main_v72
  let main_v74 : FVec F S8 .f32 := Host.absf main_arg16
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  let main_v79 : FVec F S32x8 .f32 := Host.absf main_arg17
  let main_cst_30 : FVec F S_ .f32 := constant S_ .f32 0x7F800000#32
  let main_v80 : FVec F S32x8 .f32 := broadcastInDim S32x8 ![] bcast_S_S32x8 main_cst_30
  let main_v81 : IVec S32x8 1 := cmpf .olt main_v79 main_v80
  let main_c_31 : IVec S_ 1 := constantI S_ 1 1#1
  let main_v82 : IVec S_ 1 := (fun x v => Host.reduce IntOp.andi x v reducesTo_S32x8_S_d0_1 h_S_) main_v81 main_c_31
  let main_v83 : IVec S_ 1 := andi main_v78 main_v82
  let main_v84 : FVec F S8 .f32 := Host.absf main_arg18
  let main_cst_32 : FVec F S_ .f32 := constant S_ .f32 0x7F800000#32
  fn_part5 (F := F) main_arg1 main_arg19 main_arg20 main_arg21 main_arg22 main_v83 main_v84 main_cst_32

def fn_part3 {F : FTy → Type} [FloatOps F] (main_arg1 : IVec S2x320000 32) (main_arg12 : FVec F S128 .f32) (main_arg13 : FVec F S128x64 .f32) (main_arg14 : FVec F S64 .f32) (main_arg15 : FVec F S64x8 .f32) (main_arg16 : FVec F S8 .f32) (main_arg17 : FVec F S32x8 .f32) (main_arg18 : FVec F S8 .f32) (main_arg19 : FVec F S8x64 .f32) (main_arg20 : FVec F S64 .f32) (main_arg21 : FVec F S8x32 .f32) (main_arg22 : FVec F S32 .f32) (main_v48 : IVec S_ 1) (main_v49 : FVec F S99x128 .f32) (main_v50 : FVec F S99x128 .f32) : IVec S_ 1 :=
  let main_v51 : IVec S99x128 1 := cmpf .olt main_v49 main_v50
  let main_c_19 : IVec S_ 1 := constantI S_ 1 1#1
  let main_v52 : IVec S_ 1 := (fun x v => Host.reduce IntOp.andi x v reducesTo_S99x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg15 main_arg16 main_arg17 main_arg18 main_arg19 main_arg20 main_arg21 main_arg22 main_v63 main_v67

def fn_part2 {F : FTy → Type} [FloatOps F] (main_arg1 : IVec S2x320000 32) (main_arg8 : FVec F S32x2 .f32) (main_arg9 : FVec F S2 .f32) (main_arg10 : FVec F S2x1 .f32) (main_arg11 : FVec F S99x128 .f32) (main_arg12 : FVec F S128 .f32) (main_arg13 : FVec F S128x64 .f32) (main_arg14 : FVec F S64 .f32) (main_arg15 : FVec F S64x8 .f32) (main_arg16 : FVec F S8 .f32) (main_arg17 : FVec F S32x8 .f32) (main_arg18 : FVec F S8 .f32) (main_arg19 : FVec F S8x64 .f32) (main_arg20 : FVec F S64 .f32) (main_arg21 : FVec F S8x32 .f32) (main_arg22 : FVec F S32 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2x1 .f32 := Host.absf main_arg10
  let main_cst_16 : FVec F S_ .f32 := constant S_ .f32 0x7F800000#32
  let main_v45 : FVec F S2x1 .f32 := broadcastInDim S2x1 ![] bcast_S_S2x1 main_cst_16
  let main_v46 : IVec S2x1 1 := cmpf .olt main_v44 main_v45
  let main_c_17 : IVec S_ 1 := constantI S_ 1 1#1
  let main_v47 : IVec S_ 1 := (fun x v => Host.reduce IntOp.andi x v reducesTo_S2x1_S_d0_1 h_S_) main_v46 main_c_17
  let main_v48 : IVec S_ 1 := andi main_v43 main_v47
  let main_v49 : FVec F S99x128 .f32 := Host.absf main_arg11
  let main_cst_18 : FVec F S_ .f32 := constant S_ .f32 0x7F800000#32
  let main_v50 : FVec F S99x128 .f32 := broadcastInDim S99x128 ![] bcast_S_S99x128 main_cst_18
  fn_part3 (F := F) main_arg1 main_arg12 main_arg13 main_arg14 main_arg15 main_arg16 main_arg17 main_arg18 main_arg19 main_arg20 main_arg21 main_arg22 main_v48 main_v49 main_v50

def fn_part1 {F : FTy → Type} [FloatOps F] (main_arg1 : IVec S2x320000 32) (main_arg5 : FVec F S128 .f32) (main_arg6 : FVec F S128x32 .f32) (main_arg7 : FVec F S32 .f32) (main_arg8 : FVec F S32x2 .f32) (main_arg9 : FVec F S2 .f32) (main_arg10 : FVec F S2x1 .f32) (main_arg11 : FVec F S99x128 .f32) (main_arg12 : FVec F S128 .f32) (main_arg13 : FVec F S128x64 .f32) (main_arg14 : FVec F S64 .f32) (main_arg15 : FVec F S64x8 .f32) (main_arg16 : FVec F S8 .f32) (main_arg17 : FVec F S32x8 .f32) (main_arg18 : FVec F S8 .f32) (main_arg19 : FVec F S8x64 .f32) (main_arg20 : FVec F S64 .f32) (main_arg21 : FVec F S8x32 .f32) (main_arg22 : FVec F S32 .f32) (main_v13 : IVec S_ 1) (main_v16 : IVec S161x128 1) : IVec S_ 1 :=
  let main_c_5 : IVec S_ 1 := constantI S_ 1 1#1
  let main_v17 : IVec S_ 1 := (fun x v => Host.reduce IntOp.andi x v reducesTo_S161x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg6
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S10000x64 .f32) (main_arg1 : IVec S2x320000 32) (main_arg2 : FVec F S320000x32 .f32) (main_arg3 : FVec F S10000x3 .f32) (main_arg4 : FVec F S161x128 .f32) (main_arg5 : FVec F S128 .f32) (main_arg6 : FVec F S128x32 .f32) (main_arg7 : FVec F S32 .f32) (main_arg8 : FVec F S32x2 .f32) (main_arg9 : FVec F S2 .f32) (main_arg10 : FVec F S2x1 .f32) (main_arg11 : FVec F S99x128 .f32) (main_arg12 : FVec F S128 .f32) (main_arg13 : FVec F S128x64 .f32) (main_arg14 : FVec F S64 .f32) (main_arg15 : FVec F S64x8 .f32) (main_arg16 : FVec F S8 .f32) (main_arg17 : FVec F S32x8 .f32) (main_arg18 : FVec F S8 .f32) (main_arg19 : FVec F S8x64 .f32) (main_arg20 : FVec F S64 .f32) (main_arg21 : FVec F S8x32 .f32) (main_arg22 : FVec F S32 .f32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S320000x32 .f32 := Host.absf main_arg2
  let main_cst_0 : FVec F S_ .f32 := constant S_ .f32 0x7F800000#32
  let main_v5 : FVec F S320000x32 .f32 := broadcastInDim S320000x32 ![] bcast_S_S320000x32 main_cst_0
  let main_v6 : IVec S320000x32 1 := cmpf .olt main_v4 main_v5
  let main_c_1 : IVec S_ 1 := constantI S_ 1 1#1
  let main_v7 : IVec S_ 1 := (fun x v => Host.reduce IntOp.andi x v reducesTo_S320000x32_S_d0_1 h_S_) main_v6 main_c_1
  let main_v8 : IVec S_ 1 := andi main_v3 main_v7
  let main_v9 : FVec F S10000x3 .f32 := Host.absf main_arg3
  let main_cst_2 : FVec F S_ .f32 := constant S_ .f32 0x7F800000#32
  let main_v10 : FVec F S10000x3 .f32 := broadcastInDim S10000x3 ![] bcast_S_S10000x3 main_cst_2
  let main_v11 : IVec S10000x3 1 := cmpf .olt main_v9 main_v10
  let main_c_3 : IVec S_ 1 := constantI S_ 1 1#1
  let main_v12 : IVec S_ 1 := (fun x v => Host.reduce IntOp.andi x v reducesTo_S10000x3_S_d0_1 h_S_) main_v11 main_c_3
  let main_v13 : IVec S_ 1 := andi main_v8 main_v12
  let main_v14 : FVec F S161x128 .f32 := Host.absf main_arg4
  let main_cst_4 : FVec F S_ .f32 := constant S_ .f32 0x7F800000#32
  let main_v15 : FVec F S161x128 .f32 := broadcastInDim S161x128 ![] bcast_S_S161x128 main_cst_4
  let main_v16 : IVec S161x128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S10000x64 : Shape := ⟨2, ![10000, 64]⟩
abbrev S2x320000 : Shape := ⟨2, ![2, 320000]⟩
abbrev S320000x32 : Shape := ⟨2, ![320000, 32]⟩
abbrev S10000x3 : Shape := ⟨2, ![10000, 3]⟩
abbrev S161x128 : Shape := ⟨2, ![161, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S2x1 : Shape := ⟨2, ![2, 1]⟩
abbrev S99x128 : Shape := ⟨2, ![99, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S32x8 : Shape := ⟨2, ![32, 8]⟩
abbrev S8x64 : Shape := ⟨2, ![8, 64]⟩
abbrev S8x32 : Shape := ⟨2, ![8, 32]⟩
abbrev S1x320000 : Shape := ⟨2, ![1, 320000]⟩
abbrev S320000 : Shape := ⟨1, ![320000]⟩
abbrev S10000x67 : Shape := ⟨2, ![10000, 67]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x67 : Shape := ⟨2, ![320000, 67]⟩
abbrev S320000x75 : Shape := ⟨2, ![320000, 75]⟩
abbrev S4000x67 : Shape := ⟨2, ![4000, 67]⟩
abbrev S4000x32 : Shape := ⟨2, ![4000, 32]⟩
abbrev S4000x75 : Shape := ⟨2, ![4000, 75]⟩
abbrev S4000x64 : Shape := ⟨2, ![4000, 64]⟩
abbrev S4000x3 : Shape := ⟨2, ![4000, 3]⟩
abbrev S4000 : Shape := ⟨1, ![4000]⟩
abbrev S4000x1 : Shape := ⟨2, ![4000, 1]⟩
abbrev S4000x161 : Shape := ⟨2, ![4000, 161]⟩
abbrev S4000x128 : Shape := ⟨2, ![4000, 128]⟩
abbrev S1x128 : Shape := ⟨2, ![1, 128]⟩
abbrev S1x32 : Shape := ⟨2, ![1, 32]⟩
abbrev S4000x2 : Shape := ⟨2, ![4000, 2]⟩
abbrev S1x2 : Shape := ⟨2, ![1, 2]⟩
abbrev S4000x8 : Shape := ⟨2, ![4000, 8]⟩
abbrev S1x8 : Shape := ⟨2, ![1, 8]⟩
abbrev S320000x3 : Shape := ⟨2, ![320000, 3]⟩
abbrev S320000x8 : Shape := ⟨2, ![320000, 8]⟩
abbrev S10000x32 : Shape := ⟨2, ![10000, 32]⟩
abbrev S10000x99 : Shape := ⟨2, ![10000, 99]⟩
abbrev S10000x72 : Shape := ⟨2, ![10000, 72]⟩
abbrev S2000x99 : Shape := ⟨2, ![2000, 99]⟩
abbrev S2000x72 : Shape := ⟨2, ![2000, 72]⟩
abbrev S2000x128 : Shape := ⟨2, ![2000, 128]⟩
abbrev S2000x64 : Shape := ⟨2, ![2000, 64]⟩
abbrev S1x64 : Shape := ⟨2, ![1, 64]⟩
abbrev S2000x8 : Shape := ⟨2, ![2000, 8]⟩
abbrev S10000x8 : Shape := ⟨2, ![10000, 8]⟩
abbrev S10000x10000 : Shape := ⟨2, ![10000, 10000]⟩
abbrev S200x8 : Shape := ⟨2, ![200, 8]⟩
abbrev S200x10000 : Shape := ⟨2, ![200, 10000]⟩
abbrev S200 : Shape := ⟨1, ![200]⟩
abbrev S200x1 : Shape := ⟨2, ![200, 1]⟩
abbrev S10000 : Shape := ⟨1, ![10000]⟩
abbrev S1x10000 : Shape := ⟨2, ![1, 10000]⟩
abbrev S8x10000 : Shape := ⟨2, ![8, 10000]⟩

abbrev nBuf : Space → Nat
  | .hbm => 93
  | .vmem => 36
  | .smem => 0
  | _ => 0

abbrev bufTy : (tb : Table) → Fin (tcTables nBuf tb) → BufTy
  | .hbm, ⟨0, _⟩ => ⟨S10000x64, .f32⟩
  | .hbm, ⟨1, _⟩ => ⟨S2x320000, .i32⟩
  | .hbm, ⟨2, _⟩ => ⟨S320000x32, .f32⟩
  | .hbm, ⟨3, _⟩ => ⟨S10000x3, .f32⟩
  | .hbm, ⟨4, _⟩ => ⟨S161x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S2x1, .f32⟩
  | .hbm, ⟨11, _⟩ => ⟨S99x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x8, .f32⟩
  | .hbm, ⟨16, _⟩ => ⟨S8, .f32⟩
  | .hbm, ⟨17, _⟩ => ⟨S32x8, .f32⟩
  | .hbm, ⟨18, _⟩ => ⟨S8, .f32⟩
  | .hbm, ⟨19, _⟩ => ⟨S8x64, .f32⟩
  | .hbm, ⟨20, _⟩ => ⟨S64, .f32⟩
  | .hbm, ⟨21, _⟩ => ⟨S8x32, .f32⟩
  | .hbm, ⟨22, _⟩ => ⟨S32, .f32⟩
  | .hbm, ⟨23, _⟩ => ⟨S1x320000, .i32⟩
  | .hbm, ⟨24, _⟩ => ⟨S320000, .i32⟩
  | .hbm, ⟨25, _⟩ => ⟨S1x320000, .i32⟩
  | .hbm, ⟨26, _⟩ => ⟨S320000, .i32⟩
  | .hbm, ⟨27, _⟩ => ⟨S10000x67, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S1, .i32⟩
  | .hbm, ⟨37, _⟩ => ⟨S_, .i32⟩
  | .hbm, ⟨38, _⟩ => ⟨S320000x1, .i32⟩
  | .hbm, ⟨39, _⟩ => ⟨S320000x1, .i1⟩
  | .hbm, ⟨40, _⟩ => ⟨S1x1, .i32⟩
  | .hbm, ⟨41, _⟩ => ⟨S320000x1, .i32⟩
  | .hbm, ⟨42, _⟩ => ⟨S320000x1, .i1⟩
  | .hbm, ⟨43, _⟩ => ⟨S320000x1, .i1⟩
  | .hbm, ⟨44, _⟩ => ⟨S_, .i1⟩
  | .hbm, ⟨45, _⟩ => ⟨S320000, .i1⟩
  | .hbm, ⟨46, _⟩ => ⟨S320000x67, .f32⟩
  | .hbm, ⟨47, _⟩ => ⟨S320000x67, .i1⟩
  | .hbm, ⟨48, _⟩ => ⟨S_, .f32⟩
  | .hbm, ⟨49, _⟩ => ⟨S320000x67, .f32⟩
  | .hbm, ⟨50, _⟩ => ⟨S320000x67, .f32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S1, .i32⟩
  | .hbm, ⟨60, _⟩ => ⟨S_, .i32⟩
  | .hbm, ⟨61, _⟩ => ⟨S320000x1, .i32⟩
  | .hbm, ⟨62, _⟩ => ⟨S320000x1, .i1⟩
  | .hbm, ⟨63, _⟩ => ⟨S1x1, .i32⟩
  | .hbm, ⟨64, _⟩ => ⟨S320000x1, .i32⟩
  | .hbm, ⟨65, _⟩ => ⟨S320000x1, .i1⟩
  | .hbm, ⟨66, _⟩ => ⟨S320000x1, .i1⟩
  | .hbm, ⟨67, _⟩ => ⟨S_, .i1⟩
  | .hbm, ⟨68, _⟩ => ⟨S320000, .i1⟩
  | .hbm, ⟨69, _⟩ => ⟨S320000x67, .f32⟩
  | .hbm, ⟨70, _⟩ => ⟨S320000x67, .i1⟩
  | .hbm, ⟨71, _⟩ => ⟨S_, .f32⟩
  | .hbm, ⟨72, _⟩ => ⟨S320000x67, .f32⟩
  | .hbm, ⟨73, _⟩ => ⟨S320000x67, .f32⟩
  | .hbm, ⟨74, _⟩ => ⟨S320000x75, .f32⟩
  | .hbm, ⟨75, _⟩ => ⟨S320000x32, .f32⟩
  | .hbm, ⟨76, _⟩ => ⟨S320000x3, .f32⟩
  | .hbm, ⟨77, _⟩ => ⟨S320000x8, .f32⟩
  | .hbm, ⟨78, _⟩ => ⟨S320000x32, .f32⟩
  | .hbm, ⟨79, _⟩ => ⟨S_, .f32⟩
  | .hbm, ⟨80, _⟩ => ⟨S10000x32, .f32⟩
  | .hbm, ⟨81, _⟩ => ⟨S320000x1, .i32⟩
  | .hbm, ⟨82, _⟩ => ⟨S10000x32, .f32⟩
  | .hbm, ⟨83, _⟩ => ⟨S_, .f32⟩
  | .hbm, ⟨84, _⟩ => ⟨S10000x3, .f32⟩
  | .hbm, ⟨85, _⟩ => ⟨S320000x1, .i32⟩
  | .hbm, ⟨86, _⟩ => ⟨S10000x3, .f32⟩
  | .hbm, ⟨87, _⟩ => ⟨S10000x3, .f32⟩
  | .hbm, ⟨88, _⟩ => ⟨S10000x99, .f32⟩
  | .hbm, ⟨89, _⟩ => ⟨S10000x72, .f32⟩
  | .hbm, ⟨90, _⟩ => ⟨S10000x8, .f32⟩
  | .hbm, ⟨91, _⟩ => ⟨S10000x64, .f32⟩
  | .hbm, ⟨92, _⟩ => ⟨S10000x10000, .f32⟩
  | .local _ .vmem, ⟨0, _⟩ => ⟨S4000x67, .f32⟩
  | .local _ .vmem, ⟨1, _⟩ => ⟨S4000x67, .f32⟩
  | .local _ .vmem, ⟨2, _⟩ => ⟨S4000x67, .f32⟩
  | .local _ .vmem, ⟨3, _⟩ => ⟨S4000x67, .f32⟩
  | .local _ .vmem, ⟨4, _⟩ => ⟨S4000x32, .f32⟩
  | .local _ .vmem, ⟨5, _⟩ => ⟨S4000x32, .f32⟩
  | .local _ .vmem, ⟨6, _⟩ => ⟨S161x128, .f32⟩
  | .local _ .vmem, ⟨7, _⟩ => ⟨S128, .f32⟩
  | .local _ .vmem, ⟨8, _⟩ => ⟨S128x32, .f32⟩
  | .local _ .vmem, ⟨9, _⟩ => ⟨S32, .f32⟩
  | .local _ .vmem, ⟨10, _⟩ => ⟨S32x2, .f32⟩
  | .local _ .vmem, ⟨11, _⟩ => ⟨S2, .f32⟩
  | .local _ .vmem, ⟨12, _⟩ => ⟨S2x1, .f32⟩
  | .local _ .vmem, ⟨13, _⟩ => ⟨S32x8, .f32⟩
  | .local _ .vmem, ⟨14, _⟩ => ⟨S8, .f32⟩
  | .local _ .vmem, ⟨15, _⟩ => ⟨S8x32, .f32⟩
  | .local _ .vmem, ⟨16, _⟩ => ⟨S32, .f32⟩
  | .local _ .vmem, ⟨17, _⟩ => ⟨S4000x75, .f32⟩
  | .local _ .vmem, ⟨18, _⟩ => ⟨S4000x75, .f32⟩
  | .local _ .vmem, ⟨19, _⟩ => ⟨S2000x99, .f32⟩
  | .local _ .vmem, ⟨20, _⟩ => ⟨S2000x99, .f32⟩
  | .local _ .vmem, ⟨21, _⟩ => ⟨S99x128, .f32⟩
  | .local _ .vmem, ⟨22, _⟩ => ⟨S128, .f32⟩
  | .local _ .vmem, ⟨23, _⟩ => ⟨S128x64, .f32⟩
  | .local _ .vmem, ⟨24, _⟩ => ⟨S64, .f32⟩
  | .local _ .vmem, ⟨25, _⟩ => ⟨S64x8, .f32⟩
  | .local _ .vmem, ⟨26, _⟩ => ⟨S8, .f32⟩
  | .local _ .vmem, ⟨27, _⟩ => ⟨S8x64, .f32⟩
  | .local _ .vmem, ⟨28, _⟩ => ⟨S64, .f32⟩
  | .local _ .vmem, ⟨29, _⟩ => ⟨S2000x72, .f32⟩
  | .local _ .vmem, ⟨30, _⟩ => ⟨S2000x72, .f32⟩
  | .local _ .vmem, ⟨31, _⟩ => ⟨S200x8, .f32⟩
  | .local _ .vmem, ⟨32, _⟩ => ⟨S200x8, .f32⟩
  | .local _ .vmem, ⟨33, _⟩ => ⟨S10000x8, .f32⟩
  | .local _ .vmem, ⟨34, _⟩ => ⟨S200x10000, .f32⟩
  | .local _ .vmem, ⟨35, _⟩ => ⟨S200x10000, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v5 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v6 : Ref sig .tc := ⟨.hbm, 73, rfl⟩
abbrev main_v7 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_cst : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_cst_0 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem9_1 : DmaSem sig := 30
abbrev cc2_sem0_0 : DmaSem sig := 31
abbrev cc2_sem0_1 : DmaSem sig := 32
abbrev cc2_sem1_0 : DmaSem sig := 33
abbrev cc2_sem2_0 : DmaSem sig := 34
abbrev cc2_sem2_1 : DmaSem sig := 35

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x67 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x67 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S161x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x75 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x99 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S99x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x72 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S10000x64_S10000x3_S10000x67_d1 : Shape.Concatenates [S10000x64, S10000x3] S10000x67 1
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x67_0 : S320000.BroadcastsInDim S320000x67 (![0] : Fin 1 → Fin S320000x67.rank)
  bcast_S_S320000x67 : S_.BroadcastsInDim S320000x67 (![] : Fin 0 → Fin S320000x67.rank)
  inb_S4000x67_S4000x67_0_0 : ∀ a, (![0, 0] : Fin 2 → Nat) a + S4000x67.size a ≤ S4000x67.size a
  h_S4000x67 : 0 < S4000x67.numel
  shapeCasts_S4000x67_S4000x67 : S4000x67.ShapeCasts S4000x67
  slices_S4000x67_o0_0_S4000x64 : S4000x67.Slices ![0, 0] S4000x64
  slices_S4000x67_o0_64_S4000x3 : S4000x67.Slices ![0, 64] S4000x3
  reduces_S4000x3_S4000 : S4000x3.Reduces [1] S4000
  shapeCasts_S4000_S4000x1 : S4000.ShapeCasts S4000x1
  broadcasts_S4000x1_S4000x3 : S4000x1.Broadcasts S4000x3
  inb_S4000x32_S4000x32_0_0 : ∀ a, (![0, 0] : Fin 2 → Nat) a + S4000x32.size a ≤ S4000x32.size a
  h_S4000x32 : 0 < S4000x32.numel
  concatenates_S4000x64_S4000x64_S4000x32_S4000x1_S4000x161_d1 : Shape.Concatenates [S4000x64, S4000x64, S4000x32, S4000x1] S4000x161 1
  inb_S161x128_S161x128_0_0 : ∀ a, (![0, 0] : Fin 2 → Nat) a + S161x128.size a ≤ S161x128.size a
  h_S161x128 : 0 < S161x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S4000x2 : S1x2.Broadcasts S4000x2
  inb_S2x1_S2x1_0_0 : ∀ a, (![0, 0] : Fin 2 → Nat) a + S2x1.size a ≤ S2x1.size a
  h_S2x1 : 0 < S2x1.numel
  inb_S32x8_S32x8_0_0 : ∀ a, (![0, 0] : Fin 2 → Nat) a + S32x8.size a ≤ S32x8.size a
  h_S32x8 : 0 < S32x8.numel
  inb_S8_S8_0 : ∀ a, (![0] : Fin 1 → Nat) a + S8.size a ≤ S8.size a
  h_S8 : 0 < S8.numel
  shapeCasts_S8_S1x8 : S8.ShapeCasts S1x8
  broadcasts_S1x8_S4000x8 : S1x8.Broadcasts S4000x8
  inb_S8x32_S8x32_0_0 : ∀ a, (![0, 0] : Fin 2 → Nat) a + S8x32.size a ≤ S8x32.size a
  h_S8x32 : 0 < S8x32.numel
  concatenates_S4000x32_S4000x3_S4000x8_S4000x32_S4000x75_d1 : Shape.Concatenates [S4000x32, S4000x3, S4000x8, S4000x32] S4000x75 1
  inb_S4000x75_S4000x75_0_0 : ∀ a, (![0, 0] : Fin 2 → Nat) a + S4000x75.size a ≤ S4000x75.size a
  h_S4000x75 : 0 < S4000x75.numel
  slices_S320000x75_S320000x32_0_0 : S320000x75.Slices ![0, 0] S320000x32
  slices_S320000x75_S320000x3_0_32 : S320000x75.Slices ![0, 32] S320000x3
  slices_S320000x75_S320000x8_0_35 : S320000x75.Slices ![0, 35] S320000x8
  slices_S320000x75_S320000x32_0_43 : S320000x75.Slices ![0, 43] S320000x32
  bcast_S_S10000x32 : S_.BroadcastsInDim S10000x32 (![] : Fin 0 → Fin S10000x32.rank)
  bcast_S_S10000x3 : S_.BroadcastsInDim S10000x3 (![] : Fin 0 → Fin S10000x3.rank)
  concatenates_S10000x64_S10000x32_S10000x3_S10000x99_d1 : Shape.Concatenates [S10000x64, S10000x32, S10000x3] S10000x99 1
  inb_S2000x99_S2000x99_0_0 : ∀ a, (![0, 0] : Fin 2 → Nat) a + S2000x99.size a ≤ S2000x99.size a
  h_S2000x99 : 0 < S2000x99.numel
  shapeCasts_S2000x99_S2000x99 : S2000x99.ShapeCasts S2000x99
  inb_S99x128_S99x128_0_0 : ∀ a, (![0, 0] : Fin 2 → Nat) a + S99x128.size a ≤ S99x128.size a
  h_S99x128 : 0 < S99x128.numel
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x8_S64x8_0_0 : ∀ a, (![0, 0] : Fin 2 → Nat) a + S64x8.size a ≤ S64x8.size a
  h_S64x8 : 0 < S64x8.numel
  broadcasts_S1x8_S2000x8 : S1x8.Broadcasts S2000x8
  inb_S8x64_S8x64_0_0 : ∀ a, (![0, 0] : Fin 2 → Nat) a + S8x64.size a ≤ S8x64.size a
  h_S8x64 : 0 < S8x64.numel
  concatenates_S2000x8_S2000x64_S2000x72_d1 : Shape.Concatenates [S2000x8, S2000x64] S2000x72 1
  inb_S2000x72_S2000x72_0_0 : ∀ a, (![0, 0] : Fin 2 → Nat) a + S2000x72.size a ≤ S2000x72.size a
  h_S2000x72 : 0 < S2000x72.numel
  slices_S10000x72_S10000x8_0_0 : S10000x72.Slices ![0, 0] S10000x8
  slices_S10000x72_S10000x64_0_8 : S10000x72.Slices ![0, 8] S10000x64
  inb_S200x8_S200x8_0_0 : ∀ a, (![0, 0] : Fin 2 → Nat) a + S200x8.size a ≤ S200x8.size a
  h_S200x8 : 0 < S200x8.numel
  shapeCasts_S200x8_S200x8 : S200x8.ShapeCasts S200x8
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  reduces_S200x8_S200 : S200x8.Reduces [1] S200
  shapeCasts_S200_S200x1 : S200.ShapeCasts S200x1
  reduces_S10000x8_S10000 : S10000x8.Reduces [1] S10000
  shapeCasts_S10000_S1x10000 : S10000.ShapeCasts S1x10000
  transposes_S10000x8_p1_0_S8x10000 : S10000x8.Transposes [1, 0] S8x10000
  broadcasts_S200x1_S200x10000 : S200x1.Broadcasts S200x10000
  broadcasts_S1x10000_S200x10000 : S1x10000.Broadcasts S200x10000
  iota_S200x10000_d0_w32 : S200x10000.Iotas .tc 32 [0]
  iota_S200x10000_d1_w32 : S200x10000.Iotas .tc 32 [1]
  inb_S200x10000_S200x10000_0_0 : ∀ a, (![0, 0] : Fin 2 → Nat) a + S200x10000.size a ≤ S200x10000.size a
  h_S200x10000 : 0 < S200x10000.numel
  gather_S10000x67_S320000x1_S320000x67_1_0_n_n_0_1_167_wf : GatherDims.WF S10000x67 S320000x1 S320000x67 [1] [0] [] [0] [] 1 ![1, 67]
  dot_S4000x161_S161x128_S4000x128_1_0_0_1_n_n_wf : DotDims.WF S4000x161 S161x128 S4000x128 [1] [0] [0] [1] [] []
  dot_S4000x128_S128x32_S4000x32_1_0_0_1_n_n_wf : DotDims.WF S4000x128 S128x32 S4000x32 [1] [0] [0] [1] [] []
  dot_S4000x32_S32x2_S4000x2_1_0_0_1_n_n_wf : DotDims.WF S4000x32 S32x2 S4000x2 [1] [0] [0] [1] [] []
  dot_S4000x2_S2x1_S4000x1_1_0_0_1_n_n_wf : DotDims.WF S4000x2 S2x1 S4000x1 [1] [0] [0] [1] [] []
  dot_S4000x32_S32x8_S4000x8_1_0_0_1_n_n_wf : DotDims.WF S4000x32 S32x8 S4000x8 [1] [0] [0] [1] [] []
  dot_S4000x8_S8x32_S4000x32_1_0_0_1_n_n_wf : DotDims.WF S4000x8 S8x32 S4000x32 [1] [0] [0] [1] [] []
  scatter_S10000x32_S320000x1_S320000x32_1_0_0_1_wf : ScatterDims.WF S10000x32 S320000x1 S320000x32 [1] [0] [0] 1
  scatter_S10000x3_S320000x1_S320000x3_1_0_0_1_wf : ScatterDims.WF S10000x3 S320000x1 S320000x3 [1] [0] [0] 1
  dot_S2000x99_S99x128_S2000x128_1_0_0_1_n_n_wf : DotDims.WF S2000x99 S99x128 S2000x128 [1] [0] [0] [1] [] []
  dot_S2000x128_S128x64_S2000x64_1_0_0_1_n_n_wf : DotDims.WF S2000x128 S128x64 S2000x64 [1] [0] [0] [1] [] []
  dot_S2000x64_S64x8_S2000x8_1_0_0_1_n_n_wf : DotDims.WF S2000x64 S64x8 S2000x8 [1] [0] [0] [1] [] []
  dot_S2000x8_S8x64_S2000x64_1_0_0_1_n_n_wf : DotDims.WF S2000x8 S8x64 S2000x64 [1] [0] [0] [1] [] []
  dot_S200x8_S8x10000_S200x10000_1_0_0_1_n_n_wf : DotDims.WF S200x8 S8x10000 S200x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x67.size a ≤ S320000x67.size a
  hwx0_0 : ∀ i : grid0.Coords, EltTy.bits .f32 = 32 ∨ (Rect.block (s := S320000x67) S4000x67.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x67.size a ≤ S320000x67.size a
  hwx0_1 : ∀ i : grid0.Coords, EltTy.bits .f32 = 32 ∨ (Rect.block (s := S320000x67) S4000x67.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S320000x32.size a
  hwx0_2 : ∀ i : grid0.Coords, EltTy.bits .f32 = 32 ∨ (Rect.block (s := S320000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S161x128.size a ≤ S161x128.size a
  hwx0_3 : ∀ i : grid0.Coords, EltTy.bits .f32 = 32 ∨ (Rect.block (s := S161x128) S161x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x2.size a ≤ S32x2.size a
  hwx0_7 : ∀ i : grid0.Coords, EltTy.bits .f32 = 32 ∨ (Rect.block (s := S32x2) S32x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x1.size a ≤ S2x1.size a
  hwx0_9 : ∀ i : grid0.Coords, EltTy.bits .f32 = 32 ∨ (Rect.block (s := S2x1) S2x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x8.size a ≤ S32x8.size a
  hwx0_10 : ∀ i : grid0.Coords, EltTy.bits .f32 = 32 ∨ (Rect.block (s := S32x8) S32x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8.size a ≤ S8.size a
  hwx0_11 : ∀ i : grid0.Coords, EltTy.bits .f32 = 32 ∨ (Rect.block (s := S8) S8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8x32.size a ≤ S8x32.size a
  hwx0_12 : ∀ i : grid0.Coords, EltTy.bits .f32 = 32 ∨ (Rect.block (s := S8x32) S8x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32.size a ≤ S32.size a
  hwx0_13 : ∀ i : grid0.Coords, EltTy.bits .f32 = 32 ∨ (Rect.block (s := S32) S32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x75.size a ≤ S320000x75.size a
  hwx0_14 : ∀ i : grid0.Coords, EltTy.bits .f32 = 32 ∨ (Rect.block (s := S320000x75) S4000x75.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x99.size a ≤ S10000x99.size a
  hwx1_0 : ∀ i : grid1.Coords, EltTy.bits .f32 = 32 ∨ (Rect.block (s := S10000x99) S2000x99.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S99x128.size a ≤ S99x128.size a
  hwx1_1 : ∀ i : grid1.Coords, EltTy.bits .f32 = 32 ∨ (Rect.block (s := S99x128) S99x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x8.size a ≤ S64x8.size a
  hwx1_5 : ∀ i : grid1.Coords, EltTy.bits .f32 = 32 ∨ (Rect.block (s := S64x8) S64x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8.size a ≤ S8.size a
  hwx1_6 : ∀ i : grid1.Coords, EltTy.bits .f32 = 32 ∨ (Rect.block (s := S8) S8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x64.size a ≤ S8x64.size a
  hwx1_7 : ∀ i : grid1.Coords, EltTy.bits .f32 = 32 ∨ (Rect.block (s := S8x64) S8x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x72.size a ≤ S10000x72.size a
  hwx1_9 : ∀ i : grid1.Coords, EltTy.bits .f32 = 32 ∨ (Rect.block (s := S10000x72) S2000x72.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x8.size a ≤ S10000x8.size a
  hwx2_0 : ∀ i : grid2.Coords, EltTy.bits .f32 = 32 ∨ (Rect.block (s := S10000x8) S200x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x8.size a ≤ S10000x8.size a
  hwx2_1 : ∀ i : grid2.Coords, EltTy.bits .f32 = 32 ∨ (Rect.block (s := S10000x8) S10000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x10000.size a ≤ S10000x10000.size a
  hwx2_2 : ∀ i : grid2.Coords, EltTy.bits .f32 = 32 ∨ (Rect.block (s := S10000x10000) S200x10000.size (cc2_transform_2 i) (hinb2_2 i)).WholeWords (EltTy.packing .f32)

variable [Facts₀]

def gather_S10000x67_S320000x1_S320000x67_1_0_n_n_0_1_167 : GatherDims S10000x67 S320000x1 S320000x67 where
  offsetDims := [1]
  collapsedSliceDims := [0]
  operandBatchingDims := []
  startIndicesBatchingDims := []
  startIndexMap := [0]
  indexVectorDim := 1
  sliceSizes := ![1, 67]
  wf := gather_S10000x67_S320000x1_S320000x67_1_0_n_n_0_1_167_wf
def dot_S4000x161_S161x128_S4000x128_1_0_0_1_n_n : DotDims S4000x161 S161x128 S4000x128 where
  lhsContracting := [1]
  rhsContracting := [0]
  lhsNonContracting := [0]
  rhsNonContracting := [1]
  lhsBatch := []
  rhsBatch := []
  wf := dot_S4000x161_S161x128_S4000x128_1_0_0_1_n_n_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def dot_S4000x32_S32x2_S4000x2_1_0_0_1_n_n : DotDims S4000x32 S32x2 S4000x2 where
  lhsContracting := [1]
  rhsContracting := [0]
  lhsNonContracting := [0]
  rhsNonContracting := [1]
  lhsBatch := []
  rhsBatch := []
  wf := dot_S4000x32_S32x2_S4000x2_1_0_0_1_n_n_wf
def dot_S4000x2_S2x1_S4000x1_1_0_0_1_n_n : DotDims S4000x2 S2x1 S4000x1 where
  lhsContracting := [1]
  rhsContracting := [0]
  lhsNonContracting := [0]
  rhsNonContracting := [1]
  lhsBatch := []
  rhsBatch := []
  wf := dot_S4000x2_S2x1_S4000x1_1_0_0_1_n_n_wf
def dot_S4000x32_S32x8_S4000x8_1_0_0_1_n_n : DotDims S4000x32 S32x8 S4000x8 where
  lhsContracting := [1]
  rhsContracting := [0]
  lhsNonContracting := [0]
  rhsNonContracting := [1]
  lhsBatch := []
  rhsBatch := []
  wf := dot_S4000x32_S32x8_S4000x8_1_0_0_1_n_n_wf
def dot_S4000x8_S8x32_S4000x32_1_0_0_1_n_n : DotDims S4000x8 S8x32 S4000x32 where
  lhsContracting := [1]
  rhsContracting := [0]
  lhsNonContracting := [0]
  rhsNonContracting := [1]
  lhsBatch := []
  rhsBatch := []
  wf := dot_S4000x8_S8x32_S4000x32_1_0_0_1_n_n_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def scatter_S10000x3_S320000x1_S320000x3_1_0_0_1 : ScatterDims S10000x3 S320000x1 S320000x3 where
  updateWindowDims := [1]
  insertedWindowDims := [0]
  scatterDimsToOperandDims := [0]
  indexVectorDim := 1
  wf := scatter_S10000x3_S320000x1_S320000x3_1_0_0_1_wf
def dot_S2000x99_S99x128_S2000x128_1_0_0_1_n_n : DotDims S2000x99 S99x128 S2000x128 where
  lhsContracting := [1]
  rhsContracting := [0]
  lhsNonContracting := [0]
  rhsNonContracting := [1]
  lhsBatch := []
  rhsBatch := []
  wf := dot_S2000x99_S99x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x8_S2000x8_1_0_0_1_n_n : DotDims S2000x64 S64x8 S2000x8 where
  lhsContracting := [1]
  rhsContracting := [0]
  lhsNonContracting := [0]
  rhsNonContracting := [1]
  lhsBatch := []
  rhsBatch := []
  wf := dot_S2000x64_S64x8_S2000x8_1_0_0_1_n_n_wf
def dot_S2000x8_S8x64_S2000x64_1_0_0_1_n_n : DotDims S2000x8 S8x64 S2000x64 where
  lhsContracting := [1]
  rhsContracting := [0]
  lhsNonContracting := [0]
  rhsNonContracting := [1]
  lhsBatch := []
  rhsBatch := []
  wf := dot_S2000x8_S8x64_S2000x64_1_0_0_1_n_n_wf
def dot_S200x8_S8x10000_S200x10000_1_0_0_1_n_n : DotDims S200x8 S8x10000 S200x10000 where
  lhsContracting := [1]
  rhsContracting := [0]
  lhsNonContracting := [0]
  rhsNonContracting := [1]
  lhsBatch := []
  rhsBatch := []
  wf := dot_S200x8_S8x10000_S200x10000_1_0_0_1_n_n_wf

abbrev win0_0 : Pipeline.Window sig grid0 :=
  Pipeline.Window.ofSpec (Memref.whole main_v5) S4000x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x67.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S161x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S32x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S2x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S32x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg18) S8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg21) S8x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg22) S32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S4000x75.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v19) S2000x99.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S99x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S64x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg19) S8x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg20) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S2000x72.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v21) S200x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S10000x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S200x10000.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x64 : Shape := ⟨2, ![10000, 64]⟩
abbrev S2x320000 : Shape := ⟨2, ![2, 320000]⟩
abbrev S320000x32 : Shape := ⟨2, ![320000, 32]⟩
abbrev S10000x3 : Shape := ⟨2, ![10000, 3]⟩
abbrev S161x128 : Shape := ⟨2, ![161, 128]⟩
abbrev S128 : Shape := ⟨1, ![128]⟩
abbrev S128x32 : Shape := ⟨2, ![128, 32]⟩
abbrev S32 : Shape := ⟨1, ![32]⟩
abbrev S32x2 : Shape := ⟨2, ![32, 2]⟩
abbrev S2 : Shape := ⟨1, ![2]⟩
abbrev S2x1 : Shape := ⟨2, ![2, 1]⟩
abbrev S99x128 : Shape := ⟨2, ![99, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S32x8 : Shape := ⟨2, ![32, 8]⟩
abbrev S8x64 : Shape := ⟨2, ![8, 64]⟩
abbrev S8x32 : Shape := ⟨2, ![8, 32]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x3 : Shape := ⟨2, ![320000, 3]⟩
abbrev S320000x64 : Shape := ⟨2, ![320000, 64]⟩
abbrev S320000x161 : Shape := ⟨2, ![320000, 161]⟩
abbrev S320000x128 : Shape := ⟨2, ![320000, 128]⟩
abbrev S1x128 : Shape := ⟨2, ![1, 128]⟩
abbrev S1x32 : Shape := ⟨2, ![1, 32]⟩
abbrev S320000x2 : Shape := ⟨2, ![320000, 2]⟩
abbrev S1x2 : Shape := ⟨2, ![1, 2]⟩
abbrev S10000x32 : Shape := ⟨2, ![10000, 32]⟩
abbrev S10000x99 : Shape := ⟨2, ![10000, 99]⟩
abbrev S10000x128 : Shape := ⟨2, ![10000, 128]⟩
abbrev S1x64 : Shape := ⟨2, ![1, 64]⟩
abbrev S10000x8 : Shape := ⟨2, ![10000, 8]⟩
abbrev S1x8 : Shape := ⟨2, ![1, 8]⟩
abbrev S320000x8 : Shape := ⟨2, ![320000, 8]⟩
abbrev S10000 : Shape := ⟨1, ![10000]⟩
abbrev S10000x1 : Shape := ⟨2, ![10000, 1]⟩
abbrev S1x10000 : Shape := ⟨2, ![1, 10000]⟩
abbrev S10000x10000 : Shape := ⟨2, ![10000, 10000]⟩
abbrev S8x10000 : Shape := ⟨2, ![8, 10000]⟩

abbrev nBuf : Space → Nat
  | .hbm => 172
  | .vmem => 0
  | .smem => 0
  | _ => 0

abbrev hbmTy0_0 (i : Nat) : BufTy := match i % 128 with
  | 0 => ⟨S10000x64, .f32⟩
  | 1 => ⟨S2x320000, .i32⟩
  | 2 => ⟨S320000x32, .f32⟩
  | 3 => ⟨S10000x3, .f32⟩
  | 4 => ⟨S161x128, .f32⟩
  | 5 => ⟨S128, .f32⟩
  | 6 => ⟨S128x32, .f32⟩
  | 7 => ⟨S32, .f32⟩
  | 8 => ⟨S32x2, .f32⟩
  | 9 => ⟨S2, .f32⟩
  | 10 => ⟨S2x1, .f32⟩
  | 11 => ⟨S99x128, .f32⟩
  | 12 => ⟨S128, .f32⟩
  | 13 => ⟨S128x64, .f32⟩
  | 14 => ⟨S64, .f32⟩
  | 15 => ⟨S64x8, .f32⟩
  | 16 => ⟨S8, .f32⟩
  | 17 => ⟨S32x8, .f32⟩
  | 18 => ⟨S8, .f32⟩
  | 19 => ⟨S8x64, .f32⟩
  | 20 => ⟨S64, .f32⟩
  | 21 => ⟨S8x32, .f32⟩
  | 22 => ⟨S32, .f32⟩
  | 23 => ⟨S1x320000, .i32⟩
  | 24 => ⟨S320000, .i32⟩
  | 25 => ⟨S1x320000, .i32⟩
  | 26 => ⟨S320000, .i32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x3, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x3, .f32⟩
  | 45 => ⟨S320000x3, .f32⟩
  | 46 => ⟨S320000x3, .f32⟩
  | 47 => ⟨S_, .f32⟩
  | 48 => ⟨S320000, .f32⟩
  | 49 => ⟨S320000x1, .f32⟩
  | 50 => ⟨S320000x1, .f32⟩
  | 51 => ⟨S_, .f32⟩
  | 52 => ⟨S320000x1, .f32⟩
  | 53 => ⟨S320000x1, .f32⟩
  | 54 => ⟨S320000x3, .f32⟩
  | 55 => ⟨S320000x3, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x64, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x64, .f32⟩
  | 74 => ⟨S320000x161, .f32⟩
  | 75 => ⟨S320000x128, .f32⟩
  | 76 => ⟨S1x128, .f32⟩
  | 77 => ⟨S320000x128, .f32⟩
  | 78 => ⟨S320000x128, .f32⟩
  | 79 => ⟨S_, .f32⟩
  | 80 => ⟨S320000x128, .f32⟩
  | 81 => ⟨S320000x128, .f32⟩
  | 82 => ⟨S320000x32, .f32⟩
  | 83 => ⟨S1x32, .f32⟩
  | 84 => ⟨S320000x32, .f32⟩
  | 85 => ⟨S320000x32, .f32⟩
  | 86 => ⟨S320000x2, .f32⟩
  | 87 => ⟨S1x2, .f32⟩
  | 88 => ⟨S320000x2, .f32⟩
  | 89 => ⟨S320000x2, .f32⟩
  | 90 => ⟨S_, .f32⟩
  | 91 => ⟨S320000x2, .f32⟩
  | 92 => ⟨S320000x2, .f32⟩
  | 93 => ⟨S320000x1, .f32⟩
  | 94 => ⟨S320000x3, .f32⟩
  | 95 => ⟨S320000x3, .f32⟩
  | 96 => ⟨S_, .f32⟩
  | 97 => ⟨S10000x3, .f32⟩
  | 98 => ⟨S320000x1, .i32⟩
  | 99 => ⟨S10000x3, .f32⟩
  | 100 => ⟨S10000x3, .f32⟩
  | 101 => ⟨S_, .f32⟩
  | 102 => ⟨S10000x32, .f32⟩
  | 103 => ⟨S320000x1, .i32⟩
  | 104 => ⟨S10000x32, .f32⟩
  | 105 => ⟨S10000x99, .f32⟩
  | 106 => ⟨S10000x128, .f32⟩
  | 107 => ⟨S1x128, .f32⟩
  | 108 => ⟨S10000x128, .f32⟩
  | 109 => ⟨S10000x128, .f32⟩
  | 110 => ⟨S_, .f32⟩
  | 111 => ⟨S10000x128, .f32⟩
  | 112 => ⟨S10000x128, .f32⟩
  | 113 => ⟨S10000x64, .f32⟩
  | 114 => ⟨S1x64, .f32⟩
  | 115 => ⟨S10000x64, .f32⟩
  | 116 => ⟨S10000x64, .f32⟩
  | 117 => ⟨S10000x8, .f32⟩
  | 118 => ⟨S1x8, .f32⟩
  | 119 => ⟨S10000x8, .f32⟩
  | 120 => ⟨S10000x8, .f32⟩
  | 121 => ⟨S320000x8, .f32⟩
  | 122 => ⟨S1x8, .f32⟩
  | 123 => ⟨S320000x8, .f32⟩
  | 124 => ⟨S320000x8, .f32⟩
  | 125 => ⟨S10000x64, .f32⟩
  | 126 => ⟨S1x64, .f32⟩
  | 127 => ⟨S10000x64, .f32⟩
  | _ => ⟨S10000x64, .f32⟩

abbrev hbmTy0_1 (i : Nat) : BufTy := match i % 128 with
  | 0 => ⟨S10000x64, .f32⟩
  | 1 => ⟨S320000x32, .f32⟩
  | 2 => ⟨S1x32, .f32⟩
  | 3 => ⟨S320000x32, .f32⟩
  | 4 => ⟨S320000x32, .f32⟩
  | 5 => ⟨S10000x8, .f32⟩
  | 6 => ⟨S_, .f32⟩
  | 7 => ⟨S10000, .f32⟩
  | 8 => ⟨S10000x1, .f32⟩
  | 9 => ⟨S1x10000, .f32⟩
  | 10 => ⟨S10000x10000, .f32⟩
  | 11 => ⟨S10000x10000, .f32⟩
  | 12 => ⟨S10000x10000, .f32⟩
  | 13 => ⟨S8x10000, .f32⟩
  | 14 => ⟨S10000x10000, .f32⟩
  | 15 => ⟨S_, .f32⟩
  | 16 => ⟨S10000x10000, .f32⟩
  | 17 => ⟨S10000x10000, .f32⟩
  | 18 => ⟨S10000x10000, .f32⟩
  | 19 => ⟨S_, .f32⟩
  | 20 => ⟨S10000x10000, .f32⟩
  | 21 => ⟨S10000x10000, .f32⟩
  | 22 => ⟨S_, .f32⟩
  | 23 => ⟨S10000x10000, .f32⟩
  | 24 => ⟨S10000x10000, .f32⟩
  | 25 => ⟨S10000x10000, .f32⟩
  | 26 => ⟨S10000x10000, .f32⟩
  | 27 => ⟨S_, .f32⟩
  | 28 => ⟨S10000x10000, .f32⟩
  | 29 => ⟨S10000x10000, .f32⟩
  | 30 => ⟨S_, .f32⟩
  | 31 => ⟨S10000x10000, .f32⟩
  | 32 => ⟨S10000x10000, .f32⟩
  | 33 => ⟨S10000x10000, .i32⟩
  | 34 => ⟨S10000x10000, .i32⟩
  | 35 => ⟨S_, .i32⟩
  | 36 => ⟨S10000x10000, .i32⟩
  | 37 => ⟨S10000x10000, .i32⟩
  | 38 => ⟨S10000x10000, .i1⟩
  | 39 => ⟨S10000x10000, .f32⟩
  | 40 => ⟨S_, .f32⟩
  | 41 => ⟨S10000x10000, .f32⟩
  | 42 => ⟨S10000x10000, .f32⟩
  | 43 => ⟨S10000x10000, .f32⟩
  | _ => ⟨S10000x64, .f32⟩

abbrev hbmTy (i : Nat) : BufTy := match i / 128 with
  | 0 => hbmTy0_0 i
  | 1 => hbmTy0_1 i
  | _ => ⟨S10000x64, .f32⟩

abbrev bufTy : (tb : Table) → Fin (tcTables nBuf tb) → BufTy
  | .hbm, ⟨i, _⟩ => hbmTy i
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_c_5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_6 : Ref sig .tc := ⟨.hbm, 65, rfl⟩
abbrev main_v34 : Ref sig .tc := ⟨.hbm, 66, rfl⟩
abbrev main_v35 : Ref sig .tc := ⟨.hbm, 67, rfl⟩
abbrev main_c_7 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call0_cst : Ref sig .tc := ⟨.hbm, 79, rfl⟩
abbrev main_call0_v0 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call1_cst : Ref sig .tc := ⟨.hbm, 90, rfl⟩
abbrev main_call1_v0 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_8 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_9 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_call2_cst : Ref sig .tc := ⟨.hbm, 110, rfl⟩
abbrev main_call2_v0 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_10 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_11 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_12 : Ref sig .tc := ⟨.hbm, 147, rfl⟩
abbrev main_v104 : Ref sig .tc := ⟨.hbm, 148, rfl⟩
abbrev main_v105 : Ref sig .tc := ⟨.hbm, 149, rfl⟩
abbrev main_cst_13 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_14 : Ref sig .tc := ⟨.hbm, 155, rfl⟩
abbrev main_v110 : Ref sig .tc := ⟨.hbm, 156, rfl⟩
abbrev main_v111 : Ref sig .tc := ⟨.hbm, 157, rfl⟩
abbrev main_cst_15 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_c_16 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_17 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  bcast_S_S320000x1 : S_.BroadcastsInDim S320000x1 (![] : Fin 0 → Fin S320000x1.rank)
  bcast_S320000x1_S320000x3_0_1 : S320000x1.BroadcastsInDim S320000x3 (![0, 1] : Fin 2 → Fin S320000x3.rank)
  concatenates_S320000x64_S320000x64_S320000x32_S320000x1_S320000x161_d1 : Shape.Concatenates [S320000x64, S320000x64, S320000x32, S320000x1] S320000x161 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S32_S1x32_1 : S32.BroadcastsInDim S1x32 (![1] : Fin 1 → Fin S1x32.rank)
  bcast_S1x32_S320000x32_0_1 : S1x32.BroadcastsInDim S320000x32 (![0, 1] : Fin 2 → Fin S320000x32.rank)
  bcast_S2_S1x2_1 : S2.BroadcastsInDim S1x2 (![1] : Fin 1 → Fin S1x2.rank)
  bcast_S1x2_S320000x2_0_1 : S1x2.BroadcastsInDim S320000x2 (![0, 1] : Fin 2 → Fin S320000x2.rank)
  bcast_S_S320000x2 : S_.BroadcastsInDim S320000x2 (![] : Fin 0 → Fin S320000x2.rank)
  bcast_S_S10000x3 : S_.BroadcastsInDim S10000x3 (![] : Fin 0 → Fin S10000x3.rank)
  bcast_S_S10000x32 : S_.BroadcastsInDim S10000x32 (![] : Fin 0 → Fin S10000x32.rank)
  concatenates_S10000x64_S10000x32_S10000x3_S10000x99_d1 : Shape.Concatenates [S10000x64, S10000x32, S10000x3] S10000x99 1
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  bcast_S1x8_S320000x8_0_1 : S1x8.BroadcastsInDim S320000x8 (![0, 1] : Fin 2 → Fin S320000x8.rank)
  reducesTo_S10000x8_S10000_d1 : S10000x8.ReducesTo [1] S10000
  bcast_S10000_S10000x1_0 : S10000.BroadcastsInDim S10000x1 (![0] : Fin 1 → Fin S10000x1.rank)
  bcast_S10000_S1x10000_1 : S10000.BroadcastsInDim S1x10000 (![1] : Fin 1 → Fin S1x10000.rank)
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  transposes_S10000x8_S8x10000_1_0 : S10000x8.Transposes [1, 0] S8x10000
  bcast_S_S10000x10000 : S_.BroadcastsInDim S10000x10000 (![] : Fin 0 → Fin S10000x10000.rank)
  gather_S10000x3_S320000x1_S320000x3_1_0_n_n_0_1_13_wf : GatherDims.WF S10000x3 S320000x1 S320000x3 [1] [0] [] [0] [] 1 ![1, 3]
  gather_S10000x64_S320000x1_S320000x64_1_0_n_n_0_1_164_wf : GatherDims.WF S10000x64 S320000x1 S320000x64 [1] [0] [] [0] [] 1 ![1, 64]
  dot_S320000x161_S161x128_S320000x128_1_0_0_1_n_n_wf : DotDims.WF S320000x161 S161x128 S320000x128 [1] [0] [0] [1] [] []
  dot_S320000x128_S128x32_S320000x32_1_0_0_1_n_n_wf : DotDims.WF S320000x128 S128x32 S320000x32 [1] [0] [0] [1] [] []
  dot_S320000x32_S32x2_S320000x2_1_0_0_1_n_n_wf : DotDims.WF S320000x32 S32x2 S320000x2 [1] [0] [0] [1] [] []
  dot_S320000x2_S2x1_S320000x1_1_0_0_1_n_n_wf : DotDims.WF S320000x2 S2x1 S320000x1 [1] [0] [0] [1] [] []
  scatter_S10000x3_S320000x1_S320000x3_1_0_0_1_wf : ScatterDims.WF S10000x3 S320000x1 S320000x3 [1] [0] [0] 1
  scatter_S10000x32_S320000x1_S320000x32_1_0_0_1_wf : ScatterDims.WF S10000x32 S320000x1 S320000x32 [1] [0] [0] 1
  dot_S10000x99_S99x128_S10000x128_1_0_0_1_n_n_wf : DotDims.WF S10000x99 S99x128 S10000x128 [1] [0] [0] [1] [] []
  dot_S10000x128_S128x64_S10000x64_1_0_0_1_n_n_wf : DotDims.WF S10000x128 S128x64 S10000x64 [1] [0] [0] [1] [] []
  dot_S10000x64_S64x8_S10000x8_1_0_0_1_n_n_wf : DotDims.WF S10000x64 S64x8 S10000x8 [1] [0] [0] [1] [] []
  dot_S320000x32_S32x8_S320000x8_1_0_0_1_n_n_wf : DotDims.WF S320000x32 S32x8 S320000x8 [1] [0] [0] [1] [] []
  dot_S10000x8_S8x64_S10000x64_1_0_0_1_n_n_wf : DotDims.WF S10000x8 S8x64 S10000x64 [1] [0] [0] [1] [] []
  dot_S320000x8_S8x32_S320000x32_1_0_0_1_n_n_wf : DotDims.WF S320000x8 S8x32 S320000x32 [1] [0] [0] [1] [] []
  dot_S10000x8_S8x10000_S10000x10000_1_0_0_1_n_n_wf : DotDims.WF S10000x8 S8x10000 S10000x10000 [1] [0] [0] [1] [] []

variable [Facts₀]

def gather_S10000x3_S320000x1_S320000x3_1_0_n_n_0_1_13 : GatherDims S10000x3 S320000x1 S320000x3 where
  offsetDims := [1]
  collapsedSliceDims := [0]
  operandBatchingDims := []
  startIndicesBatchingDims := []
  startIndexMap := [0]
  indexVectorDim := 1
  sliceSizes := ![1, 3]
  wf := gather_S10000x3_S320000x1_S320000x3_1_0_n_n_0_1_13_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def dot_S320000x161_S161x128_S320000x128_1_0_0_1_n_n : DotDims S320000x161 S161x128 S320000x128 where
  lhsContracting := [1]
  rhsContracting := [0]
  lhsNonContracting := [0]
  rhsNonContracting := [1]
  lhsBatch := []
  rhsBatch := []
  wf := dot_S320000x161_S161x128_S320000x128_1_0_0_1_n_n_wf
def dot_S320000x128_S128x32_S320000x32_1_0_0_1_n_n : DotDims S320000x128 S128x32 S320000x32 where
  lhsContracting := [1]
  rhsContracting := [0]
  lhsNonContracting := [0]
  rhsNonContracting := [1]
  lhsBatch := []
  rhsBatch := []
  wf := dot_S320000x128_S128x32_S320000x32_1_0_0_1_n_n_wf
def dot_S320000x32_S32x2_S320000x2_1_0_0_1_n_n : DotDims S320000x32 S32x2 S320000x2 where
  lhsContracting := [1]
  rhsContracting := [0]
  lhsNonContracting := [0]
  rhsNonContracting := [1]
  lhsBatch := []
  rhsBatch := []
  wf := dot_S320000x32_S32x2_S320000x2_1_0_0_1_n_n_wf
def dot_S320000x2_S2x1_S320000x1_1_0_0_1_n_n : DotDims S320000x2 S2x1 S320000x1 where
  lhsContracting := [1]
  rhsContracting := [0]
  lhsNonContracting := [0]
  rhsNonContracting := [1]
  lhsBatch := []
  rhsBatch := []
  wf := dot_S320000x2_S2x1_S320000x1_1_0_0_1_n_n_wf
def scatter_S10000x3_S320000x1_S320000x3_1_0_0_1 : ScatterDims S10000x3 S320000x1 S320000x3 where
  updateWindowDims := [1]
  insertedWindowDims := [0]
  scatterDimsToOperandDims := [0]
  indexVectorDim := 1
  wf := scatter_S10000x3_S320000x1_S320000x3_1_0_0_1_wf
def scatter_S10000x32_S320000x1_S320000x32_1_0_0_1 : ScatterDims S10000x32 S320000x1 S320000x32 where
  updateWindowDims := [1]
  insertedWindowDims := [0]
  scatterDimsToOperandDims := [0]
  indexVectorDim := 1
  wf := scatter_S10000x32_S320000x1_S320000x32_1_0_0_1_wf
def dot_S10000x99_S99x128_S10000x128_1_0_0_1_n_n : DotDims S10000x99 S99x128 S10000x128 where
  lhsContracting := [1]
  rhsContracting := [0]
  lhsNonContracting := [0]
  rhsNonContracting := [1]
  lhsBatch := []
  rhsBatch := []
  wf := dot_S10000x99_S99x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x8_S10000x8_1_0_0_1_n_n : DotDims S10000x64 S64x8 S10000x8 where
  lhsContracting := [1]
  rhsContracting := [0]
  lhsNonContracting := [0]
  rhsNonContracting := [1]
  lhsBatch := []
  rhsBatch := []
  wf := dot_S10000x64_S64x8_S10000x8_1_0_0_1_n_n_wf
def dot_S320000x32_S32x8_S320000x8_1_0_0_1_n_n : DotDims S320000x32 S32x8 S320000x8 where
  lhsContracting := [1]
  rhsContracting := [0]
  lhsNonContracting := [0]
  rhsNonContracting := [1]
  lhsBatch := []
  rhsBatch := []
  wf := dot_S320000x32_S32x8_S320000x8_1_0_0_1_n_n_wf
def dot_S10000x8_S8x64_S10000x64_1_0_0_1_n_n : DotDims S10000x8 S8x64 S10000x64 where
  lhsContracting := [1]
  rhsContracting := [0]
  lhsNonContracting := [0]
  rhsNonContracting := [1]
  lhsBatch := []
  rhsBatch := []
  wf := dot_S10000x8_S8x64_S10000x64_1_0_0_1_n_n_wf
def dot_S320000x8_S8x32_S320000x32_1_0_0_1_n_n : DotDims S320000x8 S8x32 S320000x32 where
  lhsContracting := [1]
  rhsContracting := [0]
  lhsNonContracting := [0]
  rhsNonContracting := [1]
  lhsBatch := []
  rhsBatch := []
  wf := dot_S320000x8_S8x32_S320000x32_1_0_0_1_n_n_wf
def dot_S10000x8_S8x10000_S10000x10000_1_0_0_1_n_n : DotDims S10000x8 S8x10000 S10000x10000 where
  lhsContracting := [1]
  rhsContracting := [0]
  lhsNonContracting := [0]
  rhsNonContracting := [1]
  lhsBatch := []
  rhsBatch := []
  wf := dot_S10000x8_S8x10000_S10000x10000_1_0_0_1_n_n_wf

class Facts : Prop extends Facts₀ where

variable [Facts]
-- ==== Proof.KbPay.lean ====
/-
  The three kernel bodies as pure functions of the blocks they are handed.

  Each body loads every input window's staging buffer whole, computes, and stores one value over its output window's
  whole buffer. The stored value, as a function of the loaded buffers in the order of the windows, is named here
  once for each kernel: the edge kernel's packed slab of 75 columns (edge messages, coordinate updates, edge
  embeddings, reconstructed edge features), the node kernel's packed slab of 72 columns (node embeddings,
  reconstructed node features) and the adjacency kernel's block of rows, which also reads which block of rows it is.
  A window's block at a grid point, read off the array the region finds, is named here too.
-/
import proofs.«414572_j55508157334089_2_alg».proof.Proof.Gen.Kernel.Skeleton
import proofs.«414572_j55508157334089_2_alg».proof.Proof.Gen.Kernel.Launch
import proofs.«414572_j55508157334089_2_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe Idealize.SL.Sem

variable {F : FTy → Type} [FloatOps F]

/-- The edge kernel's stored slab from its fourteen loaded buffers, in the order of its input windows: the gathered
    rows of the two endpoints, the edge attributes, then the weights and biases. -/
def edgePay (x0 x1 : Vec F S4000x67 .f32) (x2 : Vec F S4000x32 .f32) (x3 : Vec F S161x128 .f32) (x4 : Vec F S128 .f32)
    (x5 : Vec F S128x32 .f32) (x6 : Vec F S32 .f32) (x7 : Vec F S32x2 .f32) (x8 : Vec F S2 .f32) (x9 : Vec F S2x1 .f32)
    (x10 : Vec F S32x8 .f32) (x11 : Vec F S8 .f32) (x12 : Vec F S8x32 .f32) (x13 : Vec F S32 .f32) : Vec F S4000x75 .f32 :=
  k0_pay1 (k0_pay6 x0 x1) (k0_pay7 x0 x1 x2 x3 x4 x5 x6) (k0_pay8 x0 x1 x2 x3 x4 x5 x6 x7) (k0_pay9 x8) x9 x10 x11 x12 x13

/-- The node kernel's stored slab from its nine loaded buffers, in the order of its input windows. -/
def nodePay (x0 : Vec F S2000x99 .f32) (x1 : Vec F S99x128 .f32) (x2 : Vec F S128 .f32) (x3 : Vec F S128x64 .f32)
    (x4 : Vec F S64 .f32) (x5 : Vec F S64x8 .f32) (x6 : Vec F S8 .f32) (x7 : Vec F S8x64 .f32) (x8 : Vec F S64 .f32) :
    Vec F S2000x72 .f32 :=
  k1_pay1 x0 x1 x2 x3 x4 x5 x6 x7 x8

/-- The adjacency kernel's stored block of 200 rows at grid coordinates `i`, from the block of embeddings of its own
    rows and the whole table of embeddings. -/
def adjPay (i : grid2.Coords) (x0 : Vec F S200x8 .f32) (x1 : Vec F S10000x8 .f32) : Vec F S200x10000 .f32 :=
  k2_pay1 i x0 x1

section Blocks

variable (V : (c : Dev nD) → (b : Ref sig .tc) → Buf (Elt F) ((c : Thread nD τ).loc b))

/-- Window `w` of the edge kernel at grid point `t`: its block of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the node kernel at grid point `t`: its block of the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window `w` of the adjacency kernel at grid point `t`: its block of the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Blocks

end Cert.Kernel.Hand

end
-- ==== Proof.KbRegion0.lean ====
/-
  The edge kernel's region, at whatever contents the TensorCore's buffers hold when the region is entered.

  At every grid point the body reads each of its fourteen input windows' buffers whole and writes one slab of 75
  columns over the whole of its output window's buffer. So each input buffer holds, at every point, its window's block
  of the array the region found (a window whose block index never moves is brought in once and stays), and the output
  buffer holds after the body the slab computed from those fourteen blocks. These facts, the body's triple, and the
  proof data that record them give the body obligation of the pipeline at every grid point.
-/
import proofs.«414572_j55508157334089_2_alg».proof.Proof.KbPay
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows is looked at once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## Each input window's buffer holds its block at every point -/

/-- Input window 0's current buffer holds its block at every point, brought in there or not (where it is not, the
    block index has not moved), for any proof data over the region's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, brought in there or not (where it is not, the
    block index has not moved), for any proof data over the region's arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, brought in there or not (where it is not, the
    block index has not moved), for any proof data over the region's arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, brought in there or not (where it is not, the
    block index has not moved), for any proof data over the region's arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, brought in there or not (where it is not, the
    block index has not moved), for any proof data over the region's arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, brought in there or not (where it is not, the
    block index has not moved), for any proof data over the region's arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, brought in there or not (where it is not, the
    block index has not moved), for any proof data over the region's arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, brought in there or not (where it is not, the
    block index has not moved), for any proof data over the region's arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current buffer holds its block at every point, brought in there or not (where it is not, the
    block index has not moved), for any proof data over the region's arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current buffer holds its block at every point, brought in there or not (where it is not, the
    block index has not moved), for any proof data over the region's arrays whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current buffer holds its block at every point, brought in there or not (where it is not, the
    block index has not moved), for any proof data over the region's arrays whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's current buffer holds its block at every point, brought in there or not (where it is not, the
    block index has not moved), for any proof data over the region's arrays whose body leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's current buffer holds its block at every point, brought in there or not (where it is not, the
    block index has not moved), for any proof data over the region's arrays whose body leaves the block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's current buffer holds its block at every point, brought in there or not (where it is not, the
    block index has not moved), for any proof data over the region's arrays whose body leaves the block in place. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer whole -/

abbrev rect0_0 : Rect S4000x67 := Rect.unit (s := S4000x67) ![0, 0] S4000x67.size inb_S4000x67_S4000x67_0_0
abbrev rect0_1 : Rect S4000x67 := Rect.unit (s := S4000x67) ![0, 0] S4000x67.size inb_S4000x67_S4000x67_0_0
abbrev rect0_2 : Rect S4000x32 := Rect.unit (s := S4000x32) ![0, 0] S4000x32.size inb_S4000x32_S4000x32_0_0
abbrev rect0_3 : Rect S161x128 := Rect.unit (s := S161x128) ![0, 0] S161x128.size inb_S161x128_S161x128_0_0
abbrev rect0_4 : Rect S128 := Rect.unit (s := S128) ![0] S128.size inb_S128_S128_0
abbrev rect0_5 : Rect S128x32 := Rect.unit (s := S128x32) ![0, 0] S128x32.size inb_S128x32_S128x32_0_0
abbrev rect0_6 : Rect S32 := Rect.unit (s := S32) ![0] S32.size inb_S32_S32_0
abbrev rect0_7 : Rect S32x2 := Rect.unit (s := S32x2) ![0, 0] S32x2.size inb_S32x2_S32x2_0_0
abbrev rect0_8 : Rect S2 := Rect.unit (s := S2) ![0] S2.size inb_S2_S2_0
abbrev rect0_9 : Rect S2x1 := Rect.unit (s := S2x1) ![0, 0] S2x1.size inb_S2x1_S2x1_0_0
abbrev rect0_10 : Rect S32x8 := Rect.unit (s := S32x8) ![0, 0] S32x8.size inb_S32x8_S32x8_0_0
abbrev rect0_11 : Rect S8 := Rect.unit (s := S8) ![0] S8.size inb_S8_S8_0
abbrev rect0_12 : Rect S8x32 := Rect.unit (s := S8x32) ![0, 0] S8x32.size inb_S8x32_S8x32_0_0
abbrev rect0_13 : Rect S32 := Rect.unit (s := S32) ![0] S32.size inb_S32_S32_0
abbrev rect0_14 : Rect S4000x75 := Rect.unit (s := S4000x75) ![0, 0] S4000x75.size inb_S4000x75_S4000x75_0_0

/-- The offsets of a whole rectangle are zero on every axis. -/
private theorem zero_off1 : (![0] : Fin 1 → Nat) = fun _ => 0 := by funext a; fin_cases a; rfl
private theorem zero_off2 : (![0, 0] : Fin 2 → Nat) = fun _ => 0 := by funext a; fin_cases a <;> rfl

/-! ## What the body leaves in the output window's buffer -/

/-- The output window's buffer after the body, from the input windows' blocks: the one store over the whole buffer,
    its value the slab of the buffers read whole. -/
def out0_14 (x0 : Vec F S4000x67 .f32) (x1 : Vec F S4000x67 .f32) (x2 : Vec F S4000x32 .f32) (x3 : Vec F S161x128 .f32) (x4 : Vec F S128 .f32) (x5 : Vec F S128x32 .f32) (x6 : Vec F S32 .f32) (x7 : Vec F S32x2 .f32) (x8 : Vec F S2 .f32) (x9 : Vec F S2x1 .f32) (x10 : Vec F S32x8 .f32) (x11 : Vec F S8 .f32) (x12 : Vec F S8x32 .f32) (x13 : Vec F S32 .f32) : Vec F S4000x75 .f32 :=
  View.canon [⟨rect0_14, edgePay (View.ld x0 rect0_0) (View.ld x1 rect0_1) (View.ld x2 rect0_2) (View.ld x3 rect0_3) (View.ld x4 rect0_4) (View.ld x5 rect0_5) (View.ld x6 rect0_6) (View.ld x7 rect0_7) (View.ld x8 rect0_8) (View.ld x9 rect0_9) (View.ld x10 rect0_10) (View.ld x11 rect0_11) (View.ld x12 rect0_12) (View.ld x13 rect0_13)⟩]

/-- The one store is over the whole buffer, so it covers it. -/
theorem cover0_14 (p0 : Vec F S4000x75 .f32) (y : S4000x75.Idx) :
    ∃ pc ∈ ([⟨rect0_14, p0⟩] : List (View.Piece (Elt F) S4000x75 .f32)), y ∈ pc.1.set :=
  View.cover_of_tiled [⟨rect0_14, p0⟩] S4000x75.size (by rfl) y

/-- A store over the whole buffer leaves its value, and a read of a whole buffer reads its contents: the output
    buffer after the body is the slab of the fourteen blocks. -/
theorem out0_14_eq (x0 : Vec F S4000x67 .f32) (x1 : Vec F S4000x67 .f32) (x2 : Vec F S4000x32 .f32) (x3 : Vec F S161x128 .f32) (x4 : Vec F S128 .f32) (x5 : Vec F S128x32 .f32) (x6 : Vec F S32 .f32) (x7 : Vec F S32x2 .f32) (x8 : Vec F S2 .f32) (x9 : Vec F S2x1 .f32) (x10 : Vec F S32x8 .f32) (x11 : Vec F S8 .f32) (x12 : Vec F S8x32 .f32) (x13 : Vec F S32 .f32) :
    out0_14 x0 x1 x2 x3 x4 x5 x6 x7 x8 x9 x10 x11 x12 x13 = edgePay x0 x1 x2 x3 x4 x5 x6 x7 x8 x9 x10 x11 x12 x13 := by
  unfold out0_14
  rw [View.canon_unit_zero zero_off2]
  simp only [View.ld_unit_zero (S := S4000x67) zero_off2, View.ld_unit_zero (S := S4000x32) zero_off2, View.ld_unit_zero (S := S161x128) zero_off2, View.ld_unit_zero (S := S128) zero_off1, View.ld_unit_zero (S := S128x32) zero_off2, View.ld_unit_zero (S := S32) zero_off1, View.ld_unit_zero (S := S32x2) zero_off2, View.ld_unit_zero (S := S2) zero_off1, View.ld_unit_zero (S := S2x1) zero_off2, View.ld_unit_zero (S := S32x8) zero_off2, View.ld_unit_zero (S := S8) zero_off1, View.ld_unit_zero (S := S8x32) zero_off2]

/-! ## The body's triple -/

set_option maxHeartbeats 4000000 in
/-- The body on whole buffers, the inputs' at contents `xW` and the output's at anything, runs to the continuation
    holding the inputs' as they were and the output's at `out0_14` of the inputs'. -/
theorem sound_kernel0 (c : Dev nD) (E : Set ℕ) (i : grid0.Coords)
    (arg1 : Memref sig .tc .vmem S4000x67 .f32) (harg1 : arg1.IsWhole)
    (arg2 : Memref sig .tc .vmem S4000x67 .f32) (harg2 : arg2.IsWhole)
    (arg3 : Memref sig .tc .vmem S4000x32 .f32) (harg3 : arg3.IsWhole)
    (arg4 : Memref sig .tc .vmem S161x128 .f32) (harg4 : arg4.IsWhole)
    (arg5 : Memref sig .tc .vmem S128 .f32) (harg5 : arg5.IsWhole)
    (arg6 : Memref sig .tc .vmem S128x32 .f32) (harg6 : arg6.IsWhole)
    (arg7 : Memref sig .tc .vmem S32 .f32) (harg7 : arg7.IsWhole)
    (arg8 : Memref sig .tc .vmem S32x2 .f32) (harg8 : arg8.IsWhole)
    (arg9 : Memref sig .tc .vmem S2 .f32) (harg9 : arg9.IsWhole)
    (arg10 : Memref sig .tc .vmem S2x1 .f32) (harg10 : arg10.IsWhole)
    (arg11 : Memref sig .tc .vmem S32x8 .f32) (harg11 : arg11.IsWhole)
    (arg12 : Memref sig .tc .vmem S8 .f32) (harg12 : arg12.IsWhole)
    (arg13 : Memref sig .tc .vmem S8x32 .f32) (harg13 : arg13.IsWhole)
    (arg14 : Memref sig .tc .vmem S32 .f32) (harg14 : arg14.IsWhole)
    (arg15 : Memref sig .tc .vmem S4000x75 .f32) (harg15 : arg15.IsWhole)
    (x0 : Vec F S4000x67 .f32) (x1 : Vec F S4000x67 .f32) (x2 : Vec F S4000x32 .f32) (x3 : Vec F S161x128 .f32) (x4 : Vec F S128 .f32) (x5 : Vec F S128x32 .f32) (x6 : Vec F S32 .f32) (x7 : Vec F S32x2 .f32) (x8 : Vec F S2 .f32) (x9 : Vec F S2x1 .f32) (x10 : Vec F S32x8 .f32) (x11 : Vec F S8 .f32) (x12 : Vec F S8x32 .f32) (x13 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The pipeline's proof data -/

/-- The proof data of the edge kernel's pipeline on core `c`: the arrays as the region finds them; after the body at
    point `t` each input's buffer at its block and the output's at `out0_14` of the input blocks; the invariant that
    leaves everything else untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) :
    (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 2000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ (grid0.coords t) _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KbRegion1.lean ====
/-
  The node kernel's call (the second of the three kernel calls), as one pipelined loop over its five blocks of 2000
  node rows: what each window's staging buffer holds when the body is handed it, and what the body leaves.

  Every input window's buffer holds that window's block of the array the call finds — the block of node rows moves
  with the grid point, the eight weight and bias windows have one block, fetched once and left in place. The body
  reads all nine buffers whole and overwrites the whole output buffer with the node slab of those nine blocks
  (`nodePay`); the one store covers the buffer, so what the buffer held before is forgotten. The facts are stated
  for any contents `V` of the core's buffers at the call's entry.
-/
import proofs.«414572_j55508157334089_2_alg».proof.Proof.KbPay
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the call is entered: the parameter every statement below is made at
variable (V : (c : Dev nD) → (b : Ref sig .tc) → Buf (Elt F) ((c : Thread nD τ).loc b))

/-! ## An input window's buffer holds its block at every point -/

/-- Input window 0's current staging buffer holds its block at every grid point, fetched there or not (where it is
    not fetched the block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, fetched there or not (where it is
    not fetched the block index has not moved), for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, fetched there or not (where it is
    not fetched the block index has not moved), for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, fetched there or not (where it is
    not fetched the block index has not moved), for any proof data whose array is `V`'s and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every grid point, fetched there or not (where it is
    not fetched the block index has not moved), for any proof data whose array is `V`'s and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every grid point, fetched there or not (where it is
    not fetched the block index has not moved), for any proof data whose array is `V`'s and whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every grid point, fetched there or not (where it is
    not fetched the block index has not moved), for any proof data whose array is `V`'s and whose body leaves the
    block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every grid point, fetched there or not (where it is
    not fetched the block index has not moved), for any proof data whose array is `V`'s and whose body leaves the
    block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every grid point, fetched there or not (where it is
    not fetched the block index has not moved), for any proof data whose array is `V`'s and whose body leaves the
    block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole, from offset zero -/

abbrev r1_0 : Rect S2000x99 := Rect.unit (s := S2000x99) ![0, 0] S2000x99.size inb_S2000x99_S2000x99_0_0
abbrev r1_1 : Rect S99x128 := Rect.unit (s := S99x128) ![0, 0] S99x128.size inb_S99x128_S99x128_0_0
abbrev r1_2 : Rect S128 := Rect.unit (s := S128) ![0] S128.size inb_S128_S128_0
abbrev r1_3 : Rect S128x64 := Rect.unit (s := S128x64) ![0, 0] S128x64.size inb_S128x64_S128x64_0_0
abbrev r1_4 : Rect S64 := Rect.unit (s := S64) ![0] S64.size inb_S64_S64_0
abbrev r1_5 : Rect S64x8 := Rect.unit (s := S64x8) ![0, 0] S64x8.size inb_S64x8_S64x8_0_0
abbrev r1_6 : Rect S8 := Rect.unit (s := S8) ![0] S8.size inb_S8_S8_0
abbrev r1_7 : Rect S8x64 := Rect.unit (s := S8x64) ![0, 0] S8x64.size inb_S8x64_S8x64_0_0
abbrev r1_8 : Rect S64 := Rect.unit (s := S64) ![0] S64.size inb_S64_S64_0
abbrev r1_9 : Rect S2000x72 := Rect.unit (s := S2000x72) ![0, 0] S2000x72.size inb_S2000x72_S2000x72_0_0

/-! ## What the body leaves in the output window's buffer -/

/-- The output window's staging buffer after the body, from the nine input blocks: its one store, of the node slab
    of the blocks as loaded, over the whole buffer. -/
def out1_9 (x0 : Vec F S2000x99 .f32) (x1 : Vec F S99x128 .f32) (x2 : Vec F S128 .f32) (x3 : Vec F S128x64 .f32) (x4 : Vec F S64 .f32) (x5 : Vec F S64x8 .f32) (x6 : Vec F S8 .f32) (x7 : Vec F S8x64 .f32) (x8 : Vec F S64 .f32) : Vec F S2000x72 .f32 :=
  View.canon [⟨r1_9, nodePay (View.ld x0 r1_0) (View.ld x1 r1_1) (View.ld x2 r1_2) (View.ld x3 r1_3) (View.ld x4 r1_4) (View.ld x5 r1_5) (View.ld x6 r1_6) (View.ld x7 r1_7) (View.ld x8 r1_8)⟩]

/-- The one store's rectangle is the whole buffer, so it covers it. -/
theorem cover1_9 (p0 : Vec F S2000x72 .f32) (y : S2000x72.Idx) :
    ∃ pc ∈ ([⟨r1_9, p0⟩] : List (View.Piece (Elt F) S2000x72 .f32)), y ∈ pc.1.set :=
  View.cover_of_tiled [⟨r1_9, p0⟩] S2000x72.size (by rfl) y

/-- A whole-buffer load reads the buffer and the one whole-buffer store leaves its value: the buffer after the body
    is the node slab of the nine blocks. -/
theorem out1_9_eq (x0 : Vec F S2000x99 .f32) (x1 : Vec F S99x128 .f32) (x2 : Vec F S128 .f32) (x3 : Vec F S128x64 .f32) (x4 : Vec F S64 .f32) (x5 : Vec F S64x8 .f32) (x6 : Vec F S8 .f32) (x7 : Vec F S8x64 .f32) (x8 : Vec F S64 .f32) :
    out1_9 x0 x1 x2 x3 x4 x5 x6 x7 x8 = nodePay x0 x1 x2 x3 x4 x5 x6 x7 x8 := by
  have hz2 : (![0, 0] : Fin 2 → Nat) = fun _ => 0 := by funext a; fin_cases a <;> rfl
  have hz1 : (![0] : Fin 1 → Nat) = fun _ => 0 := by funext a; fin_cases a; rfl
  unfold out1_9
  rw [View.canon_unit_zero (S := S2000x72) hz2]
  simp only [View.ld_unit_zero (S := S2000x99) hz2, View.ld_unit_zero (S := S99x128) hz2, View.ld_unit_zero (S := S128) hz1, View.ld_unit_zero (S := S128x64) hz2, View.ld_unit_zero (S := S64) hz1, View.ld_unit_zero (S := S64x8) hz2, View.ld_unit_zero (S := S8) hz1, View.ld_unit_zero (S := S8x64) hz2]

/-! ## The body's triple -/

set_option maxHeartbeats 4000000 in
/-- The kernel body on whole staging buffers, the nine inputs' at contents `x0 … x8` and the output's at anything,
    runs to the continuation holding the inputs' as they were and the output's at `out1_9` of them: nine whole loads,
    a load of the output buffer whose value is not used, and the one covering store. -/
theorem sound_kernel1 (c : Dev nD) (E : Set ℕ) (i : grid1.Coords) (arg0 : Memref sig .tc .vmem S2000x99 .f32) (harg0 : arg0.IsWhole) (arg1 : Memref sig .tc .vmem S99x128 .f32) (harg1 : arg1.IsWhole) (arg2 : Memref sig .tc .vmem S128 .f32) (harg2 : arg2.IsWhole) (arg3 : Memref sig .tc .vmem S128x64 .f32) (harg3 : arg3.IsWhole) (arg4 : Memref sig .tc .vmem S64 .f32) (harg4 : arg4.IsWhole) (arg5 : Memref sig .tc .vmem S64x8 .f32) (harg5 : arg5.IsWhole) (arg6 : Memref sig .tc .vmem S8 .f32) (harg6 : arg6.IsWhole) (arg7 : Memref sig .tc .vmem S8x64 .f32) (harg7 : arg7.IsWhole) (arg8 : Memref sig .tc .vmem S64 .f32) (harg8 : arg8.IsWhole) (arg9 : Memref sig .tc .vmem S2000x72 .f32) (harg9 : arg9.IsWhole)
    (x0 : Vec F S2000x99 .f32) (x1 : Vec F S99x128 .f32) (x2 : Vec F S128 .f32) (x3 : Vec F S128x64 .f32) (x4 : Vec F S64 .f32) (x5 : Vec F S64x8 .f32) (x6 : Vec F S8 .f32) (x7 : Vec F S8x64 .f32) (x8 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__node_kernel i arg0 harg0 arg1 harg1 arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of the node kernel's pipeline on core `c`: the arrays as the call finds them (`V`); after the
    body at point `t` each input's buffer at its block and the output's at `out1_9` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KbRegion2.lean ====
/-
  The adjacency kernel's region, the half that concerns its body alone.

  The region runs the body once per block of 200 rows. At each point the body is handed three buffers: the block of
  200 rows of the table of embeddings that belongs to the point, the whole table of 10000 rows (the same at every
  point: its index does not move), and the buffer of the output's block of 200 rows by 10000 columns. It reads the two
  input buffers whole and overwrites the output buffer whole with one value, a function of the two buffers read and of
  the point's coordinates. Stated here, at ANY contents the region may be entered with: what each input buffer holds
  when the body is called (its block of the array found), what the output buffer holds afterwards (the stored value,
  since the one store covers the buffer), the body's triple, the proof data of the region (the two input windows read
  ONE array, so each holds it at a share given as a parameter) and the obligation the region's loop asks of the body.
-/
import proofs.«414572_j55508157334089_2_alg».proof.Proof.KbPay
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 10000 columns: one step of recursion per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents when the region is entered: the parameter everything below is stated at
variable (V : (c : Dev nD) → (b : Ref sig .tc) → Buf (Elt F) ((c : Thread nD τ).loc b))

/-! ## What the input buffers hold when the body is called -/

/-- Input window 0 (the point's own block of 200 rows) holds its block of the array found, at every point, for any
    proof data over that array whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole table) holds its block of the array found, at every point, fetched there or not: its
    block index is the same at every point, so where it is not fetched the buffer still holds the block of the point
    before, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through: each buffer whole, at offsets zero -/

abbrev r2_0 : Rect S200x8 := Rect.unit (s := S200x8) ![0, 0] S200x8.size inb_S200x8_S200x8_0_0
abbrev r2_1 : Rect S10000x8 := Rect.unit (s := S10000x8) ![0, 0] S10000x8.size inb_S10000x8_S10000x8_0_0
abbrev r2_2 : Rect S200x10000 := Rect.unit (s := S200x10000) ![0, 0] S200x10000.size inb_S200x10000_S200x10000_0_0

/-- The offsets of every one of them are zero. -/
theorem hz2 : (![0, 0] : Fin 2 → Nat) = fun _ => 0 := funext fun a => by fin_cases a <;> rfl

/-! ## What the body leaves in the output buffer -/

/-- The output buffer after the body at coordinates i, from the two input buffers: its one store as a piece over
    the whole buffer, the stored value that of the two buffers read through their whole rectangles. -/
def out2_2 (i : grid2.Coords) (x0 : Vec F S200x8 .f32) (x1 : Vec F S10000x8 .f32) : Vec F S200x10000 .f32 :=
  View.canon [⟨r2_2, adjPay i (View.ld x0 r2_0) (View.ld x1 r2_1)⟩]

/-- The one store covers the buffer: its rectangle is the whole shape. -/
theorem cover2_2 (p0 : Vec F S200x10000 .f32) (y : S200x10000.Idx) :
    ∃ pc ∈ ([⟨r2_2, p0⟩] : List (View.Piece (Elt F) S200x10000 .f32)), y ∈ pc.1.set :=
  ⟨_, List.mem_singleton_self _, View.mem_set_unit_zero (S := S200x10000) hz2 inb_S200x10000_S200x10000_0_0 y⟩

/-- So the buffer holds the stored value of the two input buffers themselves: a piece over the whole shape at offsets
    zero leaves its value, and a read through the whole shape at offsets zero reads the contents. -/
theorem out2_2_eq (i : grid2.Coords) (x0 : Vec F S200x8 .f32) (x1 : Vec F S10000x8 .f32) :
    out2_2 i x0 x1 = adjPay i x0 x1 := by
  unfold out2_2
  rw [View.canon_unit_zero (S := S200x10000) hz2]
  simp only [View.ld_unit_zero (S := S200x8) hz2, View.ld_unit_zero (S := S10000x8) hz2]

/-! ## The body's triple -/

set_option maxHeartbeats 1000000 in
/-- The body at coordinates i on three whole buffers, the inputs' at contents x0 and x1 and the output's at
    anything, runs to the continuation holding the inputs' as they were and the output's at out2_2 i x0 x1: two reads,
    a read of the output buffer whose value goes unused, and the one store. -/
theorem sound_kernel2 (c : Dev nD) (E : Set ℕ) (i : grid2.Coords)
    (arg0 : Memref sig .tc .vmem S200x8 .f32) (harg0 : arg0.IsWhole)
    (arg1 : Memref sig .tc .vmem S10000x8 .f32) (harg1 : arg1.IsWhole)
    (arg2 : Memref sig .tc .vmem S200x10000 .f32) (harg2 : arg2.IsWhole)
    (x0 : Vec F S200x8 .f32) (x1 : Vec F S10000x8 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 i x0 x1)) -∗ K ⟨⟩))
      ⊢ wp frame (wpE (defs₀ (F := F)) Variants.none c none) E (cc2__adj_kernel i arg0 harg0 arg1 harg1 arg2 harg2) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of the region on core c: the arrays as the region finds them; after the body at point t each
    input buffer at its block and the output buffer at out2_2 of the point's coordinates and the two input blocks; the
    invariant the plain one (the scoped rest and the generator register, untouched); nothing owed. The two input
    windows read ONE array, so each holds it at a share of its own, qL and qR; the output's array is held whole. -/
def dat2 (qL qR : PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (cfg2.grid.coords t) (iblk2 V c 0 t) (iblk2 V c 1 t)
  Φ _ := Pipeline.ΦA spec2 c
  q w := match w with
    | ⟨0, _⟩ => qL
    | ⟨1, _⟩ => qR
    | ⟨2, _⟩ => fullShare
  owed _ := 0

variable (qL qR : PosShare TreeShare)

/-- The proof data's arrays are the contents the region is entered with. -/
theorem A_eq2 (c : Dev nD) (w : Fin cfg2.W) : (dat2 V qL qR c).A w = V c (Pipeline.arrRef spec2 w) := by
  dsimp only [dat2]

/-- What the body leaves, window by window. -/
theorem after2_0 (c : Dev nD) (t : Fin cfg2.N) : (dat2 V qL qR c).after 0 t = iblk2 V c 0 t := by dsimp only [dat2]
theorem after2_1 (c : Dev nD) (t : Fin cfg2.N) : (dat2 V qL qR c).after 1 t = iblk2 V c 1 t := by dsimp only [dat2]
theorem after2_2 (c : Dev nD) (t : Fin cfg2.N) :
    (dat2 V qL qR c).after 2 t = out2_2 (cfg2.grid.coords t) (iblk2 V c 0 t) (iblk2 V c 1 t) := by dsimp only [dat2]

/-- Each input buffer holds its block at every point, fetched there or not. -/
theorem before2_0 (c : Dev nD) (t : Fin cfg2.N) (d) : (dat2 V qL qR c).before 0 t d = iblk2 V c 0 t :=
  before2_0_of V (dat2 V qL qR c) (A_eq2 V qL qR c 0) (after2_0 V qL qR c) t d
theorem before2_1 (c : Dev nD) (t : Fin cfg2.N) (d) : (dat2 V qL qR c).before 1 t d = iblk2 V c 1 t :=
  before2_1_of V (dat2 V qL qR c) (A_eq2 V qL qR c 1) (after2_1 V qL qR c) t d

/-! ## The body obligation, at a generic point -/

/-- What the body is called with at point t, the windows one by one, -/
def bodyPre2 (c : Dev nD) (t : Fin cfg2.N) : sProp 𝕄 :=
  iprop((dat2 V qL qR c).Φ t.castSucc ∗ (dat2 V qL qR c).owesAt () t.castSucc
    ∗ (∃ d, owns (c : Thread nD τ) (st2_0 t) fullShare ((dat2 V qL qR c).before 0 t d))
    ∗ (∃ d, owns (c : Thread nD τ) (st2_1 t) fullShare ((dat2 V qL qR c).before 1 t d))
    ∗ (∃ d, owns (c : Thread nD τ) (st2_2 t) fullShare ((dat2 V qL qR c).before 2 t d)))

/-- and what it returns. -/
def bodyPost2 (c : Dev nD) (t : Fin cfg2.N) : sProp 𝕄 :=
  iprop((dat2 V qL qR c).Φ t.succ ∗ (dat2 V qL qR c).owesAt () t.succ
    ∗ owns (c : Thread nD τ) (st2_0 t) fullShare ((dat2 V qL qR c).after 0 t)
    ∗ owns (c : Thread nD τ) (st2_1 t) fullShare ((dat2 V qL qR c).after 1 t)
    ∗ owns (c : Thread nD τ) (st2_2 t) fullShare ((dat2 V qL qR c).after 2 t))

/-- The body at any point: the input buffers hold their blocks, so the body's triple applies at the point's
    coordinates; the invariant and what the core owes pass through unread. -/
theorem sound_body2 (c : Dev nD) (t : Fin cfg2.N) :
    bodyPre2 V qL qR c t ⊢ wp frame (wpE (defs₀ (F := F)) Variants.none c none) Set.univ (bodyAt2 t) (fun _ => bodyPost2 V qL qR c t) := by
  unfold bodyPre2 bodyPost2 bodyAt2
  simp only [before2_0, before2_1]
  rw [show (dat2 V qL qR c).Φ t.succ = (dat2 V qL qR c).Φ t.castSucc from rfl,
    show (dat2 V qL qR c).owesAt () t.succ = (dat2 V qL qR c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the region's loop asks of the body, at every point. -/
theorem body_obligation2 (c : Dev nD) : BodyObligation (dat2 (F := F) V qL qR c) (defs₀ (F := F)) Variants.none () Set.univ := fun t => by
  rw [bigSep_W2, bigSep_W2]
  exact sound_body2 V qL qR c t

end Region2

end Cert.Kernel.Hand

end
-- ==== Proof.KbShare2.lean ====
/-
  One array read through two windows: how a region's arrays are taken out of the core's buffers and put back.

  The adjacency region reads the table of embeddings through two input windows — a block of its rows and the whole
  table — and writes its result through a third. The region holds each window's array at a share: an output array
  at the full share, an input array at a share of the proof's choosing. Two windows on ONE buffer cannot both hold
  it at the full share, so the full share of the table is cut into its left and right halves, one for each input
  window; the two halves compose back to the full share. At the region's entry the core's unscoped buffers are
  thereby the region's arrays and the rest; at its exit, both input windows' contents being the table's, the two
  halves are joined again and the unscoped buffers are whole as before, the result written.
-/
import proofs.«414572_j55508157334089_2_alg».proof.Proof.KbPay
import Idealize.ShloMosaic.Lib.Pipeline.RegionsLoop
import Idealize.ShloMosaic.Rules.PointsTo

set_option maxRecDepth 1028

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.SL.RA.PCS

variable {F : FTy → Type} [FloatOps F]

local notation "𝕄" => MT nD τ sig Unit (Elt F) ℕ (UR sig nD τ) ℕ

/-- The left half of the full share: what the window on a block of the table's rows holds the table at. -/
def shareL : PosShare TreeShare := (fullShare : PosShare TreeShare).left

/-- The right half of the full share: what the window on the whole table holds it at. -/
def shareR : PosShare TreeShare := (fullShare : PosShare TreeShare).right

/-- The two halves compose to the full share. -/
theorem share_split : (fullShare : PosShare TreeShare) ∈ shareL ·? shareR := PosShare.mem_left_op_right fullShare

/-- The buffers behind the three windows' arrays are two: the table of embeddings and the result. -/
theorem arrImage2 : Finset.univ.image (Pipeline.arrRef spec2) = {main_v21, main_v23} := by decide

/-- The buffers behind the windows' arrays, whole at the full share: the table and the result. -/
theorem arrBufs2_eq (c : Dev nD) (V : (b : Ref sig .tc) → Buf (Elt F) ((c : Thread nD τ).loc b)) :
    (Pipeline.arrBufs spec2 c V : sProp 𝕄)
      = iprop((((c : Thread nD τ).loc main_v21) ↦{fullShare} V main_v21) ∗ (((c : Thread nD τ).loc main_v23) ↦{fullShare} V main_v23)) := by
  unfold Pipeline.arrBufs
  rw [arrImage2, bigSep_insert (by decide), bigSep_singleton]
  rfl

/-- The core's unscoped buffers are the buffers behind the windows' arrays and the rest. -/
theorem unscopedBufs_split2 (c : Dev nD) (V : (b : Ref sig .tc) → Buf (Elt F) ((c : Thread nD τ).loc b)) :
    (unscopedBufs c V : sProp 𝕄) = iprop((Pipeline.arrBufs spec2 c V : sProp 𝕄) ∗ Pipeline.unscopedRest spec2 c V) :=
  Pipeline.unscopedBufs_split₀ (fun _ : Unit => cfg2) () winFacts₀2.arr_unscoped c V

/-- The window on a block of the table's rows is an input window: it holds the table at the proof's share for it. -/
theorem share2_0 {c : Dev nD} (dat : Pipeline.Dat τ (Elt F) Unit ℕ (UR sig nD τ) ℕ cfg2 c) (hq0 : dat.q 0 = shareL) :
    dat.share 0 = shareL := (if_neg (by decide)).trans hq0

/-- The window on the whole table is an input window: it holds the table at the proof's share for it. -/
theorem share2_1 {c : Dev nD} (dat : Pipeline.Dat τ (Elt F) Unit ℕ (UR sig nD τ) ℕ cfg2 c) (hq1 : dat.q 1 = shareR) :
    dat.share 1 = shareR := (if_neg (by decide)).trans hq1

/-- The third window is the output window: it holds the result at the full share. -/
theorem share2_2 {c : Dev nD} (dat : Pipeline.Dat τ (Elt F) Unit ℕ (UR sig nD τ) ℕ cfg2 c) :
    dat.share 2 = fullShare := if_pos (by decide)

/-- The region's arrays are whole buffers: each window holds all of the buffer behind its array, at its share. -/
theorem arrays2_univ (c : Dev nD) (dat : Pipeline.Dat τ (Elt F) Unit ℕ (UR sig nD τ) ℕ cfg2 c)
    (Fa : (w : Fin cfg2.W) → Buf (Elt F) (((cfg2).spec w).arr.view.loc (c.tc : Thread nD τ))) :
    (dat.arrays Fa : sProp 𝕄)
      = bigSep Finset.univ fun w : Fin 3 => (((c : Thread nD τ).loc (Pipeline.arrRef spec2 w)) ↦{dat.share w} Fa w : sProp 𝕄) := by
  unfold Pipeline.Dat.arrays
  exact bigSep_congr fun w _ => by rw [(arr_whole2 w).set_eq_univ]

set_option maxHeartbeats 1600000 in
/-- The region's arrays at contents `Fa`: the table at the left half for the window on a block of its rows, the table
    at the right half for the window on all of it, the result at the full share. -/
theorem arrays2_eq (c : Dev nD) (dat : Pipeline.Dat τ (Elt F) Unit ℕ (UR sig nD τ) ℕ cfg2 c)
    (hq0 : dat.q 0 = shareL) (hq1 : dat.q 1 = shareR)
    (Fa : (w : Fin cfg2.W) → Buf (Elt F) (((cfg2).spec w).arr.view.loc (c.tc : Thread nD τ))) :
    (dat.arrays Fa : sProp 𝕄)
      = iprop((((c : Thread nD τ).loc main_v21) ↦{shareL} Fa 0) ∗ (((c : Thread nD τ).loc main_v21) ↦{shareR} Fa 1)
          ∗ (((c : Thread nD τ).loc main_v23) ↦{fullShare} Fa 2)) := by
  have e0 : ((((c : Thread nD τ).loc (Pipeline.arrRef spec2 0)) ↦{dat.share 0} Fa 0 : sProp 𝕄))
      = (((c : Thread nD τ).loc main_v21) ↦{shareL} Fa 0) :=
    congrArg (fun q => (((c : Thread nD τ).loc main_v21) ↦{q} Fa 0 : sProp 𝕄)) (share2_0 dat hq0)
  have e1 : ((((c : Thread nD τ).loc (Pipeline.arrRef spec2 1)) ↦{dat.share 1} Fa 1 : sProp 𝕄))
      = (((c : Thread nD τ).loc main_v21) ↦{shareR} Fa 1) :=
    congrArg (fun q => (((c : Thread nD τ).loc main_v21) ↦{q} Fa 1 : sProp 𝕄)) (share2_1 dat hq1)
  have e2 : ((((c : Thread nD τ).loc (Pipeline.arrRef spec2 2)) ↦{dat.share 2} Fa 2 : sProp 𝕄))
      = (((c : Thread nD τ).loc main_v23) ↦{fullShare} Fa 2) :=
    congrArg (fun q => (((c : Thread nD τ).loc main_v23) ↦{q} Fa 2 : sProp 𝕄)) (share2_2 dat)
  rw [arrays2_univ, bigSep_W2]
  exact congrArg₂ _ e0 (congrArg₂ _ e1 e2)

/-- ENTRY. The core's unscoped buffers at contents `V` are the region's arrays at the proof data's entry contents —
    those being read off `V` — and the unscoped rest: the table's full share is cut into the two halves the two input
    windows hold it at. -/
theorem arrays2_of_unscopedBufs (c : Dev nD) (dat : Pipeline.Dat τ (Elt F) Unit ℕ (UR sig nD τ) ℕ cfg2 c)
    (hq0 : dat.q 0 = shareL) (hq1 : dat.q 1 = shareR)
    (V : (b : Ref sig .tc) → Buf (Elt F) ((c : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [unscopedBufs_split2, arrBufs2_eq, arrays2_eq c dat hq0 hq1,
    show dat.arrAt 0 0 = V main_v21 from hA 0, show dat.arrAt 1 0 = V main_v21 from hA 1, show dat.arrAt 2 0 = V main_v23 from hA 2]
  iintro ⟨⟨H21, H23⟩, Hrest⟩
  ihave H := (pointsTo_share share_split).1 $$ H21
  icases H with ⟨HL, HR⟩
  isplitr [Hrest]
  · isplitl [HL]; · iexact HL
    isplitl [HR]; · iexact HR
    iexact H23
  iexact Hrest

/-- EXIT. The region's arrays at contents `Fa` and the unscoped rest at `V` are the core's unscoped buffers at any
    contents `V'` that has the arrays at `Fa` and agrees with `V` off them: both input windows' contents being the
    table's in `V'`, the two halves compose to the table's full share. -/
theorem unscopedBufs_of_arrays2 (c : Dev nD) (dat : Pipeline.Dat τ (Elt F) Unit ℕ (UR sig nD τ) ℕ cfg2 c)
    (hq0 : dat.q 0 = shareL) (hq1 : dat.q 1 = shareR)
    (V V' : (b : Ref sig .tc) → Buf (Elt F) ((c : Thread nD τ).loc b))
    (Fa : (w : Fin cfg2.W) → Buf (Elt F) (((cfg2).spec w).arr.view.loc (c.tc : Thread nD τ)))
    (hF : ∀ w, Fa w = V' (Pipeline.arrRef spec2 w))
    (hrest : ∀ b, b ∉ Finset.univ.image (Pipeline.arrRef spec2) → V' b = V b) :
    iprop(dat.arrays Fa ∗ Pipeline.unscopedRest spec2 c V) ⊢ (unscopedBufs c V' : sProp 𝕄) := by
  have hR : (Pipeline.unscopedRest spec2 c V : sProp 𝕄) = Pipeline.unscopedRest spec2 c V' := by
    unfold Pipeline.unscopedRest
    exact bigSep_congr fun b hb => by rw [hrest b (Finset.mem_sdiff.mp hb).2]
  rw [unscopedBufs_split2, arrBufs2_eq, arrays2_eq c dat hq0 hq1, hR,
    show Fa 0 = V' main_v21 from hF 0, show Fa 1 = V' main_v21 from hF 1, show Fa 2 = V' main_v23 from hF 2]
  iintro ⟨⟨HL, HR, H23⟩, Hrest⟩
  isplitr [Hrest]
  · isplitl [HL HR]
    · iapply (pointsTo_share share_split).2
      isplitl [HL]; · iexact HL
      iexact HR
    iexact H23
  iexact Hrest

end Cert.Kernel.Hand

end
-- ==== Proof.KbFold.lean ====
/-
  The contents of the core's unscoped buffers through @main, as a fold from the launch memory.

  @main is five stretches of host operations and three kernel regions: the two gathers' preparation, the edge
  kernel, the scatter-adds and the node table, the node kernel, two slices, the adjacency kernel. A host stretch
  applies its operations to the contents before it; a region replaces its output array by what its write-backs
  leave (the fold of its proof data, taken at the contents the region is entered with) and changes nothing else.
  The adjacency kernel reads ONE array through two windows, which hold it at the two halves of the full share.
-/
import proofs.«414572_j55508157334089_2_alg».proof.Proof.KbRegion0
import proofs.«414572_j55508157334089_2_alg».proof.Proof.KbRegion1
import proofs.«414572_j55508157334089_2_alg».proof.Proof.KbRegion2
import proofs.«414572_j55508157334089_2_alg».proof.Proof.KbShare2
import proofs.«414572_j55508157334089_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through @main -/

/-- Core `c`'s buffers at launch. -/
abbrev W0 : Dev nD → Valuation τ sig (Elt F) := fun c b => m (c, b)
/-- After the first stretch (the id vectors and the combined node table). -/
abbrev W1 : Dev nD → Valuation τ sig (Elt F) := fun c => StableHlo.after hostOps0 (W0 m c)
/-- After the gather by the first endpoints. -/
abbrev W2 : Dev nD → Valuation τ sig (Elt F) := fun c => StableHlo.after hostOps0_1 (W1 m c)
/-- After the gather by the second endpoints: the edge kernel's entry. -/
abbrev W3 : Dev nD → Valuation τ sig (Elt F) := fun c => StableHlo.after hostOps0_2 (W2 m c)
/-- The same read at the TensorCore's references. -/
abbrev U3 : (c : Dev nD) → (b : Ref sig .tc) → Buf (Elt F) ((c : Thread nD τ).loc b) := fun c b => W3 m c b

/-- After region 0: its output array `main_v7` at what the region's write-backs leave, every other buffer as the
    region found it (a region writes no array but its output's). -/
def W4 (c : Dev nD) : Valuation τ sig (Elt F) :=
  Function.update (W3 m c) (Proc.devRef .tc main_v7) ((dat0 (U3 m) c).arrAt 14 cfg0.N)
/-- The same read at the TensorCore's references. -/
abbrev U4 : (c : Dev nD) → (b : Ref sig .tc) → Buf (Elt F) ((c : Thread nD τ).loc b) := fun c b => W4 m c b
theorem W4_out (c : Dev nD) : W4 m c (Proc.devRef .tc main_v7) = (dat0 (U3 m) c).arrAt 14 cfg0.N := by
  unfold W4; exact Function.update_self ..
theorem W4_of_ne (c : Dev nD) (b : Ref sig .tc) (hb : b ≠ main_v7) :
    W4 m c (Proc.devRef .tc b) = W3 m c (Proc.devRef .tc b) := by
  unfold W4; exact Function.update_of_ne (StableHlo.devRef_ne_of_ne hb) ..
/-- No window of region 0 but the last is an output window, and no input window's array is the output's. -/
theorem in_of_ne0 : ∀ w : Fin 15, w ≠ 14 → (cfg0.win w).isOut = false ∧ Pipeline.arrRef spec0 w ≠ main_v7 := by decide
/-- At region 0's exit each of its arrays holds what the pipeline leaves: an input's array is as entered, the
    output's is the fold of its write-backs. -/
theorem hF0 (c : Dev nD) (w : Fin cfg0.W) : (dat0 (U3 m) c).arrAt w cfg0.N = U4 m c (Pipeline.arrRef spec0 w) := by
  by_cases h : w = 14
  · subst h; exact (W4_out m c).symm
  · obtain ⟨hi, hn⟩ := in_of_ne0 w h
    exact (((dat0 (U3 m) c).arrAt_in w hi _).trans (A_eq0 (U3 m) c w)).trans (W4_of_ne m c _ hn).symm
/-- Every buffer that is no array of region 0 is as the region found it. -/
theorem hrest0 (c : Dev nD) : ∀ b, b ∉ Finset.univ.image (Pipeline.arrRef spec0) → U4 m c b = U3 m c b :=
  fun b hb => W4_of_ne m c b fun e => hb (Finset.mem_image.mpr ⟨14, Finset.mem_univ _, e.symm⟩)

/-- After the scatter-adds and the node table: the node kernel's entry. -/
abbrev W5 : Dev nD → Valuation τ sig (Elt F) := fun c => StableHlo.after hostOps1 (W4 m c)
abbrev U5 : (c : Dev nD) → (b : Ref sig .tc) → Buf (Elt F) ((c : Thread nD τ).loc b) := fun c b => W5 m c b

/-- After region 1: its output array `main_v20` at what the region's write-backs leave, every other buffer as the
    region found it (a region writes no array but its output's). -/
def W6 (c : Dev nD) : Valuation τ sig (Elt F) :=
  Function.update (W5 m c) (Proc.devRef .tc main_v20) ((dat1 (U5 m) c).arrAt 9 cfg1.N)
/-- The same read at the TensorCore's references. -/
abbrev U6 : (c : Dev nD) → (b : Ref sig .tc) → Buf (Elt F) ((c : Thread nD τ).loc b) := fun c b => W6 m c b
theorem W6_out (c : Dev nD) : W6 m c (Proc.devRef .tc main_v20) = (dat1 (U5 m) c).arrAt 9 cfg1.N := by
  unfold W6; exact Function.update_self ..
theorem W6_of_ne (c : Dev nD) (b : Ref sig .tc) (hb : b ≠ main_v20) :
    W6 m c (Proc.devRef .tc b) = W5 m c (Proc.devRef .tc b) := by
  unfold W6; exact Function.update_of_ne (StableHlo.devRef_ne_of_ne hb) ..
/-- No window of region 1 but the last is an output window, and no input window's array is the output's. -/
theorem in_of_ne1 : ∀ w : Fin 10, w ≠ 9 → (cfg1.win w).isOut = false ∧ Pipeline.arrRef spec1 w ≠ main_v20 := by decide
/-- At region 1's exit each of its arrays holds what the pipeline leaves: an input's array is as entered, the
    output's is the fold of its write-backs. -/
theorem hF1 (c : Dev nD) (w : Fin cfg1.W) : (dat1 (U5 m) c).arrAt w cfg1.N = U6 m c (Pipeline.arrRef spec1 w) := by
  by_cases h : w = 9
  · subst h; exact (W6_out m c).symm
  · obtain ⟨hi, hn⟩ := in_of_ne1 w h
    exact (((dat1 (U5 m) c).arrAt_in w hi _).trans (A_eq1 (U5 m) c w)).trans (W6_of_ne m c _ hn).symm
/-- Every buffer that is no array of region 1 is as the region found it. -/
theorem hrest1 (c : Dev nD) : ∀ b, b ∉ Finset.univ.image (Pipeline.arrRef spec1) → U6 m c b = U5 m c b :=
  fun b hb => W6_of_ne m c b fun e => hb (Finset.mem_image.mpr ⟨9, Finset.mem_univ _, e.symm⟩)

/-- After the two slices: the adjacency kernel's entry. -/
abbrev W7 : Dev nD → Valuation τ sig (Elt F) := fun c => StableHlo.after hostOps2 (W6 m c)
abbrev U7 : (c : Dev nD) → (b : Ref sig .tc) → Buf (Elt F) ((c : Thread nD τ).loc b) := fun c b => W7 m c b

/-- After region 2: its output array `main_v23` at what the region's write-backs leave, every other buffer as the
    region found it (a region writes no array but its output's). -/
def W8 (c : Dev nD) : Valuation τ sig (Elt F) :=
  Function.update (W7 m c) (Proc.devRef .tc main_v23) ((dat2 (U7 m) shareL shareR c).arrAt 2 cfg2.N)
/-- The same read at the TensorCore's references. -/
abbrev U8 : (c : Dev nD) → (b : Ref sig .tc) → Buf (Elt F) ((c : Thread nD τ).loc b) := fun c b => W8 m c b
theorem W8_out (c : Dev nD) : W8 m c (Proc.devRef .tc main_v23) = (dat2 (U7 m) shareL shareR c).arrAt 2 cfg2.N := by
  unfold W8; exact Function.update_self ..
theorem W8_of_ne (c : Dev nD) (b : Ref sig .tc) (hb : b ≠ main_v23) :
    W8 m c (Proc.devRef .tc b) = W7 m c (Proc.devRef .tc b) := by
  unfold W8; exact Function.update_of_ne (StableHlo.devRef_ne_of_ne hb) ..
/-- No window of region 2 but the last is an output window, and no input window's array is the output's. -/
theorem in_of_ne2 : ∀ w : Fin 3, w ≠ 2 → (cfg2.win w).isOut = false ∧ Pipeline.arrRef spec2 w ≠ main_v23 := by decide
/-- At region 2's exit each of its arrays holds what the pipeline leaves: an input's array is as entered, the
    output's is the fold of its write-backs. -/
theorem hF2 (c : Dev nD) (w : Fin cfg2.W) : (dat2 (U7 m) shareL shareR c).arrAt w cfg2.N = U8 m c (Pipeline.arrRef spec2 w) := by
  by_cases h : w = 2
  · subst h; exact (W8_out m c).symm
  · obtain ⟨hi, hn⟩ := in_of_ne2 w h
    exact (((dat2 (U7 m) shareL shareR c).arrAt_in w hi _).trans (A_eq2 (U7 m) shareL shareR c w)).trans (W8_of_ne m c _ hn).symm
/-- Every buffer that is no array of region 2 is as the region found it. -/
theorem hrest2 (c : Dev nD) : ∀ b, b ∉ Finset.univ.image (Pipeline.arrRef spec2) → U8 m c b = U7 m c b :=
  fun b hb => W8_of_ne m c b fun e => hb (Finset.mem_image.mpr ⟨2, Finset.mem_univ _, e.symm⟩)

end Cert.Kernel.Hand

end
-- ==== Proof.KbRun.lean ====
/-
  The kernel program's run, from the launch to the return, with every unscoped buffer named at the end.

  Each of the three regions is entered from the contents of the fold before it and left at the contents after it; its
  proof data are those of its own module, at the contents it is entered with. Its arrays are split out of the
  unscoped buffers at entry and put back at exit (the adjacency kernel's shared array in two halves). The run: every
  weakly fair execution terminates, nothing faults, and at the end every unscoped buffer holds the last contents of
  the fold.
-/
import proofs.«414572_j55508157334089_2_alg».proof.Proof.KbFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (U3 m) c
  | ⟨1, _⟩ => fun c => dat1 (U5 m) c
  | ⟨2, _⟩ => fun c => dat2 (U7 m) shareL shareR c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered with every unscoped buffer at the contents before it, left with them at
    the contents after it. Its arrays are split out of the unscoped buffers at entry and put back at exit; the
    generator register goes into the region's invariant and comes out; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers at entry and put back at exit; the
    generator register goes into the region's invariant and comes out; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it. Its arrays are split out of the unscoped buffers at entry and put back at exit; the
    generator register goes into the region's invariant and comes out; nothing is owed; the kernel has no semaphore
    of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (U7 m) shareL shareR c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none]
    have hsplit := arrays2_of_unscopedBufs (F := F) c (pdats m 2 c) rfl rfl (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (F := F) c (pdats m 2 c) rfl rfl
      (U7 m c) (U8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

set_option backward.isDefEq.respectTransparency.types false in
/-- THE RUN. From any memory with zero counters, every weakly fair execution of @main on the TensorCores terminates,
    nothing faulting, and in every final state each unscoped buffer holds the last contents of the fold. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## The frame: no item of @main writes an argument -/

/-- A reference that no host stretch writes and that is no region's output reaches the end as launched. -/
theorem W8_arg (c : Dev nD) (r : Ref sig .tc) (h0 : r ∉ hostOps0_W) (h1 : r ∉ hostOps0_1_W) (h2 : r ∉ hostOps0_2_W)
    (h3 : r ≠ main_v7) (h4 : r ∉ hostOps1_W) (h5 : r ≠ main_v20) (h6 : r ∉ hostOps2_W) (h7 : r ≠ main_v23) :
    W8 m c (Proc.devRef .tc r) = m ((c : Thread nD τ).loc r) :=
  (W8_of_ne m c r h7).trans <| (StableHlo.after_of_writes_sub hostOps2 _ hostOps2_writes h6).trans <|
  (W6_of_ne m c r h5).trans <| (StableHlo.after_of_writes_sub hostOps1 _ hostOps1_writes h4).trans <|
  (W4_of_ne m c r h3).trans <| (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- THE FRAME, at any `F`: every weakly fair execution of @main terminates, nothing faulting, and every final state
    has the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
    (h c _ (mem_uc main_arg0 (by decide))).trans (W8_arg m c main_arg0 (by decide) (by decide) (by decide) (by decide) (by decide) (by decide) (by decide) (by decide)),
    (h c _ (mem_uc main_arg1 (by decide))).trans (W8_arg m c main_arg1 (by decide) (by decide) (by decide) (by decide) (by decide) (by decide) (by decide) (by decide)),
    (h c _ (mem_uc main_arg2 (by decide))).trans (W8_arg m c main_arg2 (by decide) (by decide) (by decide) (by decide) (by decide) (by decide) (by decide) (by decide)),
    (h c _ (mem_uc main_arg3 (by decide))).trans (W8_arg m c main_arg3 (by decide) (by decide) (by decide) (by decide) (by decide) (by decide) (by decide) (by decide)),
    (h c _ (mem_uc main_arg4 (by decide))).trans (W8_arg m c main_arg4 (by decide) (by decide) (by decide) (by decide) (by decide) (by decide) (by decide) (by decide)),
    (h c _ (mem_uc main_arg5 (by decide))).trans (W8_arg m c main_arg5 (by decide) (by decide) (by decide) (by decide) (by decide) (by decide) (by decide) (by decide)),
    (h c _ (mem_uc main_arg6 (by decide))).trans (W8_arg m c main_arg6 (by decide) (by decide) (by decide) (by decide) (by decide) (by decide) (by decide) (by decide)),
    (h c _ (mem_uc main_arg7 (by decide))).trans (W8_arg m c main_arg7 (by decide) (by decide) (by decide) (by decide) (by decide) (by decide) (by decide) (by decide)),
    (h c _ (mem_uc main_arg8 (by decide))).trans (W8_arg m c main_arg8 (by decide) (by decide) (by decide) (by decide) (by decide) (by decide) (by decide) (by decide)),
    (h c _ (mem_uc main_arg9 (by decide))).trans (W8_arg m c main_arg9 (by decide) (by decide) (by decide) (by decide) (by decide) (by decide) (by decide) (by decide)),
    (h c _ (mem_uc main_arg10 (by decide))).trans (W8_arg m c main_arg10 (by decide) (by decide) (by decide) (by decide) (by decide) (by decide) (by decide) (by decide)),
    (h c _ (mem_uc main_arg11 (by decide))).trans (W8_arg m c main_arg11 (by decide) (by decide) (by decide) (by decide) (by decide) (by decide) (by decide) (by decide)),
    (h c _ (mem_uc main_arg12 (by decide))).trans (W8_arg m c main_arg12 (by decide) (by decide) (by decide) (by decide) (by decide) (by decide) (by decide) (by decide)),
    (h c _ (mem_uc main_arg13 (by decide))).trans (W8_arg m c main_arg13 (by decide) (by decide) (by decide) (by decide) (by decide) (by decide) (by decide) (by decide)),
    (h c _ (mem_uc main_arg14 (by decide))).trans (W8_arg m c main_arg14 (by decide) (by decide) (by decide) (by decide) (by decide) (by decide) (by decide) (by decide)),
    (h c _ (mem_uc main_arg15 (by decide))).trans (W8_arg m c main_arg15 (by decide) (by decide) (by decide) (by decide) (by decide) (by decide) (by decide) (by decide)),
    (h c _ (mem_uc main_arg16 (by decide))).trans (W8_arg m c main_arg16 (by decide) (by decide) (by decide) (by decide) (by decide) (by decide) (by decide) (by decide)),
    (h c _ (mem_uc main_arg17 (by decide))).trans (W8_arg m c main_arg17 (by decide) (by decide) (by decide) (by decide) (by decide) (by decide) (by decide) (by decide)),
    (h c _ (mem_uc main_arg18 (by decide))).trans (W8_arg m c main_arg18 (by decide) (by decide) (by decide) (by decide) (by decide) (by decide) (by decide) (by decide)),
    (h c _ (mem_uc main_arg19 (by decide))).trans (W8_arg m c main_arg19 (by decide) (by decide) (by decide) (by decide) (by decide) (by decide) (by decide) (by decide)),
    (h c _ (mem_uc main_arg20 (by decide))).trans (W8_arg m c main_arg20 (by decide) (by decide) (by decide) (by decide) (by decide) (by decide) (by decide) (by decide)),
    (h c _ (mem_uc main_arg21 (by decide))).trans (W8_arg m c main_arg21 (by decide) (by decide) (by decide) (by decide) (by decide) (by decide) (by decide) (by decide)),
    (h c _ (mem_uc main_arg22 (by decide))).trans (W8_arg m c main_arg22 (by decide) (by decide) (by decide) (by decide) (by decide) (by decide) (by decide) (by decide))⟩) (run_all m ρ)

end Cert.Kernel.Hand

end
-- ==== Proof.KiPay.lean ====
/-
  The three kernel bodies as pure functions of the blocks they are handed.

  Each body loads every input window's staging buffer whole, computes, and stores one value over its output window's
  whole buffer. The stored value, as a function of the loaded buffers in the order of the windows, is named here
  once for each kernel: the edge kernel's packed slab of 75 columns (edge messages, coordinate updates, edge
  embeddings, reconstructed edge features), the node kernel's packed slab of 72 columns (node embeddings,
  reconstructed node features) and the adjacency kernel's block of rows, which also reads which block of rows it is.
  A window's block at a grid point, read off the array the region finds, is named here too.
-/
import proofs.«414572_j55508157334089_2_alg».proof.Proof.Gen.KernelIdeal.Skeleton
import proofs.«414572_j55508157334089_2_alg».proof.Proof.Gen.KernelIdeal.Launch
import proofs.«414572_j55508157334089_2_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe Idealize.SL.Sem

variable {F : FTy → Type} [FloatOps F]

/-- The edge kernel's stored slab from its fourteen loaded buffers, in the order of its input windows: the gathered
    rows of the two endpoints, the edge attributes, then the weights and biases. -/
def edgePay (x0 x1 : Vec F S4000x67 .f32) (x2 : Vec F S4000x32 .f32) (x3 : Vec F S161x128 .f32) (x4 : Vec F S128 .f32)
    (x5 : Vec F S128x32 .f32) (x6 : Vec F S32 .f32) (x7 : Vec F S32x2 .f32) (x8 : Vec F S2 .f32) (x9 : Vec F S2x1 .f32)
    (x10 : Vec F S32x8 .f32) (x11 : Vec F S8 .f32) (x12 : Vec F S8x32 .f32) (x13 : Vec F S32 .f32) : Vec F S4000x75 .f32 :=
  k0_pay1 (k0_pay6 x0 x1) (k0_pay7 x0 x1 x2 x3 x4 x5 x6) (k0_pay8 x0 x1 x2 x3 x4 x5 x6 x7) (k0_pay9 x8) x9 x10 x11 x12 x13

/-- The node kernel's stored slab from its nine loaded buffers, in the order of its input windows. -/
def nodePay (x0 : Vec F S2000x99 .f32) (x1 : Vec F S99x128 .f32) (x2 : Vec F S128 .f32) (x3 : Vec F S128x64 .f32)
    (x4 : Vec F S64 .f32) (x5 : Vec F S64x8 .f32) (x6 : Vec F S8 .f32) (x7 : Vec F S8x64 .f32) (x8 : Vec F S64 .f32) :
    Vec F S2000x72 .f32 :=
  k1_pay1 x0 x1 x2 x3 x4 x5 x6 x7 x8

/-- The adjacency kernel's stored block of 200 rows at grid coordinates `i`, from the block of embeddings of its own
    rows and the whole table of embeddings. -/
def adjPay (i : grid2.Coords) (x0 : Vec F S200x8 .f32) (x1 : Vec F S10000x8 .f32) : Vec F S200x10000 .f32 :=
  k2_pay1 i x0 x1

section Blocks

variable (V : (c : Dev nD) → (b : Ref sig .tc) → Buf (Elt F) ((c : Thread nD τ).loc b))

/-- Window `w` of the edge kernel at grid point `t`: its block of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the node kernel at grid point `t`: its block of the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window `w` of the adjacency kernel at grid point `t`: its block of the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Blocks

end Cert.KernelIdeal.Hand

end
-- ==== Proof.KiRegion0.lean ====
/-
  The edge kernel's region, at whatever contents the TensorCore's buffers hold when the region is entered.

  At every grid point the body reads each of its fourteen input windows' buffers whole and writes one slab of 75
  columns over the whole of its output window's buffer. So each input buffer holds, at every point, its window's block
  of the array the region found (a window whose block index never moves is brought in once and stays), and the output
  buffer holds after the body the slab computed from those fourteen blocks. These facts, the body's triple, and the
  proof data that record them give the body obligation of the pipeline at every grid point.
-/
import proofs.«414572_j55508157334089_2_alg».proof.Proof.KiPay
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows is looked at once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## Each input window's buffer holds its block at every point -/

/-- Input window 0's current buffer holds its block at every point, brought in there or not (where it is not, the
    block index has not moved), for any proof data over the region's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, brought in there or not (where it is not, the
    block index has not moved), for any proof data over the region's arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, brought in there or not (where it is not, the
    block index has not moved), for any proof data over the region's arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, brought in there or not (where it is not, the
    block index has not moved), for any proof data over the region's arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, brought in there or not (where it is not, the
    block index has not moved), for any proof data over the region's arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, brought in there or not (where it is not, the
    block index has not moved), for any proof data over the region's arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, brought in there or not (where it is not, the
    block index has not moved), for any proof data over the region's arrays whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, brought in there or not (where it is not, the
    block index has not moved), for any proof data over the region's arrays whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current buffer holds its block at every point, brought in there or not (where it is not, the
    block index has not moved), for any proof data over the region's arrays whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current buffer holds its block at every point, brought in there or not (where it is not, the
    block index has not moved), for any proof data over the region's arrays whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current buffer holds its block at every point, brought in there or not (where it is not, the
    block index has not moved), for any proof data over the region's arrays whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's current buffer holds its block at every point, brought in there or not (where it is not, the
    block index has not moved), for any proof data over the region's arrays whose body leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's current buffer holds its block at every point, brought in there or not (where it is not, the
    block index has not moved), for any proof data over the region's arrays whose body leaves the block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's current buffer holds its block at every point, brought in there or not (where it is not, the
    block index has not moved), for any proof data over the region's arrays whose body leaves the block in place. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer whole -/

abbrev rect0_0 : Rect S4000x67 := Rect.unit (s := S4000x67) ![0, 0] S4000x67.size inb_S4000x67_S4000x67_0_0
abbrev rect0_1 : Rect S4000x67 := Rect.unit (s := S4000x67) ![0, 0] S4000x67.size inb_S4000x67_S4000x67_0_0
abbrev rect0_2 : Rect S4000x32 := Rect.unit (s := S4000x32) ![0, 0] S4000x32.size inb_S4000x32_S4000x32_0_0
abbrev rect0_3 : Rect S161x128 := Rect.unit (s := S161x128) ![0, 0] S161x128.size inb_S161x128_S161x128_0_0
abbrev rect0_4 : Rect S128 := Rect.unit (s := S128) ![0] S128.size inb_S128_S128_0
abbrev rect0_5 : Rect S128x32 := Rect.unit (s := S128x32) ![0, 0] S128x32.size inb_S128x32_S128x32_0_0
abbrev rect0_6 : Rect S32 := Rect.unit (s := S32) ![0] S32.size inb_S32_S32_0
abbrev rect0_7 : Rect S32x2 := Rect.unit (s := S32x2) ![0, 0] S32x2.size inb_S32x2_S32x2_0_0
abbrev rect0_8 : Rect S2 := Rect.unit (s := S2) ![0] S2.size inb_S2_S2_0
abbrev rect0_9 : Rect S2x1 := Rect.unit (s := S2x1) ![0, 0] S2x1.size inb_S2x1_S2x1_0_0
abbrev rect0_10 : Rect S32x8 := Rect.unit (s := S32x8) ![0, 0] S32x8.size inb_S32x8_S32x8_0_0
abbrev rect0_11 : Rect S8 := Rect.unit (s := S8) ![0] S8.size inb_S8_S8_0
abbrev rect0_12 : Rect S8x32 := Rect.unit (s := S8x32) ![0, 0] S8x32.size inb_S8x32_S8x32_0_0
abbrev rect0_13 : Rect S32 := Rect.unit (s := S32) ![0] S32.size inb_S32_S32_0
abbrev rect0_14 : Rect S4000x75 := Rect.unit (s := S4000x75) ![0, 0] S4000x75.size inb_S4000x75_S4000x75_0_0

/-- The offsets of a whole rectangle are zero on every axis. -/
private theorem zero_off1 : (![0] : Fin 1 → Nat) = fun _ => 0 := by funext a; fin_cases a; rfl
private theorem zero_off2 : (![0, 0] : Fin 2 → Nat) = fun _ => 0 := by funext a; fin_cases a <;> rfl

/-! ## What the body leaves in the output window's buffer -/

/-- The output window's buffer after the body, from the input windows' blocks: the one store over the whole buffer,
    its value the slab of the buffers read whole. -/
def out0_14 (x0 : Vec F S4000x67 .f32) (x1 : Vec F S4000x67 .f32) (x2 : Vec F S4000x32 .f32) (x3 : Vec F S161x128 .f32) (x4 : Vec F S128 .f32) (x5 : Vec F S128x32 .f32) (x6 : Vec F S32 .f32) (x7 : Vec F S32x2 .f32) (x8 : Vec F S2 .f32) (x9 : Vec F S2x1 .f32) (x10 : Vec F S32x8 .f32) (x11 : Vec F S8 .f32) (x12 : Vec F S8x32 .f32) (x13 : Vec F S32 .f32) : Vec F S4000x75 .f32 :=
  View.canon [⟨rect0_14, edgePay (View.ld x0 rect0_0) (View.ld x1 rect0_1) (View.ld x2 rect0_2) (View.ld x3 rect0_3) (View.ld x4 rect0_4) (View.ld x5 rect0_5) (View.ld x6 rect0_6) (View.ld x7 rect0_7) (View.ld x8 rect0_8) (View.ld x9 rect0_9) (View.ld x10 rect0_10) (View.ld x11 rect0_11) (View.ld x12 rect0_12) (View.ld x13 rect0_13)⟩]

/-- The one store is over the whole buffer, so it covers it. -/
theorem cover0_14 (p0 : Vec F S4000x75 .f32) (y : S4000x75.Idx) :
    ∃ pc ∈ ([⟨rect0_14, p0⟩] : List (View.Piece (Elt F) S4000x75 .f32)), y ∈ pc.1.set :=
  View.cover_of_tiled [⟨rect0_14, p0⟩] S4000x75.size (by rfl) y

/-- A store over the whole buffer leaves its value, and a read of a whole buffer reads its contents: the output
    buffer after the body is the slab of the fourteen blocks. -/
theorem out0_14_eq (x0 : Vec F S4000x67 .f32) (x1 : Vec F S4000x67 .f32) (x2 : Vec F S4000x32 .f32) (x3 : Vec F S161x128 .f32) (x4 : Vec F S128 .f32) (x5 : Vec F S128x32 .f32) (x6 : Vec F S32 .f32) (x7 : Vec F S32x2 .f32) (x8 : Vec F S2 .f32) (x9 : Vec F S2x1 .f32) (x10 : Vec F S32x8 .f32) (x11 : Vec F S8 .f32) (x12 : Vec F S8x32 .f32) (x13 : Vec F S32 .f32) :
    out0_14 x0 x1 x2 x3 x4 x5 x6 x7 x8 x9 x10 x11 x12 x13 = edgePay x0 x1 x2 x3 x4 x5 x6 x7 x8 x9 x10 x11 x12 x13 := by
  unfold out0_14
  rw [View.canon_unit_zero zero_off2]
  simp only [View.ld_unit_zero (S := S4000x67) zero_off2, View.ld_unit_zero (S := S4000x32) zero_off2, View.ld_unit_zero (S := S161x128) zero_off2, View.ld_unit_zero (S := S128) zero_off1, View.ld_unit_zero (S := S128x32) zero_off2, View.ld_unit_zero (S := S32) zero_off1, View.ld_unit_zero (S := S32x2) zero_off2, View.ld_unit_zero (S := S2) zero_off1, View.ld_unit_zero (S := S2x1) zero_off2, View.ld_unit_zero (S := S32x8) zero_off2, View.ld_unit_zero (S := S8) zero_off1, View.ld_unit_zero (S := S8x32) zero_off2]

/-! ## The body's triple -/

set_option maxHeartbeats 4000000 in
/-- The body on whole buffers, the inputs' at contents `xW` and the output's at anything, runs to the continuation
    holding the inputs' as they were and the output's at `out0_14` of the inputs'. -/
theorem sound_kernel0 (c : Dev nD) (E : Set ℕ) (i : grid0.Coords)
    (arg1 : Memref sig .tc .vmem S4000x67 .f32) (harg1 : arg1.IsWhole)
    (arg2 : Memref sig .tc .vmem S4000x67 .f32) (harg2 : arg2.IsWhole)
    (arg3 : Memref sig .tc .vmem S4000x32 .f32) (harg3 : arg3.IsWhole)
    (arg4 : Memref sig .tc .vmem S161x128 .f32) (harg4 : arg4.IsWhole)
    (arg5 : Memref sig .tc .vmem S128 .f32) (harg5 : arg5.IsWhole)
    (arg6 : Memref sig .tc .vmem S128x32 .f32) (harg6 : arg6.IsWhole)
    (arg7 : Memref sig .tc .vmem S32 .f32) (harg7 : arg7.IsWhole)
    (arg8 : Memref sig .tc .vmem S32x2 .f32) (harg8 : arg8.IsWhole)
    (arg9 : Memref sig .tc .vmem S2 .f32) (harg9 : arg9.IsWhole)
    (arg10 : Memref sig .tc .vmem S2x1 .f32) (harg10 : arg10.IsWhole)
    (arg11 : Memref sig .tc .vmem S32x8 .f32) (harg11 : arg11.IsWhole)
    (arg12 : Memref sig .tc .vmem S8 .f32) (harg12 : arg12.IsWhole)
    (arg13 : Memref sig .tc .vmem S8x32 .f32) (harg13 : arg13.IsWhole)
    (arg14 : Memref sig .tc .vmem S32 .f32) (harg14 : arg14.IsWhole)
    (arg15 : Memref sig .tc .vmem S4000x75 .f32) (harg15 : arg15.IsWhole)
    (x0 : Vec F S4000x67 .f32) (x1 : Vec F S4000x67 .f32) (x2 : Vec F S4000x32 .f32) (x3 : Vec F S161x128 .f32) (x4 : Vec F S128 .f32) (x5 : Vec F S128x32 .f32) (x6 : Vec F S32 .f32) (x7 : Vec F S32x2 .f32) (x8 : Vec F S2 .f32) (x9 : Vec F S2x1 .f32) (x10 : Vec F S32x8 .f32) (x11 : Vec F S8 .f32) (x12 : Vec F S8x32 .f32) (x13 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The pipeline's proof data -/

/-- The proof data of the edge kernel's pipeline on core `c`: the arrays as the region finds them; after the body at
    point `t` each input's buffer at its block and the output's at `out0_14` of the input blocks; the invariant that
    leaves everything else untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) :
    (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- Each input's current buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 2000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ (grid0.coords t) _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KiRegion1.lean ====
/-
  The node kernel's call (the second of the three kernel calls), as one pipelined loop over its five blocks of 2000
  node rows: what each window's staging buffer holds when the body is handed it, and what the body leaves.

  Every input window's buffer holds that window's block of the array the call finds — the block of node rows moves
  with the grid point, the eight weight and bias windows have one block, fetched once and left in place. The body
  reads all nine buffers whole and overwrites the whole output buffer with the node slab of those nine blocks
  (`nodePay`); the one store covers the buffer, so what the buffer held before is forgotten. The facts are stated
  for any contents `V` of the core's buffers at the call's entry.
-/
import proofs.«414572_j55508157334089_2_alg».proof.Proof.KiPay
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the call is entered: the parameter every statement below is made at
variable (V : (c : Dev nD) → (b : Ref sig .tc) → Buf (Elt F) ((c : Thread nD τ).loc b))

/-! ## An input window's buffer holds its block at every point -/

/-- Input window 0's current staging buffer holds its block at every grid point, fetched there or not (where it is
    not fetched the block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, fetched there or not (where it is
    not fetched the block index has not moved), for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, fetched there or not (where it is
    not fetched the block index has not moved), for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every grid point, fetched there or not (where it is
    not fetched the block index has not moved), for any proof data whose array is `V`'s and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every grid point, fetched there or not (where it is
    not fetched the block index has not moved), for any proof data whose array is `V`'s and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every grid point, fetched there or not (where it is
    not fetched the block index has not moved), for any proof data whose array is `V`'s and whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every grid point, fetched there or not (where it is
    not fetched the block index has not moved), for any proof data whose array is `V`'s and whose body leaves the
    block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every grid point, fetched there or not (where it is
    not fetched the block index has not moved), for any proof data whose array is `V`'s and whose body leaves the
    block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every grid point, fetched there or not (where it is
    not fetched the block index has not moved), for any proof data whose array is `V`'s and whose body leaves the
    block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole, from offset zero -/

abbrev r1_0 : Rect S2000x99 := Rect.unit (s := S2000x99) ![0, 0] S2000x99.size inb_S2000x99_S2000x99_0_0
abbrev r1_1 : Rect S99x128 := Rect.unit (s := S99x128) ![0, 0] S99x128.size inb_S99x128_S99x128_0_0
abbrev r1_2 : Rect S128 := Rect.unit (s := S128) ![0] S128.size inb_S128_S128_0
abbrev r1_3 : Rect S128x64 := Rect.unit (s := S128x64) ![0, 0] S128x64.size inb_S128x64_S128x64_0_0
abbrev r1_4 : Rect S64 := Rect.unit (s := S64) ![0] S64.size inb_S64_S64_0
abbrev r1_5 : Rect S64x8 := Rect.unit (s := S64x8) ![0, 0] S64x8.size inb_S64x8_S64x8_0_0
abbrev r1_6 : Rect S8 := Rect.unit (s := S8) ![0] S8.size inb_S8_S8_0
abbrev r1_7 : Rect S8x64 := Rect.unit (s := S8x64) ![0, 0] S8x64.size inb_S8x64_S8x64_0_0
abbrev r1_8 : Rect S64 := Rect.unit (s := S64) ![0] S64.size inb_S64_S64_0
abbrev r1_9 : Rect S2000x72 := Rect.unit (s := S2000x72) ![0, 0] S2000x72.size inb_S2000x72_S2000x72_0_0

/-! ## What the body leaves in the output window's buffer -/

/-- The output window's staging buffer after the body, from the nine input blocks: its one store, of the node slab
    of the blocks as loaded, over the whole buffer. -/
def out1_9 (x0 : Vec F S2000x99 .f32) (x1 : Vec F S99x128 .f32) (x2 : Vec F S128 .f32) (x3 : Vec F S128x64 .f32) (x4 : Vec F S64 .f32) (x5 : Vec F S64x8 .f32) (x6 : Vec F S8 .f32) (x7 : Vec F S8x64 .f32) (x8 : Vec F S64 .f32) : Vec F S2000x72 .f32 :=
  View.canon [⟨r1_9, nodePay (View.ld x0 r1_0) (View.ld x1 r1_1) (View.ld x2 r1_2) (View.ld x3 r1_3) (View.ld x4 r1_4) (View.ld x5 r1_5) (View.ld x6 r1_6) (View.ld x7 r1_7) (View.ld x8 r1_8)⟩]

/-- The one store's rectangle is the whole buffer, so it covers it. -/
theorem cover1_9 (p0 : Vec F S2000x72 .f32) (y : S2000x72.Idx) :
    ∃ pc ∈ ([⟨r1_9, p0⟩] : List (View.Piece (Elt F) S2000x72 .f32)), y ∈ pc.1.set :=
  View.cover_of_tiled [⟨r1_9, p0⟩] S2000x72.size (by rfl) y

/-- A whole-buffer load reads the buffer and the one whole-buffer store leaves its value: the buffer after the body
    is the node slab of the nine blocks. -/
theorem out1_9_eq (x0 : Vec F S2000x99 .f32) (x1 : Vec F S99x128 .f32) (x2 : Vec F S128 .f32) (x3 : Vec F S128x64 .f32) (x4 : Vec F S64 .f32) (x5 : Vec F S64x8 .f32) (x6 : Vec F S8 .f32) (x7 : Vec F S8x64 .f32) (x8 : Vec F S64 .f32) :
    out1_9 x0 x1 x2 x3 x4 x5 x6 x7 x8 = nodePay x0 x1 x2 x3 x4 x5 x6 x7 x8 := by
  have hz2 : (![0, 0] : Fin 2 → Nat) = fun _ => 0 := by funext a; fin_cases a <;> rfl
  have hz1 : (![0] : Fin 1 → Nat) = fun _ => 0 := by funext a; fin_cases a; rfl
  unfold out1_9
  rw [View.canon_unit_zero (S := S2000x72) hz2]
  simp only [View.ld_unit_zero (S := S2000x99) hz2, View.ld_unit_zero (S := S99x128) hz2, View.ld_unit_zero (S := S128) hz1, View.ld_unit_zero (S := S128x64) hz2, View.ld_unit_zero (S := S64) hz1, View.ld_unit_zero (S := S64x8) hz2, View.ld_unit_zero (S := S8) hz1, View.ld_unit_zero (S := S8x64) hz2]

/-! ## The body's triple -/

set_option maxHeartbeats 4000000 in
/-- The kernel body on whole staging buffers, the nine inputs' at contents `x0 … x8` and the output's at anything,
    runs to the continuation holding the inputs' as they were and the output's at `out1_9` of them: nine whole loads,
    a load of the output buffer whose value is not used, and the one covering store. -/
theorem sound_kernel1 (c : Dev nD) (E : Set ℕ) (i : grid1.Coords) (arg0 : Memref sig .tc .vmem S2000x99 .f32) (harg0 : arg0.IsWhole) (arg1 : Memref sig .tc .vmem S99x128 .f32) (harg1 : arg1.IsWhole) (arg2 : Memref sig .tc .vmem S128 .f32) (harg2 : arg2.IsWhole) (arg3 : Memref sig .tc .vmem S128x64 .f32) (harg3 : arg3.IsWhole) (arg4 : Memref sig .tc .vmem S64 .f32) (harg4 : arg4.IsWhole) (arg5 : Memref sig .tc .vmem S64x8 .f32) (harg5 : arg5.IsWhole) (arg6 : Memref sig .tc .vmem S8 .f32) (harg6 : arg6.IsWhole) (arg7 : Memref sig .tc .vmem S8x64 .f32) (harg7 : arg7.IsWhole) (arg8 : Memref sig .tc .vmem S64 .f32) (harg8 : arg8.IsWhole) (arg9 : Memref sig .tc .vmem S2000x72 .f32) (harg9 : arg9.IsWhole)
    (x0 : Vec F S2000x99 .f32) (x1 : Vec F S99x128 .f32) (x2 : Vec F S128 .f32) (x3 : Vec F S128x64 .f32) (x4 : Vec F S64 .f32) (x5 : Vec F S64x8 .f32) (x6 : Vec F S8 .f32) (x7 : Vec F S8x64 .f32) (x8 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__node_kernel i arg0 harg0 arg1 harg1 arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of the node kernel's pipeline on core `c`: the arrays as the call finds them (`V`); after the
    body at point `t` each input's buffer at its block and the output's at `out1_9` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KiRegion2.lean ====
/-
  The adjacency kernel's region, the half that concerns its body alone.

  The region runs the body once per block of 200 rows. At each point the body is handed three buffers: the block of
  200 rows of the table of embeddings that belongs to the point, the whole table of 10000 rows (the same at every
  point: its index does not move), and the buffer of the output's block of 200 rows by 10000 columns. It reads the two
  input buffers whole and overwrites the output buffer whole with one value, a function of the two buffers read and of
  the point's coordinates. Stated here, at ANY contents the region may be entered with: what each input buffer holds
  when the body is called (its block of the array found), what the output buffer holds afterwards (the stored value,
  since the one store covers the buffer), the body's triple, the proof data of the region (the two input windows read
  ONE array, so each holds it at a share given as a parameter) and the obligation the region's loop asks of the body.
-/
import proofs.«414572_j55508157334089_2_alg».proof.Proof.KiPay
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of 10000 columns: one step of recursion per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents when the region is entered: the parameter everything below is stated at
variable (V : (c : Dev nD) → (b : Ref sig .tc) → Buf (Elt F) ((c : Thread nD τ).loc b))

/-! ## What the input buffers hold when the body is called -/

/-- Input window 0 (the point's own block of 200 rows) holds its block of the array found, at every point, for any
    proof data over that array whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole table) holds its block of the array found, at every point, fetched there or not: its
    block index is the same at every point, so where it is not fetched the buffer still holds the block of the point
    before, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes through: each buffer whole, at offsets zero -/

abbrev r2_0 : Rect S200x8 := Rect.unit (s := S200x8) ![0, 0] S200x8.size inb_S200x8_S200x8_0_0
abbrev r2_1 : Rect S10000x8 := Rect.unit (s := S10000x8) ![0, 0] S10000x8.size inb_S10000x8_S10000x8_0_0
abbrev r2_2 : Rect S200x10000 := Rect.unit (s := S200x10000) ![0, 0] S200x10000.size inb_S200x10000_S200x10000_0_0

/-- The offsets of every one of them are zero. -/
theorem hz2 : (![0, 0] : Fin 2 → Nat) = fun _ => 0 := funext fun a => by fin_cases a <;> rfl

/-! ## What the body leaves in the output buffer -/

/-- The output buffer after the body at coordinates i, from the two input buffers: its one store as a piece over
    the whole buffer, the stored value that of the two buffers read through their whole rectangles. -/
def out2_2 (i : grid2.Coords) (x0 : Vec F S200x8 .f32) (x1 : Vec F S10000x8 .f32) : Vec F S200x10000 .f32 :=
  View.canon [⟨r2_2, adjPay i (View.ld x0 r2_0) (View.ld x1 r2_1)⟩]

/-- The one store covers the buffer: its rectangle is the whole shape. -/
theorem cover2_2 (p0 : Vec F S200x10000 .f32) (y : S200x10000.Idx) :
    ∃ pc ∈ ([⟨r2_2, p0⟩] : List (View.Piece (Elt F) S200x10000 .f32)), y ∈ pc.1.set :=
  ⟨_, List.mem_singleton_self _, View.mem_set_unit_zero (S := S200x10000) hz2 inb_S200x10000_S200x10000_0_0 y⟩

/-- So the buffer holds the stored value of the two input buffers themselves: a piece over the whole shape at offsets
    zero leaves its value, and a read through the whole shape at offsets zero reads the contents. -/
theorem out2_2_eq (i : grid2.Coords) (x0 : Vec F S200x8 .f32) (x1 : Vec F S10000x8 .f32) :
    out2_2 i x0 x1 = adjPay i x0 x1 := by
  unfold out2_2
  rw [View.canon_unit_zero (S := S200x10000) hz2]
  simp only [View.ld_unit_zero (S := S200x8) hz2, View.ld_unit_zero (S := S10000x8) hz2]

/-! ## The body's triple -/

set_option maxHeartbeats 1000000 in
/-- The body at coordinates i on three whole buffers, the inputs' at contents x0 and x1 and the output's at
    anything, runs to the continuation holding the inputs' as they were and the output's at out2_2 i x0 x1: two reads,
    a read of the output buffer whose value goes unused, and the one store. -/
theorem sound_kernel2 (c : Dev nD) (E : Set ℕ) (i : grid2.Coords)
    (arg0 : Memref sig .tc .vmem S200x8 .f32) (harg0 : arg0.IsWhole)
    (arg1 : Memref sig .tc .vmem S10000x8 .f32) (harg1 : arg1.IsWhole)
    (arg2 : Memref sig .tc .vmem S200x10000 .f32) (harg2 : arg2.IsWhole)
    (x0 : Vec F S200x8 .f32) (x1 : Vec F S10000x8 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 i x0 x1)) -∗ K ⟨⟩))
      ⊢ wp frame (wpE (defs₀ (F := F)) Variants.none c none) E (cc2__adj_kernel i arg0 harg0 arg1 harg1 arg2 harg2) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of the region on core c: the arrays as the region finds them; after the body at point t each
    input buffer at its block and the output buffer at out2_2 of the point's coordinates and the two input blocks; the
    invariant the plain one (the scoped rest and the generator register, untouched); nothing owed. The two input
    windows read ONE array, so each holds it at a share of its own, qL and qR; the output's array is held whole. -/
def dat2 (qL qR : PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (cfg2.grid.coords t) (iblk2 V c 0 t) (iblk2 V c 1 t)
  Φ _ := Pipeline.ΦA spec2 c
  q w := match w with
    | ⟨0, _⟩ => qL
    | ⟨1, _⟩ => qR
    | ⟨2, _⟩ => fullShare
  owed _ := 0

variable (qL qR : PosShare TreeShare)

/-- The proof data's arrays are the contents the region is entered with. -/
theorem A_eq2 (c : Dev nD) (w : Fin cfg2.W) : (dat2 V qL qR c).A w = V c (Pipeline.arrRef spec2 w) := by
  dsimp only [dat2]

/-- What the body leaves, window by window. -/
theorem after2_0 (c : Dev nD) (t : Fin cfg2.N) : (dat2 V qL qR c).after 0 t = iblk2 V c 0 t := by dsimp only [dat2]
theorem after2_1 (c : Dev nD) (t : Fin cfg2.N) : (dat2 V qL qR c).after 1 t = iblk2 V c 1 t := by dsimp only [dat2]
theorem after2_2 (c : Dev nD) (t : Fin cfg2.N) :
    (dat2 V qL qR c).after 2 t = out2_2 (cfg2.grid.coords t) (iblk2 V c 0 t) (iblk2 V c 1 t) := by dsimp only [dat2]

/-- Each input buffer holds its block at every point, fetched there or not. -/
theorem before2_0 (c : Dev nD) (t : Fin cfg2.N) (d) : (dat2 V qL qR c).before 0 t d = iblk2 V c 0 t :=
  before2_0_of V (dat2 V qL qR c) (A_eq2 V qL qR c 0) (after2_0 V qL qR c) t d
theorem before2_1 (c : Dev nD) (t : Fin cfg2.N) (d) : (dat2 V qL qR c).before 1 t d = iblk2 V c 1 t :=
  before2_1_of V (dat2 V qL qR c) (A_eq2 V qL qR c 1) (after2_1 V qL qR c) t d

/-! ## The body obligation, at a generic point -/

/-- What the body is called with at point t, the windows one by one, -/
def bodyPre2 (c : Dev nD) (t : Fin cfg2.N) : sProp 𝕄 :=
  iprop((dat2 V qL qR c).Φ t.castSucc ∗ (dat2 V qL qR c).owesAt () t.castSucc
    ∗ (∃ d, owns (c : Thread nD τ) (st2_0 t) fullShare ((dat2 V qL qR c).before 0 t d))
    ∗ (∃ d, owns (c : Thread nD τ) (st2_1 t) fullShare ((dat2 V qL qR c).before 1 t d))
    ∗ (∃ d, owns (c : Thread nD τ) (st2_2 t) fullShare ((dat2 V qL qR c).before 2 t d)))

/-- and what it returns. -/
def bodyPost2 (c : Dev nD) (t : Fin cfg2.N) : sProp 𝕄 :=
  iprop((dat2 V qL qR c).Φ t.succ ∗ (dat2 V qL qR c).owesAt () t.succ
    ∗ owns (c : Thread nD τ) (st2_0 t) fullShare ((dat2 V qL qR c).after 0 t)
    ∗ owns (c : Thread nD τ) (st2_1 t) fullShare ((dat2 V qL qR c).after 1 t)
    ∗ owns (c : Thread nD τ) (st2_2 t) fullShare ((dat2 V qL qR c).after 2 t))

/-- The body at any point: the input buffers hold their blocks, so the body's triple applies at the point's
    coordinates; the invariant and what the core owes pass through unread. -/
theorem sound_body2 (c : Dev nD) (t : Fin cfg2.N) :
    bodyPre2 V qL qR c t ⊢ wp frame (wpE (defs₀ (F := F)) Variants.none c none) Set.univ (bodyAt2 t) (fun _ => bodyPost2 V qL qR c t) := by
  unfold bodyPre2 bodyPost2 bodyAt2
  simp only [before2_0, before2_1]
  rw [show (dat2 V qL qR c).Φ t.succ = (dat2 V qL qR c).Φ t.castSucc from rfl,
    show (dat2 V qL qR c).owesAt () t.succ = (dat2 V qL qR c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the region's loop asks of the body, at every point. -/
theorem body_obligation2 (c : Dev nD) : BodyObligation (dat2 (F := F) V qL qR c) (defs₀ (F := F)) Variants.none () Set.univ := fun t => by
  rw [bigSep_W2, bigSep_W2]
  exact sound_body2 V qL qR c t

end Region2

end Cert.KernelIdeal.Hand

end
-- ==== Proof.KiShare2.lean ====
/-
  One array read through two windows: how a region's arrays are taken out of the core's buffers and put back.

  The adjacency region reads the table of embeddings through two input windows — a block of its rows and the whole
  table — and writes its result through a third. The region holds each window's array at a share: an output array
  at the full share, an input array at a share of the proof's choosing. Two windows on ONE buffer cannot both hold
  it at the full share, so the full share of the table is cut into its left and right halves, one for each input
  window; the two halves compose back to the full share. At the region's entry the core's unscoped buffers are
  thereby the region's arrays and the rest; at its exit, both input windows' contents being the table's, the two
  halves are joined again and the unscoped buffers are whole as before, the result written.
-/
import proofs.«414572_j55508157334089_2_alg».proof.Proof.KiPay
import Idealize.ShloMosaic.Lib.Pipeline.RegionsLoop
import Idealize.ShloMosaic.Rules.PointsTo

set_option maxRecDepth 1028

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.SL.RA.PCS

variable {F : FTy → Type} [FloatOps F]

local notation "𝕄" => MT nD τ sig Unit (Elt F) ℕ (UR sig nD τ) ℕ

/-- The left half of the full share: what the window on a block of the table's rows holds the table at. -/
def shareL : PosShare TreeShare := (fullShare : PosShare TreeShare).left

/-- The right half of the full share: what the window on the whole table holds it at. -/
def shareR : PosShare TreeShare := (fullShare : PosShare TreeShare).right

/-- The two halves compose to the full share. -/
theorem share_split : (fullShare : PosShare TreeShare) ∈ shareL ·? shareR := PosShare.mem_left_op_right fullShare

/-- The buffers behind the three windows' arrays are two: the table of embeddings and the result. -/
theorem arrImage2 : Finset.univ.image (Pipeline.arrRef spec2) = {main_v21, main_v23} := by decide

/-- The buffers behind the windows' arrays, whole at the full share: the table and the result. -/
theorem arrBufs2_eq (c : Dev nD) (V : (b : Ref sig .tc) → Buf (Elt F) ((c : Thread nD τ).loc b)) :
    (Pipeline.arrBufs spec2 c V : sProp 𝕄)
      = iprop((((c : Thread nD τ).loc main_v21) ↦{fullShare} V main_v21) ∗ (((c : Thread nD τ).loc main_v23) ↦{fullShare} V main_v23)) := by
  unfold Pipeline.arrBufs
  rw [arrImage2, bigSep_insert (by decide), bigSep_singleton]
  rfl

/-- The core's unscoped buffers are the buffers behind the windows' arrays and the rest. -/
theorem unscopedBufs_split2 (c : Dev nD) (V : (b : Ref sig .tc) → Buf (Elt F) ((c : Thread nD τ).loc b)) :
    (unscopedBufs c V : sProp 𝕄) = iprop((Pipeline.arrBufs spec2 c V : sProp 𝕄) ∗ Pipeline.unscopedRest spec2 c V) :=
  Pipeline.unscopedBufs_split₀ (fun _ : Unit => cfg2) () winFacts₀2.arr_unscoped c V

/-- The window on a block of the table's rows is an input window: it holds the table at the proof's share for it. -/
theorem share2_0 {c : Dev nD} (dat : Pipeline.Dat τ (Elt F) Unit ℕ (UR sig nD τ) ℕ cfg2 c) (hq0 : dat.q 0 = shareL) :
    dat.share 0 = shareL := (if_neg (by decide)).trans hq0

/-- The window on the whole table is an input window: it holds the table at the proof's share for it. -/
theorem share2_1 {c : Dev nD} (dat : Pipeline.Dat τ (Elt F) Unit ℕ (UR sig nD τ) ℕ cfg2 c) (hq1 : dat.q 1 = shareR) :
    dat.share 1 = shareR := (if_neg (by decide)).trans hq1

/-- The third window is the output window: it holds the result at the full share. -/
theorem share2_2 {c : Dev nD} (dat : Pipeline.Dat τ (Elt F) Unit ℕ (UR sig nD τ) ℕ cfg2 c) :
    dat.share 2 = fullShare := if_pos (by decide)

/-- The region's arrays are whole buffers: each window holds all of the buffer behind its array, at its share. -/
theorem arrays2_univ (c : Dev nD) (dat : Pipeline.Dat τ (Elt F) Unit ℕ (UR sig nD τ) ℕ cfg2 c)
    (Fa : (w : Fin cfg2.W) → Buf (Elt F) (((cfg2).spec w).arr.view.loc (c.tc : Thread nD τ))) :
    (dat.arrays Fa : sProp 𝕄)
      = bigSep Finset.univ fun w : Fin 3 => (((c : Thread nD τ).loc (Pipeline.arrRef spec2 w)) ↦{dat.share w} Fa w : sProp 𝕄) := by
  unfold Pipeline.Dat.arrays
  exact bigSep_congr fun w _ => by rw [(arr_whole2 w).set_eq_univ]

set_option maxHeartbeats 1600000 in
/-- The region's arrays at contents `Fa`: the table at the left half for the window on a block of its rows, the table
    at the right half for the window on all of it, the result at the full share. -/
theorem arrays2_eq (c : Dev nD) (dat : Pipeline.Dat τ (Elt F) Unit ℕ (UR sig nD τ) ℕ cfg2 c)
    (hq0 : dat.q 0 = shareL) (hq1 : dat.q 1 = shareR)
    (Fa : (w : Fin cfg2.W) → Buf (Elt F) (((cfg2).spec w).arr.view.loc (c.tc : Thread nD τ))) :
    (dat.arrays Fa : sProp 𝕄)
      = iprop((((c : Thread nD τ).loc main_v21) ↦{shareL} Fa 0) ∗ (((c : Thread nD τ).loc main_v21) ↦{shareR} Fa 1)
          ∗ (((c : Thread nD τ).loc main_v23) ↦{fullShare} Fa 2)) := by
  have e0 : ((((c : Thread nD τ).loc (Pipeline.arrRef spec2 0)) ↦{dat.share 0} Fa 0 : sProp 𝕄))
      = (((c : Thread nD τ).loc main_v21) ↦{shareL} Fa 0) :=
    congrArg (fun q => (((c : Thread nD τ).loc main_v21) ↦{q} Fa 0 : sProp 𝕄)) (share2_0 dat hq0)
  have e1 : ((((c : Thread nD τ).loc (Pipeline.arrRef spec2 1)) ↦{dat.share 1} Fa 1 : sProp 𝕄))
      = (((c : Thread nD τ).loc main_v21) ↦{shareR} Fa 1) :=
    congrArg (fun q => (((c : Thread nD τ).loc main_v21) ↦{q} Fa 1 : sProp 𝕄)) (share2_1 dat hq1)
  have e2 : ((((c : Thread nD τ).loc (Pipeline.arrRef spec2 2)) ↦{dat.share 2} Fa 2 : sProp 𝕄))
      = (((c : Thread nD τ).loc main_v23) ↦{fullShare} Fa 2) :=
    congrArg (fun q => (((c : Thread nD τ).loc main_v23) ↦{q} Fa 2 : sProp 𝕄)) (share2_2 dat)
  rw [arrays2_univ, bigSep_W2]
  exact congrArg₂ _ e0 (congrArg₂ _ e1 e2)

/-- ENTRY. The core's unscoped buffers at contents `V` are the region's arrays at the proof data's entry contents —
    those being read off `V` — and the unscoped rest: the table's full share is cut into the two halves the two input
    windows hold it at. -/
theorem arrays2_of_unscopedBufs (c : Dev nD) (dat : Pipeline.Dat τ (Elt F) Unit ℕ (UR sig nD τ) ℕ cfg2 c)
    (hq0 : dat.q 0 = shareL) (hq1 : dat.q 1 = shareR)
    (V : (b : Ref sig .tc) → Buf (Elt F) ((c : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [unscopedBufs_split2, arrBufs2_eq, arrays2_eq c dat hq0 hq1,
    show dat.arrAt 0 0 = V main_v21 from hA 0, show dat.arrAt 1 0 = V main_v21 from hA 1, show dat.arrAt 2 0 = V main_v23 from hA 2]
  iintro ⟨⟨H21, H23⟩, Hrest⟩
  ihave H := (pointsTo_share share_split).1 $$ H21
  icases H with ⟨HL, HR⟩
  isplitr [Hrest]
  · isplitl [HL]; · iexact HL
    isplitl [HR]; · iexact HR
    iexact H23
  iexact Hrest

/-- EXIT. The region's arrays at contents `Fa` and the unscoped rest at `V` are the core's unscoped buffers at any
    contents `V'` that has the arrays at `Fa` and agrees with `V` off them: both input windows' contents being the
    table's in `V'`, the two halves compose to the table's full share. -/
theorem unscopedBufs_of_arrays2 (c : Dev nD) (dat : Pipeline.Dat τ (Elt F) Unit ℕ (UR sig nD τ) ℕ cfg2 c)
    (hq0 : dat.q 0 = shareL) (hq1 : dat.q 1 = shareR)
    (V V' : (b : Ref sig .tc) → Buf (Elt F) ((c : Thread nD τ).loc b))
    (Fa : (w : Fin cfg2.W) → Buf (Elt F) (((cfg2).spec w).arr.view.loc (c.tc : Thread nD τ)))
    (hF : ∀ w, Fa w = V' (Pipeline.arrRef spec2 w))
    (hrest : ∀ b, b ∉ Finset.univ.image (Pipeline.arrRef spec2) → V' b = V b) :
    iprop(dat.arrays Fa ∗ Pipeline.unscopedRest spec2 c V) ⊢ (unscopedBufs c V' : sProp 𝕄) := by
  have hR : (Pipeline.unscopedRest spec2 c V : sProp 𝕄) = Pipeline.unscopedRest spec2 c V' := by
    unfold Pipeline.unscopedRest
    exact bigSep_congr fun b hb => by rw [hrest b (Finset.mem_sdiff.mp hb).2]
  rw [unscopedBufs_split2, arrBufs2_eq, arrays2_eq c dat hq0 hq1, hR,
    show Fa 0 = V' main_v21 from hF 0, show Fa 1 = V' main_v21 from hF 1, show Fa 2 = V' main_v23 from hF 2]
  iintro ⟨⟨HL, HR, H23⟩, Hrest⟩
  isplitr [Hrest]
  · isplitl [HL HR]
    · iapply (pointsTo_share share_split).2
      isplitl [HL]; · iexact HL
      iexact HR
    iexact H23
  iexact Hrest

end Cert.KernelIdeal.Hand

end
-- ==== Proof.KiFold.lean ====
/-
  The contents of the core's unscoped buffers through @main, as a fold from the launch memory.

  @main is five stretches of host operations and three kernel regions: the two gathers' preparation, the edge
  kernel, the scatter-adds and the node table, the node kernel, two slices, the adjacency kernel. A host stretch
  applies its operations to the contents before it; a region replaces its output array by what its write-backs
  leave (the fold of its proof data, taken at the contents the region is entered with) and changes nothing else.
  The adjacency kernel reads ONE array through two windows, which hold it at the two halves of the full share.
-/
import proofs.«414572_j55508157334089_2_alg».proof.Proof.KiRegion0
import proofs.«414572_j55508157334089_2_alg».proof.Proof.KiRegion1
import proofs.«414572_j55508157334089_2_alg».proof.Proof.KiRegion2
import proofs.«414572_j55508157334089_2_alg».proof.Proof.KiShare2
import proofs.«414572_j55508157334089_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through @main -/

/-- Core `c`'s buffers at launch. -/
abbrev W0 : Dev nD → Valuation τ sig (Elt F) := fun c b => m (c, b)
/-- After the first stretch (the id vectors and the combined node table). -/
abbrev W1 : Dev nD → Valuation τ sig (Elt F) := fun c => StableHlo.after hostOps0 (W0 m c)
/-- After the gather by the first endpoints. -/
abbrev W2 : Dev nD → Valuation τ sig (Elt F) := fun c => StableHlo.after hostOps0_1 (W1 m c)
/-- After the gather by the second endpoints: the edge kernel's entry. -/
abbrev W3 : Dev nD → Valuation τ sig (Elt F) := fun c => StableHlo.after hostOps0_2 (W2 m c)
/-- The same read at the TensorCore's references. -/
abbrev U3 : (c : Dev nD) → (b : Ref sig .tc) → Buf (Elt F) ((c : Thread nD τ).loc b) := fun c b => W3 m c b

/-- After region 0: its output array `main_v7` at what the region's write-backs leave, every other buffer as the
    region found it (a region writes no array but its output's). -/
def W4 (c : Dev nD) : Valuation τ sig (Elt F) :=
  Function.update (W3 m c) (Proc.devRef .tc main_v7) ((dat0 (U3 m) c).arrAt 14 cfg0.N)
/-- The same read at the TensorCore's references. -/
abbrev U4 : (c : Dev nD) → (b : Ref sig .tc) → Buf (Elt F) ((c : Thread nD τ).loc b) := fun c b => W4 m c b
theorem W4_out (c : Dev nD) : W4 m c (Proc.devRef .tc main_v7) = (dat0 (U3 m) c).arrAt 14 cfg0.N := by
  unfold W4; exact Function.update_self ..
theorem W4_of_ne (c : Dev nD) (b : Ref sig .tc) (hb : b ≠ main_v7) :
    W4 m c (Proc.devRef .tc b) = W3 m c (Proc.devRef .tc b) := by
  unfold W4; exact Function.update_of_ne (StableHlo.devRef_ne_of_ne hb) ..
/-- No window of region 0 but the last is an output window, and no input window's array is the output's. -/
theorem in_of_ne0 : ∀ w : Fin 15, w ≠ 14 → (cfg0.win w).isOut = false ∧ Pipeline.arrRef spec0 w ≠ main_v7 := by decide
/-- At region 0's exit each of its arrays holds what the pipeline leaves: an input's array is as entered, the
    output's is the fold of its write-backs. -/
theorem hF0 (c : Dev nD) (w : Fin cfg0.W) : (dat0 (U3 m) c).arrAt w cfg0.N = U4 m c (Pipeline.arrRef spec0 w) := by
  by_cases h : w = 14
  · subst h; exact (W4_out m c).symm
  · obtain ⟨hi, hn⟩ := in_of_ne0 w h
    exact (((dat0 (U3 m) c).arrAt_in w hi _).trans (A_eq0 (U3 m) c w)).trans (W4_of_ne m c _ hn).symm
/-- Every buffer that is no array of region 0 is as the region found it. -/
theorem hrest0 (c : Dev nD) : ∀ b, b ∉ Finset.univ.image (Pipeline.arrRef spec0) → U4 m c b = U3 m c b :=
  fun b hb => W4_of_ne m c b fun e => hb (Finset.mem_image.mpr ⟨14, Finset.mem_univ _, e.symm⟩)

/-- After the scatter-adds and the node table: the node kernel's entry. -/
abbrev W5 : Dev nD → Valuation τ sig (Elt F) := fun c => StableHlo.after hostOps1 (W4 m c)
abbrev U5 : (c : Dev nD) → (b : Ref sig .tc) → Buf (Elt F) ((c : Thread nD τ).loc b) := fun c b => W5 m c b

/-- After region 1: its output array `main_v20` at what the region's write-backs leave, every other buffer as the
    region found it (a region writes no array but its output's). -/
def W6 (c : Dev nD) : Valuation τ sig (Elt F) :=
  Function.update (W5 m c) (Proc.devRef .tc main_v20) ((dat1 (U5 m) c).arrAt 9 cfg1.N)
/-- The same read at the TensorCore's references. -/
abbrev U6 : (c : Dev nD) → (b : Ref sig .tc) → Buf (Elt F) ((c : Thread nD τ).loc b) := fun c b => W6 m c b
theorem W6_out (c : Dev nD) : W6 m c (Proc.devRef .tc main_v20) = (dat1 (U5 m) c).arrAt 9 cfg1.N := by
  unfold W6; exact Function.update_self ..
theorem W6_of_ne (c : Dev nD) (b : Ref sig .tc) (hb : b ≠ main_v20) :
    W6 m c (Proc.devRef .tc b) = W5 m c (Proc.devRef .tc b) := by
  unfold W6; exact Function.update_of_ne (StableHlo.devRef_ne_of_ne hb) ..
/-- No window of region 1 but the last is an output window, and no input window's array is the output's. -/
theorem in_of_ne1 : ∀ w : Fin 10, w ≠ 9 → (cfg1.win w).isOut = false ∧ Pipeline.arrRef spec1 w ≠ main_v20 := by decide
/-- At region 1's exit each of its arrays holds what the pipeline leaves: an input's array is as entered, the
    output's is the fold of its write-backs. -/
theorem hF1 (c : Dev nD) (w : Fin cfg1.W) : (dat1 (U5 m) c).arrAt w cfg1.N = U6 m c (Pipeline.arrRef spec1 w) := by
  by_cases h : w = 9
  · subst h; exact (W6_out m c).symm
  · obtain ⟨hi, hn⟩ := in_of_ne1 w h
    exact (((dat1 (U5 m) c).arrAt_in w hi _).trans (A_eq1 (U5 m) c w)).trans (W6_of_ne m c _ hn).symm
/-- Every buffer that is no array of region 1 is as the region found it. -/
theorem hrest1 (c : Dev nD) : ∀ b, b ∉ Finset.univ.image (Pipeline.arrRef spec1) → U6 m c b = U5 m c b :=
  fun b hb => W6_of_ne m c b fun e => hb (Finset.mem_image.mpr ⟨9, Finset.mem_univ _, e.symm⟩)

/-- After the two slices: the adjacency kernel's entry. -/
abbrev W7 : Dev nD → Valuation τ sig (Elt F) := fun c => StableHlo.after hostOps2 (W6 m c)
abbrev U7 : (c : Dev nD) → (b : Ref sig .tc) → Buf (Elt F) ((c : Thread nD τ).loc b) := fun c b => W7 m c b

/-- After region 2: its output array `main_v23` at what the region's write-backs leave, every other buffer as the
    region found it (a region writes no array but its output's). -/
def W8 (c : Dev nD) : Valuation τ sig (Elt F) :=
  Function.update (W7 m c) (Proc.devRef .tc main_v23) ((dat2 (U7 m) shareL shareR c).arrAt 2 cfg2.N)
/-- The same read at the TensorCore's references. -/
abbrev U8 : (c : Dev nD) → (b : Ref sig .tc) → Buf (Elt F) ((c : Thread nD τ).loc b) := fun c b => W8 m c b
theorem W8_out (c : Dev nD) : W8 m c (Proc.devRef .tc main_v23) = (dat2 (U7 m) shareL shareR c).arrAt 2 cfg2.N := by
  unfold W8; exact Function.update_self ..
theorem W8_of_ne (c : Dev nD) (b : Ref sig .tc) (hb : b ≠ main_v23) :
    W8 m c (Proc.devRef .tc b) = W7 m c (Proc.devRef .tc b) := by
  unfold W8; exact Function.update_of_ne (StableHlo.devRef_ne_of_ne hb) ..
/-- No window of region 2 but the last is an output window, and no input window's array is the output's. -/
theorem in_of_ne2 : ∀ w : Fin 3, w ≠ 2 → (cfg2.win w).isOut = false ∧ Pipeline.arrRef spec2 w ≠ main_v23 := by decide
/-- At region 2's exit each of its arrays holds what the pipeline leaves: an input's array is as entered, the
    output's is the fold of its write-backs. -/
theorem hF2 (c : Dev nD) (w : Fin cfg2.W) : (dat2 (U7 m) shareL shareR c).arrAt w cfg2.N = U8 m c (Pipeline.arrRef spec2 w) := by
  by_cases h : w = 2
  · subst h; exact (W8_out m c).symm
  · obtain ⟨hi, hn⟩ := in_of_ne2 w h
    exact (((dat2 (U7 m) shareL shareR c).arrAt_in w hi _).trans (A_eq2 (U7 m) shareL shareR c w)).trans (W8_of_ne m c _ hn).symm
/-- Every buffer that is no array of region 2 is as the region found it. -/
theorem hrest2 (c : Dev nD) : ∀ b, b ∉ Finset.univ.image (Pipeline.arrRef spec2) → U8 m c b = U7 m c b :=
  fun b hb => W8_of_ne m c b fun e => hb (Finset.mem_image.mpr ⟨2, Finset.mem_univ _, e.symm⟩)

end Cert.KernelIdeal.Hand

end
-- ==== Proof.KiRun.lean ====
/-
  The kernel program's run, from the launch to the return, with every unscoped buffer named at the end.

  Each of the three regions is entered from the contents of the fold before it and left at the contents after it; its
  proof data are those of its own module, at the contents it is entered with. Its arrays are split out of the
  unscoped buffers at entry and put back at exit (the adjacency kernel's shared array in two halves). The run: every
  weakly fair execution terminates, nothing faults, and at the end every unscoped buffer holds the last contents of
  the fold.
-/
import proofs.«414572_j55508157334089_2_alg».proof.Proof.KiFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (U3 m) c
  | ⟨1, _⟩ => fun c => dat1 (U5 m) c
  | ⟨2, _⟩ => fun c => dat2 (U7 m) shareL shareR c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered with every unscoped buffer at the contents before it, left with them at
    the contents after it. Its arrays are split out of the unscoped buffers at entry and put back at exit; the
    generator register goes into the region's invariant and comes out; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers at entry and put back at exit; the
    generator register goes into the region's invariant and comes out; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at
    the contents after it. Its arrays are split out of the unscoped buffers at entry and put back at exit; the
    generator register goes into the region's invariant and comes out; nothing is owed; the kernel has no semaphore
    of its own. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (U7 m) shareL shareR c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none]
    have hsplit := arrays2_of_unscopedBufs (F := F) c (pdats m 2 c) rfl rfl (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (F := F) c (pdats m 2 c) rfl rfl
      (U7 m c) (U8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

set_option backward.isDefEq.respectTransparency.types false in
/-- THE RUN. From any memory with zero counters, every weakly fair execution of @main on the TensorCores terminates,
    nothing faulting, and in every final state each unscoped buffer holds the last contents of the fold. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## The frame: no item of @main writes an argument -/

/-- A reference that no host stretch writes and that is no region's output reaches the end as launched. -/
theorem W8_arg (c : Dev nD) (r : Ref sig .tc) (h0 : r ∉ hostOps0_W) (h1 : r ∉ hostOps0_1_W) (h2 : r ∉ hostOps0_2_W)
    (h3 : r ≠ main_v7) (h4 : r ∉ hostOps1_W) (h5 : r ≠ main_v20) (h6 : r ∉ hostOps2_W) (h7 : r ≠ main_v23) :
    W8 m c (Proc.devRef .tc r) = m ((c : Thread nD τ).loc r) :=
  (W8_of_ne m c r h7).trans <| (StableHlo.after_of_writes_sub hostOps2 _ hostOps2_writes h6).trans <|
  (W6_of_ne m c r h5).trans <| (StableHlo.after_of_writes_sub hostOps1 _ hostOps1_writes h4).trans <|
  (W4_of_ne m c r h3).trans <| (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- THE FRAME, at any `F`: every weakly fair execution of @main terminates, nothing faulting, and every final state
    has the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨
    (h c _ (mem_uc main_arg0 (by decide))).trans (W8_arg m c main_arg0 (by decide) (by decide) (by decide) (by decide) (by decide) (by decide) (by decide) (by decide)),
    (h c _ (mem_uc main_arg1 (by decide))).trans (W8_arg m c main_arg1 (by decide) (by decide) (by decide) (by decide) (by decide) (by decide) (by decide) (by decide)),
    (h c _ (mem_uc main_arg2 (by decide))).trans (W8_arg m c main_arg2 (by decide) (by decide) (by decide) (by decide) (by decide) (by decide) (by decide) (by decide)),
    (h c _ (mem_uc main_arg3 (by decide))).trans (W8_arg m c main_arg3 (by decide) (by decide) (by decide) (by decide) (by decide) (by decide) (by decide) (by decide)),
    (h c _ (mem_uc main_arg4 (by decide))).trans (W8_arg m c main_arg4 (by decide) (by decide) (by decide) (by decide) (by decide) (by decide) (by decide) (by decide)),
    (h c _ (mem_uc main_arg5 (by decide))).trans (W8_arg m c main_arg5 (by decide) (by decide) (by decide) (by decide) (by decide) (by decide) (by decide) (by decide)),
    (h c _ (mem_uc main_arg6 (by decide))).trans (W8_arg m c main_arg6 (by decide) (by decide) (by decide) (by decide) (by decide) (by decide) (by decide) (by decide)),
    (h c _ (mem_uc main_arg7 (by decide))).trans (W8_arg m c main_arg7 (by decide) (by decide) (by decide) (by decide) (by decide) (by decide) (by decide) (by decide)),
    (h c _ (mem_uc main_arg8 (by decide))).trans (W8_arg m c main_arg8 (by decide) (by decide) (by decide) (by decide) (by decide) (by decide) (by decide) (by decide)),
    (h c _ (mem_uc main_arg9 (by decide))).trans (W8_arg m c main_arg9 (by decide) (by decide) (by decide) (by decide) (by decide) (by decide) (by decide) (by decide)),
    (h c _ (mem_uc main_arg10 (by decide))).trans (W8_arg m c main_arg10 (by decide) (by decide) (by decide) (by decide) (by decide) (by decide) (by decide) (by decide)),
    (h c _ (mem_uc main_arg11 (by decide))).trans (W8_arg m c main_arg11 (by decide) (by decide) (by decide) (by decide) (by decide) (by decide) (by decide) (by decide)),
    (h c _ (mem_uc main_arg12 (by decide))).trans (W8_arg m c main_arg12 (by decide) (by decide) (by decide) (by decide) (by decide) (by decide) (by decide) (by decide)),
    (h c _ (mem_uc main_arg13 (by decide))).trans (W8_arg m c main_arg13 (by decide) (by decide) (by decide) (by decide) (by decide) (by decide) (by decide) (by decide)),
    (h c _ (mem_uc main_arg14 (by decide))).trans (W8_arg m c main_arg14 (by decide) (by decide) (by decide) (by decide) (by decide) (by decide) (by decide) (by decide)),
    (h c _ (mem_uc main_arg15 (by decide))).trans (W8_arg m c main_arg15 (by decide) (by decide) (by decide) (by decide) (by decide) (by decide) (by decide) (by decide)),
    (h c _ (mem_uc main_arg16 (by decide))).trans (W8_arg m c main_arg16 (by decide) (by decide) (by decide) (by decide) (by decide) (by decide) (by decide) (by decide)),
    (h c _ (mem_uc main_arg17 (by decide))).trans (W8_arg m c main_arg17 (by decide) (by decide) (by decide) (by decide) (by decide) (by decide) (by decide) (by decide)),
    (h c _ (mem_uc main_arg18 (by decide))).trans (W8_arg m c main_arg18 (by decide) (by decide) (by decide) (by decide) (by decide) (by decide) (by decide) (by decide)),
    (h c _ (mem_uc main_arg19 (by decide))).trans (W8_arg m c main_arg19 (by decide) (by decide) (by decide) (by decide) (by decide) (by decide) (by decide) (by decide)),
    (h c _ (mem_uc main_arg20 (by decide))).trans (W8_arg m c main_arg20 (by decide) (by decide) (by decide) (by decide) (by decide) (by decide) (by decide) (by decide)),
    (h c _ (mem_uc main_arg21 (by decide))).trans (W8_arg m c main_arg21 (by decide) (by decide) (by decide) (by decide) (by decide) (by decide) (by decide) (by decide)),
    (h c _ (mem_uc main_arg22 (by decide))).trans (W8_arg m c main_arg22 (by decide) (by decide) (by decide) (by decide) (by decide) (by decide) (by decide) (by decide))⟩) (run_all m ρ)

end Cert.KernelIdeal.Hand

end
-- ==== Proof.RefRun.lean ====
/-
  The reference program's run and its stages read at an index, as generated; every module that speaks of the
  reference's values imports this one.
-/
import proofs.«414572_j55508157334089_2_alg».proof.Proof.Gen.ReferenceIdeal.Run
import proofs.«414572_j55508157334089_2_alg».proof.Proof.Gen.ReferenceIdeal.Read
-- ==== Proof.ValRows.lean ====
/-
  Rows of blocks as rows of arrays. The edge kernel's grid point `t` handles the 4000 edges 4000·t … 4000·t + 3999, the
  node kernel's the 2000 nodes from 2000·t, the adjacency kernel's the 200 rows from 200·t; a packed slab keeps a
  group of `a` columns at an offset `off`.
-/
import Idealize.ShloMosaic.Lib.ValueIdx

namespace Cert.Hand.Rows

/-- Edge `p` of block `t` (blocks of 4000) among the 320000 edges. -/
def erow (t : Fin 80) (p : Fin 4000) : Fin 320000 := ⟨4000 * t.val + p.val, by omega⟩
/-- Node `p` of block `t` (blocks of 2000) among the 10000 nodes. -/
def nrow (t : Fin 5) (p : Fin 2000) : Fin 10000 := ⟨2000 * t.val + p.val, by omega⟩
/-- Row `p` of block `t` (blocks of 200) among the 10000 rows of the adjacency matrix. -/
def arow (t : Fin 50) (p : Fin 200) : Fin 10000 := ⟨200 * t.val + p.val, by omega⟩
/-- Column `j` of a group of `a` columns placed at offset `off` in a slab of `n` columns. -/
def col (n off : Nat) {a : Nat} (j : Fin a) (h : off + a ≤ n) : Fin n := ⟨off + j.val, by omega⟩

@[simp] theorem erow_val (t : Fin 80) (p : Fin 4000) : (erow t p).val = 4000 * t.val + p.val := rfl
@[simp] theorem nrow_val (t : Fin 5) (p : Fin 2000) : (nrow t p).val = 2000 * t.val + p.val := rfl
@[simp] theorem arow_val (t : Fin 50) (p : Fin 200) : (arow t p).val = 200 * t.val + p.val := rfl
@[simp] theorem col_val (n off : Nat) {a : Nat} (j : Fin a) (h : off + a ≤ n) : (col n off j h).val = off + j.val := rfl

/-- Every edge is some row of some block. -/
theorem erow_surj (e : Fin 320000) : ∃ t p, e = erow t p :=
  ⟨⟨e.val / 4000, by omega⟩, ⟨e.val % 4000, by omega⟩, Fin.ext (by simp only [erow_val]; omega)⟩
/-- Every node is some row of some block. -/
theorem nrow_surj (e : Fin 10000) : ∃ t p, e = nrow t p :=
  ⟨⟨e.val / 2000, by omega⟩, ⟨e.val % 2000, by omega⟩, Fin.ext (by simp only [nrow_val]; omega)⟩
/-- Every row of the adjacency matrix is some row of some block. -/
theorem arow_surj (e : Fin 10000) : ∃ t p, e = arow t p :=
  ⟨⟨e.val / 200, by omega⟩, ⟨e.val % 200, by omega⟩, Fin.ext (by simp only [arow_val]; omega)⟩

end Cert.Hand.Rows
-- ==== Proof.LibTakeFill.lean ====
/-
  A TAKE WITH OUT-OF-RANGE ENTRIES FILLED. `jnp.take(table, idx)` in its default mode first wraps a negative index the
  way NumPy does (`w = idx + N` where `idx < 0`, else `w = idx`, `N` the table's extent), then keeps the gathered entry
  where `0 ≤ w ≤ N - 1` and writes a fill value elsewhere. The in-range test is printed over the [n × 1] column of wrapped
  indices: the reduction by `and` along the second axis of `(col ≥ lo) & (col ≤ hi)`.

  * `wrap_in_range`: an index in `[-N, N)` wraps into `[0, N - 1]`;
  * `wrap_of_nonneg`: a non-negative index is left as it is;
  * `foldl_andi_of_all_one`: a left fold by `and` from 1 over `i1` words that are all 1 is 1;
  * `fill_mask_eq_one`: the printed in-range test is 1 at a row whose wrapped index lies between the bounds.

  Every statement holds at any number of rows `n` and any table extent below 2³⁰.
-/
import Idealize.ShloMosaic.Lib.ReduceAll
import Idealize.ShloMosaic.Lib.StableHlo.Predicate
import Idealize.ShloMosaic.Lib.ValueIdx

namespace Cert.Lib.TakeFill

open Idealize.ShloMosaic
open Idealize.ShloMosaic.StableHlo.Predicate (ixP)
open Idealize.ShloMosaic.ValueIdx (ix1)

/-- An integer in the signed 32-bit range is its own balanced remainder modulo 2³². -/
private theorem bmod_self {m : Int} (h₁ : -2 ^ 31 ≤ m) (h₂ : m < 2 ^ 31) : m.bmod (2 ^ 32) = m :=
  Int.bmod_eq_of_le (by omega) (by omega)

/-- The extent of a table below 2³⁰, as a 32-bit word, reads as itself. -/
private theorem toInt_extent (N : Nat) (hN : N < 2 ^ 31) : (BitVec.ofNat 32 N).toInt = (N : Int) := by
  rw [BitVec.toInt_ofNat']
  exact bmod_self (by omega) (by omega)

/-- THE WRAP LANDS IN RANGE. For a table of extent `N` (positive, below 2³⁰) an index `x` with `-N ≤ x < N`, wrapped
    the NumPy way (`x + N` where `x < 0`, else `x`), lies in `[0, N - 1]`: a negative `x` has `0 ≤ x + N ≤ N - 1` and the
    sum does not leave the word; a non-negative `x` is below `N` already. -/
theorem wrap_in_range (N : Nat) (hN : 0 < N) (hN' : N < 2 ^ 30) (x : BitVec 32) (hlo : -(N : Int) ≤ x.toInt)
    (hhi : x.toInt < (N : Int)) :
    0 ≤ (Scalar.select (IntOp.cmpi .slt x 0#32) (IntOp.addi x (BitVec.ofNat 32 N)) x).toInt ∧
      (Scalar.select (IntOp.cmpi .slt x 0#32) (IntOp.addi x (BitVec.ofNat 32 N)) x).toInt ≤ (N : Int) - 1 := by
  have h0 : (0#32).toInt = 0 := rfl
  by_cases h : x.toInt < 0
  · have hc : IntOp.cmpi .slt x 0#32 = (1 : BitVec 1) := IntOp.cmpi_slt.2 (by rw [h0]; exact h)
    have hn : (BitVec.ofNat 32 N).toInt = (N : Int) := toInt_extent N (by omega)
    have hs : (IntOp.addi x (BitVec.ofNat 32 N)).toInt = x.toInt + (N : Int) := by
      rw [IntOp.addi, BitVec.toInt_add, hn]
      exact bmod_self (by omega) (by omega)
    rw [Scalar.select, if_pos hc, hs]
    omega
  · have hc : ¬ IntOp.cmpi .slt x 0#32 = (1 : BitVec 1) := fun e => h (by have := IntOp.cmpi_slt.1 e; rwa [h0] at this)
    rw [Scalar.select, if_neg hc]
    omega

/-- A NON-NEGATIVE INDEX IS NOT WRAPPED: the comparison `x < 0` fails, so the selection keeps `x`. -/
theorem wrap_of_nonneg (N : Nat) (x : BitVec 32) (h : 0 ≤ x.toInt) :
    Scalar.select (IntOp.cmpi .slt x 0#32) (IntOp.addi x (BitVec.ofNat 32 N)) x = x := by
  have h0 : (0#32).toInt = 0 := rfl
  have hc : ¬ IntOp.cmpi .slt x 0#32 = (1 : BitVec 1) := fun e => by
    have := IntOp.cmpi_slt.1 e
    rw [h0] at this
    omega
  rw [Scalar.select, if_neg hc]

/-- A left fold by `and` from 1 over `i1` words that are all 1 is 1 (the converse of reading such a fold back). -/
theorem foldl_andi_of_all_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := IntOp.andi_eq_one.2 ⟨rfl, h a List.mem_cons_self⟩
    rw [List.foldl_cons, ha]
    exact foldl_andi_of_all_one f l fun i hi => h i (List.mem_cons_of_mem _ hi)

/-- THE IN-RANGE TEST AT A ROW. The reduction by `and` along the second axis of `(col ≥ lo) & (col ≤ hi)` over an
    [n × 1] column, from an initial value whose element is 1, is 1 at row `p` as soon as the column's entry of that row
    lies between the two bounds' entries there: the only index of the column that reduces into row `p` is (`p`, 0), and
    both comparisons hold at it. -/
theorem fill_mask_eq_one {n : Nat} {u : Shape} (hred : (⟨2, ![n, 1]⟩ : Shape).ReducesTo [1] ⟨1, ![n]⟩)
    (hu : 0 < u.numel) (init : u.Idx → BitVec 1) (hinit : init (Shape.Idx.first hu) = 1#1)
    (col lo hi : IVec ⟨2, ![n, 1]⟩ 32) (p : Fin n)
    (hx : (lo (ixP p)).toInt ≤ (col (ixP p)).toInt ∧ (col (ixP p)).toInt ≤ (hi (ixP p)).toInt) :
    Host.reduce IntOp.andi (andi (cmpi .sge col lo) (cmpi .sle col hi)) init hred hu (ix1 p) = 1#1 := by
  rw [Host.reduce_eq_foldl, hinit]
  refine foldl_andi_of_all_one _ _ fun i hmem => ?_
  -- an index that reduces into row p is (p, 0)
  have hd : hred.drop i = ix1 p := of_decide_eq_true (List.mem_filter.1 hmem).2
  have hv : (hred.drop i 0 : Nat) = i 0 := Shape.ReducesTo.drop_apply_val hred i 0
  have hr : (i 0 : Nat) = p := by rw [← hv, hd]; rfl
  have hip : i = ixP p := by
    funext b
    match b with
    | ⟨0, _⟩ => exact Fin.ext hr
    | ⟨1, _⟩ => exact Subsingleton.elim (α := Fin 1) _ _
  subst hip
  exact IntOp.andi_eq_one.2 ⟨IntOp.cmpi_sge.2 hx.1, IntOp.cmpi_sle.2 hx.2⟩

end Cert.Lib.TakeFill
-- ==== Proof.ValGather.lean ====
/-
  The two row gathers before the edge kernel. The kernel program gathers rows of ONE combined node table (the 64
  feature columns, then the 3 coordinate columns) at the row ids and at the column ids of the edge index, in the
  default mode of a take: a negative id is wrapped once by the table's extent, the rows are gathered at the wrapped
  ids, and a row whose wrapped id falls outside [0, 9999] is replaced by a fill word. The reference gathers the
  feature table and the coordinate table separately at the same wrapped ids, with no fill.

  When every id lies in [-10000, 10000) the wrapped id lies in [0, 9999], so the in-range test holds at every row and
  the fill word is never read; a gather of whole rows reads the table's row at the (clamped) wrapped id and keeps
  the column; and column j < 64 of the combined table is column j of the feature table, column 64 + j is column j
  of the coordinate table. Hence the four equalities at the end: the two takes, column group by column group, are
  the reference's four gathers.
-/
import proofs.«414572_j55508157334089_2_alg».proof.Proof.KiPay
import proofs.«414572_j55508157334089_2_alg».proof.Proof.RefRun
import proofs.«414572_j55508157334089_2_alg».proof.Proof.ValRows
import proofs.«414572_j55508157334089_2_alg».proof.Proof.LibTakeFill
import Idealize.ShloMosaic.Lib.ValueIdx
import Idealize.ShloMosaic.Lib.Pipeline.Value
import Idealize.ShloMosaic.Lib.StableHlo.Predicate
import Idealize.ShloMosaic.Lib.StableHlo.Run

noncomputable section

namespace Cert.KernelIdeal.Hand

open Cert.KernelIdeal Cert.KernelIdeal.Gen
open Idealize.ShloMosaic Idealize.ShloMosaic.ValueIdx
open Idealize.ShloMosaic.StableHlo.Predicate (ixP)

/-! ## A gather of whole rows read at an index -/

section Rows

variable {α : Type}

/-- The dimension numbers of a gather of whole rows: an operand [N, C], start indices an [R, 1] column of row
    positions (the index vector along axis 1), a result [R, C]; the row axis collapsed and start-indexed, the column
    axis kept whole as the one offset axis. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand's row at the start index of row `e`, read signed and clamped into
    `[0, N − 1]`, at the same column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
      + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
      + (rowDims N C R wf).offCoord (ix2 e j) 1 = j.val
    have h1 : (1 : Fin 2) ∉ (rowDims N C R wf).startIndexMap := show (1 : Fin 2) ∉ [(0 : Fin 2)] by decide
    have hk : (1 : Fin 2) ∈ (rowDims N C R wf).sKept :=
      (GatherDims.mem_sKept _ _).2 ⟨show (1 : Fin 2) ∉ [(0 : Fin 2)] by decide, List.not_mem_nil⟩
    rw [GatherDims.batchCoord_eq_zero _ _ _ List.not_mem_nil]
    unfold GatherDims.start GatherDims.offCoord
    rw [dif_neg h1, dif_pos hk]
    simp only [Nat.zero_add]
    rfl

/-- The same for any record of those dimension numbers. -/
theorem gather_rows_of {N C R w : Nat} (hN : 0 < N) (d : GatherDims ⟨2, ![N, C]⟩ ⟨2, ![R, 1]⟩ ⟨2, ![R, C]⟩)
    (wf : GatherDims.WF ⟨2, ![N, C]⟩ ⟨2, ![R, 1]⟩ ⟨2, ![R, C]⟩ [1] [0] [] [0] [] 1 ![1, C])
    (hd : d = rowDims N C R wf) (x : (⟨2, ![N, C]⟩ : Shape).Idx → α) (idx : IVec ⟨2, ![R, 1]⟩ w) (e : Fin R) (j : Fin C) :
    Host.gather d x idx (ix2 e j)
      = x (ix2 ⟨min (idx (ix2 e (0 : Fin 1))).toInt.toNat (N - 1), by omega⟩ j) := by
  subst hd
  exact gather_rows_apply hN wf x idx e j

end Rows

/-! ## The kernel program's take -/

variable {F : FTy → Type} [FloatOps F]

/-- The row ids: row 0 of the edge index, as a vector. -/
def rowIds (X1 : IVec S2x320000 32) : IVec S320000 32 :=
  shapeCast _ (extractStridedSlice S1x320000 ![0, 0] X1 slices_S2x320000_S1x320000_0_0) shapeCasts_S1x320000_S320000

/-- The column ids: row 1 of the edge index, as a vector. -/
def colIds (X1 : IVec S2x320000 32) : IVec S320000 32 :=
  shapeCast _ (extractStridedSlice S1x320000 ![1, 0] X1 slices_S2x320000_S1x320000_1_0) shapeCasts_S1x320000_S320000

/-- The combined node table: the 64 feature columns, then the 3 coordinate columns. -/
def nodeTable (X0 : Vec F S10000x64 .f32) (X3 : Vec F S10000x3 .f32) : Vec F S10000x67 .f32 :=
  concatenate S10000x67 1 [⟨S10000x64, X0⟩, ⟨S10000x3, X3⟩] concatenates_S10000x64_S10000x3_S10000x67_d1

/-- The ids wrapped once by the table's extent: `ids + 10000` where `ids < 0`, else `ids`. -/
def wrapIds (ids : IVec S320000 32) : IVec S320000 32 :=
  select (cmpi .slt ids (broadcastInDim S320000 ![] bcast_S_S320000 (constantI S_ 32 0#32)))
    (addi ids (broadcastInDim S320000 ![] bcast_S_S320000 (constantI S_ 32 10000#32))) ids

/-- The wrapped ids as an [n × 1] column of start indices. -/
def wrapCol (ids : IVec S320000 32) : IVec S320000x1 32 :=
  broadcastInDim S320000x1 ![0] bcast_S320000_S320000x1_0 (wrapIds ids)

/-- The in-range test of each row: `0 ≤ w ≤ 9999` of its wrapped id, reduced by `and` along the column's unit axis. -/
def inRange (ids : IVec S320000 32) : IVec S320000 1 :=
  Host.reduce IntOp.andi
    (andi (cmpi .sge (wrapCol ids) (broadcastInDim S320000x1 ![] bcast_S_S320000x1 (constantI S_ 32 0#32)))
      (cmpi .sle (wrapCol ids) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The take with out-of-range rows filled, operation by operation as the program prints it: the ids wrapped, laid as a
    column, tested against `0` and `9999`, the test reduced by `and`; the rows gathered at the column; the gathered row
    kept where the test holds, the fill word elsewhere. -/
def takeRows (tbl : Vec F S10000x67 .f32) (ids : IVec S320000 32) : Vec F S320000x67 .f32 :=
  select
    (broadcastInDim S320000x67 ![0] bcast_S320000_S320000x67_0
      (Host.reduce IntOp.andi
        (andi
          (cmpi .sge
            (broadcastInDim S320000x1 ![0] bcast_S320000_S320000x1_0
              (select (cmpi .slt ids (broadcastInDim S320000 ![] bcast_S_S320000 (constantI S_ 32 0#32)))
                (addi ids (broadcastInDim S320000 ![] bcast_S_S320000 (constantI S_ 32 10000#32))) ids))
            (broadcastInDim S320000x1 ![] bcast_S_S320000x1 (constantI S_ 32 0#32)))
          (cmpi .sle
            (broadcastInDim S320000x1 ![0] bcast_S320000_S320000x1_0
              (select (cmpi .slt ids (broadcastInDim S320000 ![] bcast_S_S320000 (constantI S_ 32 0#32)))
                (addi ids (broadcastInDim S320000 ![] bcast_S_S320000 (constantI S_ 32 10000#32))) ids))
            (broadcastInDim S320000x1 ![0, 1] bcast_S1x1_S320000x1_0_1
              (broadcastInDim S1x1 ![1] bcast_S1_S1x1_1 (constantI S1 32 9999#32)))))
        (constantI S_ 1 1#1) reducesTo_S320000x1_S320000_d1 h_S_))
    (Host.gather gather_S10000x67_S320000x1_S320000x67_1_0_n_n_0_1_167 tbl
      (broadcastInDim S320000x1 ![0] bcast_S320000_S320000x1_0
        (select (cmpi .slt ids (broadcastInDim S320000 ![] bcast_S_S320000 (constantI S_ 32 0#32)))
          (addi ids (broadcastInDim S320000 ![] bcast_S_S320000 (constantI S_ 32 10000#32))) ids)))
    (broadcastInDim S320000x67 ![] bcast_S_S320000x67 (constant S_ .f32 0x7FC00000#32))

/-- The take through its named parts: the test, the column of wrapped ids, the fill. -/
theorem takeRows_parts (tbl : Vec F S10000x67 .f32) (ids : IVec S320000 32) :
    takeRows tbl ids
      = select (broadcastInDim S320000x67 ![0] bcast_S320000_S320000x67_0 (inRange ids))
          (Host.gather gather_S10000x67_S320000x1_S320000x67_1_0_n_n_0_1_167 tbl (wrapCol ids))
          (broadcastInDim S320000x67 ![] bcast_S_S320000x67 (constant S_ .f32 0x7FC00000#32)) := rfl

/-- Row `e` of an [n × 1] column, by its two coordinates. -/
theorem ixP_eq_ix2 {n : Nat} (p : Fin n) : ixP p = ix2 p (0 : Fin 1) := by
  funext d; match d with | ⟨0, _⟩ => rfl | ⟨1, _⟩ => rfl

/-- A wrapped id at a row: the scalar wrap of the id of that row. -/
theorem wrapIds_apply (ids : IVec S320000 32) (e : Fin 320000) :
    wrapIds ids (ix1 e)
      = Scalar.select (IntOp.cmpi .slt (ids (ix1 e)) 0#32) (IntOp.addi (ids (ix1 e)) (BitVec.ofNat 32 10000)) (ids (ix1 e)) := rfl

/-- The column of wrapped ids at row `e` is the wrapped id of row `e`. -/
theorem wrapCol_apply (ids : IVec S320000 32) (e : Fin 320000) : wrapCol ids (ixP e) = wrapIds ids (ix1 e) := by
  unfold wrapCol
  exact broadcastInDim_apply _ bcast_S320000_S320000x1_0 (wrapIds ids) (ixP e) (ix1 e) (fun a => match a with
    | ⟨0, _⟩ => by show e.val = if (320000 : Nat) = 1 then 0 else e.val; rw [if_neg (by decide)])

/-- Under the range hypothesis every row passes the in-range test. -/
theorem inRange_eq_one (ids : IVec S320000 32)
    (hr : ∀ e : Fin 320000, -10000 ≤ (ids (ix1 e)).toInt ∧ (ids (ix1 e)).toInt < 10000) (e : Fin 320000) :
    inRange ids (ix1 e) = 1#1 := by
  unfold inRange
  refine Cert.Lib.TakeFill.fill_mask_eq_one reducesTo_S320000x1_S320000_d1 h_S_ _ rfl _ _ _ e ?_
  have hw := Cert.Lib.TakeFill.wrap_in_range 10000 (by decide) (by decide) (ids (ix1 e)) (hr e).1 (hr e).2
  rw [wrapCol_apply, wrapIds_apply]
  exact hw

/-- THE FILL IS NEVER READ. Under the range hypothesis the take is the plain gather at the wrapped ids. -/
theorem takeRows_eq_gather (tbl : Vec F S10000x67 .f32) (ids : IVec S320000 32)
    (hr : ∀ e : Fin 320000, -10000 ≤ (ids (ix1 e)).toInt ∧ (ids (ix1 e)).toInt < 10000) (e : Fin 320000) (j : Fin 67) :
    takeRows tbl ids (ix2 e j)
      = Host.gather gather_S10000x67_S320000x1_S320000x67_1_0_n_n_0_1_167 tbl (wrapCol ids) (ix2 e j) := by
  have hb : broadcastInDim S320000x67 ![0] bcast_S320000_S320000x67_0 (inRange ids) (ix2 e j) = 1#1 := by
    rw [broadcastInDim_apply _ bcast_S320000_S320000x67_0 (inRange ids) (ix2 e j) (ix1 e) (fun a => match a with
      | ⟨0, _⟩ => by show e.val = if (320000 : Nat) = 1 then 0 else e.val; rw [if_neg (by decide)])]
    exact inRange_eq_one ids hr e
  rw [takeRows_parts, select_apply, hb]
  exact select_one _ _

/-! ## The program's operations fold to these values -/

section Fold
open Idealize.ShloMosaic.StableHlo Idealize.ShloMosaic.TcCoe

/-- Contents carried to a buffer's own type and back are the contents. -/
theorem ofBuf_toBuf {T : BufTy} {Val : EltTy → Type} (x : TRef sig T) (v : T.Contents Val) : x.ofBuf (x.toBuf v) = v := by
  obtain ⟨r, h, h2, h3⟩ := x
  subst h
  rfl

-- the in-range test is one reduction on each side, applied to equal operands
attribute [local irreducible] Host.reduce

set_option maxRecDepth 8192 in
/-- The first take's operations leave, at its result, the take of the combined table at the row ids. -/
theorem fold_take0 (V : Valuation τ sig (Elt F)) :
    after (hostOps0_1 (F := F)) V (main_v5 : DevRef τ sig)
      = takeRows (V (main_v4 : DevRef τ sig)) (V (main_v1 : DevRef τ sig)) := by
  after_results_simp
  simp only [ofBuf_toBuf]
  rfl

set_option maxRecDepth 8192 in
/-- The second take's operations leave, at its result, the take of the combined table at the column ids. -/
theorem fold_take1 (V : Valuation τ sig (Elt F)) :
    after (hostOps0_2 (F := F)) V (main_v6 : DevRef τ sig)
      = takeRows (V (main_v4 : DevRef τ sig)) (V (main_v3 : DevRef τ sig)) := by
  after_results_simp
  simp only [ofBuf_toBuf]
  rfl

set_option maxRecDepth 8192 in
/-- The first host operations leave the row ids, the column ids and the combined table. -/
theorem fold_host0 (V : Valuation τ sig (Elt F)) :
    after (hostOps0 (F := F)) V (main_v1 : DevRef τ sig) = rowIds (V (main_arg1 : DevRef τ sig))
      ∧ after (hostOps0 (F := F)) V (main_v3 : DevRef τ sig) = colIds (V (main_arg1 : DevRef τ sig))
      ∧ after (hostOps0 (F := F)) V (main_v4 : DevRef τ sig)
          = nodeTable (V (main_arg0 : DevRef τ sig)) (V (main_arg3 : DevRef τ sig)) := by
  refine ⟨?_, ?_, ?_⟩
  · after_results_simp
    rfl
  · after_results_simp
    rfl
  · after_results_simp
    rfl

end Fold

/-! ## The take against the reference's gathers -/

section Reference

open Cert.ReferenceIdeal.Read Cert.Hand.Rows

/-- The kernel program's record of dimension numbers is the row gather's. -/
theorem gatherK_rows :
    gather_S10000x67_S320000x1_S320000x67_1_0_n_n_0_1_167
      = rowDims 10000 67 320000 gather_S10000x67_S320000x1_S320000x67_1_0_n_n_0_1_167_wf := rfl
/-- So is the reference's record for the 64 feature columns … -/
theorem gatherR64_rows :
    Cert.ReferenceIdeal.gather_S10000x64_S320000x1_S320000x64_1_0_n_n_0_1_164
      = rowDims 10000 64 320000 Cert.ReferenceIdeal.Gen.gather_S10000x64_S320000x1_S320000x64_1_0_n_n_0_1_164_wf := rfl
/-- … and its record for the 3 coordinate columns. -/
theorem gatherR3_rows :
    Cert.ReferenceIdeal.gather_S10000x3_S320000x1_S320000x3_1_0_n_n_0_1_13
      = rowDims 10000 3 320000 Cert.ReferenceIdeal.Gen.gather_S10000x3_S320000x1_S320000x3_1_0_n_n_0_1_13_wf := rfl

/-- The reference wraps the row ids by the same operations: its column of start indices is the kernel program's. -/
theorem ref_rowCol_feat (X1 : IVec S2x320000 32) : val_main_v32 (F := F) X1 = wrapCol (rowIds X1) := rfl
theorem ref_rowCol_coord (X1 : IVec S2x320000 32) : val_main_v9 (F := F) X1 = wrapCol (rowIds X1) := rfl
theorem ref_colCol_feat (X1 : IVec S2x320000 32) : val_main_v39 (F := F) X1 = wrapCol (colIds X1) := rfl
theorem ref_colCol_coord (X1 : IVec S2x320000 32) : val_main_v16 (F := F) X1 = wrapCol (colIds X1) := rfl

/-- The combined table's column `j < 64` is the feature table's column `j`. -/
theorem nodeTable_feat (X0 : Vec F S10000x64 .f32) (X3 : Vec F S10000x3 .f32) (r : Fin 10000) (j : Fin 64) :
    nodeTable X0 X3 (ix2 r (col 67 0 j (by omega))) = X0 (ix2 r j) := by
  unfold nodeTable
  exact concatenate_pair_apply_left 1 X0 X3 concatenates_S10000x64_S10000x3_S10000x67_d1 _ rfl (ix2 r j) (fun b => match b with
    | ⟨0, _⟩ => rfl
    | ⟨1, _⟩ => by show j.val = 0 + j.val; omega)

/-- The combined table's column `64 + j` is the coordinate table's column `j`. -/
theorem nodeTable_coord (X0 : Vec F S10000x64 .f32) (X3 : Vec F S10000x3 .f32) (r : Fin 10000) (j : Fin 3) :
    nodeTable X0 X3 (ix2 r (col 67 64 j (by omega))) = X3 (ix2 r j) := by
  unfold nodeTable
  exact concatenate_pair_apply_right 1 X0 X3 concatenates_S10000x64_S10000x3_S10000x67_d1 _ rfl rfl (ix2 r j) (fun b => match b with
    | ⟨0, _⟩ => fun _ => rfl
    | ⟨1, _⟩ => fun h => absurd rfl h) (by show j.val + 64 = 64 + j.val; omega)

/-- The take of the combined table at the wrapped ids, read at a row and a column: the table at the clamped wrapped id. -/
theorem takeRows_apply (tbl : Vec F S10000x67 .f32) (ids : IVec S320000 32)
    (hr : ∀ e : Fin 320000, -10000 ≤ (ids (ix1 e)).toInt ∧ (ids (ix1 e)).toInt < 10000) (e : Fin 320000) (j : Fin 67) :
    takeRows tbl ids (ix2 e j)
      = tbl (ix2 ⟨min (wrapCol ids (ix2 e (0 : Fin 1))).toInt.toNat (10000 - 1), by omega⟩ j) := by
  rw [takeRows_eq_gather tbl ids hr e j]
  exact gather_rows_of (N := 10000) (C := 67) (R := 320000) (by decide) _ _ gatherK_rows tbl (wrapCol ids) e j

variable (X0 : Vec F S10000x64 .f32) (X1 : IVec S2x320000 32) (X3 : Vec F S10000x3 .f32)

/-- The features gathered at the row ids: columns 0 … 63 of the kernel program's first take. -/
theorem take_row_feat
    (hrow : ∀ e : Fin 320000, -10000 ≤ (rowIds X1 (ix1 e)).toInt ∧ (rowIds X1 (ix1 e)).toInt < 10000)
    (e : Fin 320000) (j : Fin 64) :
    takeRows (nodeTable X0 X3) (rowIds X1) (ix2 e (col 67 0 j (by omega))) = val_main_v33 (F := F) X0 X1 (ix2 e j) := by
  rw [takeRows_apply _ _ hrow, nodeTable_feat]
  unfold val_main_v33
  rw [ref_rowCol_feat]
  exact (gather_rows_of (N := 10000) (C := 64) (R := 320000) (by decide) _ _ gatherR64_rows X0 (wrapCol (rowIds X1)) e j).symm

/-- The coordinates gathered at the row ids: columns 64 … 66 of the kernel program's first take. -/
theorem take_row_coord
    (hrow : ∀ e : Fin 320000, -10000 ≤ (rowIds X1 (ix1 e)).toInt ∧ (rowIds X1 (ix1 e)).toInt < 10000)
    (e : Fin 320000) (j : Fin 3) :
    takeRows (nodeTable X0 X3) (rowIds X1) (ix2 e (col 67 64 j (by omega))) = val_main_v10 (F := F) X1 X3 (ix2 e j) := by
  rw [takeRows_apply _ _ hrow, nodeTable_coord]
  unfold val_main_v10
  rw [ref_rowCol_coord]
  exact (gather_rows_of (N := 10000) (C := 3) (R := 320000) (by decide) _ _ gatherR3_rows X3 (wrapCol (rowIds X1)) e j).symm

/-- The features gathered at the column ids: columns 0 … 63 of the kernel program's second take. -/
theorem take_col_feat
    (hcol : ∀ e : Fin 320000, -10000 ≤ (colIds X1 (ix1 e)).toInt ∧ (colIds X1 (ix1 e)).toInt < 10000)
    (e : Fin 320000) (j : Fin 64) :
    takeRows (nodeTable X0 X3) (colIds X1) (ix2 e (col 67 0 j (by omega))) = val_main_v40 (F := F) X0 X1 (ix2 e j) := by
  rw [takeRows_apply _ _ hcol, nodeTable_feat]
  unfold val_main_v40
  rw [ref_colCol_feat]
  exact (gather_rows_of (N := 10000) (C := 64) (R := 320000) (by decide) _ _ gatherR64_rows X0 (wrapCol (colIds X1)) e j).symm

/-- The coordinates gathered at the column ids: columns 64 … 66 of the kernel program's second take. -/
theorem take_col_coord
    (hcol : ∀ e : Fin 320000, -10000 ≤ (colIds X1 (ix1 e)).toInt ∧ (colIds X1 (ix1 e)).toInt < 10000)
    (e : Fin 320000) (j : Fin 3) :
    takeRows (nodeTable X0 X3) (colIds X1) (ix2 e (col 67 64 j (by omega))) = val_main_v17 (F := F) X1 X3 (ix2 e j) := by
  rw [takeRows_apply _ _ hcol, nodeTable_coord]
  unfold val_main_v17
  rw [ref_colCol_coord]
  exact (gather_rows_of (N := 10000) (C := 3) (R := 320000) (by decide) _ _ gatherR3_rows X3 (wrapCol (colIds X1)) e j).symm

end Reference

end Cert.KernelIdeal.Hand

end
-- ==== Proof.KiFoldRead.lean ====
/-
  Reading the fold: what the buffers of interest hold at each boundary of @main.

  The fold gives core c's buffer contents after each of @main's eight items as a tower: a host stretch applied to
  the contents before it, or a region's output array replaced. Here each buffer a later item reads, and each of the
  six results, is read off that tower as a term of the launch contents and of the three regions' output arrays.

  Two facts do all the work. A host stretch leaves every buffer it does not write, and a region leaves every
  buffer but its output array: so an argument, never written, is the launch's everywhere, and a value made in one
  stretch is carried unchanged to wherever it is read. And at a buffer it does write, a stretch holds the
  composition of its operations' functions over the contents it started from: the two endpoint vectors and the
  combined node table, the rows of that table taken at each endpoint vector, the slices of the edge slab, the two
  sums into the rows of the first endpoints, the new coordinates, the node table as a concatenation along the
  columns, the slices of the node slab.
-/
import proofs.«414572_j55508157334089_2_alg».proof.Proof.KiFold
import proofs.«414572_j55508157334089_2_alg».proof.Proof.Gen.KernelIdeal.Regions
import proofs.«414572_j55508157334089_2_alg».proof.Proof.ValGather
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A host stretch leaves every buffer it does not write -/

theorem W1_of_W0 (c : Dev nD) (r : Ref sig .tc) (h : r ∉ hostOps0_W) :
    W1 m c (Proc.devRef .tc r) = W0 m c (Proc.devRef .tc r) :=
  StableHlo.after_of_writes_sub hostOps0 _ hostOps0_writes h
theorem W2_of_W1 (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of_W2 (c : Dev nD) (r : Ref sig .tc) (h : r ∉ hostOps0_2_W) :
    W3 m c (Proc.devRef .tc r) = W2 m c (Proc.devRef .tc r) :=
  StableHlo.after_of_writes_sub hostOps0_2 _ hostOps0_2_writes h
theorem W5_of_W4 (c : Dev nD) (r : Ref sig .tc) (h : r ∉ hostOps1_W) :
    W5 m c (Proc.devRef .tc r) = W4 m c (Proc.devRef .tc r) :=
  StableHlo.after_of_writes_sub hostOps1 _ hostOps1_writes h
theorem W7_of_W6 (c : Dev nD) (r : Ref sig .tc) (h : r ∉ hostOps2_W) :
    W7 m c (Proc.devRef .tc r) = W6 m c (Proc.devRef .tc r) :=
  StableHlo.after_of_writes_sub hostOps2 _ hostOps2_writes h

/-- A buffer none of the three opening stretches writes holds, at the edge kernel's entry, what the launch gave it. -/
theorem W3_arg (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of_W2 m c r h2).trans <| (W2_of_W1 m c r h1).trans <| (W1_of_W0 m c r h0).trans rfl
/-- The same at the TensorCore's references: the edge kernel's windows over arguments find the arguments. -/
theorem U3_arg (c : Dev nD) (r : Ref sig .tc) (h0 : r ∉ hostOps0_W) (h1 : r ∉ hostOps0_1_W) (h2 : r ∉ hostOps0_2_W) :
    U3 m c r = m ((c : Thread nD τ).loc r) := W3_arg m c r h0 h1 h2
/-- The edge region changes its output array only. -/
theorem W4_arg (c : Dev nD) (r : Ref sig .tc) (h0 : r ∉ hostOps0_W) (h1 : r ∉ hostOps0_1_W) (h2 : r ∉ hostOps0_2_W)
    (h7 : r ≠ main_v7) : W4 m c (Proc.devRef .tc r) = m ((c : Thread nD τ).loc r) :=
  (W4_of_ne m c r h7).trans (W3_arg m c r h0 h1 h2)
/-- A buffer nothing before the node kernel writes holds, at the node kernel's entry, what the launch gave it. -/
theorem W5_arg (c : Dev nD) (r : Ref sig .tc) (h0 : r ∉ hostOps0_W) (h1 : r ∉ hostOps0_1_W) (h2 : r ∉ hostOps0_2_W)
    (h7 : r ≠ main_v7) (h3 : r ∉ hostOps1_W) : W5 m c (Proc.devRef .tc r) = m ((c : Thread nD τ).loc r) :=
  (W5_of_W4 m c r h3).trans (W4_arg m c r h0 h1 h2 h7)
/-- The same at the TensorCore's references: the node kernel's windows over arguments find the arguments. -/
theorem U5_arg (c : Dev nD) (r : Ref sig .tc) (h0 : r ∉ hostOps0_W) (h1 : r ∉ hostOps0_1_W) (h2 : r ∉ hostOps0_2_W)
    (h7 : r ≠ main_v7) (h3 : r ∉ hostOps1_W) : U5 m c r = m ((c : Thread nD τ).loc r) := W5_arg m c r h0 h1 h2 h7 h3

/-! ## The first stretch's three values, and the two gathered arrays -/

/-- The first endpoints: row 0 of the edge index, as a vector. -/
theorem W1_v1 (c : Dev nD) : W1 m c (Proc.devRef .tc main_v1) = rowIds (m ((c : Thread nD τ).loc main_arg1)) :=
  (fold_host0 (W0 m c)).1
/-- The second endpoints: row 1 of the edge index, as a vector. -/
theorem W1_v3 (c : Dev nD) : W1 m c (Proc.devRef .tc main_v3) = colIds (m ((c : Thread nD τ).loc main_arg1)) :=
  (fold_host0 (W0 m c)).2.1
/-- The combined node table: the node features beside the coordinates. -/
theorem W1_v4 (c : Dev nD) : W1 m c (Proc.devRef .tc main_v4)
    = nodeTable (m ((c : Thread nD τ).loc main_arg0)) (m ((c : Thread nD τ).loc main_arg3)) :=
  (fold_host0 (W0 m c)).2.2

/-- The rows of the combined table at the first endpoints: made by the second stretch from the first stretch's
    table and ids, and not written by the third. -/
theorem W3_v5 (c : Dev nD) : W3 m c (Proc.devRef .tc main_v5)
    = takeRows (nodeTable (m ((c : Thread nD τ).loc main_arg0)) (m ((c : Thread nD τ).loc main_arg3)))
        (rowIds (m ((c : Thread nD τ).loc main_arg1))) := by
  rw [W3_of_W2 m c main_v5 (by decide), show W2 m c (Proc.devRef .tc main_v5) = _ from fold_take0 (W1 m c),
    W1_v4, W1_v1]
/-- The rows of the combined table at the second endpoints: made by the third stretch from the first stretch's
    table and ids, which the second stretch does not write. -/
theorem W3_v6 (c : Dev nD) : W3 m c (Proc.devRef .tc main_v6)
    = takeRows (nodeTable (m ((c : Thread nD τ).loc main_arg0)) (m ((c : Thread nD τ).loc main_arg3)))
        (colIds (m ((c : Thread nD τ).loc main_arg1))) := by
  rw [show W3 m c (Proc.devRef .tc main_v6) = _ from fold_take1 (W2 m c),
    W2_of_W1 m c main_v4 (by decide), W2_of_W1 m c main_v3 (by decide), W1_v4, W1_v3]

/-- The vector of first endpoints is made in the first stretch and never written again before the node kernel. -/
theorem W4_v1 (c : Dev nD) : W4 m c (Proc.devRef .tc main_v1) = rowIds (m ((c : Thread nD τ).loc main_arg1)) :=
  (W4_of_ne m c main_v1 (by decide)).trans <| (W3_of_W2 m c main_v1 (by decide)).trans <|
    (W2_of_W1 m c main_v1 (by decide)).trans (W1_v1 m c)

/-! ## What one stretch computes, from any contents -/

section Stretch

variable (V : Valuation τ sig (Elt F))

/-- The edge embeddings: eight columns of the edge slab. -/
theorem after1_v10 : StableHlo.after (hostOps1 (F := F)) V (Proc.devRef .tc main_v10)
    = extractStridedSlice S320000x8 ![0, 35] (V (Proc.devRef .tc main_v7)) slices_S320000x75_S320000x8_0_35 := by
  after_results
/-- The reconstructed edge features: the last thirty-two columns of the edge slab. -/
theorem after1_v11 : StableHlo.after (hostOps1 (F := F)) V (Proc.devRef .tc main_v11)
    = extractStridedSlice S320000x32 ![0, 43] (V (Proc.devRef .tc main_v7)) slices_S320000x75_S320000x32_0_43 := by
  after_results
/-- The aggregated messages: the edge messages summed into the rows of their first endpoints, from zero. -/
theorem after1_v14 : StableHlo.after (hostOps1 (F := F)) V (Proc.devRef .tc main_v14)
    = Host.scatterAdd scatter_S10000x32_S320000x1_S320000x32_1_0_0_1
        (broadcastInDim S10000x32 ![] bcast_S_S10000x32 (constant S_ .f32 0x00000000#32))
        (broadcastInDim S320000x1 ![0] bcast_S320000_S320000x1_0 (V (Proc.devRef .tc main_v1)))
        (extractStridedSlice S320000x32 ![0, 0] (V (Proc.devRef .tc main_v7)) slices_S320000x75_S320000x32_0_0) := by
  after_results
/-- The new coordinates: the old ones plus the coordinate updates summed into the rows of their first endpoints. -/
theorem after1_v18 : StableHlo.after (hostOps1 (F := F)) V (Proc.devRef .tc main_v18)
    = addf (V (Proc.devRef .tc main_arg3))
        (Host.scatterAdd scatter_S10000x3_S320000x1_S320000x3_1_0_0_1
          (broadcastInDim S10000x3 ![] bcast_S_S10000x3 (constant S_ .f32 0x00000000#32))
          (broadcastInDim S320000x1 ![0] bcast_S320000_S320000x1_0 (V (Proc.devRef .tc main_v1)))
          (extractStridedSlice S320000x3 ![0, 32] (V (Proc.devRef .tc main_v7)) slices_S320000x75_S320000x3_0_32)) := by
  after_results
/-- The node table is the concatenation, along the columns, of what the stretch leaves at its three operands: the
    concatenate is the last operation and writes none of them. -/
theorem after1_v19_self : StableHlo.after (hostOps1 (F := F)) V (Proc.devRef .tc main_v19)
    = concatenate S10000x99 1
        [⟨S10000x64, StableHlo.after (hostOps1 (F := F)) V (Proc.devRef .tc main_arg0)⟩,
         ⟨S10000x32, StableHlo.after (hostOps1 (F := F)) V (Proc.devRef .tc main_v14)⟩,
         ⟨S10000x3, StableHlo.after (hostOps1 (F := F)) V (Proc.devRef .tc main_v18)⟩]
        concatenates_S10000x64_S10000x32_S10000x3_S10000x99_d1 := by
  simp only [StableHlo.after_cons, StableHlo.after_nil]
  rw [StableHlo.nary_result]
  rw [StableHlo.nary_result_ne]; rotate_left; decide
  rw [StableHlo.nary_result_ne]; rotate_left; decide
  rw [StableHlo.nary_result_ne]; rotate_left; decide
  rfl
/-- The node embeddings: the first eight columns of the node slab. -/
theorem after2_v21 : StableHlo.after (hostOps2 (F := F)) V (Proc.devRef .tc main_v21)
    = extractStridedSlice S10000x8 ![0, 0] (V (Proc.devRef .tc main_v20)) slices_S10000x72_S10000x8_0_0 := by
  after_results
/-- The reconstructed node features: the last sixty-four columns of the node slab. -/
theorem after2_v22 : StableHlo.after (hostOps2 (F := F)) V (Proc.devRef .tc main_v22)
    = extractStridedSlice S10000x64 ![0, 8] (V (Proc.devRef .tc main_v20)) slices_S10000x72_S10000x64_0_8 := by
  after_results

end Stretch

/-! ## The node kernel's entry -/

theorem W5_v10 (c : Dev nD) : W5 m c (Proc.devRef .tc main_v10)
    = extractStridedSlice S320000x8 ![0, 35] (W4 m c (Proc.devRef .tc main_v7)) slices_S320000x75_S320000x8_0_35 :=
  after1_v10 (W4 m c)
theorem W5_v11 (c : Dev nD) : W5 m c (Proc.devRef .tc main_v11)
    = extractStridedSlice S320000x32 ![0, 43] (W4 m c (Proc.devRef .tc main_v7)) slices_S320000x75_S320000x32_0_43 :=
  after1_v11 (W4 m c)
theorem W5_v14 (c : Dev nD) : W5 m c (Proc.devRef .tc main_v14)
    = Host.scatterAdd scatter_S10000x32_S320000x1_S320000x32_1_0_0_1
        (broadcastInDim S10000x32 ![] bcast_S_S10000x32 (constant S_ .f32 0x00000000#32))
        (broadcastInDim S320000x1 ![0] bcast_S320000_S320000x1_0 (rowIds (m ((c : Thread nD τ).loc main_arg1))))
        (extractStridedSlice S320000x32 ![0, 0] (W4 m c (Proc.devRef .tc main_v7)) slices_S320000x75_S320000x32_0_0) := by
  rw [show W5 m c (Proc.devRef .tc main_v14) = _ from after1_v14 (W4 m c), W4_v1]
theorem W5_v18 (c : Dev nD) : W5 m c (Proc.devRef .tc main_v18)
    = addf (m ((c : Thread nD τ).loc main_arg3))
        (Host.scatterAdd scatter_S10000x3_S320000x1_S320000x3_1_0_0_1
          (broadcastInDim S10000x3 ![] bcast_S_S10000x3 (constant S_ .f32 0x00000000#32))
          (broadcastInDim S320000x1 ![0] bcast_S320000_S320000x1_0 (rowIds (m ((c : Thread nD τ).loc main_arg1))))
          (extractStridedSlice S320000x3 ![0, 32] (W4 m c (Proc.devRef .tc main_v7)) slices_S320000x75_S320000x3_0_32)) := by
  rw [show W5 m c (Proc.devRef .tc main_v18) = _ from after1_v18 (W4 m c), W4_v1,
    W4_arg m c main_arg3 (by decide) (by decide) (by decide) (by decide)]
theorem W5_v19 (c : Dev nD) : W5 m c (Proc.devRef .tc main_v19)
    = concatenate S10000x99 1
        [⟨S10000x64, m ((c : Thread nD τ).loc main_arg0)⟩,
         ⟨S10000x32, Host.scatterAdd scatter_S10000x32_S320000x1_S320000x32_1_0_0_1
            (broadcastInDim S10000x32 ![] bcast_S_S10000x32 (constant S_ .f32 0x00000000#32))
            (broadcastInDim S320000x1 ![0] bcast_S320000_S320000x1_0 (rowIds (m ((c : Thread nD τ).loc main_arg1))))
            (extractStridedSlice S320000x32 ![0, 0] (W4 m c (Proc.devRef .tc main_v7)) slices_S320000x75_S320000x32_0_0)⟩,
         ⟨S10000x3, addf (m ((c : Thread nD τ).loc main_arg3))
            (Host.scatterAdd scatter_S10000x3_S320000x1_S320000x3_1_0_0_1
              (broadcastInDim S10000x3 ![] bcast_S_S10000x3 (constant S_ .f32 0x00000000#32))
              (broadcastInDim S320000x1 ![0] bcast_S320000_S320000x1_0 (rowIds (m ((c : Thread nD τ).loc main_arg1))))
              (extractStridedSlice S320000x3 ![0, 32] (W4 m c (Proc.devRef .tc main_v7)) slices_S320000x75_S320000x3_0_32))⟩]
        concatenates_S10000x64_S10000x32_S10000x3_S10000x99_d1 := by
  have h0 : W5 m c (Proc.devRef .tc main_arg0) = m ((c : Thread nD τ).loc main_arg0) :=
    W5_arg m c main_arg0 (by decide) (by decide) (by decide) (by decide) (by decide)
  rw [show W5 m c (Proc.devRef .tc main_v19) = _ from after1_v19_self (W4 m c)]
  rw [show StableHlo.after hostOps1 (W4 m c) (Proc.devRef .tc main_arg0) = _ from h0,
    show StableHlo.after hostOps1 (W4 m c) (Proc.devRef .tc main_v14) = _ from W5_v14 m c,
    show StableHlo.after hostOps1 (W4 m c) (Proc.devRef .tc main_v18) = _ from W5_v18 m c]

/-! ## The adjacency kernel's entry -/

theorem W7_v21 (c : Dev nD) : W7 m c (Proc.devRef .tc main_v21)
    = extractStridedSlice S10000x8 ![0, 0] (W6 m c (Proc.devRef .tc main_v20)) slices_S10000x72_S10000x8_0_0 :=
  after2_v21 (W6 m c)
theorem W7_v22 (c : Dev nD) : W7 m c (Proc.devRef .tc main_v22)
    = extractStridedSlice S10000x64 ![0, 8] (W6 m c (Proc.devRef .tc main_v20)) slices_S10000x72_S10000x64_0_8 :=
  after2_v22 (W6 m c)

/-! ## The results, at the end of the fold -/

/-- A buffer the last three items do not write holds at the end what the node kernel's entry held. -/
theorem W8_of_W5 (c : Dev nD) (r : Ref sig .tc) (h23 : r ≠ main_v23) (h2 : r ∉ hostOps2_W) (h20 : r ≠ main_v20) :
    W8 m c (Proc.devRef .tc r) = W5 m c (Proc.devRef .tc r) :=
  (W8_of_ne m c r h23).trans <| (W7_of_W6 m c r h2).trans (W6_of_ne m c r h20)

theorem W8_v21 (c : Dev nD) : W8 m c (Proc.devRef .tc main_v21)
    = extractStridedSlice S10000x8 ![0, 0] (W6 m c (Proc.devRef .tc main_v20)) slices_S10000x72_S10000x8_0_0 :=
  (W8_of_ne m c main_v21 (by decide)).trans (W7_v21 m c)
theorem W8_v22 (c : Dev nD) : W8 m c (Proc.devRef .tc main_v22)
    = extractStridedSlice S10000x64 ![0, 8] (W6 m c (Proc.devRef .tc main_v20)) slices_S10000x72_S10000x64_0_8 :=
  (W8_of_ne m c main_v22 (by decide)).trans (W7_v22 m c)
theorem W8_v10 (c : Dev nD) : W8 m c (Proc.devRef .tc main_v10)
    = extractStridedSlice S320000x8 ![0, 35] (W4 m c (Proc.devRef .tc main_v7)) slices_S320000x75_S320000x8_0_35 :=
  (W8_of_W5 m c main_v10 (by decide) (by decide) (by decide)).trans (W5_v10 m c)
theorem W8_v11 (c : Dev nD) : W8 m c (Proc.devRef .tc main_v11)
    = extractStridedSlice S320000x32 ![0, 43] (W4 m c (Proc.devRef .tc main_v7)) slices_S320000x75_S320000x32_0_43 :=
  (W8_of_W5 m c main_v11 (by decide) (by decide) (by decide)).trans (W5_v11 m c)
theorem W8_v18 (c : Dev nD) : W8 m c (Proc.devRef .tc main_v18)
    = addf (m ((c : Thread nD τ).loc main_arg3))
        (Host.scatterAdd scatter_S10000x3_S320000x1_S320000x3_1_0_0_1
          (broadcastInDim S10000x3 ![] bcast_S_S10000x3 (constant S_ .f32 0x00000000#32))
          (broadcastInDim S320000x1 ![0] bcast_S320000_S320000x1_0 (rowIds (m ((c : Thread nD τ).loc main_arg1))))
          (extractStridedSlice S320000x3 ![0, 32] (W4 m c (Proc.devRef .tc main_v7)) slices_S320000x75_S320000x3_0_32)) :=
  (W8_of_W5 m c main_v18 (by decide) (by decide) (by decide)).trans (W5_v18 m c)

/-- The adjacency: the adjacency region's output array, what its write-backs leave. -/
theorem W8_v23 (c : Dev nD) : W8 m c (Proc.devRef .tc main_v23) = (dat2 (U7 m) shareL shareR c).arrAt 2 cfg2.N :=
  W8_out m c

end Cert.KernelIdeal.Hand

end
-- ==== Proof.ValArr.lean ====
/-
  From blocks to arrays, for the three pipelines.

  A pipeline's grid point `t` handles one block of rows of each row-blocked array: rows 4000·t … 4000·t + 3999 of the
  edge arrays, 2000·t … of the node arrays, 200·t … of the adjacency matrix; a weight or bias array, and the table of
  embeddings the adjacency kernel reads whole, is one block at offset 0 at every point. A block's coordinate in its
  array is, on each axis, the block index times the block's size plus the coordinate inside the block, and the printed
  index maps give block index `t` on the row axis of a row-blocked window and 0 everywhere else. From that:
  the output array after the last grid point holds, at row `p` of block `t`, what point `t` left in the output window's
  buffer (every point writes its block back and no two points' blocks meet), and an input window's block at point `t`
  is, row by row, the rows of its array that the point handles, or the whole array.
-/
import proofs.«414572_j55508157334089_2_alg».proof.Proof.KiPay
import proofs.«414572_j55508157334089_2_alg».proof.Proof.ValRows
import Idealize.ShloMosaic.Lib.Pipeline.Value
import Idealize.ShloMosaic.Lib.Pipeline.FrameBody
import Idealize.ShloMosaic.Lib.ValueIdx

noncomputable section

namespace Cert.KernelIdeal.Hand

open Cert.KernelIdeal Cert.KernelIdeal.Gen Cert.Hand.Rows Idealize.ShloMosaic Idealize.ShloMosaic.ValueIdx
open Idealize.ShloMosaic.TcCoe Idealize.SL.Sem

variable {F : FTy → Type} [FloatOps F]

/-! ## The edge kernel's pipeline -/

/-- Grid point `t` of the 80, as a point of the pipeline's grid. -/
def pt0 (t : Fin 80) : Fin cfg0.N := ⟨t.val, by rw [show cfg0.N = 80 from N_0]; exact t.isLt⟩

/-- The printed index maps over the grid: a window of row blocks sits at block row `t`, block column 0; a window that
    holds a whole array sits at block 0 on every axis. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_14.index t (0 : Fin 2) = t.val
    ∧ win0_14.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0 :=
  (by decide +kernel : ∀ t : Fin grid0.N, _)

/-- Two grid points' output blocks share no index: their block rows differ. -/
theorem disj0 : ∀ u u' : Fin cfg0.N, (cfg0.win 14).flush u = true → (cfg0.win 14).flush u' = true → u ≠ u' →
    Disjoint ((cfg0.win 14).blk u).view.set ((cfg0.win 14).blk u').view.set :=
  fun u u' _ _ hne => (cfg0.win 14).disjoint_blk fun h => hne (Fin.ext (by
    have e : win0_14.index u (0 : Fin 2) = win0_14.index u' (0 : Fin 2) := congrFun h 0
    obtain ⟨-, -, -, -, -, -, a0, -, -, -, -, -, -, -, -, -, -, -, -, -, -, -, -, -, -⟩ := idx0 u
    obtain ⟨-, -, -, -, -, -, b0, -, -, -, -, -, -, -, -, -, -, -, -, -, -, -, -, -, -⟩ := idx0 u'
    omega))

/-- THE OUTPUT ARRAY after the last grid point, row by row: row `p` of block `t` holds what point `t` left in the output
    window's buffer, for any proof data whose buffer contents after point `t` are `B t`. Each point writes its block
    back, no other point's block meets it, and the block's row `p` is the array's row `4000·t + p`. -/
theorem arr0_apply (c : Dev nD) (dat : Pipeline.Dat τ (Elt F) Unit ℕ (UR sig nD τ) ℕ cfg0 c)
    (B : Fin 80 → Vec F S4000x75 .f32) (hafter : ∀ t : Fin 80, dat.after 14 (pt0 t) = B t) :
    ∀ (t : Fin 80) (p : Fin 4000) (q : Fin 75),
      (dat.arrAt 14 cfg0.N : Vec F S320000x75 .f32) (ix2 (erow t p) q) = B t (ix2 p q) := by
  intro t p q
  have h := congrFun (dat.read_blk_arrAt_eq_flushed 14 disj0 cfg0.N (pt0 t) (pt0 t).isLt (flush0_14 (pt0 t))) (ix2 p q)
  have h' : (dat.arrAt 14 cfg0.N : Vec F S320000x75 .f32) (((cfg0.win 14).blk (pt0 t)).view.emb (ix2 p q)) = dat.after 14 (pt0 t) (ix2 p q) := h
  rw [hafter] at h'
  rw [← h']
  congr 1
  funext a
  apply Fin.ext
  obtain ⟨-, -, -, -, -, -, e0, e1, -, -, -, -, -, -, -, -, -, -, -, -, -, -, -, -, -⟩ := idx0 (pt0 t)
  match a with
  | ⟨0, _⟩ => show 4000 * t.val + p.val = win0_14.index (pt0 t) (0 : Fin 2) * 4000 + 1 * p.val; rw [e0]; show _ = t.val * 4000 + 1 * p.val; omega
  | ⟨1, _⟩ => show q.val = win0_14.index (pt0 t) (1 : Fin 2) * 75 + 1 * q.val; rw [e1]; omega

/-! ## The node kernel's pipeline -/

/-- Grid point `t` of the 5, as a point of the pipeline's grid. -/
def pt1 (t : Fin 5) : Fin cfg1.N := ⟨t.val, by rw [show cfg1.N = 5 from N_1]; exact t.isLt⟩

/-- The printed index maps over the grid: a window of row blocks sits at block row `t`, block column 0; a window that
    holds a whole array sits at block 0 on every axis. -/
theorem idx1 : ∀ t : Fin cfg1.N, win1_0.index t (0 : Fin 2) = t.val
    ∧ win1_0.index t (1 : Fin 2) = 0
    ∧ win1_9.index t (0 : Fin 2) = t.val
    ∧ win1_9.index t (1 : Fin 2) = 0
    ∧ win1_1.index t (0 : Fin 2) = 0
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = 0
    ∧ win1_7.index t (1 : Fin 2) = 0
    ∧ win1_8.index t (0 : Fin 1) = 0 :=
  (by decide +kernel : ∀ t : Fin grid1.N, _)

/-- Two grid points' output blocks share no index: their block rows differ. -/
theorem disj1 : ∀ u u' : Fin cfg1.N, (cfg1.win 9).flush u = true → (cfg1.win 9).flush u' = true → u ≠ u' →
    Disjoint ((cfg1.win 9).blk u).view.set ((cfg1.win 9).blk u').view.set :=
  fun u u' _ _ hne => (cfg1.win 9).disjoint_blk fun h => hne (Fin.ext (by
    have e : win1_9.index u (0 : Fin 2) = win1_9.index u' (0 : Fin 2) := congrFun h 0
    obtain ⟨-, -, a0, -, -, -, -, -, -, -, -, -, -, -, -, -⟩ := idx1 u
    obtain ⟨-, -, b0, -, -, -, -, -, -, -, -, -, -, -, -, -⟩ := idx1 u'
    omega))

/-- THE OUTPUT ARRAY after the last grid point, row by row: row `p` of block `t` holds what point `t` left in the output
    window's buffer, for any proof data whose buffer contents after point `t` are `B t`. Each point writes its block
    back, no other point's block meets it, and the block's row `p` is the array's row `2000·t + p`. -/
theorem arr1_apply (c : Dev nD) (dat : Pipeline.Dat τ (Elt F) Unit ℕ (UR sig nD τ) ℕ cfg1 c)
    (B : Fin 5 → Vec F S2000x72 .f32) (hafter : ∀ t : Fin 5, dat.after 9 (pt1 t) = B t) :
    ∀ (t : Fin 5) (p : Fin 2000) (q : Fin 72),
      (dat.arrAt 9 cfg1.N : Vec F S10000x72 .f32) (ix2 (nrow t p) q) = B t (ix2 p q) := by
  intro t p q
  have h := congrFun (dat.read_blk_arrAt_eq_flushed 9 disj1 cfg1.N (pt1 t) (pt1 t).isLt (flush1_9 (pt1 t))) (ix2 p q)
  have h' : (dat.arrAt 9 cfg1.N : Vec F S10000x72 .f32) (((cfg1.win 9).blk (pt1 t)).view.emb (ix2 p q)) = dat.after 9 (pt1 t) (ix2 p q) := h
  rw [hafter] at h'
  rw [← h']
  congr 1
  funext a
  apply Fin.ext
  obtain ⟨-, -, e0, e1, -, -, -, -, -, -, -, -, -, -, -, -⟩ := idx1 (pt1 t)
  match a with
  | ⟨0, _⟩ => show 2000 * t.val + p.val = win1_9.index (pt1 t) (0 : Fin 2) * 2000 + 1 * p.val; rw [e0]; show _ = t.val * 2000 + 1 * p.val; omega
  | ⟨1, _⟩ => show q.val = win1_9.index (pt1 t) (1 : Fin 2) * 72 + 1 * q.val; rw [e1]; omega

/-! ## The adjacency kernel's pipeline -/

/-- Grid point `t` of the 50, as a point of the pipeline's grid. -/
def pt2 (t : Fin 50) : Fin cfg2.N := ⟨t.val, by rw [show cfg2.N = 50 from N_2]; exact t.isLt⟩

/-- The one grid coordinate of point `t` is `t`. -/
theorem coords2_val (t : Fin 50) : ((cfg2.grid.coords (pt2 t)) 0).val = t.val :=
  (by decide +kernel : ∀ t : Fin grid2.N, ((grid2.coords t) 0).val = t.val) (pt2 t)

/-- The printed index maps over the grid: a window of row blocks sits at block row `t`, block column 0; a window that
    holds a whole array sits at block 0 on every axis. -/
theorem idx2 : ∀ t : Fin cfg2.N, win2_0.index t (0 : Fin 2) = t.val
    ∧ win2_0.index t (1 : Fin 2) = 0
    ∧ win2_2.index t (0 : Fin 2) = t.val
    ∧ win2_2.index t (1 : Fin 2) = 0
    ∧ win2_1.index t (0 : Fin 2) = 0
    ∧ win2_1.index t (1 : Fin 2) = 0 :=
  (by decide +kernel : ∀ t : Fin grid2.N, _)

/-- Two grid points' output blocks share no index: their block rows differ. -/
theorem disj2 : ∀ u u' : Fin cfg2.N, (cfg2.win 2).flush u = true → (cfg2.win 2).flush u' = true → u ≠ u' →
    Disjoint ((cfg2.win 2).blk u).view.set ((cfg2.win 2).blk u').view.set :=
  fun u u' _ _ hne => (cfg2.win 2).disjoint_blk fun h => hne (Fin.ext (by
    have e : win2_2.index u (0 : Fin 2) = win2_2.index u' (0 : Fin 2) := congrFun h 0
    obtain ⟨-, -, a0, -, -, -⟩ := idx2 u
    obtain ⟨-, -, b0, -, -, -⟩ := idx2 u'
    omega))

/-- THE OUTPUT ARRAY after the last grid point, row by row: row `p` of block `t` holds what point `t` left in the output
    window's buffer, for any proof data whose buffer contents after point `t` are `B t`. Each point writes its block
    back, no other point's block meets it, and the block's row `p` is the array's row `200·t + p`. -/
theorem arr2_apply (c : Dev nD) (dat : Pipeline.Dat τ (Elt F) Unit ℕ (UR sig nD τ) ℕ cfg2 c)
    (B : Fin 50 → Vec F S200x10000 .f32) (hafter : ∀ t : Fin 50, dat.after 2 (pt2 t) = B t) :
    ∀ (t : Fin 50) (p : Fin 200) (q : Fin 10000),
      (dat.arrAt 2 cfg2.N : Vec F S10000x10000 .f32) (ix2 (arow t p) q) = B t (ix2 p q) := by
  intro t p q
  have h := congrFun (dat.read_blk_arrAt_eq_flushed 2 disj2 cfg2.N (pt2 t) (pt2 t).isLt (flush2_2 (pt2 t))) (ix2 p q)
  have h' : (dat.arrAt 2 cfg2.N : Vec F S10000x10000 .f32) (((cfg2.win 2).blk (pt2 t)).view.emb (ix2 p q)) = dat.after 2 (pt2 t) (ix2 p q) := h
  rw [hafter] at h'
  rw [← h']
  congr 1
  funext a
  apply Fin.ext
  obtain ⟨-, -, e0, e1, -, -⟩ := idx2 (pt2 t)
  match a with
  | ⟨0, _⟩ => show 200 * t.val + p.val = win2_2.index (pt2 t) (0 : Fin 2) * 200 + 1 * p.val; rw [e0]; show _ = t.val * 200 + 1 * p.val; omega
  | ⟨1, _⟩ => show q.val = win2_2.index (pt2 t) (1 : Fin 2) * 10000 + 1 * q.val; rw [e1]; omega

/-! ## Input blocks, row by row -/

section Blocks

variable (V : (c : Dev nD) → (b : Ref sig .tc) → Buf (Elt F) ((c : Thread nD τ).loc b))

/-- Row `p` of the edge kernel's window 0 at point `t` is row `4000·t + p` of its array. -/
theorem iblk0_0_apply (c : Dev nD) (t : Fin 80) (p : Fin 4000) (q : Fin 67) :
    (iblk0 V c 0 (pt0 t) : Vec F S4000x67 .f32) (ix2 p q) = (V c main_v5 : Vec F S320000x67 .f32) (ix2 (erow t p) q) := by
  show (V c main_v5 : Vec F S320000x67 .f32) (((cfg0.win 0).blk (pt0 t)).view.emb (ix2 p q)) = _
  congr 1
  funext a
  apply Fin.ext
  obtain ⟨e0, e1, -, -, -, -, -, -, -, -, -, -, -, -, -, -, -, -, -, -, -, -, -, -, -⟩ := idx0 (pt0 t)
  match a with
  | ⟨0, _⟩ => show win0_0.index (pt0 t) (0 : Fin 2) * 4000 + 1 * p.val = 4000 * t.val + p.val; rw [e0]; show t.val * 4000 + 1 * p.val = _; omega
  | ⟨1, _⟩ => show win0_0.index (pt0 t) (1 : Fin 2) * 67 + 1 * q.val = q.val; rw [e1]; omega

/-- Row `p` of the edge kernel's window 1 at point `t` is row `4000·t + p` of its array. -/
theorem iblk0_1_apply (c : Dev nD) (t : Fin 80) (p : Fin 4000) (q : Fin 67) :
    (iblk0 V c 1 (pt0 t) : Vec F S4000x67 .f32) (ix2 p q) = (V c main_v6 : Vec F S320000x67 .f32) (ix2 (erow t p) q) := by
  show (V c main_v6 : Vec F S320000x67 .f32) (((cfg0.win 1).blk (pt0 t)).view.emb (ix2 p q)) = _
  congr 1
  funext a
  apply Fin.ext
  obtain ⟨-, -, e0, e1, -, -, -, -, -, -, -, -, -, -, -, -, -, -, -, -, -, -, -, -, -⟩ := idx0 (pt0 t)
  match a with
  | ⟨0, _⟩ => show win0_1.index (pt0 t) (0 : Fin 2) * 4000 + 1 * p.val = 4000 * t.val + p.val; rw [e0]; show t.val * 4000 + 1 * p.val = _; omega
  | ⟨1, _⟩ => show win0_1.index (pt0 t) (1 : Fin 2) * 67 + 1 * q.val = q.val; rw [e1]; omega

/-- Row `p` of the edge kernel's window 2 at point `t` is row `4000·t + p` of its array. -/
theorem iblk0_2_apply (c : Dev nD) (t : Fin 80) (p : Fin 4000) (q : Fin 32) :
    (iblk0 V c 2 (pt0 t) : Vec F S4000x32 .f32) (ix2 p q) = (V c main_arg2 : Vec F S320000x32 .f32) (ix2 (erow t p) q) := by
  show (V c main_arg2 : Vec F S320000x32 .f32) (((cfg0.win 2).blk (pt0 t)).view.emb (ix2 p q)) = _
  congr 1
  funext a
  apply Fin.ext
  obtain ⟨-, -, -, -, e0, e1, -, -, -, -, -, -, -, -, -, -, -, -, -, -, -, -, -, -, -⟩ := idx0 (pt0 t)
  match a with
  | ⟨0, _⟩ => show win0_2.index (pt0 t) (0 : Fin 2) * 4000 + 1 * p.val = 4000 * t.val + p.val; rw [e0]; show t.val * 4000 + 1 * p.val = _; omega
  | ⟨1, _⟩ => show win0_2.index (pt0 t) (1 : Fin 2) * 32 + 1 * q.val = q.val; rw [e1]; omega

/-- The edge kernel's window 3 holds its whole array at every point: the one block sits at offset 0. -/
theorem iblk0_3_eq (c : Dev nD) (t : Fin 80) : (iblk0 V c 3 (pt0 t) : Vec F S161x128 .f32) = V c main_arg4 := by
  funext j
  show (V c main_arg4 : Vec F S161x128 .f32) (((cfg0.win 3).blk (pt0 t)).view.emb j) = _
  congr 1
  funext a
  apply Fin.ext
  obtain ⟨-, -, -, -, -, -, -, -, e0, e1, -, -, -, -, -, -, -, -, -, -, -, -, -, -, -⟩ := idx0 (pt0 t)
  match a with
  | ⟨0, _⟩ => show win0_3.index (pt0 t) (0 : Fin 2) * 161 + 1 * (j 0).val = (j 0).val; rw [e0]; omega
  | ⟨1, _⟩ => show win0_3.index (pt0 t) (1 : Fin 2) * 128 + 1 * (j 1).val = (j 1).val; rw [e1]; omega

/-- The edge kernel's window 4 holds its whole array at every point: the one block sits at offset 0. -/
theorem iblk0_4_eq (c : Dev nD) (t : Fin 80) : (iblk0 V c 4 (pt0 t) : Vec F S128 .f32) = V c main_arg5 := by
  funext j
  show (V c main_arg5 : Vec F S128 .f32) (((cfg0.win 4).blk (pt0 t)).view.emb j) = _
  congr 1
  funext a
  apply Fin.ext
  obtain ⟨-, -, -, -, -, -, -, -, -, -, e0, -, -, -, -, -, -, -, -, -, -, -, -, -, -⟩ := idx0 (pt0 t)
  match a with
  | ⟨0, _⟩ => show win0_4.index (pt0 t) (0 : Fin 1) * 128 + 1 * (j 0).val = (j 0).val; rw [e0]; omega

/-- The edge kernel's window 5 holds its whole array at every point: the one block sits at offset 0. -/
theorem iblk0_5_eq (c : Dev nD) (t : Fin 80) : (iblk0 V c 5 (pt0 t) : Vec F S128x32 .f32) = V c main_arg6 := by
  funext j
  show (V c main_arg6 : Vec F S128x32 .f32) (((cfg0.win 5).blk (pt0 t)).view.emb j) = _
  congr 1
  funext a
  apply Fin.ext
  obtain ⟨-, -, -, -, -, -, -, -, -, -, -, e0, e1, -, -, -, -, -, -, -, -, -, -, -, -⟩ := idx0 (pt0 t)
  match a with
  | ⟨0, _⟩ => show win0_5.index (pt0 t) (0 : Fin 2) * 128 + 1 * (j 0).val = (j 0).val; rw [e0]; omega
  | ⟨1, _⟩ => show win0_5.index (pt0 t) (1 : Fin 2) * 32 + 1 * (j 1).val = (j 1).val; rw [e1]; omega

/-- The edge kernel's window 6 holds its whole array at every point: the one block sits at offset 0. -/
theorem iblk0_6_eq (c : Dev nD) (t : Fin 80) : (iblk0 V c 6 (pt0 t) : Vec F S32 .f32) = V c main_arg7 := by
  funext j
  show (V c main_arg7 : Vec F S32 .f32) (((cfg0.win 6).blk (pt0 t)).view.emb j) = _
  congr 1
  funext a
  apply Fin.ext
  obtain ⟨-, -, -, -, -, -, -, -, -, -, -, -, -, e0, -, -, -, -, -, -, -, -, -, -, -⟩ := idx0 (pt0 t)
  match a with
  | ⟨0, _⟩ => show win0_6.index (pt0 t) (0 : Fin 1) * 32 + 1 * (j 0).val = (j 0).val; rw [e0]; omega

/-- The edge kernel's window 7 holds its whole array at every point: the one block sits at offset 0. -/
theorem iblk0_7_eq (c : Dev nD) (t : Fin 80) : (iblk0 V c 7 (pt0 t) : Vec F S32x2 .f32) = V c main_arg8 := by
  funext j
  show (V c main_arg8 : Vec F S32x2 .f32) (((cfg0.win 7).blk (pt0 t)).view.emb j) = _
  congr 1
  funext a
  apply Fin.ext
  obtain ⟨-, -, -, -, -, -, -, -, -, -, -, -, -, -, e0, e1, -, -, -, -, -, -, -, -, -⟩ := idx0 (pt0 t)
  match a with
  | ⟨0, _⟩ => show win0_7.index (pt0 t) (0 : Fin 2) * 32 + 1 * (j 0).val = (j 0).val; rw [e0]; omega
  | ⟨1, _⟩ => show win0_7.index (pt0 t) (1 : Fin 2) * 2 + 1 * (j 1).val = (j 1).val; rw [e1]; omega

/-- The edge kernel's window 8 holds its whole array at every point: the one block sits at offset 0. -/
theorem iblk0_8_eq (c : Dev nD) (t : Fin 80) : (iblk0 V c 8 (pt0 t) : Vec F S2 .f32) = V c main_arg9 := by
  funext j
  show (V c main_arg9 : Vec F S2 .f32) (((cfg0.win 8).blk (pt0 t)).view.emb j) = _
  congr 1
  funext a
  apply Fin.ext
  obtain ⟨-, -, -, -, -, -, -, -, -, -, -, -, -, -, -, -, e0, -, -, -, -, -, -, -, -⟩ := idx0 (pt0 t)
  match a with
  | ⟨0, _⟩ => show win0_8.index (pt0 t) (0 : Fin 1) * 2 + 1 * (j 0).val = (j 0).val; rw [e0]; omega

/-- The edge kernel's window 9 holds its whole array at every point: the one block sits at offset 0. -/
theorem iblk0_9_eq (c : Dev nD) (t : Fin 80) : (iblk0 V c 9 (pt0 t) : Vec F S2x1 .f32) = V c main_arg10 := by
  funext j
  show (V c main_arg10 : Vec F S2x1 .f32) (((cfg0.win 9).blk (pt0 t)).view.emb j) = _
  congr 1
  funext a
  apply Fin.ext
  obtain ⟨-, -, -, -, -, -, -, -, -, -, -, -, -, -, -, -, -, e0, e1, -, -, -, -, -, -⟩ := idx0 (pt0 t)
  match a with
  | ⟨0, _⟩ => show win0_9.index (pt0 t) (0 : Fin 2) * 2 + 1 * (j 0).val = (j 0).val; rw [e0]; omega
  | ⟨1, _⟩ => show win0_9.index (pt0 t) (1 : Fin 2) * 1 + 1 * (j 1).val = (j 1).val; rw [e1]; omega

/-- The edge kernel's window 10 holds its whole array at every point: the one block sits at offset 0. -/
theorem iblk0_10_eq (c : Dev nD) (t : Fin 80) : (iblk0 V c 10 (pt0 t) : Vec F S32x8 .f32) = V c main_arg17 := by
  funext j
  show (V c main_arg17 : Vec F S32x8 .f32) (((cfg0.win 10).blk (pt0 t)).view.emb j) = _
  congr 1
  funext a
  apply Fin.ext
  obtain ⟨-, -, -, -, -, -, -, -, -, -, -, -, -, -, -, -, -, -, -, e0, e1, -, -, -, -⟩ := idx0 (pt0 t)
  match a with
  | ⟨0, _⟩ => show win0_10.index (pt0 t) (0 : Fin 2) * 32 + 1 * (j 0).val = (j 0).val; rw [e0]; omega
  | ⟨1, _⟩ => show win0_10.index (pt0 t) (1 : Fin 2) * 8 + 1 * (j 1).val = (j 1).val; rw [e1]; omega

/-- The edge kernel's window 11 holds its whole array at every point: the one block sits at offset 0. -/
theorem iblk0_11_eq (c : Dev nD) (t : Fin 80) : (iblk0 V c 11 (pt0 t) : Vec F S8 .f32) = V c main_arg18 := by
  funext j
  show (V c main_arg18 : Vec F S8 .f32) (((cfg0.win 11).blk (pt0 t)).view.emb j) = _
  congr 1
  funext a
  apply Fin.ext
  obtain ⟨-, -, -, -, -, -, -, -, -, -, -, -, -, -, -, -, -, -, -, -, -, e0, -, -, -⟩ := idx0 (pt0 t)
  match a with
  | ⟨0, _⟩ => show win0_11.index (pt0 t) (0 : Fin 1) * 8 + 1 * (j 0).val = (j 0).val; rw [e0]; omega

/-- The edge kernel's window 12 holds its whole array at every point: the one block sits at offset 0. -/
theorem iblk0_12_eq (c : Dev nD) (t : Fin 80) : (iblk0 V c 12 (pt0 t) : Vec F S8x32 .f32) = V c main_arg21 := by
  funext j
  show (V c main_arg21 : Vec F S8x32 .f32) (((cfg0.win 12).blk (pt0 t)).view.emb j) = _
  congr 1
  funext a
  apply Fin.ext
  obtain ⟨-, -, -, -, -, -, -, -, -, -, -, -, -, -, -, -, -, -, -, -, -, -, e0, e1, -⟩ := idx0 (pt0 t)
  match a with
  | ⟨0, _⟩ => show win0_12.index (pt0 t) (0 : Fin 2) * 8 + 1 * (j 0).val = (j 0).val; rw [e0]; omega
  | ⟨1, _⟩ => show win0_12.index (pt0 t) (1 : Fin 2) * 32 + 1 * (j 1).val = (j 1).val; rw [e1]; omega

/-- The edge kernel's window 13 holds its whole array at every point: the one block sits at offset 0. -/
theorem iblk0_13_eq (c : Dev nD) (t : Fin 80) : (iblk0 V c 13 (pt0 t) : Vec F S32 .f32) = V c main_arg22 := by
  funext j
  show (V c main_arg22 : Vec F S32 .f32) (((cfg0.win 13).blk (pt0 t)).view.emb j) = _
  congr 1
  funext a
  apply Fin.ext
  obtain ⟨-, -, -, -, -, -, -, -, -, -, -, -, -, -, -, -, -, -, -, -, -, -, -, -, e0⟩ := idx0 (pt0 t)
  match a with
  | ⟨0, _⟩ => show win0_13.index (pt0 t) (0 : Fin 1) * 32 + 1 * (j 0).val = (j 0).val; rw [e0]; omega

/-- Row `p` of the node kernel's window 0 at point `t` is row `2000·t + p` of its array. -/
theorem iblk1_0_apply (c : Dev nD) (t : Fin 5) (p : Fin 2000) (q : Fin 99) :
    (iblk1 V c 0 (pt1 t) : Vec F S2000x99 .f32) (ix2 p q) = (V c main_v19 : Vec F S10000x99 .f32) (ix2 (nrow t p) q) := by
  show (V c main_v19 : Vec F S10000x99 .f32) (((cfg1.win 0).blk (pt1 t)).view.emb (ix2 p q)) = _
  congr 1
  funext a
  apply Fin.ext
  obtain ⟨e0, e1, -, -, -, -, -, -, -, -, -, -, -, -, -, -⟩ := idx1 (pt1 t)
  match a with
  | ⟨0, _⟩ => show win1_0.index (pt1 t) (0 : Fin 2) * 2000 + 1 * p.val = 2000 * t.val + p.val; rw [e0]; show t.val * 2000 + 1 * p.val = _; omega
  | ⟨1, _⟩ => show win1_0.index (pt1 t) (1 : Fin 2) * 99 + 1 * q.val = q.val; rw [e1]; omega

/-- The node kernel's window 1 holds its whole array at every point: the one block sits at offset 0. -/
theorem iblk1_1_eq (c : Dev nD) (t : Fin 5) : (iblk1 V c 1 (pt1 t) : Vec F S99x128 .f32) = V c main_arg11 := by
  funext j
  show (V c main_arg11 : Vec F S99x128 .f32) (((cfg1.win 1).blk (pt1 t)).view.emb j) = _
  congr 1
  funext a
  apply Fin.ext
  obtain ⟨-, -, -, -, e0, e1, -, -, -, -, -, -, -, -, -, -⟩ := idx1 (pt1 t)
  match a with
  | ⟨0, _⟩ => show win1_1.index (pt1 t) (0 : Fin 2) * 99 + 1 * (j 0).val = (j 0).val; rw [e0]; omega
  | ⟨1, _⟩ => show win1_1.index (pt1 t) (1 : Fin 2) * 128 + 1 * (j 1).val = (j 1).val; rw [e1]; omega

/-- The node kernel's window 2 holds its whole array at every point: the one block sits at offset 0. -/
theorem iblk1_2_eq (c : Dev nD) (t : Fin 5) : (iblk1 V c 2 (pt1 t) : Vec F S128 .f32) = V c main_arg12 := by
  funext j
  show (V c main_arg12 : Vec F S128 .f32) (((cfg1.win 2).blk (pt1 t)).view.emb j) = _
  congr 1
  funext a
  apply Fin.ext
  obtain ⟨-, -, -, -, -, -, e0, -, -, -, -, -, -, -, -, -⟩ := idx1 (pt1 t)
  match a with
  | ⟨0, _⟩ => show win1_2.index (pt1 t) (0 : Fin 1) * 128 + 1 * (j 0).val = (j 0).val; rw [e0]; omega

/-- The node kernel's window 3 holds its whole array at every point: the one block sits at offset 0. -/
theorem iblk1_3_eq (c : Dev nD) (t : Fin 5) : (iblk1 V c 3 (pt1 t) : Vec F S128x64 .f32) = V c main_arg13 := by
  funext j
  show (V c main_arg13 : Vec F S128x64 .f32) (((cfg1.win 3).blk (pt1 t)).view.emb j) = _
  congr 1
  funext a
  apply Fin.ext
  obtain ⟨-, -, -, -, -, -, -, e0, e1, -, -, -, -, -, -, -⟩ := idx1 (pt1 t)
  match a with
  | ⟨0, _⟩ => show win1_3.index (pt1 t) (0 : Fin 2) * 128 + 1 * (j 0).val = (j 0).val; rw [e0]; omega
  | ⟨1, _⟩ => show win1_3.index (pt1 t) (1 : Fin 2) * 64 + 1 * (j 1).val = (j 1).val; rw [e1]; omega

/-- The node kernel's window 4 holds its whole array at every point: the one block sits at offset 0. -/
theorem iblk1_4_eq (c : Dev nD) (t : Fin 5) : (iblk1 V c 4 (pt1 t) : Vec F S64 .f32) = V c main_arg14 := by
  funext j
  show (V c main_arg14 : Vec F S64 .f32) (((cfg1.win 4).blk (pt1 t)).view.emb j) = _
  congr 1
  funext a
  apply Fin.ext
  obtain ⟨-, -, -, -, -, -, -, -, -, e0, -, -, -, -, -, -⟩ := idx1 (pt1 t)
  match a with
  | ⟨0, _⟩ => show win1_4.index (pt1 t) (0 : Fin 1) * 64 + 1 * (j 0).val = (j 0).val; rw [e0]; omega

/-- The node kernel's window 5 holds its whole array at every point: the one block sits at offset 0. -/
theorem iblk1_5_eq (c : Dev nD) (t : Fin 5) : (iblk1 V c 5 (pt1 t) : Vec F S64x8 .f32) = V c main_arg15 := by
  funext j
  show (V c main_arg15 : Vec F S64x8 .f32) (((cfg1.win 5).blk (pt1 t)).view.emb j) = _
  congr 1
  funext a
  apply Fin.ext
  obtain ⟨-, -, -, -, -, -, -, -, -, -, e0, e1, -, -, -, -⟩ := idx1 (pt1 t)
  match a with
  | ⟨0, _⟩ => show win1_5.index (pt1 t) (0 : Fin 2) * 64 + 1 * (j 0).val = (j 0).val; rw [e0]; omega
  | ⟨1, _⟩ => show win1_5.index (pt1 t) (1 : Fin 2) * 8 + 1 * (j 1).val = (j 1).val; rw [e1]; omega

/-- The node kernel's window 6 holds its whole array at every point: the one block sits at offset 0. -/
theorem iblk1_6_eq (c : Dev nD) (t : Fin 5) : (iblk1 V c 6 (pt1 t) : Vec F S8 .f32) = V c main_arg16 := by
  funext j
  show (V c main_arg16 : Vec F S8 .f32) (((cfg1.win 6).blk (pt1 t)).view.emb j) = _
  congr 1
  funext a
  apply Fin.ext
  obtain ⟨-, -, -, -, -, -, -, -, -, -, -, -, e0, -, -, -⟩ := idx1 (pt1 t)
  match a with
  | ⟨0, _⟩ => show win1_6.index (pt1 t) (0 : Fin 1) * 8 + 1 * (j 0).val = (j 0).val; rw [e0]; omega

/-- The node kernel's window 7 holds its whole array at every point: the one block sits at offset 0. -/
theorem iblk1_7_eq (c : Dev nD) (t : Fin 5) : (iblk1 V c 7 (pt1 t) : Vec F S8x64 .f32) = V c main_arg19 := by
  funext j
  show (V c main_arg19 : Vec F S8x64 .f32) (((cfg1.win 7).blk (pt1 t)).view.emb j) = _
  congr 1
  funext a
  apply Fin.ext
  obtain ⟨-, -, -, -, -, -, -, -, -, -, -, -, -, e0, e1, -⟩ := idx1 (pt1 t)
  match a with
  | ⟨0, _⟩ => show win1_7.index (pt1 t) (0 : Fin 2) * 8 + 1 * (j 0).val = (j 0).val; rw [e0]; omega
  | ⟨1, _⟩ => show win1_7.index (pt1 t) (1 : Fin 2) * 64 + 1 * (j 1).val = (j 1).val; rw [e1]; omega

/-- The node kernel's window 8 holds its whole array at every point: the one block sits at offset 0. -/
theorem iblk1_8_eq (c : Dev nD) (t : Fin 5) : (iblk1 V c 8 (pt1 t) : Vec F S64 .f32) = V c main_arg20 := by
  funext j
  show (V c main_arg20 : Vec F S64 .f32) (((cfg1.win 8).blk (pt1 t)).view.emb j) = _
  congr 1
  funext a
  apply Fin.ext
  obtain ⟨-, -, -, -, -, -, -, -, -, -, -, -, -, -, -, e0⟩ := idx1 (pt1 t)
  match a with
  | ⟨0, _⟩ => show win1_8.index (pt1 t) (0 : Fin 1) * 64 + 1 * (j 0).val = (j 0).val; rw [e0]; omega

/-- Row `p` of the adjacency kernel's window 0 at point `t` is row `200·t + p` of its array. -/
theorem iblk2_0_apply (c : Dev nD) (t : Fin 50) (p : Fin 200) (q : Fin 8) :
    (iblk2 V c 0 (pt2 t) : Vec F S200x8 .f32) (ix2 p q) = (V c main_v21 : Vec F S10000x8 .f32) (ix2 (arow t p) q) := by
  show (V c main_v21 : Vec F S10000x8 .f32) (((cfg2.win 0).blk (pt2 t)).view.emb (ix2 p q)) = _
  congr 1
  funext a
  apply Fin.ext
  obtain ⟨e0, e1, -, -, -, -⟩ := idx2 (pt2 t)
  match a with
  | ⟨0, _⟩ => show win2_0.index (pt2 t) (0 : Fin 2) * 200 + 1 * p.val = 200 * t.val + p.val; rw [e0]; show t.val * 200 + 1 * p.val = _; omega
  | ⟨1, _⟩ => show win2_0.index (pt2 t) (1 : Fin 2) * 8 + 1 * q.val = q.val; rw [e1]; omega

/-- The adjacency kernel's window 1 holds its whole array at every point: the one block sits at offset 0. -/
theorem iblk2_1_eq (c : Dev nD) (t : Fin 50) : (iblk2 V c 1 (pt2 t) : Vec F S10000x8 .f32) = V c main_v21 := by
  funext j
  show (V c main_v21 : Vec F S10000x8 .f32) (((cfg2.win 1).blk (pt2 t)).view.emb j) = _
  congr 1
  funext a
  apply Fin.ext
  obtain ⟨-, -, -, -, e0, e1⟩ := idx2 (pt2 t)
  match a with
  | ⟨0, _⟩ => show win2_1.index (pt2 t) (0 : Fin 2) * 10000 + 1 * (j 0).val = (j 0).val; rw [e0]; omega
  | ⟨1, _⟩ => show win2_1.index (pt2 t) (1 : Fin 2) * 8 + 1 * (j 1).val = (j 1).val; rw [e1]; omega

end Blocks

end Cert.KernelIdeal.Hand

end
-- ==== Proof.ValSlices.lean ====
/-
  A group of columns of a slab. Slicing the columns off … off + a − 1 out of an [R, n] array and reading the slice at
  (e, j) is reading the array at (e, off + j); two arrays with equal entries are equal.
-/
import Idealize.ShloMosaic.Lib.Pipeline.Value
import Idealize.ShloMosaic.Lib.ValueIdx
import proofs.«414572_j55508157334089_2_alg».proof.Proof.ValRows

namespace Cert.Hand.Rows

open Idealize.ShloMosaic Idealize.ShloMosaic.ValueIdx

variable {α : Type}

/-- The slice of the columns from `off` on, read at row `e` and column `j`, is the slab at row `e`, column `off + j`. -/
theorem slice_cols {R n a : Nat} (off : Nat) (x : (⟨2, ![R, n]⟩ : Shape).Idx → α)
    (h : (⟨2, ![R, n]⟩ : Shape).Slices ![0, off] ⟨2, ![R, a]⟩) (e : Fin R) (j : Fin a) (hoff : off + a ≤ n) :
    extractStridedSlice (⟨2, ![R, a]⟩ : Shape) ![0, off] x h (ix2 e j) = x (ix2 e (col n off j hoff)) :=
  extractStridedSlice_apply ![0, off] x h (ix2 e j) (ix2 e (col n off j hoff)) fun b => by
    match b with
    | ⟨0, _⟩ => show e.val = 0 + e.val; omega
    | ⟨1, _⟩ => rfl

/-- Two [R, a] arrays with the same entry at every row and column are one array. -/
theorem ext2 {R a : Nat} {x y : (⟨2, ![R, a]⟩ : Shape).Idx → α} (h : ∀ (e : Fin R) (j : Fin a), x (ix2 e j) = y (ix2 e j)) : x = y :=
  funext fun i => by rw [eq_ix2 i]; exact h _ _

end Cert.Hand.Rows
-- ==== Proof.ValPre.lean ====
/-
  The precondition read back. The printed precondition is a chain of twenty-three conjuncts joined by `and`; the last
  one says that every entry of the [2, 320000] table of edge end points lies in [-10000, 10000), signed. From the claim
  that the whole chain is 1 this module derives that range for every entry, and for the two id vectors (the table's
  row 0 and row 1, each sliced out and flattened to a vector of 320000 words) that both programs compute first.
-/
import proofs.«414572_j55508157334089_2_alg».proof.Pre_finite_inputs
import Idealize.ShloMosaic.Lib.ReduceAll
import Idealize.ShloMosaic.Lib.StableHlo.Predicate
import Idealize.ShloMosaic.Lib.ValueIdx
import Idealize.ShloMosaic.Lib.ValueLayout
import proofs.«414572_j55508157334089_2_alg».proof.KernelIdeal

noncomputable section

namespace Cert.Hand.Pre

open Idealize.ShloMosaic Idealize.ShloMosaic.ValueIdx
open Cert.Pre_finite_inputs

/-- The scalar shape has one index. -/
instance subsingleton_scalar_idx : Subsingleton S_.Idx := ⟨fun a b => funext fun d => d.elim0⟩

/-- The word 2³² − 10000 is −10000 signed. -/
theorem lo_toInt : (4294957296#32 : BitVec 32).toInt = -10000 := by decide
/-- The word 10000 is 10000 signed. -/
theorem hi_toInt : (10000#32 : BitVec 32).toInt = 10000 := by decide

variable {F : FTy → Type} [FloatOps F] [Facts]

/-- The chain's last conjunct: the `and` over all 640000 entries of (entry ≥ −10000) ∧ (entry < 10000) is 1. The chain
    is left-nested, so its value at the one scalar index is the `and` of the first twenty-two conjuncts with this one. -/
theorem last_conjunct (a0 : FVec F S10000x64 .f32) (a1 : IVec S2x320000 32) (a2 : FVec F S320000x32 .f32) (a3 : FVec F S10000x3 .f32)
    (a4 : FVec F S161x128 .f32) (a5 : FVec F S128 .f32) (a6 : FVec F S128x32 .f32) (a7 : FVec F S32 .f32)
    (a8 : FVec F S32x2 .f32) (a9 : FVec F S2 .f32) (a10 : FVec F S2x1 .f32) (a11 : FVec F S99x128 .f32)
    (a12 : FVec F S128 .f32) (a13 : FVec F S128x64 .f32) (a14 : FVec F S64 .f32) (a15 : FVec F S64x8 .f32)
    (a16 : FVec F S8 .f32) (a17 : FVec F S32x8 .f32) (a18 : FVec F S8 .f32) (a19 : FVec F S8x64 .f32)
    (a20 : FVec F S64 .f32) (a21 : FVec F S8x32 .f32) (a22 : FVec F S32 .f32)
    (h : fn (F := F) a0 a1 a2 a3 a4 a5 a6 a7 a8 a9 a10 a11 a12 a13 a14 a15 a16 a17 a18 a19 a20 a21 a22 = fun _ => 1#1) :
    Host.reduce IntOp.andi
      (andi (cmpi .sge a1 (broadcastInDim S2x320000 ![] Facts.bcast_S_S2x320000 (constantI S_ 32 4294957296#32)))
            (cmpi .slt a1 (broadcastInDim S2x320000 ![] Facts.bcast_S_S2x320000 (constantI S_ 32 10000#32))))
      (constantI S_ 1 1#1) Facts.reducesTo_S2x320000_S_d0_1 Facts.h_S_ ix0 = 1#1 :=
  (IntOp.andi_eq_one.1 (congrFun h ix0)).2

/-- Every entry of the end-point table lies in [-10000, 10000). An `and` over all entries that is 1 met a 1 at each
    entry; there both comparisons hold, against the two constants broadcast to the table's shape. -/
theorem idx_range (a0 : FVec F S10000x64 .f32) (a1 : IVec S2x320000 32) (a2 : FVec F S320000x32 .f32) (a3 : FVec F S10000x3 .f32)
    (a4 : FVec F S161x128 .f32) (a5 : FVec F S128 .f32) (a6 : FVec F S128x32 .f32) (a7 : FVec F S32 .f32)
    (a8 : FVec F S32x2 .f32) (a9 : FVec F S2 .f32) (a10 : FVec F S2x1 .f32) (a11 : FVec F S99x128 .f32)
    (a12 : FVec F S128 .f32) (a13 : FVec F S128x64 .f32) (a14 : FVec F S64 .f32) (a15 : FVec F S64x8 .f32)
    (a16 : FVec F S8 .f32) (a17 : FVec F S32x8 .f32) (a18 : FVec F S8 .f32) (a19 : FVec F S8x64 .f32)
    (a20 : FVec F S64 .f32) (a21 : FVec F S8x32 .f32) (a22 : FVec F S32 .f32)
    (h : fn (F := F) a0 a1 a2 a3 a4 a5 a6 a7 a8 a9 a10 a11 a12 a13 a14 a15 a16 a17 a18 a19 a20 a21 a22 = fun _ => 1#1) :
    ∀ (r : Fin 2) (e : Fin 320000), -10000 ≤ (a1 (ix2 r e)).toInt ∧ (a1 (ix2 r e)).toInt < 10000 := by
  intro r e
  have h1 := last_conjunct a0 a1 a2 a3 a4 a5 a6 a7 a8 a9 a10 a11 a12 a13 a14 a15 a16 a17 a18 a19 a20 a21 a22 h
  have h2 := Host.reduce_andi_all _ _ _ _ _ h1 (ix2 r e)
  obtain ⟨hge, hlt⟩ := IntOp.andi_eq_one.1 h2
  have hge' : (4294957296#32 : BitVec 32).toInt ≤ (a1 (ix2 r e)).toInt := IntOp.cmpi_sge.1 hge
  have hlt' : (a1 (ix2 r e)).toInt < (10000#32 : BitVec 32).toInt := IntOp.cmpi_slt.1 hlt
  rw [lo_toInt] at hge'
  rw [hi_toInt] at hlt'
  exact ⟨hge', hlt'⟩

/-- Row `r` of the end-point table, sliced out as a [1, 320000] block and flattened to a vector, reads at `e` the
    table's entry (r, e): the slice shifts the first coordinate by `r`, and the flattening of a one-row block keeps
    the position along the row. -/
theorem id_vector_apply (a1 : IVec S2x320000 32) (r : Fin 2) (o : Nat) (ho : r.val = o)
    (hs : S2x320000.Slices ![o, 0] Cert.KernelIdeal.S1x320000)
    (hc : Cert.KernelIdeal.S1x320000.ShapeCasts Cert.KernelIdeal.S320000) (e : Fin 320000) :
    (shapeCast Cert.KernelIdeal.S320000 (extractStridedSlice Cert.KernelIdeal.S1x320000 ![o, 0] a1 hs) hc :
      IVec Cert.KernelIdeal.S320000 32) (ix1 e) = a1 (ix2 r e) := by
  refine (shapeCast_1a_a_apply _ hc e).trans ?_
  refine extractStridedSlice_apply _ a1 hs _ (ix2 r e) ?_
  intro a
  fin_cases a
  · show r.val = o + 0
    omega
  · show e.val = 0 + e.val
    omega

section IdVectors
variable [Cert.KernelIdeal.Facts₀]
open Cert.KernelIdeal.Facts₀

/-- The vector of first end points (row 0 of the table, flattened) has every entry in [-10000, 10000). -/
theorem row_range (a0 : FVec F S10000x64 .f32) (a1 : IVec S2x320000 32) (a2 : FVec F S320000x32 .f32) (a3 : FVec F S10000x3 .f32)
    (a4 : FVec F S161x128 .f32) (a5 : FVec F S128 .f32) (a6 : FVec F S128x32 .f32) (a7 : FVec F S32 .f32)
    (a8 : FVec F S32x2 .f32) (a9 : FVec F S2 .f32) (a10 : FVec F S2x1 .f32) (a11 : FVec F S99x128 .f32)
    (a12 : FVec F S128 .f32) (a13 : FVec F S128x64 .f32) (a14 : FVec F S64 .f32) (a15 : FVec F S64x8 .f32)
    (a16 : FVec F S8 .f32) (a17 : FVec F S32x8 .f32) (a18 : FVec F S8 .f32) (a19 : FVec F S8x64 .f32)
    (a20 : FVec F S64 .f32) (a21 : FVec F S8x32 .f32) (a22 : FVec F S32 .f32)
    (h : fn (F := F) a0 a1 a2 a3 a4 a5 a6 a7 a8 a9 a10 a11 a12 a13 a14 a15 a16 a17 a18 a19 a20 a21 a22 = fun _ => 1#1) :
    ∀ e : Fin 320000,
      -10000 ≤ ((shapeCast Cert.KernelIdeal.S320000
          (extractStridedSlice Cert.KernelIdeal.S1x320000 ![0, 0] a1 slices_S2x320000_S1x320000_0_0)
          shapeCasts_S1x320000_S320000 : IVec Cert.KernelIdeal.S320000 32) (ix1 e)).toInt
      ∧ ((shapeCast Cert.KernelIdeal.S320000
          (extractStridedSlice Cert.KernelIdeal.S1x320000 ![0, 0] a1 slices_S2x320000_S1x320000_0_0)
          shapeCasts_S1x320000_S320000 : IVec Cert.KernelIdeal.S320000 32) (ix1 e)).toInt < 10000 := by
  intro e
  have hr := idx_range a0 a1 a2 a3 a4 a5 a6 a7 a8 a9 a10 a11 a12 a13 a14 a15 a16 a17 a18 a19 a20 a21 a22 h 0 e
  have he := id_vector_apply a1 0 0 rfl slices_S2x320000_S1x320000_0_0 shapeCasts_S1x320000_S320000 e
  rw [he]
  exact hr

/-- The vector of second end points (row 1 of the table, flattened) has every entry in [-10000, 10000). -/
theorem col_range (a0 : FVec F S10000x64 .f32) (a1 : IVec S2x320000 32) (a2 : FVec F S320000x32 .f32) (a3 : FVec F S10000x3 .f32)
    (a4 : FVec F S161x128 .f32) (a5 : FVec F S128 .f32) (a6 : FVec F S128x32 .f32) (a7 : FVec F S32 .f32)
    (a8 : FVec F S32x2 .f32) (a9 : FVec F S2 .f32) (a10 : FVec F S2x1 .f32) (a11 : FVec F S99x128 .f32)
    (a12 : FVec F S128 .f32) (a13 : FVec F S128x64 .f32) (a14 : FVec F S64 .f32) (a15 : FVec F S64x8 .f32)
    (a16 : FVec F S8 .f32) (a17 : FVec F S32x8 .f32) (a18 : FVec F S8 .f32) (a19 : FVec F S8x64 .f32)
    (a20 : FVec F S64 .f32) (a21 : FVec F S8x32 .f32) (a22 : FVec F S32 .f32)
    (h : fn (F := F) a0 a1 a2 a3 a4 a5 a6 a7 a8 a9 a10 a11 a12 a13 a14 a15 a16 a17 a18 a19 a20 a21 a22 = fun _ => 1#1) :
    ∀ e : Fin 320000,
      -10000 ≤ ((shapeCast Cert.KernelIdeal.S320000
          (extractStridedSlice Cert.KernelIdeal.S1x320000 ![1, 0] a1 slices_S2x320000_S1x320000_1_0)
          shapeCasts_S1x320000_S320000 : IVec Cert.KernelIdeal.S320000 32) (ix1 e)).toInt
      ∧ ((shapeCast Cert.KernelIdeal.S320000
          (extractStridedSlice Cert.KernelIdeal.S1x320000 ![1, 0] a1 slices_S2x320000_S1x320000_1_0)
          shapeCasts_S1x320000_S320000 : IVec Cert.KernelIdeal.S320000 32) (ix1 e)).toInt < 10000 := by
  intro e
  have hr := idx_range a0 a1 a2 a3 a4 a5 a6 a7 a8 a9 a10 a11 a12 a13 a14 a15 a16 a17 a18 a19 a20 a21 a22 h 1 e
  have he := id_vector_apply a1 1 1 rfl slices_S2x320000_S1x320000_1_0 shapeCasts_S1x320000_S320000 e
  rw [he]
  exact hr

end IdVectors

end Cert.Hand.Pre

end
-- ==== Proof.ValEdgeMath.lean ====
/-
  The edge kernel's block computation is the reference's, row by row.

  A block of the edge kernel holds 4000 edges. Row `p` of the block carries the gathered features and coordinates of the
  edge's two endpoints and the edge's attributes; from them the body computes, row by row, the coordinate difference,
  its squared length, the normalised difference, the message network (two dense layers with a rectifier between them),
  the coordinate weight (two small dense layers), the coordinate update, the edge embedding and the reconstructed
  edge attributes, and lays four of these side by side in a slab of 75 columns. The reference computes the same
  quantities for all 320000 edges at once. Here each layer of the block, read at row `p`, is shown to be the
  reference's stage read at the edge `e` that row stands for, given that the block's input rows are the reference's
  gathered rows at `e`. All values are the ideal ones (extended reals, every operation exact), where a product into a
  zero accumulator and the host's contraction are one sum, and the vector unit's reduction and the host's are one sum.
-/
import proofs.«414572_j55508157334089_2_alg».proof.Proof.KiPay
import proofs.«414572_j55508157334089_2_alg».proof.Proof.RefRun
import proofs.«414572_j55508157334089_2_alg».proof.Proof.ValRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.ReferenceIdeal.Read Cert.Hand.Rows Idealize.ShloMosaic Idealize.ShloMosaic.ValueIdx

/-! ## A plain matrix product at an entry

Dimension numbers that contract the left operand's columns with the right operand's rows, with no batch axis, make
the product's entry `(r, c)` the sum over `k` of the left operand at `(r, k)` times the right at `(k, c)`. -/

section PlainDot
variable {m K n : Nat} (d : DotDims ⟨2, ![m, K]⟩ ⟨2, ![K, n]⟩ ⟨2, ![m, n]⟩)

/-- The left operand's row is the entry's row. -/
theorem plain_lhs0 (hln : d.lhsNonContracting = [0]) (hlb : d.lhsBatch = [])
    (j : (⟨2, ![m, n]⟩ : Shape).Idx) (q : d.contr.Idx) : (d.lhsIdx j q 0).val = (j 0).val := by
  have hb : ¬(0 : Fin (⟨2, ![m, K]⟩ : Shape).rank) ∈ d.lhsBatch := by rw [hlb]; exact List.not_mem_nil
  have hn : (0 : Fin (⟨2, ![m, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- The right operand's column is the entry's column. -/
theorem plain_rhs1 (hln : d.lhsNonContracting = [0]) (hlb : d.lhsBatch = []) (hrn : d.rhsNonContracting = [1]) (hrb : d.rhsBatch = [])
    (j : (⟨2, ![m, n]⟩ : Shape).Idx) (q : d.contr.Idx) : (d.rhsIdx j q 1).val = (j 1).val := by
  have hb : ¬(1 : Fin (⟨2, ![K, n]⟩ : Shape).rank) ∈ d.rhsBatch := by rw [hrb]; exact List.not_mem_nil
  have hn : (1 : Fin (⟨2, ![K, n]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- The entry `(r, c)` of a plain product into a zero accumulator, over factors the caller names row by row. -/
theorem matmul_plain_rows (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![m, K]⟩ .f32) (B : FVec Ideal ⟨2, ![K, n]⟩ .f32) (r : Fin m) (c : Fin n)
    (L R : Fin K → EReal) (hL : ∀ k, A (ix2 r k) = L k) (hR : ∀ k, B (ix2 k c) = R k) :
    matmul d none A B (constant (F := Ideal) ⟨2, ![m, n]⟩ .f32 0x00000000#32) (ix2 r c) = ∑ k : Fin K, L k * R k := by
  have hr : d.contr.rank = 1 := by rw [d.rank_contr, hlc]; rfl
  have hs : d.contr.size ⟨0, by omega⟩ = K := by
    have := d.size_contr 0 (by rw [hlc]; exact Nat.one_pos)
    rw [this]; simp [hlc]
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact plain_lhs0 d hln hlb _ _
    | ⟨1, _⟩ => exact (d.lhsIdx_val_of_single hlc _ _).trans hk)
  have er : d.rhsIdx (ix2 r c) ((contrEquiv1 d K hr hs).symm k) = ix2 k c := funext fun a => Fin.ext (by
    match a with
    | ⟨0, _⟩ => exact (d.rhsIdx_val_of_single hrc _ _).trans hk
    | ⟨1, _⟩ => exact plain_rhs1 d hln hlb hrn hrb _ _)
  rw [el, er, hL, hR]

end PlainDot

/-! ## Small layout readings -/

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]`, made a row and broadcast down `a` rows, reads at `(p, c)` the vector at `c`. -/
theorem bias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

end Layout

/-! ## Four pieces joined along the columns, read at a column

A matrix made of four groups of columns laid side by side reads, at row `r` and a column of the `i`-th group, that
group at row `r` and the column counted from the group's first. -/

section Concat4
variable {α : Type} {m n0 n1 n2 n3 N : ℕ}
  (y0 : (⟨2, ![m, n0]⟩ : Shape).Idx → α) (y1 : (⟨2, ![m, n1]⟩ : Shape).Idx → α)
  (y2 : (⟨2, ![m, n2]⟩ : Shape).Idx → α) (y3 : (⟨2, ![m, n3]⟩ : Shape).Idx → α)
  (h : Shape.Concatenates [(⟨2, ![m, n0]⟩ : Shape), ⟨2, ![m, n1]⟩, ⟨2, ![m, n2]⟩, ⟨2, ![m, n3]⟩] ⟨2, ![m, N]⟩ 1)

/-- A column of the first group. -/
theorem concat4_cols_0 (r : Fin m) (l : Fin N) (j : Fin n0) (hl : l.val = j.val) :
    concatenate ⟨2, ![m, N]⟩ 1 [⟨⟨2, ![m, n0]⟩, y0⟩, ⟨⟨2, ![m, n1]⟩, y1⟩, ⟨⟨2, ![m, n2]⟩, y2⟩, ⟨⟨2, ![m, n3]⟩, y3⟩] h (ix2 r l)
      = y0 (ix2 r j) :=
  concatenate_apply_piece 1 [⟨⟨2, ![m, n0]⟩, y0⟩, ⟨⟨2, ![m, n1]⟩, y1⟩, ⟨⟨2, ![m, n2]⟩, y2⟩, ⟨⟨2, ![m, n3]⟩, y3⟩] h (ix2 r l) 0 (by simp) ⟨2, ![m, n0]⟩ y0 rfl rfl 0 rfl (ix2 r j)
    (fun b hb => by match b with | ⟨0, _⟩ => rfl | ⟨1, _⟩ => exact absurd rfl hb)
    (by show 0 + j.val = l.val; omega)

/-- A column of the second group. -/
theorem concat4_cols_1 (r : Fin m) (l : Fin N) (j : Fin n1) (hl : l.val = n0 + j.val) :
    concatenate ⟨2, ![m, N]⟩ 1 [⟨⟨2, ![m, n0]⟩, y0⟩, ⟨⟨2, ![m, n1]⟩, y1⟩, ⟨⟨2, ![m, n2]⟩, y2⟩, ⟨⟨2, ![m, n3]⟩, y3⟩] h (ix2 r l)
      = y1 (ix2 r j) :=
  concatenate_apply_piece 1 [⟨⟨2, ![m, n0]⟩, y0⟩, ⟨⟨2, ![m, n1]⟩, y1⟩, ⟨⟨2, ![m, n2]⟩, y2⟩, ⟨⟨2, ![m, n3]⟩, y3⟩] h (ix2 r l) 1 (by simp) ⟨2, ![m, n1]⟩ y1 rfl rfl (n0 + 0) rfl (ix2 r j)
    (fun b hb => by match b with | ⟨0, _⟩ => rfl | ⟨1, _⟩ => exact absurd rfl hb)
    (by show n0 + 0 + j.val = l.val; omega)

/-- A column of the third group. -/
theorem concat4_cols_2 (r : Fin m) (l : Fin N) (j : Fin n2) (hl : l.val = n0 + n1 + j.val) :
    concatenate ⟨2, ![m, N]⟩ 1 [⟨⟨2, ![m, n0]⟩, y0⟩, ⟨⟨2, ![m, n1]⟩, y1⟩, ⟨⟨2, ![m, n2]⟩, y2⟩, ⟨⟨2, ![m, n3]⟩, y3⟩] h (ix2 r l)
      = y2 (ix2 r j) :=
  concatenate_apply_piece 1 [⟨⟨2, ![m, n0]⟩, y0⟩, ⟨⟨2, ![m, n1]⟩, y1⟩, ⟨⟨2, ![m, n2]⟩, y2⟩, ⟨⟨2, ![m, n3]⟩, y3⟩] h (ix2 r l) 2 (by simp) ⟨2, ![m, n2]⟩ y2 rfl rfl (n0 + (n1 + 0)) rfl (ix2 r j)
    (fun b hb => by match b with | ⟨0, _⟩ => rfl | ⟨1, _⟩ => exact absurd rfl hb)
    (by show n0 + (n1 + 0) + j.val = l.val; omega)

/-- A column of the fourth group. -/
theorem concat4_cols_3 (r : Fin m) (l : Fin N) (j : Fin n3) (hl : l.val = n0 + n1 + n2 + j.val) :
    concatenate ⟨2, ![m, N]⟩ 1 [⟨⟨2, ![m, n0]⟩, y0⟩, ⟨⟨2, ![m, n1]⟩, y1⟩, ⟨⟨2, ![m, n2]⟩, y2⟩, ⟨⟨2, ![m, n3]⟩, y3⟩] h (ix2 r l)
      = y3 (ix2 r j) :=
  concatenate_apply_piece 1 [⟨⟨2, ![m, n0]⟩, y0⟩, ⟨⟨2, ![m, n1]⟩, y1⟩, ⟨⟨2, ![m, n2]⟩, y2⟩, ⟨⟨2, ![m, n3]⟩, y3⟩] h (ix2 r l) 3 (by simp) ⟨2, ![m, n3]⟩ y3 rfl rfl (n0 + (n1 + (n2 + 0))) rfl (ix2 r j)
    (fun b hb => by match b with | ⟨0, _⟩ => rfl | ⟨1, _⟩ => exact absurd rfl hb)
    (by show n0 + (n1 + (n2 + 0)) + j.val = l.val; omega)

end Concat4

/-! ## A dense layer on a block of rows -/

section Dense
variable {m K n : Nat} (d : DotDims ⟨2, ![m, K]⟩ ⟨2, ![K, n]⟩ ⟨2, ![m, n]⟩)

/-- The product with the weights plus the bias in every row, at the entry `(r, c)`: the sum over `k` of the row's
    `k`-th factor times the weights' column, plus the bias at `c`. -/
theorem dense_rows (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![m, K]⟩ .f32) (W : FVec Ideal ⟨2, ![K, n]⟩ .f32) (b : FVec Ideal ⟨1, ![n]⟩ .f32)
    (h1 : (⟨1, ![n]⟩ : Shape).ShapeCasts ⟨2, ![1, n]⟩) (h2 : (⟨2, ![1, n]⟩ : Shape).Broadcasts ⟨2, ![m, n]⟩)
    (r : Fin m) (c : Fin n) (L R : Fin K → EReal) (hL : ∀ k, A (ix2 r k) = L k) (hR : ∀ k, W (ix2 k c) = R k) :
    addf (matmul d none A W (constant (F := Ideal) ⟨2, ![m, n]⟩ .f32 0x00000000#32))
        (broadcastTo ⟨2, ![m, n]⟩ (shapeCast ⟨2, ![1, n]⟩ b h1) h2) (ix2 r c)
      = FloatOps.addf (∑ k : Fin K, L k * R k) (b (ix1 c)) := by
  show FloatOps.addf (matmul d none A W (constant (F := Ideal) ⟨2, ![m, n]⟩ .f32 0x00000000#32) (ix2 r c))
      (broadcastTo ⟨2, ![m, n]⟩ (shapeCast ⟨2, ![1, n]⟩ b h1) h2 (ix2 r c)) = _
  rw [matmul_plain_rows d hlc hrc hln hrn hlb hrb A W r c L R hL hR, bias_apply]

end Dense

/-! ## The edge kernel, layer by layer

Throughout, `p` is a row of the block and `e` the edge it stands for; the hypotheses say that the block's input rows
at `p` are the reference's gathered rows at `e`. -/

/-- The coordinate difference of the edge's endpoints. -/
theorem diffs_row (x0 x1 : Vec Ideal S4000x67 .f32) (X1 : (⟨Cert.ReferenceIdeal.S2x320000, .i32⟩ : BufTy).Contents (Elt Ideal)) (X3 : (⟨Cert.ReferenceIdeal.S10000x3, .f32⟩ : BufTy).Contents (Elt Ideal)) (p : Fin 4000) (e : Fin 320000)
    (h0c : ∀ j : Fin 3, x0 (ix2 p (col 67 64 j (by omega))) = val_main_v10 (F := Ideal) X1 X3 (ix2 e j))
    (h1c : ∀ j : Fin 3, x1 (ix2 p (col 67 64 j (by omega))) = val_main_v17 (F := Ideal) X1 X3 (ix2 e j)) (j : Fin 3) :
    k0_pay4 x0 x1 (ix2 p j) = val_main_v18 (F := Ideal) X1 X3 (ix2 e j) := by
  unfold k0_pay4 k0_pay2 k0_pay3
  simp only [shapeCast_self]
  show FloatOps.subf (F := Ideal) (φ := .f32) (extractStridedSlice S4000x3 ![0, 64] x0 _ (ix2 p j))
      (extractStridedSlice S4000x3 ![0, 64] x1 _ (ix2 p j)) = _
  rw [slice2_axis1_apply 64 x0 _ p j (col 67 64 j (by omega)) rfl, slice2_axis1_apply 64 x1 _ p j (col 67 64 j (by omega)) rfl,
    h0c, h1c]
  exact (val_main_v18_apply X1 X3 (ix2 e j)).symm

/-- Its squared length: the sum of the three squared differences, on the vector unit and on the host. -/
theorem radial_row (x0 x1 : Vec Ideal S4000x67 .f32) (X1 : (⟨Cert.ReferenceIdeal.S2x320000, .i32⟩ : BufTy).Contents (Elt Ideal)) (X3 : (⟨Cert.ReferenceIdeal.S10000x3, .f32⟩ : BufTy).Contents (Elt Ideal)) (p : Fin 4000) (e : Fin 320000)
    (hd : ∀ j : Fin 3, k0_pay4 x0 x1 (ix2 p j) = val_main_v18 (F := Ideal) X1 X3 (ix2 e j)) (u : Fin 1) :
    k0_pay5 x0 x1 (ix2 p u) = val_main_v21 (F := Ideal) X1 X3 (ix2 e u) := by
  rw [val_main_v21_apply, val_main_v20_apply, val_main_cst_apply]
  unfold k0_pay5
  generalize k0_pay4 x0 x1 = D at hd ⊢
  simp only []
  rw [shapeCast_a_a1_apply]
  refine (Ideal.multiReduction_add_single (mulf D D) _ _ _ _ (ix1 p)).trans ?_
  show _ = Ideal.ofBits .f32 0x00000000#32 + _
  rw [Ideal.ofBits_zero_f32, zero_add]
  refine Finset.sum_congr rfl fun (k : Fin 3) _ => ?_
  have e1 : (Facts₀.reduces_S4000x3_S4000).lift (ix1 p) k = ix2 p k := funext fun a => Fin.ext (by match a with | ⟨0, _⟩ => rfl | ⟨1, _⟩ => rfl)
  have e2 : idx_main_v20 (idx_main_v21 (ix2 e u)) k = ix2 e k := funext fun a => Fin.ext (by match a with | ⟨0, _⟩ => rfl | ⟨1, _⟩ => rfl)
  rw [e1, e2, val_main_v19_apply, ← hd]
  rfl

/-- The normalised difference: the difference over one plus the root of the squared length. -/
theorem normed_row (x0 x1 : Vec Ideal S4000x67 .f32) (X1 : (⟨Cert.ReferenceIdeal.S2x320000, .i32⟩ : BufTy).Contents (Elt Ideal)) (X3 : (⟨Cert.ReferenceIdeal.S10000x3, .f32⟩ : BufTy).Contents (Elt Ideal)) (p : Fin 4000) (e : Fin 320000)
    (hd : ∀ j : Fin 3, k0_pay4 x0 x1 (ix2 p j) = val_main_v18 (F := Ideal) X1 X3 (ix2 e j))
    (hr : ∀ u : Fin 1, k0_pay5 x0 x1 (ix2 p u) = val_main_v21 (F := Ideal) X1 X3 (ix2 e u)) (j : Fin 3) :
    k0_pay6 x0 x1 (ix2 p j) = val_main_v26 (F := Ideal) X1 X3 (ix2 e j) := by
  have hi : idx_main_v25 (ix2 e j) = ix2 e (0 : Fin 1) := funext fun a => Fin.ext (by match a with | ⟨0, _⟩ => rfl | ⟨1, _⟩ => rfl)
  rw [val_main_v26_apply, val_main_v25_apply, hi, val_main_v24_apply, val_main_v22_apply, val_main_v23_apply,
    val_main_cst_3_apply, ← hd, ← hr]
  unfold k0_pay6
  generalize k0_pay4 x0 x1 = D
  generalize k0_pay5 x0 x1 = R
  show FloatOps.divf (D (ix2 p j)) (broadcastTo S4000x3 _ _ (ix2 p j)) = _
  rw [broadcastTo_a1_ab_apply]
  rfl

/-- The message network's input row: the two endpoints' features, the edge's attributes and the squared length, side
    by side. -/
theorem edgeIn_row (x0 x1 : Vec Ideal S4000x67 .f32) (x2 : Vec Ideal S4000x32 .f32) (X0 : (⟨Cert.ReferenceIdeal.S10000x64, .f32⟩ : BufTy).Contents (Elt Ideal)) (X1 : (⟨Cert.ReferenceIdeal.S2x320000, .i32⟩ : BufTy).Contents (Elt Ideal)) (X2 : (⟨Cert.ReferenceIdeal.S320000x32, .f32⟩ : BufTy).Contents (Elt Ideal)) (X3 : (⟨Cert.ReferenceIdeal.S10000x3, .f32⟩ : BufTy).Contents (Elt Ideal)) (p : Fin 4000) (e : Fin 320000)
    (h0f : ∀ j : Fin 64, x0 (ix2 p (col 67 0 j (by omega))) = val_main_v33 (F := Ideal) X0 X1 (ix2 e j))
    (h1f : ∀ j : Fin 64, x1 (ix2 p (col 67 0 j (by omega))) = val_main_v40 (F := Ideal) X0 X1 (ix2 e j))
    (h2 : ∀ j : Fin 32, x2 (ix2 p j) = X2 (ix2 e j))
    (hr : ∀ u : Fin 1, k0_pay5 x0 x1 (ix2 p u) = val_main_v21 (F := Ideal) X1 X3 (ix2 e u)) (l : Fin 161) :
    concatenate S4000x161 1 [⟨S4000x64, extractStridedSlice S4000x64 ![0, 0] (k0_pay2 x0) Facts₀.slices_S4000x67_o0_0_S4000x64⟩,
        ⟨S4000x64, extractStridedSlice S4000x64 ![0, 0] (k0_pay3 x1) Facts₀.slices_S4000x67_o0_0_S4000x64⟩, ⟨S4000x32, x2⟩,
        ⟨S4000x1, k0_pay5 x0 x1⟩] Facts₀.concatenates_S4000x64_S4000x64_S4000x32_S4000x1_S4000x161_d1 (ix2 p l)
      = val_main_v41 (F := Ideal) X0 X1 X2 X3 (ix2 e l) := by
  unfold val_main_v41
  by_cases c0 : l.val < 64
  · refine (concat4_cols_0 _ _ _ _ _ p l ⟨l.val, c0⟩ rfl).trans ?_
    refine Eq.trans ?_ (concat4_cols_0 _ _ _ _ _ e l ⟨l.val, c0⟩ rfl).symm
    unfold k0_pay2
    simp only [shapeCast_self]
    rw [slice2_axis1_apply 0 x0 _ p ⟨l.val, c0⟩ (col 67 0 (⟨l.val, c0⟩ : Fin 64) (by omega)) rfl]
    exact h0f _
  · by_cases c1 : l.val < 128
    · have hj : l.val - 64 < 64 := by omega
      have hl : l.val = 64 + (l.val - 64) := by omega
      refine (concat4_cols_1 _ _ _ _ _ p l ⟨l.val - 64, hj⟩ hl).trans ?_
      refine Eq.trans ?_ (concat4_cols_1 _ _ _ _ _ e l ⟨l.val - 64, hj⟩ hl).symm
      unfold k0_pay3
      simp only [shapeCast_self]
      rw [slice2_axis1_apply 0 x1 _ p ⟨l.val - 64, hj⟩ (col 67 0 (⟨l.val - 64, hj⟩ : Fin 64) (by omega)) rfl]
      exact h1f _
    · by_cases c2 : l.val < 160
      · have hj : l.val - 128 < 32 := by omega
        have hl : l.val = 64 + 64 + (l.val - 128) := by omega
        refine (concat4_cols_2 _ _ _ _ _ p l ⟨l.val - 128, hj⟩ hl).trans ?_
        refine Eq.trans ?_ (concat4_cols_2 _ _ _ _ _ e l ⟨l.val - 128, hj⟩ hl).symm
        exact h2 _
      · have hj : l.val - 160 < 1 := by have := l.isLt; omega
        have hl : l.val = 64 + 64 + 32 + (l.val - 160) := by omega
        refine (concat4_cols_3 _ _ _ _ _ p l ⟨l.val - 160, hj⟩ hl).trans ?_
        refine Eq.trans ?_ (concat4_cols_3 _ _ _ _ _ e l ⟨l.val - 160, hj⟩ hl).symm
        exact hr _

/-- The edge message: a dense layer of 128 units, the rectifier, a dense layer of 32 units. -/
theorem pay7_row (x0 x1 : Vec Ideal S4000x67 .f32) (x2 : Vec Ideal S4000x32 .f32) (x3 : Vec Ideal S161x128 .f32) (x4 : Vec Ideal S128 .f32) (x5 : Vec Ideal S128x32 .f32) (x6 : Vec Ideal S32 .f32) (X0 : (⟨Cert.ReferenceIdeal.S10000x64, .f32⟩ : BufTy).Contents (Elt Ideal)) (X1 : (⟨Cert.ReferenceIdeal.S2x320000, .i32⟩ : BufTy).Contents (Elt Ideal)) (X2 : (⟨Cert.ReferenceIdeal.S320000x32, .f32⟩ : BufTy).Contents (Elt Ideal)) (X3 : (⟨Cert.ReferenceIdeal.S10000x3, .f32⟩ : BufTy).Contents (Elt Ideal)) (p : Fin 4000) (e : Fin 320000)
    (hin : ∀ l : Fin 161,
      concatenate S4000x161 1 [⟨S4000x64, extractStridedSlice S4000x64 ![0, 0] (k0_pay2 x0) Facts₀.slices_S4000x67_o0_0_S4000x64⟩,
        ⟨S4000x64, extractStridedSlice S4000x64 ![0, 0] (k0_pay3 x1) Facts₀.slices_S4000x67_o0_0_S4000x64⟩, ⟨S4000x32, x2⟩,
        ⟨S4000x1, k0_pay5 x0 x1⟩] Facts₀.concatenates_S4000x64_S4000x64_S4000x32_S4000x1_S4000x161_d1 (ix2 p l)
      = val_main_v41 (F := Ideal) X0 X1 X2 X3 (ix2 e l)) (c : Fin 32) :
    k0_pay7 x0 x1 x2 x3 x4 x5 x6 (ix2 p c) = val_main_v50 (F := Ideal) X0 X1 X2 X3 x3 x4 x5 x6 (ix2 e c) := by
  have hb : idx_main_v48 (idx_main_v49 (ix2 e c)) = ix1 c := funext fun a => Fin.ext (by match a with | ⟨0, _⟩ => rfl)
  rw [val_main_v50_apply, val_main_v47_apply, val_main_v49_apply, val_main_v48_apply, hb]
  unfold k0_pay7
  refine dense_rows _ rfl rfl rfl rfl rfl rfl _ x5 x6 _ _ p c _ _ (fun k => ?_) (fun k => ?_)
  · -- the hidden layer at unit `k`
    have hl : lidx_main_v47 (ix2 e c) k = ix2 e k := funext fun a => Fin.ext (by match a with | ⟨0, _⟩ => rfl | ⟨1, _⟩ => rfl)
    have hb1 : idx_main_v43 (idx_main_v44 (ix2 e k)) = ix1 k := funext fun a => Fin.ext (by match a with | ⟨0, _⟩ => rfl)
    rw [hl, val_main_v46_apply, val_main_call0_v0_apply, val_main_call0_cst_apply, val_main_v45_apply, val_main_v42_apply,
      val_main_v44_apply, val_main_v43_apply, hb1]
    refine congrArg₂ FloatOps.maximumf ?_ rfl
    refine dense_rows _ rfl rfl rfl rfl rfl rfl _ x3 x4 _ _ p k _ _ (fun q => ?_) (fun q => ?_)
    · exact (hin q).trans (congrArg (val_main_v41 (F := Ideal) X0 X1 X2 X3) (funext fun a => Fin.ext (by match a with | ⟨0, _⟩ => rfl | ⟨1, _⟩ => rfl)))
    · exact congrArg x3 (funext fun a => Fin.ext (by match a with | ⟨0, _⟩ => rfl | ⟨1, _⟩ => rfl))
  · exact congrArg x5 (funext fun a => Fin.ext (by match a with | ⟨0, _⟩ => rfl | ⟨1, _⟩ => rfl))

/-- The coordinate weight's first layer, before its bias. -/
theorem pay8_row (x0 x1 : Vec Ideal S4000x67 .f32) (x2 : Vec Ideal S4000x32 .f32) (x3 : Vec Ideal S161x128 .f32) (x4 : Vec Ideal S128 .f32) (x5 : Vec Ideal S128x32 .f32) (x6 : Vec Ideal S32 .f32) (x7 : Vec Ideal S32x2 .f32) (X0 : (⟨Cert.ReferenceIdeal.S10000x64, .f32⟩ : BufTy).Contents (Elt Ideal)) (X1 : (⟨Cert.ReferenceIdeal.S2x320000, .i32⟩ : BufTy).Contents (Elt Ideal)) (X2 : (⟨Cert.ReferenceIdeal.S320000x32, .f32⟩ : BufTy).Contents (Elt Ideal)) (X3 : (⟨Cert.ReferenceIdeal.S10000x3, .f32⟩ : BufTy).Contents (Elt Ideal))
    (p : Fin 4000) (e : Fin 320000)
    (h50 : ∀ j : Fin 32, k0_pay7 x0 x1 x2 x3 x4 x5 x6 (ix2 p j) = val_main_v50 (F := Ideal) X0 X1 X2 X3 x3 x4 x5 x6 (ix2 e j)) (c : Fin 2) :
    k0_pay8 x0 x1 x2 x3 x4 x5 x6 x7 (ix2 p c) = val_main_v51 (F := Ideal) X0 X1 X2 X3 x3 x4 x5 x6 x7 (ix2 e c) := by
  rw [val_main_v51_apply]
  unfold k0_pay8
  generalize k0_pay7 x0 x1 x2 x3 x4 x5 x6 = M at h50 ⊢
  refine matmul_plain_rows _ rfl rfl rfl rfl rfl rfl M x7 p c _ _ (fun k => ?_) (fun k => ?_)
  · exact (h50 k).trans (congrArg (val_main_v50 (F := Ideal) X0 X1 X2 X3 x3 x4 x5 x6) (funext fun a => Fin.ext (by match a with | ⟨0, _⟩ => rfl | ⟨1, _⟩ => rfl)))
  · exact congrArg x7 (funext fun a => Fin.ext (by match a with | ⟨0, _⟩ => rfl | ⟨1, _⟩ => rfl))

/-- Its bias, in every row. -/
theorem pay9_row (x8 : Vec Ideal S2 .f32) (p : Fin 4000) (e : Fin 320000) (c : Fin 2) :
    k0_pay9 x8 (ix2 p c) = val_main_v53 (F := Ideal) x8 (ix2 e c) := by
  have hb : idx_main_v52 (idx_main_v53 (ix2 e c)) = ix1 c := funext fun a => Fin.ext (by match a with | ⟨0, _⟩ => rfl)
  rw [val_main_v53_apply, val_main_v52_apply, hb]
  unfold k0_pay9
  exact bias_apply x8 _ _ p c

/-- The edge embedding: a dense layer of 8 units on the edge message. -/
theorem emb_row (V32 : FVec Ideal S4000x32 .f32) (x10 : Vec Ideal S32x8 .f32) (x11 : Vec Ideal S8 .f32) (x3 : Vec Ideal S161x128 .f32) (x4 : Vec Ideal S128 .f32) (x5 : Vec Ideal S128x32 .f32) (x6 : Vec Ideal S32 .f32) (X0 : (⟨Cert.ReferenceIdeal.S10000x64, .f32⟩ : BufTy).Contents (Elt Ideal)) (X1 : (⟨Cert.ReferenceIdeal.S2x320000, .i32⟩ : BufTy).Contents (Elt Ideal)) (X2 : (⟨Cert.ReferenceIdeal.S320000x32, .f32⟩ : BufTy).Contents (Elt Ideal)) (X3 : (⟨Cert.ReferenceIdeal.S10000x3, .f32⟩ : BufTy).Contents (Elt Ideal))
    (p : Fin 4000) (e : Fin 320000)
    (h32 : ∀ j : Fin 32, V32 (ix2 p j) = val_main_v50 (F := Ideal) X0 X1 X2 X3 x3 x4 x5 x6 (ix2 e j)) (j : Fin 8) :
    addf (matmul (φ₂ := .f32) dot_S4000x32_S32x8_S4000x8_1_0_0_1_n_n none V32 x10 (constant (F := Ideal) S4000x8 .f32 0x00000000#32))
        (broadcastTo S4000x8 (shapeCast S1x8 x11 Facts₀.shapeCasts_S8_S1x8) Facts₀.broadcasts_S1x8_S4000x8) (ix2 p j)
      = val_main_v83 (F := Ideal) X0 X1 X2 X3 x3 x4 x5 x6 x10 x11 (ix2 e j) := by
  have hb : idx_main_v81 (idx_main_v82 (ix2 e j)) = ix1 j := funext fun a => Fin.ext (by match a with | ⟨0, _⟩ => rfl)
  rw [val_main_v83_apply, val_main_v80_apply, val_main_v82_apply, val_main_v81_apply, hb]
  refine dense_rows _ rfl rfl rfl rfl rfl rfl V32 x10 x11 _ _ p j _ _ (fun k => ?_) (fun k => ?_)
  · exact (h32 k).trans (congrArg (val_main_v50 (F := Ideal) X0 X1 X2 X3 x3 x4 x5 x6) (funext fun a => Fin.ext (by match a with | ⟨0, _⟩ => rfl | ⟨1, _⟩ => rfl)))
  · exact congrArg x10 (funext fun a => Fin.ext (by match a with | ⟨0, _⟩ => rfl | ⟨1, _⟩ => rfl))

/-- The stored slab: the edge message, the coordinate update (the normalised difference times the coordinate weight),
    the edge embedding and the reconstructed attributes, read at their columns. -/
theorem pay1_rows (V16 : FVec Ideal S4000x3 .f32) (V32 : FVec Ideal S4000x32 .f32) (V34 V37 : FVec Ideal S4000x2 .f32)
    (x3 : Vec Ideal S161x128 .f32) (x4 : Vec Ideal S128 .f32) (x5 : Vec Ideal S128x32 .f32) (x6 : Vec Ideal S32 .f32) (x7 : Vec Ideal S32x2 .f32) (x8 : Vec Ideal S2 .f32)
    (x9 : Vec Ideal S2x1 .f32) (x10 : Vec Ideal S32x8 .f32) (x11 : Vec Ideal S8 .f32) (x12 : Vec Ideal S8x32 .f32) (x13 : Vec Ideal S32 .f32)
    (X0 : (⟨Cert.ReferenceIdeal.S10000x64, .f32⟩ : BufTy).Contents (Elt Ideal)) (X1 : (⟨Cert.ReferenceIdeal.S2x320000, .i32⟩ : BufTy).Contents (Elt Ideal)) (X2 : (⟨Cert.ReferenceIdeal.S320000x32, .f32⟩ : BufTy).Contents (Elt Ideal)) (X3 : (⟨Cert.ReferenceIdeal.S10000x3, .f32⟩ : BufTy).Contents (Elt Ideal)) (p : Fin 4000) (e : Fin 320000)
    (h16 : ∀ j : Fin 3, V16 (ix2 p j) = val_main_v26 (F := Ideal) X1 X3 (ix2 e j))
    (h32 : ∀ j : Fin 32, V32 (ix2 p j) = val_main_v50 (F := Ideal) X0 X1 X2 X3 x3 x4 x5 x6 (ix2 e j))
    (h34 : ∀ j : Fin 2, V34 (ix2 p j) = val_main_v51 (F := Ideal) X0 X1 X2 X3 x3 x4 x5 x6 x7 (ix2 e j))
    (h37 : ∀ j : Fin 2, V37 (ix2 p j) = val_main_v53 (F := Ideal) x8 (ix2 e j)) :
    (∀ j : Fin 32, k0_pay1 V16 V32 V34 V37 x9 x10 x11 x12 x13 (ix2 p (col 75 0 j (by omega))) = val_main_v50 (F := Ideal) X0 X1 X2 X3 x3 x4 x5 x6 (ix2 e j))
    ∧ (∀ j : Fin 3, k0_pay1 V16 V32 V34 V37 x9 x10 x11 x12 x13 (ix2 p (col 75 32 j (by omega)))
        = val_main_v58 (F := Ideal) X0 X1 X2 X3 x3 x4 x5 x6 x7 x8 x9 (ix2 e j))
    ∧ (∀ j : Fin 8, k0_pay1 V16 V32 V34 V37 x9 x10 x11 x12 x13 (ix2 p (col 75 35 j (by omega)))
        = val_main_v83 (F := Ideal) X0 X1 X2 X3 x3 x4 x5 x6 x10 x11 (ix2 e j))
    ∧ (∀ j : Fin 32, k0_pay1 V16 V32 V34 V37 x9 x10 x11 x12 x13 (ix2 p (col 75 43 j (by omega)))
        = val_main_v91 (F := Ideal) X0 X1 X2 X3 x3 x4 x5 x6 x10 x11 x12 x13 (ix2 e j)) := by
  unfold k0_pay1
  refine ⟨fun j => ?_, fun j => ?_, fun j => ?_, fun j => ?_⟩
  · refine (concat4_cols_0 _ _ _ _ _ p _ j (Nat.zero_add _)).trans ?_
    exact h32 j
  · refine (concat4_cols_1 _ _ _ _ _ p _ j rfl).trans ?_
    have hi : idx_main_v57 (ix2 e j) = ix2 e (0 : Fin 1) := funext fun a => Fin.ext (by match a with | ⟨0, _⟩ => rfl | ⟨1, _⟩ => rfl)
    rw [val_main_v58_apply, val_main_v57_apply, hi, val_main_v56_apply, ← h16]
    refine congrArg₂ FloatOps.mulf rfl ?_
    rw [broadcastTo_a1_ab_apply]
    refine matmul_plain_rows _ rfl rfl rfl rfl rfl rfl _ x9 p (0 : Fin 1) _ _ (fun k => ?_) (fun k => ?_)
    · have hl : lidx_main_v56 (ix2 e (0 : Fin 1)) k = ix2 e k := funext fun a => Fin.ext (by match a with | ⟨0, _⟩ => rfl | ⟨1, _⟩ => rfl)
      rw [hl, val_main_v55_apply, val_main_v54_apply, val_main_call1_v0_apply, val_main_call1_cst_apply, ← h34, ← h37]
      rfl
    · exact congrArg x9 (funext fun a => Fin.ext (by match a with | ⟨0, _⟩ => rfl | ⟨1, _⟩ => rfl))
  · refine (concat4_cols_2 _ _ _ _ _ p _ j (by show 35 + j.val = 32 + 3 + j.val; omega)).trans ?_
    exact emb_row V32 x10 x11 x3 x4 x5 x6 X0 X1 X2 X3 p e h32 j
  · refine (concat4_cols_3 _ _ _ _ _ p _ j (by show 43 + j.val = 32 + 3 + 8 + j.val; omega)).trans ?_
    have hb : idx_main_v89 (idx_main_v90 (ix2 e j)) = ix1 j := funext fun a => Fin.ext (by match a with | ⟨0, _⟩ => rfl)
    rw [val_main_v91_apply, val_main_v88_apply, val_main_v90_apply, val_main_v89_apply, hb]
    refine dense_rows _ rfl rfl rfl rfl rfl rfl _ x12 x13 _ _ p j _ _ (fun k => ?_) (fun k => ?_)
    · exact (emb_row V32 x10 x11 x3 x4 x5 x6 X0 X1 X2 X3 p e h32 k).trans
        (congrArg (val_main_v83 (F := Ideal) X0 X1 X2 X3 x3 x4 x5 x6 x10 x11) (funext fun a => Fin.ext (by match a with | ⟨0, _⟩ => rfl | ⟨1, _⟩ => rfl)))
    · exact congrArg x12 (funext fun a => Fin.ext (by match a with | ⟨0, _⟩ => rfl | ⟨1, _⟩ => rfl))

/-! ## The block's slab, row by row -/

/-- Row `p` of the slab the edge kernel stores at grid point `t` holds, at its four groups of columns, the reference's edge
    message, coordinate update, edge embedding and reconstructed attributes of edge `4000 t + p`, whenever the block's
    input rows are the reference's gathered rows of that edge. -/
theorem edgePay_rows (t : Fin 80)
    (x0 x1 : Vec Ideal S4000x67 .f32) (x2 : Vec Ideal S4000x32 .f32) (x3 : Vec Ideal S161x128 .f32) (x4 : Vec Ideal S128 .f32)
    (x5 : Vec Ideal S128x32 .f32) (x6 : Vec Ideal S32 .f32) (x7 : Vec Ideal S32x2 .f32) (x8 : Vec Ideal S2 .f32) (x9 : Vec Ideal S2x1 .f32)
    (x10 : Vec Ideal S32x8 .f32) (x11 : Vec Ideal S8 .f32) (x12 : Vec Ideal S8x32 .f32) (x13 : Vec Ideal S32 .f32)
    (X0 : (⟨Cert.ReferenceIdeal.S10000x64, .f32⟩ : BufTy).Contents (Elt Ideal)) (X1 : (⟨Cert.ReferenceIdeal.S2x320000, .i32⟩ : BufTy).Contents (Elt Ideal)) (X2 : (⟨Cert.ReferenceIdeal.S320000x32, .f32⟩ : BufTy).Contents (Elt Ideal)) (X3 : (⟨Cert.ReferenceIdeal.S10000x3, .f32⟩ : BufTy).Contents (Elt Ideal))
    (h0f : ∀ (p : Fin 4000) (j : Fin 64), x0 (ix2 p (col 67 0 j (by omega))) = val_main_v33 (F := Ideal) X0 X1 (ix2 (erow t p) j))
    (h0c : ∀ (p : Fin 4000) (j : Fin 3), x0 (ix2 p (col 67 64 j (by omega))) = val_main_v10 (F := Ideal) X1 X3 (ix2 (erow t p) j))
    (h1f : ∀ (p : Fin 4000) (j : Fin 64), x1 (ix2 p (col 67 0 j (by omega))) = val_main_v40 (F := Ideal) X0 X1 (ix2 (erow t p) j))
    (h1c : ∀ (p : Fin 4000) (j : Fin 3), x1 (ix2 p (col 67 64 j (by omega))) = val_main_v17 (F := Ideal) X1 X3 (ix2 (erow t p) j))
    (h2 : ∀ (p : Fin 4000) (j : Fin 32), x2 (ix2 p j) = X2 (ix2 (erow t p) j)) :
    ∀ p : Fin 4000,
      (∀ j : Fin 32, edgePay x0 x1 x2 x3 x4 x5 x6 x7 x8 x9 x10 x11 x12 x13 (ix2 p (col 75 0 j (by omega)))
          = val_main_v50 (F := Ideal) X0 X1 X2 X3 x3 x4 x5 x6 (ix2 (erow t p) j))
      ∧ (∀ j : Fin 3, edgePay x0 x1 x2 x3 x4 x5 x6 x7 x8 x9 x10 x11 x12 x13 (ix2 p (col 75 32 j (by omega)))
          = val_main_v58 (F := Ideal) X0 X1 X2 X3 x3 x4 x5 x6 x7 x8 x9 (ix2 (erow t p) j))
      ∧ (∀ j : Fin 8, edgePay x0 x1 x2 x3 x4 x5 x6 x7 x8 x9 x10 x11 x12 x13 (ix2 p (col 75 35 j (by omega)))
          = val_main_v83 (F := Ideal) X0 X1 X2 X3 x3 x4 x5 x6 x10 x11 (ix2 (erow t p) j))
      ∧ (∀ j : Fin 32, edgePay x0 x1 x2 x3 x4 x5 x6 x7 x8 x9 x10 x11 x12 x13 (ix2 p (col 75 43 j (by omega)))
          = val_main_v91 (F := Ideal) X0 X1 X2 X3 x3 x4 x5 x6 x10 x11 x12 x13 (ix2 (erow t p) j)) := by
  intro p
  have hd := diffs_row x0 x1 X1 X3 p (erow t p) (h0c p) (h1c p)
  have hr := radial_row x0 x1 X1 X3 p (erow t p) hd
  have hn := normed_row x0 x1 X1 X3 p (erow t p) hd hr
  have hin := edgeIn_row x0 x1 x2 X0 X1 X2 X3 p (erow t p) (h0f p) (h1f p) (h2 p) hr
  have h50 := pay7_row x0 x1 x2 x3 x4 x5 x6 X0 X1 X2 X3 p (erow t p) hin
  have h51 := pay8_row x0 x1 x2 x3 x4 x5 x6 x7 X0 X1 X2 X3 p (erow t p) h50
  have h53 := pay9_row x8 p (erow t p)
  unfold edgePay
  exact pay1_rows (k0_pay6 x0 x1) (k0_pay7 x0 x1 x2 x3 x4 x5 x6) (k0_pay8 x0 x1 x2 x3 x4 x5 x6 x7) (k0_pay9 x8)
    x3 x4 x5 x6 x7 x8 x9 x10 x11 x12 x13 X0 X1 X2 X3 p (erow t p) hn h50 h51 h53

end Cert.KernelIdeal.Hand

end
-- ==== Proof.ValNodeMath.lean ====
/-
  The node kernel's block computation is the reference's, row by row.

  A grid point of the node kernel is handed 2000 rows of the node inputs (node features, aggregated messages, updated
  coordinates: 99 columns) and the whole weight arrays; it stores a slab of 72 columns: the node embeddings (8) and the
  reconstructed node features (64). Both programs compute the same four dense layers — inputs · w1 + b1 clipped at zero,
  · w2 + b2, · w3 + b3 (the embeddings), · w4 + b4 (the reconstruction) — and at the exact values each layer's entry at
  a row and a column is one finite sum over the contraction coordinates plus the bias's entry. So a block whose rows are
  the reference's node inputs at rows 2000·t + p stores the reference's results at those rows.
-/
import proofs.«414572_j55508157334089_2_alg».proof.Proof.KiPay
import proofs.«414572_j55508157334089_2_alg».proof.Proof.RefRun
import proofs.«414572_j55508157334089_2_alg».proof.Proof.ValRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.ReferenceIdeal.Read Cert.Hand.Rows Idealize.ShloMosaic Idealize.ShloMosaic.ValueIdx
open scoped BigOperators

/-! ## A block product at a row and a column -/

/-- The product of an `[M, K]` block by a `[K, N]` block — no batch axis, the left operand contracted on its columns
    and the right on its rows — into a zero accumulator, at row `p` and column `c`: the sum over the `K` contraction
    coordinates of the products of the left operand's row and the right operand's column. -/
theorem plainProduct_apply (M K N : ℕ) (A : FVec Ideal ⟨2, ![M, K]⟩ .f32) (B : FVec Ideal ⟨2, ![K, N]⟩ .f32)
    (p : Fin M) (c : Fin N) :
    matmul (DotDims.plain M K N) none A B (constant (F := Ideal) ⟨2, ![M, N]⟩ .f32 0x00000000#32) (ix2 p c)
      = ∑ q : Fin K, A (ix2 p q) * B (ix2 q c) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 p c) ((contrEquiv1 (DotDims.plain M K N) K rfl rfl).symm q) = ix2 p q :=
    Shape.idx_ext₂ rfl hq
  have er : (DotDims.plain M K N).rhsIdx (ix2 p c) ((contrEquiv1 (DotDims.plain M K N) K rfl rfl).symm q) = ix2 q c :=
    Shape.idx_ext₂ hq rfl
  rw [el, er]

/-- The node kernel's four products are plain ones: 2000 rows by 99, 128, 64 and 8 contraction coordinates. -/
theorem dotHid_eq : dot_S2000x99_S99x128_S2000x128_1_0_0_1_n_n = DotDims.plain 2000 99 128 := rfl
theorem dotOut_eq : dot_S2000x128_S128x64_S2000x64_1_0_0_1_n_n = DotDims.plain 2000 128 64 := rfl
theorem dotEmb_eq : dot_S2000x64_S64x8_S2000x8_1_0_0_1_n_n = DotDims.plain 2000 64 8 := rfl
theorem dotRec_eq : dot_S2000x8_S8x64_S2000x64_1_0_0_1_n_n = DotDims.plain 2000 8 64 := rfl

/-! ## A bias row added to every row of a block -/

/-- A vector of `b` entries, made a one-row array and repeated down `a` rows, reads its entry `c` at `(p, c)`. -/
theorem biasRows_apply {a b : ℕ} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-! ## The node kernel's layers on a block of 2000 rows -/

/-- Hidden layer: the block of node inputs times the first weights, plus the bias row, clipped below at zero. -/
def nodeHid (x0 : FVec Ideal S2000x99 .f32) (x1 : FVec Ideal S99x128 .f32) (x2 : FVec Ideal S128 .f32) : FVec Ideal S2000x128 .f32 :=
  maximumf (addf (matmul dot_S2000x99_S99x128_S2000x128_1_0_0_1_n_n none (shapeCast S2000x99 x0 shapeCasts_S2000x99_S2000x99 : FVec Ideal S2000x99 .f32) x1
      (constant S2000x128 .f32 0x00000000#32)) (broadcastTo S2000x128 (shapeCast S1x128 x2 shapeCasts_S128_S1x128) broadcasts_S1x128_S2000x128))
    (broadcast S2000x128 (Scalar.ofBits .f32 0x00000000#32))

/-- Output layer of the node network: hidden block times the second weights, plus the bias row. -/
def nodeOut (h : FVec Ideal S2000x128 .f32) (x3 : FVec Ideal S128x64 .f32) (x4 : FVec Ideal S64 .f32) : FVec Ideal S2000x64 .f32 :=
  addf (matmul dot_S2000x128_S128x64_S2000x64_1_0_0_1_n_n none h x3 (constant S2000x64 .f32 0x00000000#32))
    (broadcastTo S2000x64 (shapeCast S1x64 x4 shapeCasts_S64_S1x64) broadcasts_S1x64_S2000x64)

/-- Node embedding: node outputs times the embedding weights, plus the bias row. -/
def nodeEmb (o : FVec Ideal S2000x64 .f32) (x5 : FVec Ideal S64x8 .f32) (x6 : FVec Ideal S8 .f32) : FVec Ideal S2000x8 .f32 :=
  addf (matmul dot_S2000x64_S64x8_S2000x8_1_0_0_1_n_n none o x5 (constant S2000x8 .f32 0x00000000#32))
    (broadcastTo S2000x8 (shapeCast S1x8 x6 shapeCasts_S8_S1x8) broadcasts_S1x8_S2000x8)

/-- Reconstructed node features: embeddings times the decoder weights, plus the bias row. -/
def nodeRec (e : FVec Ideal S2000x8 .f32) (x7 : FVec Ideal S8x64 .f32) (x8 : FVec Ideal S64 .f32) : FVec Ideal S2000x64 .f32 :=
  addf (matmul dot_S2000x8_S8x64_S2000x64_1_0_0_1_n_n none e x7 (constant S2000x64 .f32 0x00000000#32))
    (broadcastTo S2000x64 (shapeCast S1x64 x8 shapeCasts_S64_S1x64) broadcasts_S1x64_S2000x64)

/-- The stored slab is the embeddings' 8 columns followed by the reconstruction's 64. -/
theorem nodePay_eq (x0 : Vec Ideal S2000x99 .f32) (x1 : Vec Ideal S99x128 .f32) (x2 : Vec Ideal S128 .f32) (x3 : Vec Ideal S128x64 .f32)
    (x4 : Vec Ideal S64 .f32) (x5 : Vec Ideal S64x8 .f32) (x6 : Vec Ideal S8 .f32) (x7 : Vec Ideal S8x64 .f32) (x8 : Vec Ideal S64 .f32) :
    nodePay x0 x1 x2 x3 x4 x5 x6 x7 x8
      = concatenate S2000x72 1 [⟨S2000x8, nodeEmb (nodeOut (nodeHid x0 x1 x2) x3 x4) x5 x6⟩,
          ⟨S2000x64, nodeRec (nodeEmb (nodeOut (nodeHid x0 x1 x2) x3 x4) x5 x6) x7 x8⟩] concatenates_S2000x8_S2000x64_S2000x72_d1 := rfl

theorem nodeHid_apply (x0 : FVec Ideal S2000x99 .f32) (x1 : FVec Ideal S99x128 .f32) (x2 : FVec Ideal S128 .f32) (p : Fin 2000) (c : Fin 128) :
    nodeHid x0 x1 x2 (ix2 p c) = max ((∑ q : Fin 99, x0 (ix2 p q) * x1 (ix2 q c)) + x2 (ix1 c)) 0 := by
  unfold nodeHid
  rw [maximumf_apply, addf_apply, shapeCast_self, dotHid_eq]
  refine congrArg₂ max (congrArg₂ (· + ·) (plainProduct_apply 2000 99 128 x0 x1 p c) (biasRows_apply x2 _ _ p c)) ?_
  exact Ideal.ofBits_zero_f32

theorem nodeOut_apply (h : FVec Ideal S2000x128 .f32) (x3 : FVec Ideal S128x64 .f32) (x4 : FVec Ideal S64 .f32) (p : Fin 2000) (c : Fin 64) :
    nodeOut h x3 x4 (ix2 p c) = (∑ q : Fin 128, h (ix2 p q) * x3 (ix2 q c)) + x4 (ix1 c) := by
  unfold nodeOut
  rw [addf_apply, dotOut_eq]
  exact congrArg₂ (· + ·) (plainProduct_apply 2000 128 64 h x3 p c) (biasRows_apply x4 _ _ p c)

theorem nodeEmb_apply (o : FVec Ideal S2000x64 .f32) (x5 : FVec Ideal S64x8 .f32) (x6 : FVec Ideal S8 .f32) (p : Fin 2000) (c : Fin 8) :
    nodeEmb o x5 x6 (ix2 p c) = (∑ q : Fin 64, o (ix2 p q) * x5 (ix2 q c)) + x6 (ix1 c) := by
  unfold nodeEmb
  rw [addf_apply, dotEmb_eq]
  exact congrArg₂ (· + ·) (plainProduct_apply 2000 64 8 o x5 p c) (biasRows_apply x6 _ _ p c)

theorem nodeRec_apply (e : FVec Ideal S2000x8 .f32) (x7 : FVec Ideal S8x64 .f32) (x8 : FVec Ideal S64 .f32) (p : Fin 2000) (c : Fin 64) :
    nodeRec e x7 x8 (ix2 p c) = (∑ q : Fin 8, e (ix2 p q) * x7 (ix2 q c)) + x8 (ix1 c) := by
  unfold nodeRec
  rw [addf_apply, dotRec_eq]
  exact congrArg₂ (· + ·) (plainProduct_apply 2000 8 64 e x7 p c) (biasRows_apply x8 _ _ p c)

/-! ## The slab's two groups of columns -/

section Slab

variable (x0 : Vec Ideal S2000x99 .f32) (x1 : Vec Ideal S99x128 .f32) (x2 : Vec Ideal S128 .f32) (x3 : Vec Ideal S128x64 .f32)
  (x4 : Vec Ideal S64 .f32) (x5 : Vec Ideal S64x8 .f32) (x6 : Vec Ideal S8 .f32) (x7 : Vec Ideal S8x64 .f32) (x8 : Vec Ideal S64 .f32)

/-- Columns 0 … 7 of the stored slab are the embeddings. -/
theorem nodePay_embCols (p : Fin 2000) (j : Fin 8) :
    nodePay x0 x1 x2 x3 x4 x5 x6 x7 x8 (ix2 p (col 72 0 j (by omega)))
      = nodeEmb (nodeOut (nodeHid x0 x1 x2) x3 x4) x5 x6 (ix2 p j) := by
  rw [nodePay_eq]
  exact concatenate_pair_apply_left (1 : Fin S2000x72.rank) _ _ concatenates_S2000x8_S2000x64_S2000x72_d1
    (ix2 p (col 72 0 j (by omega))) rfl (ix2 p j) (fun b => by
      match b with
      | ⟨0, _⟩ => rfl
      | ⟨1, _⟩ => exact (Nat.zero_add _).symm)

/-- Columns 8 … 71 of the stored slab are the reconstructed features. -/
theorem nodePay_recCols (p : Fin 2000) (j : Fin 64) :
    nodePay x0 x1 x2 x3 x4 x5 x6 x7 x8 (ix2 p (col 72 8 j (by omega)))
      = nodeRec (nodeEmb (nodeOut (nodeHid x0 x1 x2) x3 x4) x5 x6) x7 x8 (ix2 p j) := by
  rw [nodePay_eq]
  exact concatenate_pair_apply_right (1 : Fin S2000x72.rank) _ _ concatenates_S2000x8_S2000x64_S2000x72_d1
    (ix2 p (col 72 8 j (by omega))) rfl rfl (ix2 p j) (fun b hb => by
      match b, hb with
      | ⟨0, _⟩, _ => rfl
      | ⟨1, _⟩, hb => exact absurd rfl hb) (Nat.add_comm _ _)

end Slab

/-! ## The reference's node layers at a row and a column

Each layer of the reference is a product with a weight array, a bias row repeated down the rows and, for the hidden
layer, a maximum with a zero array; read at row `r` and column `c` it is the sum over the contraction coordinates of
the previous layer's row `r` times the weights' column `c`, plus the bias's entry `c`. -/

section Reference

variable (X0 : (⟨Cert.ReferenceIdeal.S10000x64, .f32⟩ : BufTy).Contents (Elt Ideal)) (X1 : (⟨Cert.ReferenceIdeal.S2x320000, .i32⟩ : BufTy).Contents (Elt Ideal)) (X2 : (⟨Cert.ReferenceIdeal.S320000x32, .f32⟩ : BufTy).Contents (Elt Ideal)) (X3 : (⟨Cert.ReferenceIdeal.S10000x3, .f32⟩ : BufTy).Contents (Elt Ideal)) (X4 : (⟨Cert.ReferenceIdeal.S161x128, .f32⟩ : BufTy).Contents (Elt Ideal)) (X5 : (⟨Cert.ReferenceIdeal.S128, .f32⟩ : BufTy).Contents (Elt Ideal)) (X6 : (⟨Cert.ReferenceIdeal.S128x32, .f32⟩ : BufTy).Contents (Elt Ideal)) (X7 : (⟨Cert.ReferenceIdeal.S32, .f32⟩ : BufTy).Contents (Elt Ideal)) (X8 : (⟨Cert.ReferenceIdeal.S32x2, .f32⟩ : BufTy).Contents (Elt Ideal)) (X9 : (⟨Cert.ReferenceIdeal.S2, .f32⟩ : BufTy).Contents (Elt Ideal)) (X10 : (⟨Cert.ReferenceIdeal.S2x1, .f32⟩ : BufTy).Contents (Elt Ideal))
variable (w1 : FVec Ideal S99x128 .f32) (b1 : FVec Ideal S128 .f32) (w2 : FVec Ideal S128x64 .f32) (b2 : FVec Ideal S64 .f32)
  (w3 : FVec Ideal S64x8 .f32) (b3 : FVec Ideal S8 .f32) (w4 : FVec Ideal S8x64 .f32) (b4 : FVec Ideal S64 .f32)

theorem refHid_apply (r : Fin 10000) (c : Fin 128) :
    val_main_v71 (F := Ideal) X0 X1 X2 X3 X4 X5 X6 X7 X8 X9 X10 w1 b1 (ix2 r c)
      = max ((∑ q : Fin 99, val_main_v66 (F := Ideal) X0 X1 X2 X3 X4 X5 X6 X7 X8 X9 X10 (ix2 r q) * w1 (ix2 q c)) + b1 (ix1 c)) 0 := by
  rw [val_main_v71_apply, val_main_v70_apply, val_main_v67_apply, val_main_v69_apply, val_main_v68_apply,
    val_main_call2_v0_apply, val_main_call2_cst_apply, Ideal.maximumf_def, Ideal.addf_def, Ideal.ofBits_def,
    Ideal.ofBits_zero_f32]
  generalize val_main_v66 (F := Ideal) X0 X1 X2 X3 X4 X5 X6 X7 X8 X9 X10 = NI
  refine congrArg₂ max (congrArg₂ (· + ·) (Finset.sum_congr rfl fun q _ => ?_) ?_) rfl
  · exact congrArg₂ (· * ·) (congrArg NI (Shape.idx_ext₂ rfl rfl)) (congrArg w1 (Shape.idx_ext₂ rfl rfl))
  · exact congrArg b1 (funext fun a => by match a with | ⟨0, _⟩ => rfl)

theorem refOut_apply (r : Fin 10000) (c : Fin 64) :
    val_main_v75 (F := Ideal) X0 X1 X2 X3 X4 X5 X6 X7 X8 X9 X10 w1 b1 w2 b2 (ix2 r c)
      = (∑ q : Fin 128, val_main_v71 (F := Ideal) X0 X1 X2 X3 X4 X5 X6 X7 X8 X9 X10 w1 b1 (ix2 r q) * w2 (ix2 q c)) + b2 (ix1 c) := by
  rw [val_main_v75_apply, val_main_v72_apply, val_main_v74_apply, val_main_v73_apply, Ideal.addf_def]
  generalize val_main_v71 (F := Ideal) X0 X1 X2 X3 X4 X5 X6 X7 X8 X9 X10 w1 b1 = H
  refine congrArg₂ (· + ·) (Finset.sum_congr rfl fun q _ => ?_) ?_
  · exact congrArg₂ (· * ·) (congrArg H (Shape.idx_ext₂ rfl rfl)) (congrArg w2 (Shape.idx_ext₂ rfl rfl))
  · exact congrArg b2 (funext fun a => by match a with | ⟨0, _⟩ => rfl)

theorem refEmb_apply (r : Fin 10000) (c : Fin 8) :
    val_main_v79 (F := Ideal) X0 X1 X2 X3 X4 X5 X6 X7 X8 X9 X10 w1 b1 w2 b2 w3 b3 (ix2 r c)
      = (∑ q : Fin 64, val_main_v75 (F := Ideal) X0 X1 X2 X3 X4 X5 X6 X7 X8 X9 X10 w1 b1 w2 b2 (ix2 r q) * w3 (ix2 q c)) + b3 (ix1 c) := by
  rw [val_main_v79_apply, val_main_v76_apply, val_main_v78_apply, val_main_v77_apply, Ideal.addf_def]
  generalize val_main_v75 (F := Ideal) X0 X1 X2 X3 X4 X5 X6 X7 X8 X9 X10 w1 b1 w2 b2 = O
  refine congrArg₂ (· + ·) (Finset.sum_congr rfl fun q _ => ?_) ?_
  · exact congrArg₂ (· * ·) (congrArg O (Shape.idx_ext₂ rfl rfl)) (congrArg w3 (Shape.idx_ext₂ rfl rfl))
  · exact congrArg b3 (funext fun a => by match a with | ⟨0, _⟩ => rfl)

theorem refRec_apply (r : Fin 10000) (c : Fin 64) :
    val_main_v87 (F := Ideal) X0 X1 X2 X3 X4 X5 X6 X7 X8 X9 X10 w1 b1 w2 b2 w3 b3 w4 b4 (ix2 r c)
      = (∑ q : Fin 8, val_main_v79 (F := Ideal) X0 X1 X2 X3 X4 X5 X6 X7 X8 X9 X10 w1 b1 w2 b2 w3 b3 (ix2 r q) * w4 (ix2 q c)) + b4 (ix1 c) := by
  rw [val_main_v87_apply, val_main_v84_apply, val_main_v86_apply, val_main_v85_apply, Ideal.addf_def]
  generalize val_main_v79 (F := Ideal) X0 X1 X2 X3 X4 X5 X6 X7 X8 X9 X10 w1 b1 w2 b2 w3 b3 = E
  refine congrArg₂ (· + ·) (Finset.sum_congr rfl fun q _ => ?_) ?_
  · exact congrArg₂ (· * ·) (congrArg E (Shape.idx_ext₂ rfl rfl)) (congrArg w4 (Shape.idx_ext₂ rfl rfl))
  · exact congrArg b4 (funext fun a => by match a with | ⟨0, _⟩ => rfl)

end Reference

/-! ## The node kernel's block against the reference, row by row -/

/-- If the block of node inputs a grid point is handed is the reference's node inputs at the point's 2000 rows, then
    the slab the point stores holds, at those rows, the reference's node embeddings in its first 8 columns and the
    reference's reconstructed node features in its last 64: layer by layer both sides are the same sums. -/
theorem nodePay_rows (t : Fin 5) (x0 : Vec Ideal S2000x99 .f32) (x1 : Vec Ideal S99x128 .f32) (x2 : Vec Ideal S128 .f32)
    (x3 : Vec Ideal S128x64 .f32) (x4 : Vec Ideal S64 .f32) (x5 : Vec Ideal S64x8 .f32) (x6 : Vec Ideal S8 .f32)
    (x7 : Vec Ideal S8x64 .f32) (x8 : Vec Ideal S64 .f32)
    (X0 : (⟨Cert.ReferenceIdeal.S10000x64, .f32⟩ : BufTy).Contents (Elt Ideal)) (X1 : (⟨Cert.ReferenceIdeal.S2x320000, .i32⟩ : BufTy).Contents (Elt Ideal)) (X2 : (⟨Cert.ReferenceIdeal.S320000x32, .f32⟩ : BufTy).Contents (Elt Ideal)) (X3 : (⟨Cert.ReferenceIdeal.S10000x3, .f32⟩ : BufTy).Contents (Elt Ideal)) (X4 : (⟨Cert.ReferenceIdeal.S161x128, .f32⟩ : BufTy).Contents (Elt Ideal)) (X5 : (⟨Cert.ReferenceIdeal.S128, .f32⟩ : BufTy).Contents (Elt Ideal)) (X6 : (⟨Cert.ReferenceIdeal.S128x32, .f32⟩ : BufTy).Contents (Elt Ideal)) (X7 : (⟨Cert.ReferenceIdeal.S32, .f32⟩ : BufTy).Contents (Elt Ideal)) (X8 : (⟨Cert.ReferenceIdeal.S32x2, .f32⟩ : BufTy).Contents (Elt Ideal)) (X9 : (⟨Cert.ReferenceIdeal.S2, .f32⟩ : BufTy).Contents (Elt Ideal)) (X10 : (⟨Cert.ReferenceIdeal.S2x1, .f32⟩ : BufTy).Contents (Elt Ideal))
    (h0 : ∀ (p : Fin 2000) (j : Fin 99), x0 (ix2 p j) = val_main_v66 (F := Ideal) X0 X1 X2 X3 X4 X5 X6 X7 X8 X9 X10 (ix2 (nrow t p) j)) :
    ∀ p : Fin 2000,
      (∀ j : Fin 8, nodePay x0 x1 x2 x3 x4 x5 x6 x7 x8 (ix2 p (col 72 0 j (by omega)))
        = val_main_v79 (F := Ideal) X0 X1 X2 X3 X4 X5 X6 X7 X8 X9 X10 x1 x2 x3 x4 x5 x6 (ix2 (nrow t p) j))
      ∧ (∀ j : Fin 64, nodePay x0 x1 x2 x3 x4 x5 x6 x7 x8 (ix2 p (col 72 8 j (by omega)))
        = val_main_v87 (F := Ideal) X0 X1 X2 X3 X4 X5 X6 X7 X8 X9 X10 x1 x2 x3 x4 x5 x6 x7 x8 (ix2 (nrow t p) j)) := by
  -- hidden layer
  have H1 : ∀ (p : Fin 2000) (c : Fin 128), nodeHid x0 x1 x2 (ix2 p c)
      = val_main_v71 (F := Ideal) X0 X1 X2 X3 X4 X5 X6 X7 X8 X9 X10 x1 x2 (ix2 (nrow t p) c) := fun p c => by
    rw [nodeHid_apply, refHid_apply]
    exact congrArg (max · 0) (congrArg (· + _) (Finset.sum_congr rfl fun q _ => by rw [h0]))
  -- node outputs
  have H2 : ∀ (p : Fin 2000) (c : Fin 64), nodeOut (nodeHid x0 x1 x2) x3 x4 (ix2 p c)
      = val_main_v75 (F := Ideal) X0 X1 X2 X3 X4 X5 X6 X7 X8 X9 X10 x1 x2 x3 x4 (ix2 (nrow t p) c) := fun p c => by
    rw [nodeOut_apply, refOut_apply]
    exact congrArg (· + _) (Finset.sum_congr rfl fun q _ => by rw [H1])
  -- embeddings
  have H3 : ∀ (p : Fin 2000) (c : Fin 8), nodeEmb (nodeOut (nodeHid x0 x1 x2) x3 x4) x5 x6 (ix2 p c)
      = val_main_v79 (F := Ideal) X0 X1 X2 X3 X4 X5 X6 X7 X8 X9 X10 x1 x2 x3 x4 x5 x6 (ix2 (nrow t p) c) := fun p c => by
    rw [nodeEmb_apply, refEmb_apply]
    exact congrArg (· + _) (Finset.sum_congr rfl fun q _ => by rw [H2])
  -- reconstruction
  have H4 : ∀ (p : Fin 2000) (c : Fin 64), nodeRec (nodeEmb (nodeOut (nodeHid x0 x1 x2) x3 x4) x5 x6) x7 x8 (ix2 p c)
      = val_main_v87 (F := Ideal) X0 X1 X2 X3 X4 X5 X6 X7 X8 X9 X10 x1 x2 x3 x4 x5 x6 x7 x8 (ix2 (nrow t p) c) := fun p c => by
    rw [nodeRec_apply, refRec_apply]
    exact congrArg (· + _) (Finset.sum_congr rfl fun q _ => by rw [H3])
  intro p
  exact ⟨fun j => (nodePay_embCols x0 x1 x2 x3 x4 x5 x6 x7 x8 p j).trans (H3 p j),
    fun j => (nodePay_recCols x0 x1 x2 x3 x4 x5 x6 x7 x8 p j).trans (H4 p j)⟩

end Cert.KernelIdeal.Hand

end
-- ==== Proof.ValAdjMath.lean ====
/-
  The adjacency kernel's block is the reference's adjacency matrix, entry by entry.

  For nodes n and j with embeddings e_n, e_j (eight coordinates each) the predicted adjacency is
  1 / (1 + exp (−(3·d − 1))) · (1 − [n = j]) with d = ‖e_n‖² + ‖e_j‖² − 2⟨e_n, e_j⟩. The kernel takes the two norms as
  sums along the eight columns of the squared block and of the squared table, reshaped to a column and to a row and
  spread over the block, the inner products as the block times the transposed table into a zero accumulator, the
  logistic function as one operation, and the mask as a choice between zero and one on the comparison of the row's
  number 200·t + p, computed in 32-bit words from the grid coordinate, with the column's number. The reference takes
  the norms by a reduction over the columns, the inner products by a general dot product with the transposed table,
  the logistic function as a quotient, and the mask as one less the converted comparison bit. On the extended reals
  the sums are the same finite sums over the eight coordinates, the two row words are the same word, and
  1 − 1 = 0, 1 − 0 = 1.
-/
import proofs.«414572_j55508157334089_2_alg».proof.Proof.KiPay
import proofs.«414572_j55508157334089_2_alg».proof.Proof.RefRun
import proofs.«414572_j55508157334089_2_alg».proof.Proof.ValRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.ReferenceIdeal.Read Cert.Hand.Rows Idealize.ShloMosaic Idealize.ShloMosaic.ValueIdx

/-- The bit "node n is node j", as the reference computes it over 32-bit words: the row's number plus zero against the
    column's number. -/
def sameWord (n j : Fin 10000) : BitVec 1 :=
  IntOp.cmpi .eq (IntOp.addi (BitVec.ofNat 32 n.val) 0#32) (BitVec.ofNat 32 j.val)

/-- An entry of the predicted adjacency from the two nodes' embeddings a, b and the bit "same node": with
    d = ‖a‖² + ‖b‖² − 2⟨a, b⟩ the squared distance, the quotient 1 / (1 + exp (−(3·d − 1))), times one less the bit's
    number. -/
def adjEntry (a b : Fin 8 → EReal) (w : BitVec 1) : EReal :=
  Ideal.div (Ideal.ofBits .f32 0x3F800000#32) (Ideal.ofBits .f32 0x3F800000#32
      + Ideal.exp (-(Ideal.ofBits .f32 0x40400000#32
          * (((∑ k : Fin 8, a k * a k) + ∑ k : Fin 8, b k * b k) - Ideal.ofBits .f32 0x40000000#32 * ∑ k : Fin 8, a k * b k)
        - Ideal.ofBits .f32 0x3F800000#32)))
    * (Ideal.ofBits .f32 0x3F800000#32 - FloatOps.uitofp (F := Ideal) .f32 w)

/-- The pattern of the float one denotes one. -/
theorem ofBits_one_f32 : Ideal.ofBits .f32 0x3F800000#32 = 1 := by
  simp [Ideal.ofBits, Ideal.ieee, -EReal.coe_mul]; norm_num

/-- A block row's sum of squares, kept as a column and spread along the row. -/
theorem adj_ri (x0 : Vec Ideal S200x8 .f32) (p : Fin 200) (j : Fin 10000) :
    broadcastTo S200x10000 (shapeCast S200x1 (multiReduction (F := Ideal) .add [1] S200 (mulf x0 x0) 0x00000000#32
      reduces_S200x8_S200 (.inl rfl) rfl) shapeCasts_S200_S200x1) broadcasts_S200x1_S200x10000 (ix2 p j)
      = ∑ k : Fin 8, x0 (ix2 p k) * x0 (ix2 p k) := by
  refine (broadcastTo_apply _ broadcasts_S200x1_S200x10000 (ix2 p j) (ix2 p (0 : Fin 1)) (fun a => match a with
    | ⟨0, _⟩ => by show p.val = if (200 : Nat) = 1 then 0 else p.val; rw [if_neg (by decide)]
    | ⟨1, _⟩ => by show 0 = if (1 : Nat) = 1 then 0 else j.val; rw [if_pos rfl])).trans ?_
  refine (shapeCast_apply _ shapeCasts_S200_S200x1 (ix2 p (0 : Fin 1)) (ix1 p) (by
    rw [Shape.rowMajor_val_two, Shape.rowMajor_val_one]; show p.val = p.val * 1 + 0; omega)).trans ?_
  refine (Ideal.multiReduction_add_single (mulf x0 x0) _ reduces_S200x8_S200 (.inl rfl) rfl (ix1 p)).trans ?_
  refine Finset.sum_congr rfl fun k _ => ?_
  exact congrArg (fun y => x0 y * x0 y) (funext fun a => Fin.ext (by match a with | ⟨0, _⟩ => rfl | ⟨1, _⟩ => rfl))

/-- A table row's sum of squares, kept as a row and spread down the block. -/
theorem adj_rj (x1 : Vec Ideal S10000x8 .f32) (p : Fin 200) (j : Fin 10000) :
    broadcastTo S200x10000 (shapeCast S1x10000 (multiReduction (F := Ideal) .add [1] S10000 (mulf x1 x1) 0x00000000#32
      reduces_S10000x8_S10000 (.inl rfl) rfl) shapeCasts_S10000_S1x10000) broadcasts_S1x10000_S200x10000 (ix2 p j)
      = ∑ k : Fin 8, x1 (ix2 j k) * x1 (ix2 j k) := by
  refine (broadcastTo_1b_ab_apply _ broadcasts_S1x10000_S200x10000 p j).trans ?_
  refine (shapeCast_a_1a_apply _ shapeCasts_S10000_S1x10000 (0 : Fin 1) j).trans ?_
  refine (Ideal.multiReduction_add_single (mulf x1 x1) _ reduces_S10000x8_S10000 (.inl rfl) rfl (ix1 j)).trans ?_
  refine Finset.sum_congr rfl fun k _ => ?_
  exact congrArg (fun y => x1 y * x1 y) (funext fun a => Fin.ext (by match a with | ⟨0, _⟩ => rfl | ⟨1, _⟩ => rfl))

/-- The contraction of a block row with a column of the transposed table reads: on the left, the output's row … -/
theorem adj_lhs_0 (i : S200x10000.Idx) (q : dot_S200x8_S8x10000_S200x10000_1_0_0_1_n_n.contr.Idx) :
    (dot_S200x8_S8x10000_S200x10000_1_0_0_1_n_n.lhsIdx i q 0).val = (i 0).val := by
  unfold DotDims.lhsIdx
  rw [dif_neg (show ¬(0 : Fin S200x8.rank) ∈ dot_S200x8_S8x10000_S200x10000_1_0_0_1_n_n.lhsBatch by decide), dif_pos (show (0 : Fin S200x8.rank) ∈ dot_S200x8_S8x10000_S200x10000_1_0_0_1_n_n.lhsNonContracting by decide)]
  rfl
/-- … and the contracted coordinate; -/
theorem adj_lhs_1 (i : S200x10000.Idx) (q : dot_S200x8_S8x10000_S200x10000_1_0_0_1_n_n.contr.Idx) :
    (dot_S200x8_S8x10000_S200x10000_1_0_0_1_n_n.lhsIdx i q 1).val = (q ⟨0, by decide⟩).val :=
  dot_S200x8_S8x10000_S200x10000_1_0_0_1_n_n.lhsIdx_val_of_single rfl i q
/-- on the right, the contracted coordinate … -/
theorem adj_rhs_0 (i : S200x10000.Idx) (q : dot_S200x8_S8x10000_S200x10000_1_0_0_1_n_n.contr.Idx) :
    (dot_S200x8_S8x10000_S200x10000_1_0_0_1_n_n.rhsIdx i q 0).val = (q ⟨0, by decide⟩).val :=
  dot_S200x8_S8x10000_S200x10000_1_0_0_1_n_n.rhsIdx_val_of_single rfl i q
/-- … and the output's column. -/
theorem adj_rhs_1 (i : S200x10000.Idx) (q : dot_S200x8_S8x10000_S200x10000_1_0_0_1_n_n.contr.Idx) :
    (dot_S200x8_S8x10000_S200x10000_1_0_0_1_n_n.rhsIdx i q 1).val = (i 1).val := by
  unfold DotDims.rhsIdx
  rw [dif_neg (show ¬(1 : Fin S8x10000.rank) ∈ dot_S200x8_S8x10000_S200x10000_1_0_0_1_n_n.rhsBatch by decide), dif_pos (show (1 : Fin S8x10000.rank) ∈ dot_S200x8_S8x10000_S200x10000_1_0_0_1_n_n.rhsNonContracting by decide)]
  rfl

/-- The block times the transposed table, into zero: the inner product of a block row with a table row. -/
theorem adj_cross (x0 : Vec Ideal S200x8 .f32) (x1 : Vec Ideal S10000x8 .f32) (p : Fin 200) (j : Fin 10000) :
    matmul (φ₁ := .f32) (φ₂ := .f32) dot_S200x8_S8x10000_S200x10000_1_0_0_1_n_n none x0 (transpose S8x10000 [1, 0] x1 transposes_S10000x8_p1_0_S8x10000)
      (constant (F := Ideal) S200x10000 .f32 0x00000000#32) (ix2 p j)
      = ∑ k : Fin 8, x0 (ix2 p k) * x1 (ix2 j k) := by
  refine (Ideal.matmul_constant_zero_apply dot_S200x8_S8x10000_S200x10000_1_0_0_1_n_n none x0 _ (ix2 p j)).trans ?_
  rw [← Equiv.sum_comp (ValueIdx.contrEquiv1 dot_S200x8_S8x10000_S200x10000_1_0_0_1_n_n 8 rfl rfl).symm]
  refine Finset.sum_congr rfl fun k _ => ?_
  have hk := ValueIdx.contrEquiv1_symm_val dot_S200x8_S8x10000_S200x10000_1_0_0_1_n_n 8 rfl rfl k
  have el : dot_S200x8_S8x10000_S200x10000_1_0_0_1_n_n.lhsIdx (ix2 p j) ((ValueIdx.contrEquiv1 dot_S200x8_S8x10000_S200x10000_1_0_0_1_n_n 8 rfl rfl).symm k) = ix2 p k := funext fun a => Fin.ext (by
    match a with
    | ⟨0, _⟩ => exact adj_lhs_0 _ _
    | ⟨1, _⟩ => exact (adj_lhs_1 _ _).trans hk)
  have er : dot_S200x8_S8x10000_S200x10000_1_0_0_1_n_n.rhsIdx (ix2 p j) ((ValueIdx.contrEquiv1 dot_S200x8_S8x10000_S200x10000_1_0_0_1_n_n 8 rfl rfl).symm k) = ix2 k j := funext fun a => Fin.ext (by
    match a with
    | ⟨0, _⟩ => exact (adj_rhs_0 _ _).trans hk
    | ⟨1, _⟩ => exact adj_rhs_1 _ _)
  rw [el, er]
  exact congrArg (x0 (ix2 p k) * ·) (ValueIdx.transpose_ix2_apply x1 transposes_S10000x8_p1_0_S8x10000 k j)

/-- The number of a block row in the whole matrix, computed in 32-bit words from the grid coordinate, is the word the
    reference computes for that row: both are the word of 200·t + p. -/
theorem adj_rowWord (t : Fin 50) (i : grid2.Coords) (hi : (i 0).val = t.val) (p : Fin 200) :
    IntOp.addi (Scalar.muli (BitVec.ofNat 32 (i 0).val) 200#32) (BitVec.ofNat 32 p.val)
      = IntOp.addi (BitVec.ofNat 32 (arow t p).val) 0#32 := by
  show BitVec.ofNat 32 (i 0).val * BitVec.ofNat 32 200 + BitVec.ofNat 32 p.val = BitVec.ofNat 32 (arow t p).val + 0#32
  rw [BitVec.add_zero, ← BitVec.ofNat_mul, ← BitVec.ofNat_add, hi, arow_val, Nat.mul_comm]

/-- A choice between zero and one on a one-bit word is one less the word's number: 1 − 1 = 0 and 1 − 0 = 1. -/
theorem adj_maskBit (b : BitVec 1) :
    Scalar.select b (Scalar.ofBits (F := Ideal) .f32 0x00000000#32) (Scalar.ofBits (F := Ideal) .f32 0x3F800000#32)
      = FloatOps.subf (FloatOps.ofBits (F := Ideal) .f32 0x3F800000#32) (FloatOps.uitofp (F := Ideal) .f32 b) := by
  show Scalar.select b (Ideal.ofBits .f32 0x00000000#32) (Ideal.ofBits .f32 0x3F800000#32)
    = Ideal.ofBits .f32 0x3F800000#32 - ((b.toNat : ℝ) : EReal)
  rw [Ideal.ofBits_zero_f32, ofBits_one_f32]
  by_cases hb : b = 1#1
  · subst hb
    rw [select_one]
    simp
    rw [← EReal.coe_one, ← EReal.coe_sub, sub_self, EReal.coe_zero]
  · have h0 := eq_zero_of_ne_one hb
    subst h0
    rw [select_zero]
    simp

/-- The logistic function is the quotient of one by one plus the exponential of the negated argument, the ones
    spelt as the float one. -/
theorem logistic_eq_div (x : EReal) :
    Ideal.logistic x = Ideal.div (Ideal.ofBits .f32 0x3F800000#32) (Ideal.ofBits .f32 0x3F800000#32 + Ideal.exp (-x)) := by
  rw [ofBits_one_f32]; rfl

/-- The adjacency kernel's stored block at row p and column j is the entry from the block's row p, the table's row j and
    the bit "the row's number in the whole matrix is j". -/
theorem adjPay_apply (t : Fin 50) (i : grid2.Coords) (hi : (i 0).val = t.val)
    (x0 : Vec Ideal S200x8 .f32) (x1 : Vec Ideal S10000x8 .f32) (p : Fin 200) (j : Fin 10000) :
    adjPay i x0 x1 (ix2 p j)
      = adjEntry (fun k => x0 (ix2 p k)) (fun k => x1 (ix2 j k)) (sameWord (arow t p) j) := by
  unfold adjPay k2_pay1
  simp only [shapeCast_self]
  show FloatOps.mulf (FloatOps.logistic (FloatOps.subf (FloatOps.mulf _ (FloatOps.subf (FloatOps.addf _ _) (FloatOps.mulf _ _))) _))
    (Scalar.select (IntOp.cmpi .eq (IntOp.addi _ _) _) _ _) = _
  rw [adj_ri x0 p j, adj_rj x1 p j, adj_cross x0 x1 p j, iota_single_apply, iota_single_apply]
  show FloatOps.mulf (Ideal.logistic _) (Scalar.select (IntOp.cmpi .eq
      (IntOp.addi (Scalar.muli (BitVec.ofNat 32 (i 0).val) 200#32) (BitVec.ofNat 32 p.val)) (BitVec.ofNat 32 j.val))
      (Scalar.ofBits (F := Ideal) .f32 0x00000000#32) (Scalar.ofBits (F := Ideal) .f32 0x3F800000#32)) = _
  rw [adj_rowWord t i hi p, adj_maskBit, logistic_eq_div]
  rfl

/-- The reference's adjacency at row n and column j is the entry from the embedding table's rows n and j and the bit
    "n is j": its sums of squares and its inner product are sums over the eight embedding coordinates, its sigmoid is
    spelt as a quotient, its mask as one less the bit's number. -/
theorem refAdj_apply (a0 : (⟨Cert.ReferenceIdeal.S10000x64, .f32⟩ : BufTy).Contents (Elt Ideal)) (a1 : (⟨Cert.ReferenceIdeal.S2x320000, .i32⟩ : BufTy).Contents (Elt Ideal)) (a2 : (⟨Cert.ReferenceIdeal.S320000x32, .f32⟩ : BufTy).Contents (Elt Ideal)) (a3 : (⟨Cert.ReferenceIdeal.S10000x3, .f32⟩ : BufTy).Contents (Elt Ideal)) (a4 : (⟨Cert.ReferenceIdeal.S161x128, .f32⟩ : BufTy).Contents (Elt Ideal)) (a5 : (⟨Cert.ReferenceIdeal.S128, .f32⟩ : BufTy).Contents (Elt Ideal)) (a6 : (⟨Cert.ReferenceIdeal.S128x32, .f32⟩ : BufTy).Contents (Elt Ideal)) (a7 : (⟨Cert.ReferenceIdeal.S32, .f32⟩ : BufTy).Contents (Elt Ideal)) (a8 : (⟨Cert.ReferenceIdeal.S32x2, .f32⟩ : BufTy).Contents (Elt Ideal)) (a9 : (⟨Cert.ReferenceIdeal.S2, .f32⟩ : BufTy).Contents (Elt Ideal)) (a10 : (⟨Cert.ReferenceIdeal.S2x1, .f32⟩ : BufTy).Contents (Elt Ideal)) (a11 : (⟨Cert.ReferenceIdeal.S99x128, .f32⟩ : BufTy).Contents (Elt Ideal)) (a12 : (⟨Cert.ReferenceIdeal.S128, .f32⟩ : BufTy).Contents (Elt Ideal)) (a13 : (⟨Cert.ReferenceIdeal.S128x64, .f32⟩ : BufTy).Contents (Elt Ideal)) (a14 : (⟨Cert.ReferenceIdeal.S64, .f32⟩ : BufTy).Contents (Elt Ideal)) (a15 : (⟨Cert.ReferenceIdeal.S64x8, .f32⟩ : BufTy).Contents (Elt Ideal)) (a16 : (⟨Cert.ReferenceIdeal.S8, .f32⟩ : BufTy).Contents (Elt Ideal))
    (n j : Fin 10000) :
    val_main_v122 (F := Ideal) a0 a1 a2 a3 a4 a5 a6 a7 a8 a9 a10 a11 a12 a13 a14 a15 a16 (ix2 n j)
      = adjEntry (fun k => val_main_v79 (F := Ideal) a0 a1 a2 a3 a4 a5 a6 a7 a8 a9 a10 a11 a12 a13 a14 a15 a16 (ix2 n k))
          (fun k => val_main_v79 (F := Ideal) a0 a1 a2 a3 a4 a5 a6 a7 a8 a9 a10 a11 a12 a13 a14 a15 a16 (ix2 j k)) (sameWord n j) := by
  simp only [val_main_v122_apply, val_main_v113_apply, val_main_v112_apply, val_main_cst_15_apply, val_main_v111_apply,
    val_main_v110_apply, val_main_cst_14_apply, val_main_v109_apply, val_main_v108_apply, val_main_v107_apply,
    val_main_v106_apply, val_main_cst_13_apply, val_main_v105_apply, val_main_v104_apply, val_main_cst_12_apply,
    val_main_v103_apply, val_main_v102_apply, val_main_v101_apply, val_main_cst_11_apply, val_main_v100_apply,
    val_main_v99_apply, val_main_v98_apply, val_main_v97_apply, val_main_v96_apply, val_main_v95_apply,
    val_main_v94_apply, val_main_v93_apply, val_main_v92_apply, val_main_cst_10_apply, val_main_v121_apply,
    val_main_v120_apply, val_main_cst_17_apply, val_main_v119_apply, val_main_v118_apply, val_main_v117_apply,
    val_main_v116_apply, val_main_c_16_apply, val_main_v115_apply, val_main_v114_apply]
  generalize val_main_v79 (F := Ideal) a0 a1 a2 a3 a4 a5 a6 a7 a8 a9 a10 a11 a12 a13 a14 a15 a16 = NE
  have e1 : ∀ k : Fin 8, idx_main_v93 (idx_main_v94 (idx_main_v96 (ix2 n j))) k = ix2 n k := fun k =>
    funext fun a => by match a with | ⟨0, _⟩ => rfl | ⟨1, _⟩ => rfl
  have e2 : ∀ k : Fin 8, idx_main_v93 (idx_main_v95 (idx_main_v97 (ix2 n j))) k = ix2 j k := fun k =>
    funext fun a => by match a with | ⟨0, _⟩ => rfl | ⟨1, _⟩ => rfl
  have e3 : ∀ k : Fin 8, lidx_main_v100 (ix2 n j) k = ix2 n k := fun k =>
    funext fun a => by match a with | ⟨0, _⟩ => rfl | ⟨1, _⟩ => rfl
  have e4 : ∀ k : Fin 8, idx_main_v99 (ridx_main_v100 (ix2 n j) k) = ix2 j k := fun k =>
    funext fun a => by match a with | ⟨0, _⟩ => rfl | ⟨1, _⟩ => rfl
  simp only [e1, e2, e3, e4]
  have z : FloatOps.ofBits (F := Ideal) .f32 0x00000000#32 = (0 : EReal) := Ideal.ofBits_zero_f32
  rw [z, zero_add, zero_add]
  rfl

/-- The adjacency kernel's block at grid point t is the reference's adjacency matrix on the rows 200·t … 200·t + 199,
    entry by entry, when the kernel's two operands hold the reference's node embeddings: its block the rows of the
    block, its table all of them. -/
theorem adjPay_rows (t : Fin 50) (i : grid2.Coords) (hi : (i 0).val = t.val)
    (x0 : Vec Ideal S200x8 .f32) (x1 : Vec Ideal S10000x8 .f32)
    (a0 : (⟨Cert.ReferenceIdeal.S10000x64, .f32⟩ : BufTy).Contents (Elt Ideal)) (a1 : (⟨Cert.ReferenceIdeal.S2x320000, .i32⟩ : BufTy).Contents (Elt Ideal)) (a2 : (⟨Cert.ReferenceIdeal.S320000x32, .f32⟩ : BufTy).Contents (Elt Ideal)) (a3 : (⟨Cert.ReferenceIdeal.S10000x3, .f32⟩ : BufTy).Contents (Elt Ideal)) (a4 : (⟨Cert.ReferenceIdeal.S161x128, .f32⟩ : BufTy).Contents (Elt Ideal)) (a5 : (⟨Cert.ReferenceIdeal.S128, .f32⟩ : BufTy).Contents (Elt Ideal)) (a6 : (⟨Cert.ReferenceIdeal.S128x32, .f32⟩ : BufTy).Contents (Elt Ideal)) (a7 : (⟨Cert.ReferenceIdeal.S32, .f32⟩ : BufTy).Contents (Elt Ideal)) (a8 : (⟨Cert.ReferenceIdeal.S32x2, .f32⟩ : BufTy).Contents (Elt Ideal)) (a9 : (⟨Cert.ReferenceIdeal.S2, .f32⟩ : BufTy).Contents (Elt Ideal)) (a10 : (⟨Cert.ReferenceIdeal.S2x1, .f32⟩ : BufTy).Contents (Elt Ideal)) (a11 : (⟨Cert.ReferenceIdeal.S99x128, .f32⟩ : BufTy).Contents (Elt Ideal)) (a12 : (⟨Cert.ReferenceIdeal.S128, .f32⟩ : BufTy).Contents (Elt Ideal)) (a13 : (⟨Cert.ReferenceIdeal.S128x64, .f32⟩ : BufTy).Contents (Elt Ideal)) (a14 : (⟨Cert.ReferenceIdeal.S64, .f32⟩ : BufTy).Contents (Elt Ideal)) (a15 : (⟨Cert.ReferenceIdeal.S64x8, .f32⟩ : BufTy).Contents (Elt Ideal)) (a16 : (⟨Cert.ReferenceIdeal.S8, .f32⟩ : BufTy).Contents (Elt Ideal))
    (h0 : ∀ (p : Fin 200) (k : Fin 8), x0 (ix2 p k) = val_main_v79 (F := Ideal) a0 a1 a2 a3 a4 a5 a6 a7 a8 a9 a10 a11 a12 a13 a14 a15 a16 (ix2 (arow t p) k))
    (h1 : ∀ (n : Fin 10000) (k : Fin 8), x1 (ix2 n k) = val_main_v79 (F := Ideal) a0 a1 a2 a3 a4 a5 a6 a7 a8 a9 a10 a11 a12 a13 a14 a15 a16 (ix2 n k)) :
    ∀ (p : Fin 200) (j : Fin 10000),
      adjPay i x0 x1 (ix2 p j) = val_main_v122 (F := Ideal) a0 a1 a2 a3 a4 a5 a6 a7 a8 a9 a10 a11 a12 a13 a14 a15 a16 (ix2 (arow t p) j) := by
  intro p j
  rw [adjPay_apply t i hi x0 x1 p j, refAdj_apply a0 a1 a2 a3 a4 a5 a6 a7 a8 a9 a10 a11 a12 a13 a14 a15 a16 (arow t p) j]
  simp only [h0, h1]

end Cert.KernelIdeal.Hand

end
-- ==== Proof.KiValues.lean ====
/-
  The idealized kernel program's results are the reference's, array by array.

  The edge kernel's slab, row by row, is the reference's edge messages, coordinate updates, edge embeddings and
  reconstructed edge features: a row of a block is computed from the same row of the two gathered tables and of the
  edge attributes (the gathers agree with the reference's because every endpoint lies in range), by the same sums.
  Hence its four groups of columns, sliced out, are the reference's four arrays; the scatter-adds and the node table
  built from them are then the reference's node table. The node kernel's slab, row by row, is the reference's node
  embeddings and reconstructed node features; the adjacency kernel's blocks of rows make the reference's adjacency
  matrix. The six results follow.
-/
import proofs.«414572_j55508157334089_2_alg».proof.Proof.KiRun
import proofs.«414572_j55508157334089_2_alg».proof.Proof.KiFoldRead
import proofs.«414572_j55508157334089_2_alg».proof.Proof.ValArr
import proofs.«414572_j55508157334089_2_alg».proof.Proof.ValSlices
import proofs.«414572_j55508157334089_2_alg».proof.Proof.ValGather
import proofs.«414572_j55508157334089_2_alg».proof.Proof.ValPre
import proofs.«414572_j55508157334089_2_alg».proof.Proof.ValEdgeMath
import proofs.«414572_j55508157334089_2_alg».proof.Proof.ValNodeMath
import proofs.«414572_j55508157334089_2_alg».proof.Proof.ValAdjMath

set_option maxRecDepth 16384

noncomputable section

namespace Cert.KernelIdeal.Hand

open Cert.KernelIdeal Cert.KernelIdeal.Gen Cert.ReferenceIdeal.Read Cert.Hand.Rows
open Idealize.ShloMosaic Idealize.ShloMosaic.TcCoe Idealize.ShloMosaic.ValueIdx Idealize.SL.Sem

variable (m : (ℓ : Loc nD τ sig) → Buf (Elt Ideal) ℓ) (c : Dev nD)

/-! ## The weights each kernel finds in its whole-array windows are the arguments -/

theorem blk0_3 (t : Fin 80) : (iblk0 (U3 m) c 3 (pt0 t) : Vec Ideal S161x128 .f32) = (m ((c : Thread nD τ).loc main_arg4)) :=
  (iblk0_3_eq (U3 m) c t).trans (U3_arg m c main_arg4 (by decide) (by decide) (by decide))
theorem blk0_4 (t : Fin 80) : (iblk0 (U3 m) c 4 (pt0 t) : Vec Ideal S128 .f32) = (m ((c : Thread nD τ).loc main_arg5)) :=
  (iblk0_4_eq (U3 m) c t).trans (U3_arg m c main_arg5 (by decide) (by decide) (by decide))
theorem blk0_5 (t : Fin 80) : (iblk0 (U3 m) c 5 (pt0 t) : Vec Ideal S128x32 .f32) = (m ((c : Thread nD τ).loc main_arg6)) :=
  (iblk0_5_eq (U3 m) c t).trans (U3_arg m c main_arg6 (by decide) (by decide) (by decide))
theorem blk0_6 (t : Fin 80) : (iblk0 (U3 m) c 6 (pt0 t) : Vec Ideal S32 .f32) = (m ((c : Thread nD τ).loc main_arg7)) :=
  (iblk0_6_eq (U3 m) c t).trans (U3_arg m c main_arg7 (by decide) (by decide) (by decide))
theorem blk0_7 (t : Fin 80) : (iblk0 (U3 m) c 7 (pt0 t) : Vec Ideal S32x2 .f32) = (m ((c : Thread nD τ).loc main_arg8)) :=
  (iblk0_7_eq (U3 m) c t).trans (U3_arg m c main_arg8 (by decide) (by decide) (by decide))
theorem blk0_8 (t : Fin 80) : (iblk0 (U3 m) c 8 (pt0 t) : Vec Ideal S2 .f32) = (m ((c : Thread nD τ).loc main_arg9)) :=
  (iblk0_8_eq (U3 m) c t).trans (U3_arg m c main_arg9 (by decide) (by decide) (by decide))
theorem blk0_9 (t : Fin 80) : (iblk0 (U3 m) c 9 (pt0 t) : Vec Ideal S2x1 .f32) = (m ((c : Thread nD τ).loc main_arg10)) :=
  (iblk0_9_eq (U3 m) c t).trans (U3_arg m c main_arg10 (by decide) (by decide) (by decide))
theorem blk0_10 (t : Fin 80) : (iblk0 (U3 m) c 10 (pt0 t) : Vec Ideal S32x8 .f32) = (m ((c : Thread nD τ).loc main_arg17)) :=
  (iblk0_10_eq (U3 m) c t).trans (U3_arg m c main_arg17 (by decide) (by decide) (by decide))
theorem blk0_11 (t : Fin 80) : (iblk0 (U3 m) c 11 (pt0 t) : Vec Ideal S8 .f32) = (m ((c : Thread nD τ).loc main_arg18)) :=
  (iblk0_11_eq (U3 m) c t).trans (U3_arg m c main_arg18 (by decide) (by decide) (by decide))
theorem blk0_12 (t : Fin 80) : (iblk0 (U3 m) c 12 (pt0 t) : Vec Ideal S8x32 .f32) = (m ((c : Thread nD τ).loc main_arg21)) :=
  (iblk0_12_eq (U3 m) c t).trans (U3_arg m c main_arg21 (by decide) (by decide) (by decide))
theorem blk0_13 (t : Fin 80) : (iblk0 (U3 m) c 13 (pt0 t) : Vec Ideal S32 .f32) = (m ((c : Thread nD τ).loc main_arg22)) :=
  (iblk0_13_eq (U3 m) c t).trans (U3_arg m c main_arg22 (by decide) (by decide) (by decide))
theorem blk1_1 (t : Fin 5) : (iblk1 (U5 m) c 1 (pt1 t) : Vec Ideal S99x128 .f32) = (m ((c : Thread nD τ).loc main_arg11)) :=
  (iblk1_1_eq (U5 m) c t).trans (U5_arg m c main_arg11 (by decide) (by decide) (by decide) (by decide) (by decide))
theorem blk1_2 (t : Fin 5) : (iblk1 (U5 m) c 2 (pt1 t) : Vec Ideal S128 .f32) = (m ((c : Thread nD τ).loc main_arg12)) :=
  (iblk1_2_eq (U5 m) c t).trans (U5_arg m c main_arg12 (by decide) (by decide) (by decide) (by decide) (by decide))
theorem blk1_3 (t : Fin 5) : (iblk1 (U5 m) c 3 (pt1 t) : Vec Ideal S128x64 .f32) = (m ((c : Thread nD τ).loc main_arg13)) :=
  (iblk1_3_eq (U5 m) c t).trans (U5_arg m c main_arg13 (by decide) (by decide) (by decide) (by decide) (by decide))
theorem blk1_4 (t : Fin 5) : (iblk1 (U5 m) c 4 (pt1 t) : Vec Ideal S64 .f32) = (m ((c : Thread nD τ).loc main_arg14)) :=
  (iblk1_4_eq (U5 m) c t).trans (U5_arg m c main_arg14 (by decide) (by decide) (by decide) (by decide) (by decide))
theorem blk1_5 (t : Fin 5) : (iblk1 (U5 m) c 5 (pt1 t) : Vec Ideal S64x8 .f32) = (m ((c : Thread nD τ).loc main_arg15)) :=
  (iblk1_5_eq (U5 m) c t).trans (U5_arg m c main_arg15 (by decide) (by decide) (by decide) (by decide) (by decide))
theorem blk1_6 (t : Fin 5) : (iblk1 (U5 m) c 6 (pt1 t) : Vec Ideal S8 .f32) = (m ((c : Thread nD τ).loc main_arg16)) :=
  (iblk1_6_eq (U5 m) c t).trans (U5_arg m c main_arg16 (by decide) (by decide) (by decide) (by decide) (by decide))
theorem blk1_7 (t : Fin 5) : (iblk1 (U5 m) c 7 (pt1 t) : Vec Ideal S8x64 .f32) = (m ((c : Thread nD τ).loc main_arg19)) :=
  (iblk1_7_eq (U5 m) c t).trans (U5_arg m c main_arg19 (by decide) (by decide) (by decide) (by decide) (by decide))
theorem blk1_8 (t : Fin 5) : (iblk1 (U5 m) c 8 (pt1 t) : Vec Ideal S64 .f32) = (m ((c : Thread nD τ).loc main_arg20)) :=
  (iblk1_8_eq (U5 m) c t).trans (U5_arg m c main_arg20 (by decide) (by decide) (by decide) (by decide) (by decide))

/-! ## The edge kernel's slab -/

/-- The edge region's output array. -/
abbrev slabE : Vec Ideal S320000x75 .f32 := (dat0 (U3 m) c).arrAt 14 cfg0.N

/-- What point `t` of the edge region stores, with the weights read as the arguments. -/
abbrev edgeBlk (t : Fin 80) : Vec Ideal S4000x75 .f32 :=
  edgePay (iblk0 (U3 m) c 0 (pt0 t)) (iblk0 (U3 m) c 1 (pt0 t)) (iblk0 (U3 m) c 2 (pt0 t))
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg17)) (m ((c : Thread nD τ).loc main_arg18)) (m ((c : Thread nD τ).loc main_arg21)) (m ((c : Thread nD τ).loc main_arg22))

theorem edge_after (t : Fin 80) : (dat0 (U3 m) c).after 14 (pt0 t) = edgeBlk m c t := by
  rw [after0_14, out0_14_eq, blk0_3 m c t, blk0_4 m c t, blk0_5 m c t, blk0_6 m c t, blk0_7 m c t, blk0_8 m c t, blk0_9 m c t, blk0_10 m c t, blk0_11 m c t, blk0_12 m c t, blk0_13 m c t]

section Edge
variable (hrow : ∀ e : Fin 320000, -10000 ≤ ((rowIds (m ((c : Thread nD τ).loc main_arg1))) (ix1 e)).toInt ∧ ((rowIds (m ((c : Thread nD τ).loc main_arg1))) (ix1 e)).toInt < 10000)
  (hcol : ∀ e : Fin 320000, -10000 ≤ ((colIds (m ((c : Thread nD τ).loc main_arg1))) (ix1 e)).toInt ∧ ((colIds (m ((c : Thread nD τ).loc main_arg1))) (ix1 e)).toInt < 10000)
include hrow hcol

/-- Row `p` of block `t` of the slab is the reference's four edge arrays at edge `4000 t + p`. -/
theorem slabE_rows (t : Fin 80) (p : Fin 4000) :
    (∀ j : Fin 32, slabE m c (ix2 (erow t p) (col 75 0 j (by omega))) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (erow t p) j))
    ∧ (∀ j : Fin 3, slabE m c (ix2 (erow t p) (col 75 32 j (by omega))) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (erow t p) j))
    ∧ (∀ j : Fin 8, slabE m c (ix2 (erow t p) (col 75 35 j (by omega))) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) (ix2 (erow t p) j))
    ∧ (∀ j : Fin 32, slabE m c (ix2 (erow t p) (col 75 43 j (by omega))) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) (m ((c : Thread nD τ).loc main_arg21)) (m ((c : Thread nD τ).loc main_arg22)) (ix2 (erow t p) j)) := by
  have hB := arr0_apply c (dat0 (U3 m) c) (edgeBlk m c) (edge_after m c) t p
  have hM := edgePay_rows t (iblk0 (U3 m) c 0 (pt0 t)) (iblk0 (U3 m) c 1 (pt0 t)) (iblk0 (U3 m) c 2 (pt0 t))
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg17)) (m ((c : Thread nD τ).loc main_arg18)) (m ((c : Thread nD τ).loc main_arg21)) (m ((c : Thread nD τ).loc main_arg22)) (m ((c : Thread nD τ).loc main_arg0)) (m ((c : Thread nD τ).loc main_arg1)) (m ((c : Thread nD τ).loc main_arg2)) (m ((c : Thread nD τ).loc main_arg3))
    (fun p j => (iblk0_0_apply (U3 m) c t p _).trans ((congrFun (W3_v5 m c) _).trans (take_row_feat _ _ _ hrow (erow t p) j)))
    (fun p j => (iblk0_0_apply (U3 m) c t p _).trans ((congrFun (W3_v5 m c) _).trans (take_row_coord _ _ _ hrow (erow t p) j)))
    (fun p j => (iblk0_1_apply (U3 m) c t p _).trans ((congrFun (W3_v6 m c) _).trans (take_col_feat _ _ _ hcol (erow t p) j)))
    (fun p j => (iblk0_1_apply (U3 m) c t p _).trans ((congrFun (W3_v6 m c) _).trans (take_col_coord _ _ _ hcol (erow t p) j)))
    (fun p j => (iblk0_2_apply (U3 m) c t p j).trans (congrFun (U3_arg m c main_arg2 (by decide) (by decide) (by decide)) _)) p
  exact ⟨fun j => (hB _).trans (hM.1 j), fun j => (hB _).trans (hM.2.1 j), fun j => (hB _).trans (hM.2.2.1 j), fun j => (hB _).trans (hM.2.2.2 j)⟩

/-- The slab's first thirty-two columns are the reference's edge messages. -/
theorem slabE_msg : extractStridedSlice S320000x32 ![0, 0] (slabE m c) slices_S320000x75_S320000x32_0_0 = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ext2 fun e j => by
    obtain ⟨t, p, rfl⟩ := erow_surj e
    exact (slice_cols 0 (slabE m c) _ (erow t p) j (by omega)).trans ((slabE_rows m c hrow hcol t p).1 j)
/-- Its next three are the reference's coordinate updates. -/
theorem slabE_delta : extractStridedSlice S320000x3 ![0, 32] (slabE m c) slices_S320000x75_S320000x3_0_32 = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ext2 fun e j => by
    obtain ⟨t, p, rfl⟩ := erow_surj e
    exact (slice_cols 32 (slabE m c) _ (erow t p) j (by omega)).trans ((slabE_rows m c hrow hcol t p).2.1 j)
/-- Its next eight are the reference's edge embeddings. -/
theorem slabE_emb : extractStridedSlice S320000x8 ![0, 35] (slabE m c) slices_S320000x75_S320000x8_0_35 = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) :=
  ext2 fun e j => by
    obtain ⟨t, p, rfl⟩ := erow_surj e
    exact (slice_cols 35 (slabE m c) _ (erow t p) j (by omega)).trans ((slabE_rows m c hrow hcol t p).2.2.1 j)
/-- Its last thirty-two are the reference's reconstructed edge features. -/
theorem slabE_recon : extractStridedSlice S320000x32 ![0, 43] (slabE m c) slices_S320000x75_S320000x32_0_43 = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) (m ((c : Thread nD τ).loc main_arg21)) (m ((c : Thread nD τ).loc main_arg22)) :=
  ext2 fun e j => by
    obtain ⟨t, p, rfl⟩ := erow_surj e
    exact (slice_cols 43 (slabE m c) _ (erow t p) j (by omega)).trans ((slabE_rows m c hrow hcol t p).2.2.2 j)

/-! ## The node table and the node kernel's slab -/

/-- The vector of first endpoints is the reference's. -/
theorem rows_eq : rowIds (m ((c : Thread nD τ).loc main_arg1)) = val_main_v1 (F := Ideal) (m ((c : Thread nD τ).loc main_arg1)) := rfl

/-- The new coordinates are the reference's. -/
theorem coords_eq : W8 m c (Proc.devRef .tc main_v18) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W8_v18, W4_out, slabE_delta m c hrow hcol, rows_eq m c hrow hcol]; rfl

/-- The node table the node kernel finds is the reference's. -/
theorem nodeIn_eq : U5 m c main_v19 = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show W5 m c (Proc.devRef .tc main_v19) = _
  rw [W5_v19, W4_out, slabE_msg m c hrow hcol, slabE_delta m c hrow hcol, rows_eq m c hrow hcol]; rfl

/-- The node region's output array. -/
abbrev slabN : Vec Ideal S10000x72 .f32 := (dat1 (U5 m) c).arrAt 9 cfg1.N

/-- What point `t` of the node region stores, with the weights read as the arguments. -/
abbrev nodeBlk (t : Fin 5) : Vec Ideal S2000x72 .f32 :=
  nodePay (iblk1 (U5 m) c 0 (pt1 t)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20))

theorem node_after (t : Fin 5) : (dat1 (U5 m) c).after 9 (pt1 t) = nodeBlk m c t := by
  rw [after1_9, out1_9_eq, blk1_1 m c t, blk1_2 m c t, blk1_3 m c t, blk1_4 m c t, blk1_5 m c t, blk1_6 m c t, blk1_7 m c t, blk1_8 m c t]

/-- Row `p` of block `t` of the node slab is the reference's node embeddings and reconstructed features at node `2000 t + p`. -/
theorem slabN_rows (t : Fin 5) (p : Fin 2000) :
    (∀ j : Fin 8, slabN m c (ix2 (nrow t p) (col 72 0 j (by omega))) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 (nrow t p) j))
    ∧ (∀ j : Fin 64, slabN m c (ix2 (nrow t p) (col 72 8 j (by omega))) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20)) (ix2 (nrow t p) j)) := by
  have hB := arr1_apply c (dat1 (U5 m) c) (nodeBlk m c) (node_after m c hrow hcol) t p
  have hM := nodePay_rows t (iblk1 (U5 m) c 0 (pt1 t)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (fun p j => (iblk1_0_apply (U5 m) c t p j).trans (congrFun (nodeIn_eq m c hrow hcol) _)) p
  exact ⟨fun j => (hB _).trans (hM.1 j), fun j => (hB _).trans (hM.2 j)⟩

/-- The node slab's first eight columns are the reference's node embeddings. -/
theorem slabN_emb : extractStridedSlice S10000x8 ![0, 0] (slabN m c) slices_S10000x72_S10000x8_0_0 = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ext2 fun e j => by
    obtain ⟨t, p, rfl⟩ := nrow_surj e
    exact (slice_cols 0 (slabN m c) _ (nrow t p) j (by omega)).trans ((slabN_rows m c hrow hcol t p).1 j)
/-- Its other sixty-four are the reference's reconstructed node features. -/
theorem slabN_recon : extractStridedSlice S10000x64 ![0, 8] (slabN m c) slices_S10000x72_S10000x64_0_8 = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20)) :=
  ext2 fun e j => by
    obtain ⟨t, p, rfl⟩ := nrow_surj e
    exact (slice_cols 8 (slabN m c) _ (nrow t p) j (by omega)).trans ((slabN_rows m c hrow hcol t p).2 j)

/-! ## The adjacency matrix -/

/-- The table of embeddings the adjacency kernel finds is the reference's. -/
theorem emb_eq : U7 m c main_v21 = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show W7 m c (Proc.devRef .tc main_v21) = _
  rw [W7_v21, W6_out]; exact slabN_emb m c hrow hcol

/-- What point `t` of the adjacency region stores. -/
abbrev adjBlk (t : Fin 50) : Vec Ideal S200x10000 .f32 :=
  adjPay (cfg2.grid.coords (pt2 t)) (iblk2 (U7 m) c 0 (pt2 t)) (iblk2 (U7 m) c 1 (pt2 t))

theorem adj_after (t : Fin 50) : (dat2 (U7 m) shareL shareR c).after 2 (pt2 t) = adjBlk m c t := by
  rw [after2_2, out2_2_eq]

/-- The adjacency region's output array is the reference's adjacency matrix. -/
theorem adj_eq : (dat2 (U7 m) shareL shareR c).arrAt 2 cfg2.N = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ext2 (x := ((dat2 (U7 m) shareL shareR c).arrAt 2 cfg2.N : Vec Ideal S10000x10000 .f32)) fun e j => by
    obtain ⟨t, p, rfl⟩ := arow_surj e
    refine (arr2_apply c (dat2 (U7 m) shareL shareR c) (adjBlk m c) (adj_after m c hrow hcol) t p j).trans ?_
    exact adjPay_rows t (cfg2.grid.coords (pt2 t)) (coords2_val t) (iblk2 (U7 m) c 0 (pt2 t)) (iblk2 (U7 m) c 1 (pt2 t)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      (fun p k => (iblk2_0_apply (U7 m) c t p k).trans (congrFun (emb_eq m c hrow hcol) _))
      (fun n k => (congrFun (iblk2_1_eq (U7 m) c t) _).trans (congrFun (emb_eq m c hrow hcol) _)) p j

/-! ## The six results at the end of the fold -/

theorem res0 : W8 m c (Proc.devRef .tc main_v21) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [W8_v21, W6_out]; exact slabN_emb m c hrow hcol
theorem res1 : W8 m c (Proc.devRef .tc main_v10) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) := by
  rw [W8_v10, W4_out]; exact slabE_emb m c hrow hcol
theorem res2 : W8 m c (Proc.devRef .tc main_v22) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg20)) := by
  rw [W8_v22, W6_out]; exact slabN_recon m c hrow hcol
theorem res3 : W8 m c (Proc.devRef .tc main_v11) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg17)) (m ((c : Thread nD τ).loc main_arg18)) (m ((c : Thread nD τ).loc main_arg21)) (m ((c : Thread nD τ).loc main_arg22)) := by
  rw [W8_v11, W4_out]; exact slabE_recon m c hrow hcol
theorem res4 : W8 m c (Proc.devRef .tc main_v23) = val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [W8_v23]; exact adj_eq m c hrow hcol
theorem res5 : W8 m c (Proc.devRef .tc main_v18) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := coords_eq m c hrow hcol

end Edge

end Cert.KernelIdeal.Hand

end
-- ==== Proof.lean ====
/-
  The certificate: the three programs run to the end, fault nowhere and leave their inputs unchanged; the idealized
  kernel is the kernel's own text read over the extended reals (the ideal pass rewrote nothing); and the idealized
  kernel and the idealized reference, run from memories that agree on the inputs, end with equal results.

  The kernel program is a graph layer in three kernels. The first, over blocks of 4000 edges, takes the rows of the
  combined node table gathered at an edge's two endpoints and the edge's attributes, and computes the edge message (a
  two-layer perceptron of the endpoints' features, the attributes and the squared distance), the coordinate update (the
  normalised difference of the endpoints' coordinates times a scalar gate of the message), the edge embedding and the
  reconstructed attributes, packed side by side. Between the kernels the messages and the updates are summed into the
  rows of their first endpoints. The second kernel, over blocks of 2000 nodes, computes node embeddings and
  reconstructed features from the node's features, its summed messages and its new coordinates. The third, over blocks
  of 200 rows, computes the logistic of three times the squared distance of two embeddings less one, with the diagonal
  removed. The reference computes the same quantities over whole arrays; a block's row is computed from the same row
  of the whole arrays by the same sums and the same pointwise functions, so the two agree entry by entry, with no law
  of arithmetic beyond the equality of the sums' terms. The gathers agree because every endpoint lies in
  [−10000, 10000): there a gather that would fill an out-of-range row never fills one.
-/
import proofs.«414572_j55508157334089_2_alg».proof.Defs
import proofs.«414572_j55508157334089_2_alg».proof.Proof.Gen.Kernel
import proofs.«414572_j55508157334089_2_alg».proof.Proof.Gen.KernelIdeal
import proofs.«414572_j55508157334089_2_alg».proof.Proof.Gen.ReferenceIdeal
import proofs.«414572_j55508157334089_2_alg».proof.Proof.Gen.Pre_finite_inputs
import proofs.«414572_j55508157334089_2_alg».proof.Proof.KbRun
import proofs.«414572_j55508157334089_2_alg».proof.Proof.KiValues
import proofs.«414572_j55508157334089_2_alg».proof.Proof.Gen.ReferenceIdeal.Run
import proofs.«414572_j55508157334089_2_alg».proof.Proof.Gen.ReferenceIdeal.Read
import Idealize.ShloMosaic.Adequacy
import Idealize.ShloMosaic.Init

set_option maxRecDepth 16384

noncomputable section

namespace Cert.Proof

open Idealize.ShloMosaic Idealize.ShloMosaic.TcCoe Idealize.SL.Sem Cert.ReferenceIdeal.Read

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and leaves its inputs unchanged. -/
theorem frame_p : Cert.frame_Kernel := fun m ρ _ => Cert.Kernel.Hand.frame (F := Bits) m ρ
/-- So does its text read over the extended reals. -/
theorem frame_pi : Cert.frame_KernelIdeal := fun m ρ _ => Cert.KernelIdeal.Hand.frame (F := Ideal) m ρ
/-- The reference runs and leaves its inputs unchanged: its run with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)
/-- The ideal pass rewrote no operation. -/
theorem preserves : Cert.preserves_Kernel_KernelIdeal := trivial

set_option maxHeartbeats 4000000 in
/-- Run from memories agreeing on the inputs, whose endpoints lie in range, the two idealized programs end with equal
    results: each result of the kernel program is the reference's stage for it, evaluated at the shared inputs. -/
theorem algebraic : Cert.algebraic_KernelIdeal_ReferenceIdeal := by
  intro m ρ m' ρ' hpre hagree
  have hrow := fun c : Dev Cert.KernelIdeal.nD => Cert.Hand.Pre.row_range _ _ _ _ _ _ _ _ _ _ _ _ _ _ _ _ _ _ _ _ _ _ _ (hpre c)
  have hcol := fun c : Dev Cert.KernelIdeal.nD => Cert.Hand.Pre.col_range _ _ _ _ _ _ _ _ _ _ _ _ _ _ _ _ _ _ _ _ _ _ _ (hpre c)
  refine ⟨fun c => val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    fun c => val_main_v122 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨
      (h c _ (Cert.KernelIdeal.Hand.mem_uc Cert.KernelIdeal.main_v21 (by decide))).trans (Cert.KernelIdeal.Hand.res0 m c (hrow c) (hcol c)),
      (h c _ (Cert.KernelIdeal.Hand.mem_uc Cert.KernelIdeal.main_v10 (by decide))).trans (Cert.KernelIdeal.Hand.res1 m c (hrow c) (hcol c)),
      (h c _ (Cert.KernelIdeal.Hand.mem_uc Cert.KernelIdeal.main_v22 (by decide))).trans (Cert.KernelIdeal.Hand.res2 m c (hrow c) (hcol c)),
      (h c _ (Cert.KernelIdeal.Hand.mem_uc Cert.KernelIdeal.main_v11 (by decide))).trans (Cert.KernelIdeal.Hand.res3 m c (hrow c) (hcol c)),
      (h c _ (Cert.KernelIdeal.Hand.mem_uc Cert.KernelIdeal.main_v23 (by decide))).trans (Cert.KernelIdeal.Hand.res4 m c (hrow c) (hcol c)),
      (h c _ (Cert.KernelIdeal.Hand.mem_uc Cert.KernelIdeal.main_v18 (by decide))).trans (Cert.KernelIdeal.Hand.res5 m c (hrow c) (hcol c)),
      (h c _ (Cert.KernelIdeal.Hand.mem_uc Cert.KernelIdeal.main_arg0 (by decide))).trans (Cert.KernelIdeal.Hand.W8_arg m c Cert.KernelIdeal.main_arg0 (by decide) (by decide) (by decide) (by decide) (by decide) (by decide) (by decide) (by decide)),
      (h c _ (Cert.KernelIdeal.Hand.mem_uc Cert.KernelIdeal.main_arg1 (by decide))).trans (Cert.KernelIdeal.Hand.W8_arg m c Cert.KernelIdeal.main_arg1 (by decide) (by decide) (by decide) (by decide) (by decide) (by decide) (by decide) (by decide)),
      (h c _ (Cert.KernelIdeal.Hand.mem_uc Cert.KernelIdeal.main_arg2 (by decide))).trans (Cert.KernelIdeal.Hand.W8_arg m c Cert.KernelIdeal.main_arg2 (by decide) (by decide) (by decide) (by decide) (by decide) (by decide) (by decide) (by decide)),
      (h c _ (Cert.KernelIdeal.Hand.mem_uc Cert.KernelIdeal.main_arg3 (by decide))).trans (Cert.KernelIdeal.Hand.W8_arg m c Cert.KernelIdeal.main_arg3 (by decide) (by decide) (by decide) (by decide) (by decide) (by decide) (by decide) (by decide)),
      (h c _ (Cert.KernelIdeal.Hand.mem_uc Cert.KernelIdeal.main_arg4 (by decide))).trans (Cert.KernelIdeal.Hand.W8_arg m c Cert.KernelIdeal.main_arg4 (by decide) (by decide) (by decide) (by decide) (by decide) (by decide) (by decide) (by decide)),
      (h c _ (Cert.KernelIdeal.Hand.mem_uc Cert.KernelIdeal.main_arg5 (by decide))).trans (Cert.KernelIdeal.Hand.W8_arg m c Cert.KernelIdeal.main_arg5 (by decide) (by decide) (by decide) (by decide) (by decide) (by decide) (by decide) (by decide)),
      (h c _ (Cert.KernelIdeal.Hand.mem_uc Cert.KernelIdeal.main_arg6 (by decide))).trans (Cert.KernelIdeal.Hand.W8_arg m c Cert.KernelIdeal.main_arg6 (by decide) (by decide) (by decide) (by decide) (by decide) (by decide) (by decide) (by decide)),
      (h c _ (Cert.KernelIdeal.Hand.mem_uc Cert.KernelIdeal.main_arg7 (by decide))).trans (Cert.KernelIdeal.Hand.W8_arg m c Cert.KernelIdeal.main_arg7 (by decide) (by decide) (by decide) (by decide) (by decide) (by decide) (by decide) (by decide)),
      (h c _ (Cert.KernelIdeal.Hand.mem_uc Cert.KernelIdeal.main_arg8 (by decide))).trans (Cert.KernelIdeal.Hand.W8_arg m c Cert.KernelIdeal.main_arg8 (by decide) (by decide) (by decide) (by decide) (by decide) (by decide) (by decide) (by decide)),
      (h c _ (Cert.KernelIdeal.Hand.mem_uc Cert.KernelIdeal.main_arg9 (by decide))).trans (Cert.KernelIdeal.Hand.W8_arg m c Cert.KernelIdeal.main_arg9 (by decide) (by decide) (by decide) (by decide) (by decide) (by decide) (by decide) (by decide)),
      (h c _ (Cert.KernelIdeal.Hand.mem_uc Cert.KernelIdeal.main_arg10 (by decide))).trans (Cert.KernelIdeal.Hand.W8_arg m c Cert.KernelIdeal.main_arg10 (by decide) (by decide) (by decide) (by decide) (by decide) (by decide) (by decide) (by decide)),
      (h c _ (Cert.KernelIdeal.Hand.mem_uc Cert.KernelIdeal.main_arg11 (by decide))).trans (Cert.KernelIdeal.Hand.W8_arg m c Cert.KernelIdeal.main_arg11 (by decide) (by decide) (by decide) (by decide) (by decide) (by decide) (by decide) (by decide)),
      (h c _ (Cert.KernelIdeal.Hand.mem_uc Cert.KernelIdeal.main_arg12 (by decide))).trans (Cert.KernelIdeal.Hand.W8_arg m c Cert.KernelIdeal.main_arg12 (by decide) (by decide) (by decide) (by decide) (by decide) (by decide) (by decide) (by decide)),
      (h c _ (Cert.KernelIdeal.Hand.mem_uc Cert.KernelIdeal.main_arg13 (by decide))).trans (Cert.KernelIdeal.Hand.W8_arg m c Cert.KernelIdeal.main_arg13 (by decide) (by decide) (by decide) (by decide) (by decide) (by decide) (by decide) (by decide)),
      (h c _ (Cert.KernelIdeal.Hand.mem_uc Cert.KernelIdeal.main_arg14 (by decide))).trans (Cert.KernelIdeal.Hand.W8_arg m c Cert.KernelIdeal.main_arg14 (by decide) (by decide) (by decide) (by decide) (by decide) (by decide) (by decide) (by decide)),
      (h c _ (Cert.KernelIdeal.Hand.mem_uc Cert.KernelIdeal.main_arg15 (by decide))).trans (Cert.KernelIdeal.Hand.W8_arg m c Cert.KernelIdeal.main_arg15 (by decide) (by decide) (by decide) (by decide) (by decide) (by decide) (by decide) (by decide)),
      (h c _ (Cert.KernelIdeal.Hand.mem_uc Cert.KernelIdeal.main_arg16 (by decide))).trans (Cert.KernelIdeal.Hand.W8_arg m c Cert.KernelIdeal.main_arg16 (by decide) (by decide) (by decide) (by decide) (by decide) (by decide) (by decide) (by decide)),
      (h c _ (Cert.KernelIdeal.Hand.mem_uc Cert.KernelIdeal.main_arg17 (by decide))).trans (Cert.KernelIdeal.Hand.W8_arg m c Cert.KernelIdeal.main_arg17 (by decide) (by decide) (by decide) (by decide) (by decide) (by decide) (by decide) (by decide)),
      (h c _ (Cert.KernelIdeal.Hand.mem_uc Cert.KernelIdeal.main_arg18 (by decide))).trans (Cert.KernelIdeal.Hand.W8_arg m c Cert.KernelIdeal.main_arg18 (by decide) (by decide) (by decide) (by decide) (by decide) (by decide) (by decide) (by decide)),
      (h c _ (Cert.KernelIdeal.Hand.mem_uc Cert.KernelIdeal.main_arg19 (by decide))).trans (Cert.KernelIdeal.Hand.W8_arg m c Cert.KernelIdeal.main_arg19 (by decide) (by decide) (by decide) (by decide) (by decide) (by decide) (by decide) (by decide)),
      (h c _ (Cert.KernelIdeal.Hand.mem_uc Cert.KernelIdeal.main_arg20 (by decide))).trans (Cert.KernelIdeal.Hand.W8_arg m c Cert.KernelIdeal.main_arg20 (by decide) (by decide) (by decide) (by decide) (by decide) (by decide) (by decide) (by decide)),
      (h c _ (Cert.KernelIdeal.Hand.mem_uc Cert.KernelIdeal.main_arg21 (by decide))).trans (Cert.KernelIdeal.Hand.W8_arg m c Cert.KernelIdeal.main_arg21 (by decide) (by decide) (by decide) (by decide) (by decide) (by decide) (by decide) (by decide)),
      (h c _ (Cert.KernelIdeal.Hand.mem_uc Cert.KernelIdeal.main_arg22 (by decide))).trans (Cert.KernelIdeal.Hand.W8_arg m c Cert.KernelIdeal.main_arg22 (by decide) (by decide) (by decide) (by decide) (by decide) (by decide) (by decide) (by decide))⟩)
      (Cert.KernelIdeal.Hand.run_all (F := Ideal) m ρ)
  · refine (θ_run Cert.ReferenceIdeal.defs _ _).mono (fun r h c => ⟨
      ((h c).1.trans (val_main_v79_eq m' c)).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1]),
      ((h c).2.1.trans (val_main_v83_eq m' c)).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.2.2.2.2.2.2.2.2.1, (hagree c).2.2.2.2.2.2.2.2.2.2.2.2.2.2.2.2.2.2.1]),
      ((h c).2.2.1.trans (val_main_v87_eq m' c)).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1]),
      ((h c).2.2.2.1.trans (val_main_v91_eq m' c)).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2]),
      ((h c).2.2.2.2.1.trans (val_main_v122_eq m' c)).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1]),
      ((h c).2.2.2.2.2.1.trans (val_main_v62_eq m' c)).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]),
      (h c).2.2.2.2.2.2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
